-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 2] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 1024]⟩ (Layout.meshBlock [2, 2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x2048x1024 : Shape := ⟨3, ![1, 2048, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel

variable [Facts]

def fn {F : FTy → Type} [FloatOps F] (main_arg0 : FVec F S1x2048x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  main_v3
-- ==== Pre_finite_inputs_ReferenceIdeal.lean ====
abbrev S2x2048x1024 : Shape := ⟨3, ![2, 2048, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel

variable [Facts]

def fn {F : FTy → Type} [FloatOps F] (main_arg0 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  main_v3
-- ==== Kernel.lean ====
abbrev S1x2048x1024 : Shape := ⟨3, ![1, 2048, 1024]⟩
abbrev S2048x512 : Shape := ⟨2, ![2048, 512]⟩
abbrev S512x512 : Shape := ⟨2, ![512, 512]⟩
abbrev S256x512 : Shape := ⟨2, ![256, 512]⟩
abbrev S128x512 : Shape := ⟨2, ![128, 512]⟩
abbrev S16 : Shape := ⟨1, ![16]⟩
abbrev S8 : Shape := ⟨1, ![8]⟩
abbrev S4 : Shape := ⟨1, ![4]⟩
abbrev S_ : Shape := ⟨0, ![]⟩
abbrev S1 : Shape := ⟨1, ![1]⟩
abbrev S32x512 : Shape := ⟨2, ![32, 512]⟩
abbrev S1x32x512 : Shape := ⟨3, ![1, 32, 512]⟩

abbrev nBuf : Space → Nat
  | .hbm => 2
  | .vmem => 8
  | .smem => 0
  | _ => 0

abbrev bufTy : (tb : Table) → Fin (tcTables nBuf tb) → BufTy
  | .hbm, ⟨0, _⟩ => ⟨S1x2048x1024, .f32⟩
  | .hbm, ⟨1, _⟩ => ⟨S2048x512, .f32⟩
  | .local _ .vmem, ⟨0, _⟩ => ⟨S1x2048x1024, .f32⟩
  | .local _ .vmem, ⟨1, _⟩ => ⟨S2048x512, .f32⟩
  | .local _ .vmem, ⟨2, _⟩ => ⟨S512x512, .f32⟩
  | .local _ .vmem, ⟨3, _⟩ => ⟨S256x512, .f32⟩
  | .local _ .vmem, ⟨4, _⟩ => ⟨S512x512, .f32⟩
  | .local _ .vmem, ⟨5, _⟩ => ⟨S512x512, .f32⟩
  | .local _ .vmem, ⟨6, _⟩ => ⟨S128x512, .f32⟩
  | .local _ .vmem, ⟨7, _⟩ => ⟨S128x512, .f32⟩
  | _, _ => ⟨S1x2048x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_9 : BitVec 32 := 4#32
  let v16 : BitVec 32 := Scalar.muli v2 c4_i32_9
  let v17 : BitVec 32 := Scalar.addi c0_i32 v16
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_10 : BitVec 32 := 2#32
  let v18 : BitVec 32 := Scalar.muli v9 c2_i32_10
  let v19 : BitVec 32 := Scalar.addi v17 v18
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_11 : BitVec 32 := 1#32
  let v20 : BitVec 32 := Scalar.muli v8 c1_i32_11
  let v21 : BitVec 32 := Scalar.addi v19 v20
  v21.toNat
def k0_dev2 (d0 : Dev nD) : Nat :=
  let c0_i32_14 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_13 : BitVec 32 := 4#32
  let v22 : BitVec 32 := Scalar.muli v10 c4_i32_13
  let v23 : BitVec 32 := Scalar.addi c0_i32_14 v22
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v24 : BitVec 32 := Scalar.muli v5 c2_i32_15
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v26 : BitVec 32 := Scalar.muli v8 c1_i32_16
  let v27 : BitVec 32 := Scalar.addi v25 v26
  v27.toNat
def k0_dev3 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v28 : BitVec 32 := Scalar.muli v2 c4_i32_18
  let v29 : BitVec 32 := Scalar.addi c0_i32_19 v28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_20 : BitVec 32 := 2#32
  let v30 : BitVec 32 := Scalar.muli v5 c2_i32_20
  let v31 : BitVec 32 := Scalar.addi v29 v30
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_21 : BitVec 32 := 1#32
  let v32 : BitVec 32 := Scalar.muli v11 c1_i32_21
  let v33 : BitVec 32 := Scalar.addi v31 v32
  v33.toNat
def k0_off1 (d0 : Dev nD) (c0_i32_34 : BitVec 32) : Fin 3 → Nat :=
  let c0_i32_35 : BitVec 32 := 0#32
  let c2_i32_22 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.muli c2_i32_22 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c512_i32_23 : BitVec 32 := 512#32
  let v36 : BitVec 32 := Scalar.muli v35 c512_i32_23
  let v50 : BitVec 32 := Scalar.addi v36 c0_i32_34
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c512_i32_7 : BitVec 32 := 512#32
  let v14 : BitVec 32 := Scalar.muli v13 c512_i32_7
  ![0, v50.toNat, v14.toNat]
def k0_dev4 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v51 : BitVec 32 := Scalar.muli v2 c4_i32_38
  let v52 : BitVec 32 := Scalar.addi c0_i32_39 v51
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_40 : BitVec 32 := 2#32
  let v53 : BitVec 32 := Scalar.muli v9 c2_i32_40
  let v54 : BitVec 32 := Scalar.addi v52 v53
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v55 : BitVec 32 := Scalar.muli v8 c1_i32_41
  let v56 : BitVec 32 := Scalar.addi v54 v55
  v56.toNat
def k0_dev5 (d0 : Dev nD) : Nat :=
  let c0_i32_48 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_47 : BitVec 32 := 4#32
  let v65 : BitVec 32 := Scalar.muli v2 c4_i32_47
  let v66 : BitVec 32 := Scalar.addi c0_i32_48 v65
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_49 : BitVec 32 := 2#32
  let v67 : BitVec 32 := Scalar.muli v9 c2_i32_49
  let v68 : BitVec 32 := Scalar.addi v66 v67
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v69 : BitVec 32 := Scalar.muli v8 c1_i32_50
  let v70 : BitVec 32 := Scalar.addi v68 v69
  v70.toNat
def k0_dev6 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_56 : BitVec 32 := 4#32
  let v79 : BitVec 32 := Scalar.muli v2 c4_i32_56
  let v80 : BitVec 32 := Scalar.addi c0_i32_57 v79
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_58 : BitVec 32 := 2#32
  let v81 : BitVec 32 := Scalar.muli v9 c2_i32_58
  let v82 : BitVec 32 := Scalar.addi v80 v81
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_59 : BitVec 32 := 1#32
  let v83 : BitVec 32 := Scalar.muli v8 c1_i32_59
  let v84 : BitVec 32 := Scalar.addi v82 v83
  v84.toNat
def k0_dev7 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v93 : BitVec 32 := Scalar.muli v2 c4_i32_65
  let v94 : BitVec 32 := Scalar.addi c0_i32_66 v93
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_67 : BitVec 32 := 2#32
  let v95 : BitVec 32 := Scalar.muli v9 c2_i32_67
  let v96 : BitVec 32 := Scalar.addi v94 v95
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v97 : BitVec 32 := Scalar.muli v8 c1_i32_68
  let v98 : BitVec 32 := Scalar.addi v96 v97
  v98.toNat
def k0_dev8 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_74 : BitVec 32 := 4#32
  let v107 : BitVec 32 := Scalar.muli v2 c4_i32_74
  let v108 : BitVec 32 := Scalar.addi c0_i32_75 v107
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_76 : BitVec 32 := 2#32
  let v109 : BitVec 32 := Scalar.muli v9 c2_i32_76
  let v110 : BitVec 32 := Scalar.addi v108 v109
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_77 : BitVec 32 := 1#32
  let v111 : BitVec 32 := Scalar.muli v8 c1_i32_77
  let v112 : BitVec 32 := Scalar.addi v110 v111
  v112.toNat
def k0_dev9 (d0 : Dev nD) : Nat :=
  let c0_i32_83 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_82 : BitVec 32 := 4#32
  let v121 : BitVec 32 := Scalar.muli v2 c4_i32_82
  let v122 : BitVec 32 := Scalar.addi c0_i32_83 v121
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_84 : BitVec 32 := 2#32
  let v123 : BitVec 32 := Scalar.muli v9 c2_i32_84
  let v124 : BitVec 32 := Scalar.addi v122 v123
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_85 : BitVec 32 := 1#32
  let v125 : BitVec 32 := Scalar.muli v8 c1_i32_85
  let v126 : BitVec 32 := Scalar.addi v124 v125
  v126.toNat
def k0_dev10 (d0 : Dev nD) : Nat :=
  let c0_i32_91 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_90 : BitVec 32 := 4#32
  let v135 : BitVec 32 := Scalar.muli v2 c4_i32_90
  let v136 : BitVec 32 := Scalar.addi c0_i32_91 v135
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_92 : BitVec 32 := 2#32
  let v137 : BitVec 32 := Scalar.muli v9 c2_i32_92
  let v138 : BitVec 32 := Scalar.addi v136 v137
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_93 : BitVec 32 := 1#32
  let v139 : BitVec 32 := Scalar.muli v8 c1_i32_93
  let v140 : BitVec 32 := Scalar.addi v138 v139
  v140.toNat
def k0_dev11 (d0 : Dev nD) : Nat :=
  let c0_i32_99 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_98 : BitVec 32 := 4#32
  let v149 : BitVec 32 := Scalar.muli v2 c4_i32_98
  let v150 : BitVec 32 := Scalar.addi c0_i32_99 v149
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_100 : BitVec 32 := 2#32
  let v151 : BitVec 32 := Scalar.muli v9 c2_i32_100
  let v152 : BitVec 32 := Scalar.addi v150 v151
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_101 : BitVec 32 := 1#32
  let v153 : BitVec 32 := Scalar.muli v8 c1_i32_101
  let v154 : BitVec 32 := Scalar.addi v152 v153
  v154.toNat
def k0_dev12 (d0 : Dev nD) : Nat :=
  let c0_i32_107 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_106 : BitVec 32 := 4#32
  let v163 : BitVec 32 := Scalar.muli v2 c4_i32_106
  let v164 : BitVec 32 := Scalar.addi c0_i32_107 v163
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_108 : BitVec 32 := 2#32
  let v165 : BitVec 32 := Scalar.muli v9 c2_i32_108
  let v166 : BitVec 32 := Scalar.addi v164 v165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_109 : BitVec 32 := 1#32
  let v167 : BitVec 32 := Scalar.muli v8 c1_i32_109
  let v168 : BitVec 32 := Scalar.addi v166 v167
  v168.toNat
def k0_dev13 (d0 : Dev nD) : Nat :=
  let c0_i32_115 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_114 : BitVec 32 := 4#32
  let v177 : BitVec 32 := Scalar.muli v2 c4_i32_114
  let v178 : BitVec 32 := Scalar.addi c0_i32_115 v177
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_116 : BitVec 32 := 2#32
  let v179 : BitVec 32 := Scalar.muli v9 c2_i32_116
  let v180 : BitVec 32 := Scalar.addi v178 v179
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_117 : BitVec 32 := 1#32
  let v181 : BitVec 32 := Scalar.muli v8 c1_i32_117
  let v182 : BitVec 32 := Scalar.addi v180 v181
  v182.toNat
def k0_dev14 (d0 : Dev nD) : Nat :=
  let c0_i32_123 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_122 : BitVec 32 := 4#32
  let v191 : BitVec 32 := Scalar.muli v2 c4_i32_122
  let v192 : BitVec 32 := Scalar.addi c0_i32_123 v191
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_124 : BitVec 32 := 2#32
  let v193 : BitVec 32 := Scalar.muli v9 c2_i32_124
  let v194 : BitVec 32 := Scalar.addi v192 v193
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_125 : BitVec 32 := 1#32
  let v195 : BitVec 32 := Scalar.muli v8 c1_i32_125
  let v196 : BitVec 32 := Scalar.addi v194 v195
  v196.toNat
def k0_dev15 (d0 : Dev nD) : Nat :=
  let c0_i32_131 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_130 : BitVec 32 := 4#32
  let v205 : BitVec 32 := Scalar.muli v2 c4_i32_130
  let v206 : BitVec 32 := Scalar.addi c0_i32_131 v205
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_132 : BitVec 32 := 2#32
  let v207 : BitVec 32 := Scalar.muli v9 c2_i32_132
  let v208 : BitVec 32 := Scalar.addi v206 v207
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_133 : BitVec 32 := 1#32
  let v209 : BitVec 32 := Scalar.muli v8 c1_i32_133
  let v210 : BitVec 32 := Scalar.addi v208 v209
  v210.toNat
def k0_dev16 (d0 : Dev nD) : Nat :=
  let c0_i32_139 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_138 : BitVec 32 := 4#32
  let v219 : BitVec 32 := Scalar.muli v2 c4_i32_138
  let v220 : BitVec 32 := Scalar.addi c0_i32_139 v219
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_140 : BitVec 32 := 2#32
  let v221 : BitVec 32 := Scalar.muli v9 c2_i32_140
  let v222 : BitVec 32 := Scalar.addi v220 v221
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_141 : BitVec 32 := 1#32
  let v223 : BitVec 32 := Scalar.muli v8 c1_i32_141
  let v224 : BitVec 32 := Scalar.addi v222 v223
  v224.toNat
def k0_dev17 (d0 : Dev nD) : Nat :=
  let c0_i32_147 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_146 : BitVec 32 := 4#32
  let v233 : BitVec 32 := Scalar.muli v2 c4_i32_146
  let v234 : BitVec 32 := Scalar.addi c0_i32_147 v233
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_148 : BitVec 32 := 2#32
  let v235 : BitVec 32 := Scalar.muli v9 c2_i32_148
  let v236 : BitVec 32 := Scalar.addi v234 v235
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_149 : BitVec 32 := 1#32
  let v237 : BitVec 32 := Scalar.muli v8 c1_i32_149
  let v238 : BitVec 32 := Scalar.addi v236 v237
  v238.toNat
def k0_dev18 (d0 : Dev nD) : Nat :=
  let c0_i32_155 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_154 : BitVec 32 := 4#32
  let v247 : BitVec 32 := Scalar.muli v2 c4_i32_154
  let v248 : BitVec 32 := Scalar.addi c0_i32_155 v247
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_156 : BitVec 32 := 2#32
  let v249 : BitVec 32 := Scalar.muli v9 c2_i32_156
  let v250 : BitVec 32 := Scalar.addi v248 v249
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_157 : BitVec 32 := 1#32
  let v251 : BitVec 32 := Scalar.muli v8 c1_i32_157
  let v252 : BitVec 32 := Scalar.addi v250 v251
  v252.toNat
def k0_dev19 (d0 : Dev nD) : Nat :=
  let c0_i32_163 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_162 : BitVec 32 := 4#32
  let v261 : BitVec 32 := Scalar.muli v2 c4_i32_162
  let v262 : BitVec 32 := Scalar.addi c0_i32_163 v261
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_164 : BitVec 32 := 2#32
  let v263 : BitVec 32 := Scalar.muli v9 c2_i32_164
  let v264 : BitVec 32 := Scalar.addi v262 v263
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_165 : BitVec 32 := 1#32
  let v265 : BitVec 32 := Scalar.muli v8 c1_i32_165
  let v266 : BitVec 32 := Scalar.addi v264 v265
  v266.toNat
def k0_off2 (d0 : Dev nD) (c256_i32_168 : BitVec 32) : Fin 3 → Nat :=
  let c0_i32_169 : BitVec 32 := 0#32
  let c2_i32_31 : BitVec 32 := 2#32
  let c1_i32_30 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_30 v2
  let v46 : BitVec 32 := Scalar.muli c2_i32_31 v45
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v47 : BitVec 32 := Scalar.subi c1_i32_32 v8
  let v48 : BitVec 32 := Scalar.addi v46 v47
  let c512_i32_33 : BitVec 32 := 512#32
  let v49 : BitVec 32 := Scalar.muli v48 c512_i32_33
  let v274 : BitVec 32 := Scalar.addi v49 c256_i32_168
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c512_i32_7 : BitVec 32 := 512#32
  let v14 : BitVec 32 := Scalar.muli v13 c512_i32_7
  ![0, v274.toNat, v14.toNat]
def k0_dev20 (d0 : Dev nD) : Nat :=
  let c0_i32_173 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_172 : BitVec 32 := 4#32
  let v275 : BitVec 32 := Scalar.muli v2 c4_i32_172
  let v276 : BitVec 32 := Scalar.addi c0_i32_173 v275
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_174 : BitVec 32 := 2#32
  let v277 : BitVec 32 := Scalar.muli v9 c2_i32_174
  let v278 : BitVec 32 := Scalar.addi v276 v277
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_175 : BitVec 32 := 1#32
  let v279 : BitVec 32 := Scalar.muli v8 c1_i32_175
  let v280 : BitVec 32 := Scalar.addi v278 v279
  v280.toNat
def k0_dev21 (d0 : Dev nD) : Nat :=
  let c0_i32_183 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_182 : BitVec 32 := 4#32
  let v289 : BitVec 32 := Scalar.muli v2 c4_i32_182
  let v290 : BitVec 32 := Scalar.addi c0_i32_183 v289
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_184 : BitVec 32 := 2#32
  let v291 : BitVec 32 := Scalar.muli v9 c2_i32_184
  let v292 : BitVec 32 := Scalar.addi v290 v291
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_185 : BitVec 32 := 1#32
  let v293 : BitVec 32 := Scalar.muli v8 c1_i32_185
  let v294 : BitVec 32 := Scalar.addi v292 v293
  v294.toNat
def k0_dev22 (d0 : Dev nD) : Nat :=
  let c0_i32_193 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_192 : BitVec 32 := 4#32
  let v303 : BitVec 32 := Scalar.muli v2 c4_i32_192
  let v304 : BitVec 32 := Scalar.addi c0_i32_193 v303
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_194 : BitVec 32 := 2#32
  let v305 : BitVec 32 := Scalar.muli v9 c2_i32_194
  let v306 : BitVec 32 := Scalar.addi v304 v305
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_195 : BitVec 32 := 1#32
  let v307 : BitVec 32 := Scalar.muli v8 c1_i32_195
  let v308 : BitVec 32 := Scalar.addi v306 v307
  v308.toNat
def k0_dev23 (d0 : Dev nD) : Nat :=
  let c0_i32_203 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_202 : BitVec 32 := 4#32
  let v317 : BitVec 32 := Scalar.muli v2 c4_i32_202
  let v318 : BitVec 32 := Scalar.addi c0_i32_203 v317
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_204 : BitVec 32 := 2#32
  let v319 : BitVec 32 := Scalar.muli v9 c2_i32_204
  let v320 : BitVec 32 := Scalar.addi v318 v319
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_205 : BitVec 32 := 1#32
  let v321 : BitVec 32 := Scalar.muli v8 c1_i32_205
  let v322 : BitVec 32 := Scalar.addi v320 v321
  v322.toNat
def k0_dev24 (d0 : Dev nD) : Nat :=
  let c0_i32_213 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_212 : BitVec 32 := 4#32
  let v331 : BitVec 32 := Scalar.muli v2 c4_i32_212
  let v332 : BitVec 32 := Scalar.addi c0_i32_213 v331
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_214 : BitVec 32 := 2#32
  let v333 : BitVec 32 := Scalar.muli v9 c2_i32_214
  let v334 : BitVec 32 := Scalar.addi v332 v333
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_215 : BitVec 32 := 1#32
  let v335 : BitVec 32 := Scalar.muli v8 c1_i32_215
  let v336 : BitVec 32 := Scalar.addi v334 v335
  v336.toNat
def k0_dev25 (d0 : Dev nD) : Nat :=
  let c0_i32_223 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_222 : BitVec 32 := 4#32
  let v345 : BitVec 32 := Scalar.muli v2 c4_i32_222
  let v346 : BitVec 32 := Scalar.addi c0_i32_223 v345
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_224 : BitVec 32 := 2#32
  let v347 : BitVec 32 := Scalar.muli v9 c2_i32_224
  let v348 : BitVec 32 := Scalar.addi v346 v347
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_225 : BitVec 32 := 1#32
  let v349 : BitVec 32 := Scalar.muli v8 c1_i32_225
  let v350 : BitVec 32 := Scalar.addi v348 v349
  v350.toNat
def k0_dev26 (d0 : Dev nD) : Nat :=
  let c0_i32_233 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_232 : BitVec 32 := 4#32
  let v359 : BitVec 32 := Scalar.muli v2 c4_i32_232
  let v360 : BitVec 32 := Scalar.addi c0_i32_233 v359
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_234 : BitVec 32 := 2#32
  let v361 : BitVec 32 := Scalar.muli v9 c2_i32_234
  let v362 : BitVec 32 := Scalar.addi v360 v361
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_235 : BitVec 32 := 1#32
  let v363 : BitVec 32 := Scalar.muli v8 c1_i32_235
  let v364 : BitVec 32 := Scalar.addi v362 v363
  v364.toNat
def k0_dev27 (d0 : Dev nD) : Nat :=
  let c0_i32_243 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_242 : BitVec 32 := 4#32
  let v373 : BitVec 32 := Scalar.muli v2 c4_i32_242
  let v374 : BitVec 32 := Scalar.addi c0_i32_243 v373
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_244 : BitVec 32 := 2#32
  let v375 : BitVec 32 := Scalar.muli v9 c2_i32_244
  let v376 : BitVec 32 := Scalar.addi v374 v375
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_245 : BitVec 32 := 1#32
  let v377 : BitVec 32 := Scalar.muli v8 c1_i32_245
  let v378 : BitVec 32 := Scalar.addi v376 v377
  v378.toNat
def k0_dev28 (d0 : Dev nD) : Nat :=
  let c0_i32_260 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_259 : BitVec 32 := 4#32
  let v397 : BitVec 32 := Scalar.muli v10 c4_i32_259
  let v398 : BitVec 32 := Scalar.addi c0_i32_260 v397
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_261 : BitVec 32 := 2#32
  let v399 : BitVec 32 := Scalar.muli v5 c2_i32_261
  let v400 : BitVec 32 := Scalar.addi v398 v399
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_262 : BitVec 32 := 1#32
  let v401 : BitVec 32 := Scalar.muli v8 c1_i32_262
  let v402 : BitVec 32 := Scalar.addi v400 v401
  v402.toNat
def k0_dev29 (d0 : Dev nD) : Nat :=
  let c0_i32_270 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_269 : BitVec 32 := 4#32
  let v409 : BitVec 32 := Scalar.muli v2 c4_i32_269
  let v410 : BitVec 32 := Scalar.addi c0_i32_270 v409
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_271 : BitVec 32 := 2#32
  let v411 : BitVec 32 := Scalar.muli v5 c2_i32_271
  let v412 : BitVec 32 := Scalar.addi v410 v411
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_272 : BitVec 32 := 1#32
  let v413 : BitVec 32 := Scalar.muli v11 c1_i32_272
  let v414 : BitVec 32 := Scalar.addi v412 v413
  v414.toNat
def k0_off3 (d0 : Dev nD) (c0_i32_277 : BitVec 32) : Fin 3 → Nat :=
  let c0 : Index := 0#32
  let c2_i32_22 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.muli c2_i32_22 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c512_i32_23 : BitVec 32 := 512#32
  let v36 : BitVec 32 := Scalar.muli v35 c512_i32_23
  let v421 : BitVec 32 := Scalar.addi v36 c0_i32_277
  let v422 : Index := Scalar.indexCast v421
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c512_i32 : BitVec 32 := 512#32
  let v12 : BitVec 32 := Scalar.muli v5 c512_i32
  let v423 : Index := Scalar.indexCast v12
  ![0, v422.toNat, v423.toNat]
def k0_off4 (d0 : Dev nD) (c0_i32_280 : BitVec 32) : Fin 2 → Nat :=
  let c2_i32_22 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.muli c2_i32_22 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c512_i32_23 : BitVec 32 := 512#32
  let v36 : BitVec 32 := Scalar.muli v35 c512_i32_23
  let v428 : BitVec 32 := Scalar.addi v36 c0_i32_280
  let v429 : Index := Scalar.indexCast v428
  let c0_281 : Index := 0#32
  ![v429.toNat, 0]
def k0_dev30 (d0 : Dev nD) : Nat :=
  let c0_i32_294 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_293 : BitVec 32 := 4#32
  let v442 : BitVec 32 := Scalar.muli v10 c4_i32_293
  let v443 : BitVec 32 := Scalar.addi c0_i32_294 v442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_295 : BitVec 32 := 2#32
  let v444 : BitVec 32 := Scalar.muli v5 c2_i32_295
  let v445 : BitVec 32 := Scalar.addi v443 v444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_296 : BitVec 32 := 1#32
  let v446 : BitVec 32 := Scalar.muli v8 c1_i32_296
  let v447 : BitVec 32 := Scalar.addi v445 v446
  v447.toNat
def k0_dev31 (d0 : Dev nD) : Nat :=
  let c0_i32_304 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_303 : BitVec 32 := 4#32
  let v454 : BitVec 32 := Scalar.muli v2 c4_i32_303
  let v455 : BitVec 32 := Scalar.addi c0_i32_304 v454
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_305 : BitVec 32 := 2#32
  let v456 : BitVec 32 := Scalar.muli v5 c2_i32_305
  let v457 : BitVec 32 := Scalar.addi v455 v456
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_306 : BitVec 32 := 1#32
  let v458 : BitVec 32 := Scalar.muli v11 c1_i32_306
  let v459 : BitVec 32 := Scalar.addi v457 v458
  v459.toNat
def k0_dev32 (d0 : Dev nD) : Nat :=
  let c0_i32_328 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_327 : BitVec 32 := 4#32
  let v487 : BitVec 32 := Scalar.muli v10 c4_i32_327
  let v488 : BitVec 32 := Scalar.addi c0_i32_328 v487
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_329 : BitVec 32 := 2#32
  let v489 : BitVec 32 := Scalar.muli v5 c2_i32_329
  let v490 : BitVec 32 := Scalar.addi v488 v489
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_330 : BitVec 32 := 1#32
  let v491 : BitVec 32 := Scalar.muli v8 c1_i32_330
  let v492 : BitVec 32 := Scalar.addi v490 v491
  v492.toNat
def k0_dev33 (d0 : Dev nD) : Nat :=
  let c0_i32_338 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_337 : BitVec 32 := 4#32
  let v499 : BitVec 32 := Scalar.muli v2 c4_i32_337
  let v500 : BitVec 32 := Scalar.addi c0_i32_338 v499
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_339 : BitVec 32 := 2#32
  let v501 : BitVec 32 := Scalar.muli v5 c2_i32_339
  let v502 : BitVec 32 := Scalar.addi v500 v501
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_340 : BitVec 32 := 1#32
  let v503 : BitVec 32 := Scalar.muli v11 c1_i32_340
  let v504 : BitVec 32 := Scalar.addi v502 v503
  v504.toNat
def k0_dev34 (d0 : Dev nD) : Nat :=
  let c0_i32_362 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_361 : BitVec 32 := 4#32
  let v532 : BitVec 32 := Scalar.muli v10 c4_i32_361
  let v533 : BitVec 32 := Scalar.addi c0_i32_362 v532
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_363 : BitVec 32 := 2#32
  let v534 : BitVec 32 := Scalar.muli v5 c2_i32_363
  let v535 : BitVec 32 := Scalar.addi v533 v534
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_364 : BitVec 32 := 1#32
  let v536 : BitVec 32 := Scalar.muli v8 c1_i32_364
  let v537 : BitVec 32 := Scalar.addi v535 v536
  v537.toNat
def k0_dev35 (d0 : Dev nD) : Nat :=
  let c0_i32_372 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_371 : BitVec 32 := 4#32
  let v544 : BitVec 32 := Scalar.muli v2 c4_i32_371
  let v545 : BitVec 32 := Scalar.addi c0_i32_372 v544
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_373 : BitVec 32 := 2#32
  let v546 : BitVec 32 := Scalar.muli v5 c2_i32_373
  let v547 : BitVec 32 := Scalar.addi v545 v546
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_374 : BitVec 32 := 1#32
  let v548 : BitVec 32 := Scalar.muli v11 c1_i32_374
  let v549 : BitVec 32 := Scalar.addi v547 v548
  v549.toNat
def k0_dev36 (d0 : Dev nD) : Nat :=
  let c0_i32_396 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_395 : BitVec 32 := 4#32
  let v577 : BitVec 32 := Scalar.muli v10 c4_i32_395
  let v578 : BitVec 32 := Scalar.addi c0_i32_396 v577
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_397 : BitVec 32 := 2#32
  let v579 : BitVec 32 := Scalar.muli v5 c2_i32_397
  let v580 : BitVec 32 := Scalar.addi v578 v579
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_398 : BitVec 32 := 1#32
  let v581 : BitVec 32 := Scalar.muli v8 c1_i32_398
  let v582 : BitVec 32 := Scalar.addi v580 v581
  v582.toNat
def k0_dev37 (d0 : Dev nD) : Nat :=
  let c0_i32_406 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_405 : BitVec 32 := 4#32
  let v589 : BitVec 32 := Scalar.muli v2 c4_i32_405
  let v590 : BitVec 32 := Scalar.addi c0_i32_406 v589
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_407 : BitVec 32 := 2#32
  let v591 : BitVec 32 := Scalar.muli v5 c2_i32_407
  let v592 : BitVec 32 := Scalar.addi v590 v591
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_408 : BitVec 32 := 1#32
  let v593 : BitVec 32 := Scalar.muli v11 c1_i32_408
  let v594 : BitVec 32 := Scalar.addi v592 v593
  v594.toNat
def k0_dev38 (d0 : Dev nD) : Nat :=
  let c0_i32_430 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_429 : BitVec 32 := 4#32
  let v622 : BitVec 32 := Scalar.muli v10 c4_i32_429
  let v623 : BitVec 32 := Scalar.addi c0_i32_430 v622
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_431 : BitVec 32 := 2#32
  let v624 : BitVec 32 := Scalar.muli v5 c2_i32_431
  let v625 : BitVec 32 := Scalar.addi v623 v624
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_432 : BitVec 32 := 1#32
  let v626 : BitVec 32 := Scalar.muli v8 c1_i32_432
  let v627 : BitVec 32 := Scalar.addi v625 v626
  v627.toNat
def k0_dev39 (d0 : Dev nD) : Nat :=
  let c0_i32_440 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_439 : BitVec 32 := 4#32
  let v634 : BitVec 32 := Scalar.muli v2 c4_i32_439
  let v635 : BitVec 32 := Scalar.addi c0_i32_440 v634
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_441 : BitVec 32 := 2#32
  let v636 : BitVec 32 := Scalar.muli v5 c2_i32_441
  let v637 : BitVec 32 := Scalar.addi v635 v636
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_442 : BitVec 32 := 1#32
  let v638 : BitVec 32 := Scalar.muli v11 c1_i32_442
  let v639 : BitVec 32 := Scalar.addi v637 v638
  v639.toNat
def k0_dev40 (d0 : Dev nD) : Nat :=
  let c0_i32_464 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_463 : BitVec 32 := 4#32
  let v667 : BitVec 32 := Scalar.muli v10 c4_i32_463
  let v668 : BitVec 32 := Scalar.addi c0_i32_464 v667
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_465 : BitVec 32 := 2#32
  let v669 : BitVec 32 := Scalar.muli v5 c2_i32_465
  let v670 : BitVec 32 := Scalar.addi v668 v669
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_466 : BitVec 32 := 1#32
  let v671 : BitVec 32 := Scalar.muli v8 c1_i32_466
  let v672 : BitVec 32 := Scalar.addi v670 v671
  v672.toNat
def k0_dev41 (d0 : Dev nD) : Nat :=
  let c0_i32_474 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_473 : BitVec 32 := 4#32
  let v679 : BitVec 32 := Scalar.muli v2 c4_i32_473
  let v680 : BitVec 32 := Scalar.addi c0_i32_474 v679
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_475 : BitVec 32 := 2#32
  let v681 : BitVec 32 := Scalar.muli v5 c2_i32_475
  let v682 : BitVec 32 := Scalar.addi v680 v681
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_476 : BitVec 32 := 1#32
  let v683 : BitVec 32 := Scalar.muli v11 c1_i32_476
  let v684 : BitVec 32 := Scalar.addi v682 v683
  v684.toNat
def k0_dev42 (d0 : Dev nD) : Nat :=
  let c0_i32_498 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_497 : BitVec 32 := 4#32
  let v712 : BitVec 32 := Scalar.muli v10 c4_i32_497
  let v713 : BitVec 32 := Scalar.addi c0_i32_498 v712
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_499 : BitVec 32 := 2#32
  let v714 : BitVec 32 := Scalar.muli v5 c2_i32_499
  let v715 : BitVec 32 := Scalar.addi v713 v714
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_500 : BitVec 32 := 1#32
  let v716 : BitVec 32 := Scalar.muli v8 c1_i32_500
  let v717 : BitVec 32 := Scalar.addi v715 v716
  v717.toNat
def k0_dev43 (d0 : Dev nD) : Nat :=
  let c0_i32_508 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_507 : BitVec 32 := 4#32
  let v724 : BitVec 32 := Scalar.muli v2 c4_i32_507
  let v725 : BitVec 32 := Scalar.addi c0_i32_508 v724
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_509 : BitVec 32 := 2#32
  let v726 : BitVec 32 := Scalar.muli v5 c2_i32_509
  let v727 : BitVec 32 := Scalar.addi v725 v726
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_510 : BitVec 32 := 1#32
  let v728 : BitVec 32 := Scalar.muli v11 c1_i32_510
  let v729 : BitVec 32 := Scalar.addi v727 v728
  v729.toNat
def k0_dev44 (d0 : Dev nD) : Nat :=
  let c0_i32_532 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_531 : BitVec 32 := 4#32
  let v757 : BitVec 32 := Scalar.muli v10 c4_i32_531
  let v758 : BitVec 32 := Scalar.addi c0_i32_532 v757
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_533 : BitVec 32 := 2#32
  let v759 : BitVec 32 := Scalar.muli v5 c2_i32_533
  let v760 : BitVec 32 := Scalar.addi v758 v759
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_534 : BitVec 32 := 1#32
  let v761 : BitVec 32 := Scalar.muli v8 c1_i32_534
  let v762 : BitVec 32 := Scalar.addi v760 v761
  v762.toNat
def k0_dev45 (d0 : Dev nD) : Nat :=
  let c0_i32_542 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_541 : BitVec 32 := 4#32
  let v769 : BitVec 32 := Scalar.muli v2 c4_i32_541
  let v770 : BitVec 32 := Scalar.addi c0_i32_542 v769
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_543 : BitVec 32 := 2#32
  let v771 : BitVec 32 := Scalar.muli v5 c2_i32_543
  let v772 : BitVec 32 := Scalar.addi v770 v771
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_544 : BitVec 32 := 1#32
  let v773 : BitVec 32 := Scalar.muli v11 c1_i32_544
  let v774 : BitVec 32 := Scalar.addi v772 v773
  v774.toNat
def k0_dev46 (d0 : Dev nD) : Nat :=
  let c0_i32_566 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_565 : BitVec 32 := 4#32
  let v802 : BitVec 32 := Scalar.muli v10 c4_i32_565
  let v803 : BitVec 32 := Scalar.addi c0_i32_566 v802
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_567 : BitVec 32 := 2#32
  let v804 : BitVec 32 := Scalar.muli v5 c2_i32_567
  let v805 : BitVec 32 := Scalar.addi v803 v804
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_568 : BitVec 32 := 1#32
  let v806 : BitVec 32 := Scalar.muli v8 c1_i32_568
  let v807 : BitVec 32 := Scalar.addi v805 v806
  v807.toNat
def k0_dev47 (d0 : Dev nD) : Nat :=
  let c0_i32_576 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_575 : BitVec 32 := 4#32
  let v814 : BitVec 32 := Scalar.muli v2 c4_i32_575
  let v815 : BitVec 32 := Scalar.addi c0_i32_576 v814
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_577 : BitVec 32 := 2#32
  let v816 : BitVec 32 := Scalar.muli v5 c2_i32_577
  let v817 : BitVec 32 := Scalar.addi v815 v816
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_578 : BitVec 32 := 1#32
  let v818 : BitVec 32 := Scalar.muli v11 c1_i32_578
  let v819 : BitVec 32 := Scalar.addi v817 v818
  v819.toNat
def k0_dev48 (d0 : Dev nD) : Nat :=
  let c0_i32_600 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_599 : BitVec 32 := 4#32
  let v847 : BitVec 32 := Scalar.muli v10 c4_i32_599
  let v848 : BitVec 32 := Scalar.addi c0_i32_600 v847
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_601 : BitVec 32 := 2#32
  let v849 : BitVec 32 := Scalar.muli v5 c2_i32_601
  let v850 : BitVec 32 := Scalar.addi v848 v849
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_602 : BitVec 32 := 1#32
  let v851 : BitVec 32 := Scalar.muli v8 c1_i32_602
  let v852 : BitVec 32 := Scalar.addi v850 v851
  v852.toNat
def k0_dev49 (d0 : Dev nD) : Nat :=
  let c0_i32_610 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_609 : BitVec 32 := 4#32
  let v859 : BitVec 32 := Scalar.muli v2 c4_i32_609
  let v860 : BitVec 32 := Scalar.addi c0_i32_610 v859
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_611 : BitVec 32 := 2#32
  let v861 : BitVec 32 := Scalar.muli v5 c2_i32_611
  let v862 : BitVec 32 := Scalar.addi v860 v861
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_612 : BitVec 32 := 1#32
  let v863 : BitVec 32 := Scalar.muli v11 c1_i32_612
  let v864 : BitVec 32 := Scalar.addi v862 v863
  v864.toNat
def k0_dev50 (d0 : Dev nD) : Nat :=
  let c0_i32_634 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_633 : BitVec 32 := 4#32
  let v892 : BitVec 32 := Scalar.muli v10 c4_i32_633
  let v893 : BitVec 32 := Scalar.addi c0_i32_634 v892
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_635 : BitVec 32 := 2#32
  let v894 : BitVec 32 := Scalar.muli v5 c2_i32_635
  let v895 : BitVec 32 := Scalar.addi v893 v894
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_636 : BitVec 32 := 1#32
  let v896 : BitVec 32 := Scalar.muli v8 c1_i32_636
  let v897 : BitVec 32 := Scalar.addi v895 v896
  v897.toNat
def k0_dev51 (d0 : Dev nD) : Nat :=
  let c0_i32_644 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_643 : BitVec 32 := 4#32
  let v904 : BitVec 32 := Scalar.muli v2 c4_i32_643
  let v905 : BitVec 32 := Scalar.addi c0_i32_644 v904
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_645 : BitVec 32 := 2#32
  let v906 : BitVec 32 := Scalar.muli v5 c2_i32_645
  let v907 : BitVec 32 := Scalar.addi v905 v906
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_646 : BitVec 32 := 1#32
  let v908 : BitVec 32 := Scalar.muli v11 c1_i32_646
  let v909 : BitVec 32 := Scalar.addi v907 v908
  v909.toNat
def k0_dev52 (d0 : Dev nD) : Nat :=
  let c0_i32_668 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_667 : BitVec 32 := 4#32
  let v937 : BitVec 32 := Scalar.muli v10 c4_i32_667
  let v938 : BitVec 32 := Scalar.addi c0_i32_668 v937
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_669 : BitVec 32 := 2#32
  let v939 : BitVec 32 := Scalar.muli v5 c2_i32_669
  let v940 : BitVec 32 := Scalar.addi v938 v939
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_670 : BitVec 32 := 1#32
  let v941 : BitVec 32 := Scalar.muli v8 c1_i32_670
  let v942 : BitVec 32 := Scalar.addi v940 v941
  v942.toNat
def k0_dev53 (d0 : Dev nD) : Nat :=
  let c0_i32_678 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_677 : BitVec 32 := 4#32
  let v949 : BitVec 32 := Scalar.muli v2 c4_i32_677
  let v950 : BitVec 32 := Scalar.addi c0_i32_678 v949
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_679 : BitVec 32 := 2#32
  let v951 : BitVec 32 := Scalar.muli v5 c2_i32_679
  let v952 : BitVec 32 := Scalar.addi v950 v951
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_680 : BitVec 32 := 1#32
  let v953 : BitVec 32 := Scalar.muli v11 c1_i32_680
  let v954 : BitVec 32 := Scalar.addi v952 v953
  v954.toNat
def k0_dev54 (d0 : Dev nD) : Nat :=
  let c0_i32_702 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_701 : BitVec 32 := 4#32
  let v982 : BitVec 32 := Scalar.muli v10 c4_i32_701
  let v983 : BitVec 32 := Scalar.addi c0_i32_702 v982
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_703 : BitVec 32 := 2#32
  let v984 : BitVec 32 := Scalar.muli v5 c2_i32_703
  let v985 : BitVec 32 := Scalar.addi v983 v984
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_704 : BitVec 32 := 1#32
  let v986 : BitVec 32 := Scalar.muli v8 c1_i32_704
  let v987 : BitVec 32 := Scalar.addi v985 v986
  v987.toNat
def k0_dev55 (d0 : Dev nD) : Nat :=
  let c0_i32_712 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_711 : BitVec 32 := 4#32
  let v994 : BitVec 32 := Scalar.muli v2 c4_i32_711
  let v995 : BitVec 32 := Scalar.addi c0_i32_712 v994
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_713 : BitVec 32 := 2#32
  let v996 : BitVec 32 := Scalar.muli v5 c2_i32_713
  let v997 : BitVec 32 := Scalar.addi v995 v996
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_714 : BitVec 32 := 1#32
  let v998 : BitVec 32 := Scalar.muli v11 c1_i32_714
  let v999 : BitVec 32 := Scalar.addi v997 v998
  v999.toNat
def k0_dev56 (d0 : Dev nD) : Nat :=
  let c0_i32_736 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_735 : BitVec 32 := 4#32
  let v1027 : BitVec 32 := Scalar.muli v10 c4_i32_735
  let v1028 : BitVec 32 := Scalar.addi c0_i32_736 v1027
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_737 : BitVec 32 := 2#32
  let v1029 : BitVec 32 := Scalar.muli v5 c2_i32_737
  let v1030 : BitVec 32 := Scalar.addi v1028 v1029
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_738 : BitVec 32 := 1#32
  let v1031 : BitVec 32 := Scalar.muli v8 c1_i32_738
  let v1032 : BitVec 32 := Scalar.addi v1030 v1031
  v1032.toNat
def k0_dev57 (d0 : Dev nD) : Nat :=
  let c0_i32_746 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_745 : BitVec 32 := 4#32
  let v1039 : BitVec 32 := Scalar.muli v2 c4_i32_745
  let v1040 : BitVec 32 := Scalar.addi c0_i32_746 v1039
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_747 : BitVec 32 := 2#32
  let v1041 : BitVec 32 := Scalar.muli v5 c2_i32_747
  let v1042 : BitVec 32 := Scalar.addi v1040 v1041
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_748 : BitVec 32 := 1#32
  let v1043 : BitVec 32 := Scalar.muli v11 c1_i32_748
  let v1044 : BitVec 32 := Scalar.addi v1042 v1043
  v1044.toNat
def k0_dev58 (d0 : Dev nD) : Nat :=
  let c0_i32_770 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_769 : BitVec 32 := 4#32
  let v1072 : BitVec 32 := Scalar.muli v10 c4_i32_769
  let v1073 : BitVec 32 := Scalar.addi c0_i32_770 v1072
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_771 : BitVec 32 := 2#32
  let v1074 : BitVec 32 := Scalar.muli v5 c2_i32_771
  let v1075 : BitVec 32 := Scalar.addi v1073 v1074
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_772 : BitVec 32 := 1#32
  let v1076 : BitVec 32 := Scalar.muli v8 c1_i32_772
  let v1077 : BitVec 32 := Scalar.addi v1075 v1076
  v1077.toNat
def k0_dev59 (d0 : Dev nD) : Nat :=
  let c0_i32_780 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_779 : BitVec 32 := 4#32
  let v1084 : BitVec 32 := Scalar.muli v2 c4_i32_779
  let v1085 : BitVec 32 := Scalar.addi c0_i32_780 v1084
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_781 : BitVec 32 := 2#32
  let v1086 : BitVec 32 := Scalar.muli v5 c2_i32_781
  let v1087 : BitVec 32 := Scalar.addi v1085 v1086
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_782 : BitVec 32 := 1#32
  let v1088 : BitVec 32 := Scalar.muli v11 c1_i32_782
  let v1089 : BitVec 32 := Scalar.addi v1087 v1088
  v1089.toNat
def k0_dev60 (d0 : Dev nD) : Nat :=
  let c0_i32_805 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_804 : BitVec 32 := 4#32
  let v1116 : BitVec 32 := Scalar.muli v10 c4_i32_804
  let v1117 : BitVec 32 := Scalar.addi c0_i32_805 v1116
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_806 : BitVec 32 := 2#32
  let v1118 : BitVec 32 := Scalar.muli v5 c2_i32_806
  let v1119 : BitVec 32 := Scalar.addi v1117 v1118
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_807 : BitVec 32 := 1#32
  let v1120 : BitVec 32 := Scalar.muli v8 c1_i32_807
  let v1121 : BitVec 32 := Scalar.addi v1119 v1120
  v1121.toNat
def k0_off5 (d0 : Dev nD) (c0_i32_812 : BitVec 32) : Fin 3 → Nat :=
  let c0_813 : Index := 0#32
  let c2_i32_27 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v41 : BitVec 32 := Scalar.muli c2_i32_27 v2
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v42 : BitVec 32 := Scalar.subi c1_i32_28 v8
  let v43 : BitVec 32 := Scalar.addi v41 v42
  let c512_i32_29 : BitVec 32 := 512#32
  let v44 : BitVec 32 := Scalar.muli v43 c512_i32_29
  let v1128 : BitVec 32 := Scalar.addi v44 c0_i32_812
  let v1129 : Index := Scalar.indexCast v1128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c512_i32 : BitVec 32 := 512#32
  let v12 : BitVec 32 := Scalar.muli v5 c512_i32
  let v1130 : Index := Scalar.indexCast v12
  ![0, v1129.toNat, v1130.toNat]
def k0_off6 (d0 : Dev nD) (c0_i32_816 : BitVec 32) : Fin 2 → Nat :=
  let c2_i32_27 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v41 : BitVec 32 := Scalar.muli c2_i32_27 v2
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v42 : BitVec 32 := Scalar.subi c1_i32_28 v8
  let v43 : BitVec 32 := Scalar.addi v41 v42
  let c512_i32_29 : BitVec 32 := 512#32
  let v44 : BitVec 32 := Scalar.muli v43 c512_i32_29
  let v1135 : BitVec 32 := Scalar.addi v44 c0_i32_816
  let v1136 : Index := Scalar.indexCast v1135
  let c0_817 : Index := 0#32
  ![v1136.toNat, 0]
def k0_off7 (d0 : Dev nD) (c0_i32_828 : BitVec 32) : Fin 3 → Nat :=
  let c0_829 : Index := 0#32
  let c2_i32_25 : BitVec 32 := 2#32
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_24 v2
  let v38 : BitVec 32 := Scalar.muli c2_i32_25 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v38 v8
  let c512_i32_26 : BitVec 32 := 512#32
  let v40 : BitVec 32 := Scalar.muli v39 c512_i32_26
  let v1148 : BitVec 32 := Scalar.addi v40 c0_i32_828
  let v1149 : Index := Scalar.indexCast v1148
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c512_i32 : BitVec 32 := 512#32
  let v12 : BitVec 32 := Scalar.muli v5 c512_i32
  let v1150 : Index := Scalar.indexCast v12
  ![0, v1149.toNat, v1150.toNat]
def k0_off8 (d0 : Dev nD) (c0_i32_832 : BitVec 32) : Fin 2 → Nat :=
  let c2_i32_25 : BitVec 32 := 2#32
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_24 v2
  let v38 : BitVec 32 := Scalar.muli c2_i32_25 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v38 v8
  let c512_i32_26 : BitVec 32 := 512#32
  let v40 : BitVec 32 := Scalar.muli v39 c512_i32_26
  let v1155 : BitVec 32 := Scalar.addi v40 c0_i32_832
  let v1156 : Index := Scalar.indexCast v1155
  let c0_833 : Index := 0#32
  ![v1156.toNat, 0]
def k0_dev61 (d0 : Dev nD) : Nat :=
  let c0_i32_863 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_862 : BitVec 32 := 4#32
  let v1188 : BitVec 32 := Scalar.muli v2 c4_i32_862
  let v1189 : BitVec 32 := Scalar.addi c0_i32_863 v1188
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_864 : BitVec 32 := 2#32
  let v1190 : BitVec 32 := Scalar.muli v5 c2_i32_864
  let v1191 : BitVec 32 := Scalar.addi v1189 v1190
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_865 : BitVec 32 := 1#32
  let v1192 : BitVec 32 := Scalar.muli v11 c1_i32_865
  let v1193 : BitVec 32 := Scalar.addi v1191 v1192
  v1193.toNat
def k0_dev62 (d0 : Dev nD) : Nat :=
  let c0_i32_889 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_888 : BitVec 32 := 4#32
  let v1220 : BitVec 32 := Scalar.muli v10 c4_i32_888
  let v1221 : BitVec 32 := Scalar.addi c0_i32_889 v1220
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_890 : BitVec 32 := 2#32
  let v1222 : BitVec 32 := Scalar.muli v5 c2_i32_890
  let v1223 : BitVec 32 := Scalar.addi v1221 v1222
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_891 : BitVec 32 := 1#32
  let v1224 : BitVec 32 := Scalar.muli v8 c1_i32_891
  let v1225 : BitVec 32 := Scalar.addi v1223 v1224
  v1225.toNat
def k0_dev63 (d0 : Dev nD) : Nat :=
  let c0_i32_947 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_946 : BitVec 32 := 4#32
  let v1292 : BitVec 32 := Scalar.muli v2 c4_i32_946
  let v1293 : BitVec 32 := Scalar.addi c0_i32_947 v1292
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_948 : BitVec 32 := 2#32
  let v1294 : BitVec 32 := Scalar.muli v5 c2_i32_948
  let v1295 : BitVec 32 := Scalar.addi v1293 v1294
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_949 : BitVec 32 := 1#32
  let v1296 : BitVec 32 := Scalar.muli v11 c1_i32_949
  let v1297 : BitVec 32 := Scalar.addi v1295 v1296
  v1297.toNat
def k0_dev64 (d0 : Dev nD) : Nat :=
  let c0_i32_973 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_972 : BitVec 32 := 4#32
  let v1324 : BitVec 32 := Scalar.muli v10 c4_i32_972
  let v1325 : BitVec 32 := Scalar.addi c0_i32_973 v1324
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_974 : BitVec 32 := 2#32
  let v1326 : BitVec 32 := Scalar.muli v5 c2_i32_974
  let v1327 : BitVec 32 := Scalar.addi v1325 v1326
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_975 : BitVec 32 := 1#32
  let v1328 : BitVec 32 := Scalar.muli v8 c1_i32_975
  let v1329 : BitVec 32 := Scalar.addi v1327 v1328
  v1329.toNat
def k0_dev65 (d0 : Dev nD) : Nat :=
  let c0_i32_1031 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1030 : BitVec 32 := 4#32
  let v1396 : BitVec 32 := Scalar.muli v2 c4_i32_1030
  let v1397 : BitVec 32 := Scalar.addi c0_i32_1031 v1396
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1032 : BitVec 32 := 2#32
  let v1398 : BitVec 32 := Scalar.muli v5 c2_i32_1032
  let v1399 : BitVec 32 := Scalar.addi v1397 v1398
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1033 : BitVec 32 := 1#32
  let v1400 : BitVec 32 := Scalar.muli v11 c1_i32_1033
  let v1401 : BitVec 32 := Scalar.addi v1399 v1400
  v1401.toNat
def k0_dev66 (d0 : Dev nD) : Nat :=
  let c0_i32_1057 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1056 : BitVec 32 := 4#32
  let v1428 : BitVec 32 := Scalar.muli v10 c4_i32_1056
  let v1429 : BitVec 32 := Scalar.addi c0_i32_1057 v1428
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1058 : BitVec 32 := 2#32
  let v1430 : BitVec 32 := Scalar.muli v5 c2_i32_1058
  let v1431 : BitVec 32 := Scalar.addi v1429 v1430
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1059 : BitVec 32 := 1#32
  let v1432 : BitVec 32 := Scalar.muli v8 c1_i32_1059
  let v1433 : BitVec 32 := Scalar.addi v1431 v1432
  v1433.toNat
def k0_dev67 (d0 : Dev nD) : Nat :=
  let c0_i32_1115 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1114 : BitVec 32 := 4#32
  let v1500 : BitVec 32 := Scalar.muli v2 c4_i32_1114
  let v1501 : BitVec 32 := Scalar.addi c0_i32_1115 v1500
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1116 : BitVec 32 := 2#32
  let v1502 : BitVec 32 := Scalar.muli v5 c2_i32_1116
  let v1503 : BitVec 32 := Scalar.addi v1501 v1502
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1117 : BitVec 32 := 1#32
  let v1504 : BitVec 32 := Scalar.muli v11 c1_i32_1117
  let v1505 : BitVec 32 := Scalar.addi v1503 v1504
  v1505.toNat
def k0_off9 (d0 : Dev nD) (c0_i32_1394 : BitVec 32) : Fin 3 → Nat :=
  let c0_1395 : Index := 0#32
  let c2_i32_31 : BitVec 32 := 2#32
  let c1_i32_30 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_30 v2
  let v46 : BitVec 32 := Scalar.muli c2_i32_31 v45
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v47 : BitVec 32 := Scalar.subi c1_i32_32 v8
  let v48 : BitVec 32 := Scalar.addi v46 v47
  let c512_i32_33 : BitVec 32 := 512#32
  let v49 : BitVec 32 := Scalar.muli v48 c512_i32_33
  let v1852 : BitVec 32 := Scalar.addi v49 c0_i32_1394
  let v1853 : Index := Scalar.indexCast v1852
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c512_i32 : BitVec 32 := 512#32
  let v12 : BitVec 32 := Scalar.muli v5 c512_i32
  let v1854 : Index := Scalar.indexCast v12
  ![0, v1853.toNat, v1854.toNat]
def k0_off10 (d0 : Dev nD) (c0_i32_1398 : BitVec 32) : Fin 2 → Nat :=
  let c2_i32_31 : BitVec 32 := 2#32
  let c1_i32_30 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_30 v2
  let v46 : BitVec 32 := Scalar.muli c2_i32_31 v45
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v47 : BitVec 32 := Scalar.subi c1_i32_32 v8
  let v48 : BitVec 32 := Scalar.addi v46 v47
  let c512_i32_33 : BitVec 32 := 512#32
  let v49 : BitVec 32 := Scalar.muli v48 c512_i32_33
  let v1859 : BitVec 32 := Scalar.addi v49 c0_i32_1398
  let v1860 : Index := Scalar.indexCast v1859
  let c0_1399 : Index := 0#32
  ![v1860.toNat, 0]
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_3 : (3#32 : BitVec 32).msb = false
  inb_S16_S1_0 : ∀ a, (![0] : Fin 1 → Nat) a + S1.size a ≤ S16.size a
  squeezes_S1_S_ : S1.Squeezes S_
  inb_S512x512_S32x512_0_0 : ∀ a, (![0, 0] : Fin 2 → Nat) a + S32x512.size a ≤ S512x512.size a
  squeezes_S1x32x512_S32x512 : S1x32x512.Squeezes S32x512
  inb_S16_S1_1 : ∀ a, (![1] : Fin 1 → Nat) a + S1.size a ≤ S16.size a
  inb_S512x512_S32x512_32_0 : ∀ a, (![32, 0] : Fin 2 → Nat) a + S32x512.size a ≤ S512x512.size a
  inb_S16_S1_2 : ∀ a, (![2] : Fin 1 → Nat) a + S1.size a ≤ S16.size a
  inb_S512x512_S32x512_64_0 : ∀ a, (![64, 0] : Fin 2 → Nat) a + S32x512.size a ≤ S512x512.size a
  inb_S16_S1_3 : ∀ a, (![3] : Fin 1 → Nat) a + S1.size a ≤ S16.size a
  inb_S512x512_S32x512_96_0 : ∀ a, (![96, 0] : Fin 2 → Nat) a + S32x512.size a ≤ S512x512.size a
  inb_S16_S1_4 : ∀ a, (![4] : Fin 1 → Nat) a + S1.size a ≤ S16.size a
  inb_S512x512_S32x512_128_0 : ∀ a, (![128, 0] : Fin 2 → Nat) a + S32x512.size a ≤ S512x512.size a
  inb_S16_S1_5 : ∀ a, (![5] : Fin 1 → Nat) a + S1.size a ≤ S16.size a
  inb_S512x512_S32x512_160_0 : ∀ a, (![160, 0] : Fin 2 → Nat) a + S32x512.size a ≤ S512x512.size a
  inb_S16_S1_6 : ∀ a, (![6] : Fin 1 → Nat) a + S1.size a ≤ S16.size a
  inb_S512x512_S32x512_192_0 : ∀ a, (![192, 0] : Fin 2 → Nat) a + S32x512.size a ≤ S512x512.size a
  inb_S16_S1_7 : ∀ a, (![7] : Fin 1 → Nat) a + S1.size a ≤ S16.size a
  inb_S512x512_S32x512_224_0 : ∀ a, (![224, 0] : Fin 2 → Nat) a + S32x512.size a ≤ S512x512.size a
  inb_S16_S1_8 : ∀ a, (![8] : Fin 1 → Nat) a + S1.size a ≤ S16.size a
  inb_S512x512_S32x512_256_0 : ∀ a, (![256, 0] : Fin 2 → Nat) a + S32x512.size a ≤ S512x512.size a
  inb_S16_S1_9 : ∀ a, (![9] : Fin 1 → Nat) a + S1.size a ≤ S16.size a
  inb_S512x512_S32x512_288_0 : ∀ a, (![288, 0] : Fin 2 → Nat) a + S32x512.size a ≤ S512x512.size a
  inb_S16_S1_10 : ∀ a, (![10] : Fin 1 → Nat) a + S1.size a ≤ S16.size a
  inb_S512x512_S32x512_320_0 : ∀ a, (![320, 0] : Fin 2 → Nat) a + S32x512.size a ≤ S512x512.size a
  inb_S16_S1_11 : ∀ a, (![11] : Fin 1 → Nat) a + S1.size a ≤ S16.size a
  inb_S512x512_S32x512_352_0 : ∀ a, (![352, 0] : Fin 2 → Nat) a + S32x512.size a ≤ S512x512.size a
  inb_S16_S1_12 : ∀ a, (![12] : Fin 1 → Nat) a + S1.size a ≤ S16.size a
  inb_S512x512_S32x512_384_0 : ∀ a, (![384, 0] : Fin 2 → Nat) a + S32x512.size a ≤ S512x512.size a
  inb_S16_S1_13 : ∀ a, (![13] : Fin 1 → Nat) a + S1.size a ≤ S16.size a
  inb_S512x512_S32x512_416_0 : ∀ a, (![416, 0] : Fin 2 → Nat) a + S32x512.size a ≤ S512x512.size a
  inb_S16_S1_14 : ∀ a, (![14] : Fin 1 → Nat) a + S1.size a ≤ S16.size a
  inb_S512x512_S32x512_448_0 : ∀ a, (![448, 0] : Fin 2 → Nat) a + S32x512.size a ≤ S512x512.size a
  inb_S16_S1_15 : ∀ a, (![15] : Fin 1 → Nat) a + S1.size a ≤ S16.size a
  inb_S512x512_S32x512_480_0 : ∀ a, (![480, 0] : Fin 2 → Nat) a + S32x512.size a ≤ S512x512.size a
  inb_S8_S1_0 : ∀ a, (![0] : Fin 1 → Nat) a + S1.size a ≤ S8.size a
  inb_S256x512_S32x512_0_0 : ∀ a, (![0, 0] : Fin 2 → Nat) a + S32x512.size a ≤ S256x512.size a
  inb_S8_S1_1 : ∀ a, (![1] : Fin 1 → Nat) a + S1.size a ≤ S8.size a
  inb_S256x512_S32x512_32_0 : ∀ a, (![32, 0] : Fin 2 → Nat) a + S32x512.size a ≤ S256x512.size a
  inb_S8_S1_2 : ∀ a, (![2] : Fin 1 → Nat) a + S1.size a ≤ S8.size a
  inb_S256x512_S32x512_64_0 : ∀ a, (![64, 0] : Fin 2 → Nat) a + S32x512.size a ≤ S256x512.size a
  inb_S8_S1_3 : ∀ a, (![3] : Fin 1 → Nat) a + S1.size a ≤ S8.size a
  inb_S256x512_S32x512_96_0 : ∀ a, (![96, 0] : Fin 2 → Nat) a + S32x512.size a ≤ S256x512.size a
  inb_S8_S1_4 : ∀ a, (![4] : Fin 1 → Nat) a + S1.size a ≤ S8.size a
  inb_S256x512_S32x512_128_0 : ∀ a, (![128, 0] : Fin 2 → Nat) a + S32x512.size a ≤ S256x512.size a
  inb_S8_S1_5 : ∀ a, (![5] : Fin 1 → Nat) a + S1.size a ≤ S8.size a
  inb_S256x512_S32x512_160_0 : ∀ a, (![160, 0] : Fin 2 → Nat) a + S32x512.size a ≤ S256x512.size a
  inb_S8_S1_6 : ∀ a, (![6] : Fin 1 → Nat) a + S1.size a ≤ S8.size a
  inb_S256x512_S32x512_192_0 : ∀ a, (![192, 0] : Fin 2 → Nat) a + S32x512.size a ≤ S256x512.size a
  inb_S8_S1_7 : ∀ a, (![7] : Fin 1 → Nat) a + S1.size a ≤ S8.size a
  inb_S256x512_S32x512_224_0 : ∀ a, (![224, 0] : Fin 2 → Nat) a + S32x512.size a ≤ S256x512.size a
  h_S1x32x512 : 0 < S1x32x512.numel
  shapeCasts_S1x32x512_S32x512 : S1x32x512.ShapeCasts S32x512
  h_S32x512 : 0 < S32x512.numel
  inb_S4_S1_0 : ∀ a, (![0] : Fin 1 → Nat) a + S1.size a ≤ S4.size a
  inb_S128x512_S32x512_0_0 : ∀ a, (![0, 0] : Fin 2 → Nat) a + S32x512.size a ≤ S128x512.size a
  inb_S4_S1_1 : ∀ a, (![1] : Fin 1 → Nat) a + S1.size a ≤ S4.size a
  inb_S128x512_S32x512_32_0 : ∀ a, (![32, 0] : Fin 2 → Nat) a + S32x512.size a ≤ S128x512.size a
  inb_S4_S1_2 : ∀ a, (![2] : Fin 1 → Nat) a + S1.size a ≤ S4.size a
  inb_S128x512_S32x512_64_0 : ∀ a, (![64, 0] : Fin 2 → Nat) a + S32x512.size a ≤ S128x512.size a
  inb_S4_S1_3 : ∀ a, (![3] : Fin 1 → Nat) a + S1.size a ≤ S4.size a
  inb_S128x512_S32x512_96_0 : ∀ a, (![96, 0] : Fin 2 → Nat) a + S32x512.size a ≤ S128x512.size a
  hcc0_scratch6 : 2 + S16.numel ≤ 130
  hcc0_scratch7 : 18 + S16.numel ≤ 130
  hcc0_scratch8 : 34 + S8.numel ≤ 130
  hcc0_scratch9 : 42 + S8.numel ≤ 130
  hcc0_scratch10 : 50 + S16.numel ≤ 130
  hcc0_scratch11 : 66 + S16.numel ≤ 130
  hcc0_scratch12 : 82 + S16.numel ≤ 130
  hcc0_scratch13 : 98 + S16.numel ≤ 130
  hcc0_scratch14 : 114 + S4.numel ≤ 130
  hcc0_scratch15 : 118 + S4.numel ≤ 130
  hcc0_scratch16 : 122 + S4.numel ≤ 130
  hcc0_scratch17 : 126 + S4.numel ≤ 130
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 16), ∀ a, (k0_off1 d0 (BitVec.ofNat 32 (32 * r.val))) a + S1x32x512.size a ≤ S1x2048x1024.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_off2_inb : ∀ d0 : Dev nD, ∀ (r : Fin 8), ∀ a, (k0_off2 d0 (BitVec.ofNat 32 (256 + 32 * r.val))) a + S1x32x512.size a ≤ S1x2048x1024.size a
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_off3_inb : ∀ d0 : Dev nD, ∀ (r : Fin 16), ∀ a, (k0_off3 d0 (BitVec.ofNat 32 (32 * r.val))) a + S1x32x512.size a ≤ S1x2048x1024.size a
  k0_off4_inb : ∀ d0 : Dev nD, ∀ (r : Fin 16), ∀ a, (k0_off4 d0 (BitVec.ofNat 32 (32 * r.val))) a + S32x512.size a ≤ S2048x512.size a
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_off5_inb : ∀ d0 : Dev nD, ∀ (r : Fin 16), ∀ a, (k0_off5 d0 (BitVec.ofNat 32 (32 * r.val))) a + S1x32x512.size a ≤ S1x2048x1024.size a
  k0_off6_inb : ∀ d0 : Dev nD, ∀ (r : Fin 16), ∀ a, (k0_off6 d0 (BitVec.ofNat 32 (32 * r.val))) a + S32x512.size a ≤ S2048x512.size a
  k0_off7_inb : ∀ d0 : Dev nD, ∀ (r : Fin 16), ∀ a, (k0_off7 d0 (BitVec.ofNat 32 (32 * r.val))) a + S1x32x512.size a ≤ S1x2048x1024.size a
  k0_off8_inb : ∀ d0 : Dev nD, ∀ (r : Fin 16), ∀ a, (k0_off8 d0 (BitVec.ofNat 32 (32 * r.val))) a + S32x512.size a ≤ S2048x512.size a
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_dev67_lt : ∀ d0 : Dev nD, (k0_dev67 d0) < nD
  k0_off9_inb : ∀ d0 : Dev nD, ∀ (r : Fin 16), ∀ a, (k0_off9 d0 (BitVec.ofNat 32 (32 * r.val))) a + S1x32x512.size a ≤ S1x2048x1024.size a
  k0_off10_inb : ∀ d0 : Dev nD, ∀ (r : Fin 16), ∀ a, (k0_off10 d0 (BitVec.ofNat 32 (32 * r.val))) a + S32x512.size a ≤ S2048x512.size a
  hstage0_0 : ∀ j, (stage0_0 j).IsWhole
  hstage0_1 : ∀ j, (stage0_1 j).IsWhole

variable [Facts₀]

abbrev cc0_scratch6 : DmaSems sig S16 := SemArray.consecutive 2 S16 hcc0_scratch6
abbrev cc0_scratch7 : DmaSems sig S16 := SemArray.consecutive 18 S16 hcc0_scratch7
abbrev cc0_scratch8 : DmaSems sig S8 := SemArray.consecutive 34 S8 hcc0_scratch8
abbrev cc0_scratch9 : DmaSems sig S8 := SemArray.consecutive 42 S8 hcc0_scratch9
abbrev cc0_scratch10 : DmaSems sig S16 := SemArray.consecutive 50 S16 hcc0_scratch10
abbrev cc0_scratch11 : DmaSems sig S16 := SemArray.consecutive 66 S16 hcc0_scratch11
abbrev cc0_scratch12 : DmaSems sig S16 := SemArray.consecutive 82 S16 hcc0_scratch12
abbrev cc0_scratch13 : DmaSems sig S16 := SemArray.consecutive 98 S16 hcc0_scratch13
abbrev cc0_scratch14 : DmaSems sig S4 := SemArray.consecutive 114 S4 hcc0_scratch14
abbrev cc0_scratch15 : DmaSems sig S4 := SemArray.consecutive 118 S4 hcc0_scratch15
abbrev cc0_scratch16 : DmaSems sig S4 := SemArray.consecutive 122 S4 hcc0_scratch16
abbrev cc0_scratch17 : DmaSems sig S4 := SemArray.consecutive 126 S4 hcc0_scratch17

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x2048x1024 : Shape := ⟨3, ![2, 2048, 1024]⟩
abbrev S_ : Shape := ⟨0, ![]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S_, .f32⟩
  | .hbm, ⟨2, _⟩ => ⟨S2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S2x2048x1024_S2048x1024_d0 : S2x2048x1024.ReducesTo [0] S2048x1024
  h_S_ : 0 < S_.numel

variable [Facts₀]

class Facts : Prop extends Facts₀ where

variable [Facts]
-- ==== Proof.Spec.lean ====
/-
  The mesh and the result, as plain functions.

  Eight devices on a 2 × 2 × 2 mesh, numbered row-major: device `c` sits at `(c / 4, (c / 2) % 2, c % 2)`.
  The whole input is two slabs of 2048 × 1024; a device holds the slab its middle coordinate names, and must end
  with the sum of the two slabs on the 512 columns its middle coordinate names.  A device adds to its own slab's
  columns what other devices sent it; which device a row's partner values came from depends on the row's quarter
  (512 rows each) and, in the quarter diagonally opposite the device's own, on the 32-row chunk.
-/
import Idealize.ShloMosaic.PureOps
import Idealize.ShloMosaic.Lib.ValueIdx
import Idealize.ShloMosaic.Lib.Layout

noncomputable section

namespace Cert.RS

open Idealize.ShloMosaic Idealize.ShloMosaic.ValueIdx

/-- A device's block of the input: one slab. -/
abbrev SX : Shape := ⟨3, ![1, 2048, 1024]⟩
/-- A device's block of the result: all rows, half the columns. -/
abbrev SO : Shape := ⟨2, ![2048, 512]⟩

/-- The three neighbours: the device across each mesh axis. Each is an involution. -/
def peer (c : Fin 8) : Fin 8 := ⟨(4 * (c.val / 4) + (c.val % 2) + 2) - 2 * ((c.val / 2) % 2), by omega⟩
def xnb (c : Fin 8) : Fin 8 := ⟨(2 * ((c.val / 2) % 2) + (c.val % 2) + 4) - 4 * (c.val / 4), by omega⟩
def znb (c : Fin 8) : Fin 8 := ⟨(4 * (c.val / 4) + 2 * ((c.val / 2) % 2) + 1) - (c.val % 2), by omega⟩

theorem peer_peer (c : Fin 8) : peer (peer c) = c := by revert c; decide
theorem xnb_xnb (c : Fin 8) : xnb (xnb c) = c := by revert c; decide
theorem znb_znb (c : Fin 8) : znb (znb c) = c := by revert c; decide

/-- The middle mesh coordinate: which slab a device holds, and which half of the columns it must produce. -/
def my (c : Fin 8) : ℕ := (c.val / 2) % 2

theorem my_lt (c : Fin 8) : my c < 2 := Nat.mod_lt _ (by decide)
theorem my_peer (c : Fin 8) : my (peer c) = 1 - my c := by revert c; decide
theorem my_xnb (c : Fin 8) : my (xnb c) = my c := by revert c; decide
theorem my_znb (c : Fin 8) : my (znb c) = my c := by revert c; decide

/-- The first row of a device's own quarter: quarter `2 · (c / 4) + c % 2`. -/
def qmine (c : Fin 8) : ℕ := 1024 * (c.val / 4) + 512 * (c.val % 2)

/-- The device whose slab supplies row `r`'s partner values on device `c`: the device holding the other slab
    at the row's quarter's outer coordinates — except in the second half of the diagonally opposite quarter,
    which comes straight from the device across the middle axis. -/
def srcDev (c : Fin 8) (r : ℕ) : Fin 8 :=
  if (r / 1024) % 2 ≠ c.val / 4 ∧ (r / 512) % 2 ≠ c.val % 2 ∧ 256 ≤ r % 512 then peer c
  else ⟨4 * ((r / 1024) % 2) + 2 * (1 - my c) + (r / 512) % 2, by have := my_lt c; omega⟩

theorem my_srcDev (c : Fin 8) (r : ℕ) : my (srcDev c r) = 1 - my c := by
  unfold srcDev
  split
  · exact my_peer c
  · have := my_lt c
    show ((4 * ((r / 1024) % 2) + 2 * (1 - my c) + (r / 512) % 2) / 2) % 2 = 1 - my c
    omega

variable {F : FTy → Type} [FloatOps F]

/-- Device `c`'s result from every device's slab: its own slab's entry at the row and at its column half, plus the
    partner device's slab's entry at the same place. -/
def outSpec (X : Fin 8 → Vec F SX .f32) (c : Fin 8) : FVec F SO .f32 := fun i =>
  FloatOps.addf
    (X c (ix3 (0 : Fin 1) (i 0) ⟨512 * my c + (i 1).val, by have := my_lt c; have h1 : (i 1).val < 512 := (i 1).isLt; show _ < 1024; omega⟩))
    (X (srcDev c (i 0).val) (ix3 (0 : Fin 1) (i 0) ⟨512 * my c + (i 1).val, by have := my_lt c; have h1 : (i 1).val < 512 := (i 1).isLt; show _ < 1024; omega⟩))

end Cert.RS

end
-- ==== Proof.Proto.lean ====
/-
  The protocol of the reduce-scatter over the 2 × 2 × 2 mesh, as data.

  Every device first tells its three neighbours (across the middle, the outer and the inner mesh axis) that it has
  entered the kernel — one unit each on their barrier semaphore — and waits for its own three units.  With a
  neighbour's unit comes the right to write the landing buffers that neighbour reserves for this device.  Then 64
  blocks of 32 × 512 values travel: a device sends the other column half of its own quarter (16 blocks) and of the
  second half of the opposite quarter (8 blocks) across the middle axis; what it receives it forwards across the
  outer and the inner axis (16 blocks each); of what arrives across the inner axis the even blocks of the first
  half go on across the outer axis, and of what arrives across the outer axis the odd ones across the inner axis
  (4 blocks each).  Every block has a send semaphore on its sender and a receive semaphore on its receiver.
-/
import proofs.«901025_g7700000000001026_dist_rs_v7x_xyz2x2x2_y_m2048_n512_f32_1_alg».proof.Proof.Gen.KernelIdeal
import proofs.«901025_g7700000000001026_dist_rs_v7x_xyz2x2x2_y_m2048_n512_f32_1_alg».proof.Proof.Gen.KernelIdeal.Skeleton
import proofs.«901025_g7700000000001026_dist_rs_v7x_xyz2x2x2_y_m2048_n512_f32_1_alg».proof.Proof.Gen.KernelIdeal.Launch
import proofs.«901025_g7700000000001026_dist_rs_v7x_xyz2x2x2_y_m2048_n512_f32_1_alg».proof.Proof.Gen.KernelIdeal.Points
import proofs.«901025_g7700000000001026_dist_rs_v7x_xyz2x2x2_y_m2048_n512_f32_1_alg».proof.Proof.Spec
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen Cert.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duty names `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The neighbours -/

/-- Neighbour `j` of a device: across the middle (0), the outer (1), the inner (2) mesh axis. -/
def nbr (j : Fin 3) (c : Dev nD) : Dev nD := match j with | 0 => peer c | 1 => xnb c | 2 => znb c

theorem nbr_nbr (j : Fin 3) (c : Dev nD) : nbr j (nbr j c) = c := by
  fin_cases j
  · exact peer_peer c
  · exact xnb_xnb c
  · exact znb_znb c

/-! ## The buffers -/

abbrev xM : Memref sig .tc .vmem S1x2048x1024 .f32 := Memref.whole cc0_stg0_0
abbrev oM : Memref sig .tc .vmem S2048x512 .f32 := Memref.whole cc0_stg1_0
abbrev ybM : Memref sig .tc .vmem S512x512 .f32 := Memref.whole cc0_scratch0
abbrev ydM : Memref sig .tc .vmem S256x512 .f32 := Memref.whole cc0_scratch1
abbrev xdM : Memref sig .tc .vmem S512x512 .f32 := Memref.whole cc0_scratch2
abbrev zdM : Memref sig .tc .vmem S512x512 .f32 := Memref.whole cc0_scratch3
abbrev xrM : Memref sig .tc .vmem S128x512 .f32 := Memref.whole cc0_scratch4
abbrev zrM : Memref sig .tc .vmem S128x512 .f32 := Memref.whole cc0_scratch5

theorem inb512 (k : Fin 16) : ∀ a, (![32 * k.val, 0] : Fin 2 → Nat) a + S32x512.size a ≤ S512x512.size a := by
  intro a; have := k.isLt
  fin_cases a
  · show 32 * k.val + 32 ≤ 512; omega
  · show 0 + 512 ≤ 512; omega
theorem inb256 (k : Fin 8) : ∀ a, (![32 * k.val, 0] : Fin 2 → Nat) a + S32x512.size a ≤ S256x512.size a := by
  intro a; have := k.isLt
  fin_cases a
  · show 32 * k.val + 32 ≤ 256; omega
  · show 0 + 512 ≤ 512; omega
theorem inb128 (k : Fin 4) : ∀ a, (![32 * k.val, 0] : Fin 2 → Nat) a + S32x512.size a ≤ S128x512.size a := by
  intro a; have := k.isLt
  fin_cases a
  · show 32 * k.val + 32 ≤ 128; omega
  · show 0 + 512 ≤ 512; omega

/-- Block `k` (32 rows) of a landing buffer of 512, 256 or 128 rows. -/
abbrev ch512 (M : Memref sig .tc .vmem S512x512 .f32) (k : Fin 16) : Memref sig .tc .vmem S32x512 .f32 :=
  M.slice (Rect.unit (s := S512x512) ![32 * k.val, 0] S32x512.size (inb512 k)) (fun _ => rfl)
abbrev ch256 (M : Memref sig .tc .vmem S256x512 .f32) (k : Fin 8) : Memref sig .tc .vmem S32x512 .f32 :=
  M.slice (Rect.unit (s := S256x512) ![32 * k.val, 0] S32x512.size (inb256 k)) (fun _ => rfl)
abbrev ch128 (M : Memref sig .tc .vmem S128x512 .f32) (k : Fin 4) : Memref sig .tc .vmem S32x512 .f32 :=
  M.slice (Rect.unit (s := S128x512) ![32 * k.val, 0] S32x512.size (inb128 k)) (fun _ => rfl)

/-- The block of the device's own slab that travels across the middle axis: block `k` of its own quarter, and
    block `8 + k` of the opposite quarter, each at the OTHER column half. -/
abbrev xsY (c : Dev nD) (k : Fin 16) : Memref sig .tc .vmem S32x512 .f32 :=
  ((xM).slice (Rect.unit (s := S1x2048x1024) (k0_off1 c (BitVec.ofNat 32 (32 * k.val))) S1x32x512.size (k0_off1_inb c k)) (fun _ => rfl)).squeeze S32x512 squeezes_S1x32x512_S32x512
abbrev xsYD (c : Dev nD) (k : Fin 8) : Memref sig .tc .vmem S32x512 .f32 :=
  ((xM).slice (Rect.unit (s := S1x2048x1024) (k0_off2 c (BitVec.ofNat 32 (256 + 32 * k.val))) S1x32x512.size (k0_off2_inb c k)) (fun _ => rfl)).squeeze S32x512 squeezes_S1x32x512_S32x512

/-- The semaphores: the barrier, and the twelve arrays, each block's send and receive semaphore. -/
abbrev barS : Sem sig := (SemArray.scalar (sig.barrier 0 rfl) : Sems sig S_).sem

abbrev N : ℕ := (ch512 ybM 0).view.dmaCredit
theorem N_pos : 0 < N := View.dmaCredit_pos _ (by decide)

/-! ## Contents

What each landing buffer holds once everything has arrived, as a function of the launch memory. -/

/-- The staged slab of device `c`. -/
def xstg (c : Dev nD) : (cc0_stg0_0 : Ref sig .tc).ty.Contents (Elt F) :=
  (win0_0.blk (0 : Fin 1)).view.read (Elt F) ((s₀ m ρ).mem ((c : Thread nD τ).loc main_arg0))

theorem qmine_le (c : Dev nD) : qmine c ≤ 1536 := by have h8 : c.val < 8 := c.isLt; unfold qmine; omega

/-- Across the middle axis: the partner's slab at the device's own quarter and column half. -/
def ybC (c : Dev nD) : (cc0_scratch0 : Ref sig .tc).ty.Contents (Elt F) := fun i =>
  xstg m ρ (peer c) (ValueIdx.ix3 (0 : Fin 1)
    ⟨qmine c + (i 0).val, by have := qmine_le c; have h0 : (i 0).val < 512 := (i 0).isLt; show _ < 2048; omega⟩
    ⟨512 * my c + (i 1).val, by have := my_lt c; have h1 : (i 1).val < 512 := (i 1).isLt; show _ < 1024; omega⟩)
/-- Across the middle axis, the second half of the opposite quarter. -/
def ydC (c : Dev nD) : (cc0_scratch1 : Ref sig .tc).ty.Contents (Elt F) := fun i =>
  xstg m ρ (peer c) (ValueIdx.ix3 (0 : Fin 1)
    ⟨(1792 - qmine c) + (i 0).val, by have := qmine_le c; have h0 : (i 0).val < 256 := (i 0).isLt; show _ < 2048; omega⟩
    ⟨512 * my c + (i 1).val, by have := my_lt c; have h1 : (i 1).val < 512 := (i 1).isLt; show _ < 1024; omega⟩)
/-- Forwarded across the outer and the inner axis: what that neighbour received across the middle axis. -/
def xdC (c : Dev nD) : (cc0_scratch2 : Ref sig .tc).ty.Contents (Elt F) := ybC m ρ (xnb c)
def zdC (c : Dev nD) : (cc0_scratch3 : Ref sig .tc).ty.Contents (Elt F) := ybC m ρ (znb c)
/-- Forwarded twice: the even blocks of the first half of what the outer neighbour got across the inner axis,
    and the odd blocks of what the inner neighbour got across the outer axis. -/
def xrC (c : Dev nD) : (cc0_scratch4 : Ref sig .tc).ty.Contents (Elt F) := fun i =>
  zdC m ρ (xnb c) (ValueIdx.ix2 ⟨64 * ((i 0).val / 32) + (i 0).val % 32, by have h0 : (i 0).val < 128 := (i 0).isLt; show _ < 512; omega⟩ (i 1))
def zrC (c : Dev nD) : (cc0_scratch5 : Ref sig .tc).ty.Contents (Elt F) := fun i =>
  xdC m ρ (znb c) (ValueIdx.ix2 ⟨64 * ((i 0).val / 32) + 32 + (i 0).val % 32, by have h0 : (i 0).val < 128 := (i 0).isLt; show _ < 512; omega⟩ (i 1))

/-! ## Ownership through a view -/

/-- The elements a memref's view covers, on device `c`, held at share `q` with contents `f`. -/
abbrev pts {sp : Space} {s : Shape} {e : EltTy} (M : Memref sig .tc sp s e) (c : Dev nD) (q : PosShare TreeShare)
    (f : Buf (Elt F) (M.view.loc (c : Thread nD τ))) : sProp 𝕄 :=
  M.view.loc (c : Thread nD τ) ↦[M.view.set]{q} f

/-- A whole buffer of device `c` at some contents. -/
abbrev anyBuf (b : Ref sig .tc) (c : Dev nD) : sProp 𝕄 :=
  iprop(∃ f : Buf (Elt F) ((c : Thread nD τ).loc b), ((c : Thread nD τ).loc b) ↦{fullShare} f)

/-! ## The schedule: one round per semaphore -/

/-- What neighbour `j`'s unit on device `c`'s barrier semaphore brings: that neighbour's two landing buffers for `c`. -/
def barPay (c : Dev nD) (j : Fin 3) : sProp 𝕄 := match j with
  | 0 => iprop(anyBuf cc0_scratch0 (peer c) ∗ anyBuf cc0_scratch1 (peer c))
  | 1 => iprop(anyBuf cc0_scratch2 (xnb c) ∗ anyBuf cc0_scratch4 (xnb c))
  | 2 => iprop(anyBuf cc0_scratch3 (znb c) ∗ anyBuf cc0_scratch5 (znb c))

/-- What a block's semaphores bring once the block's credit is in: a send semaphore gives the source block back at
    the share it was lent at, a receive semaphore gives the landing block at its final contents. -/
def sYPay (c : Dev nD) (k : Fin 16) : sProp 𝕄 := pts (xsY c k) c fullShare (xstg m ρ c)
def rYPay (c : Dev nD) (k : Fin 16) : sProp 𝕄 := pts (ch512 ybM k) c fullShare (ybC m ρ c)
def sYDPay (c : Dev nD) (k : Fin 8) : sProp 𝕄 := pts (xsYD c k) c fullShare (xstg m ρ c)
def rYDPay (c : Dev nD) (k : Fin 8) : sProp 𝕄 := pts (ch256 ydM k) c fullShare (ydC m ρ c)
def sXDPay (c : Dev nD) (k : Fin 16) : sProp 𝕄 := pts (ch512 ybM k) c fullShare.left (ybC m ρ c)
def rXDPay (c : Dev nD) (k : Fin 16) : sProp 𝕄 := pts (ch512 xdM k) c fullShare (xdC m ρ c)
def sZDPay (c : Dev nD) (k : Fin 16) : sProp 𝕄 := pts (ch512 ybM k) c fullShare.right.left (ybC m ρ c)
def rZDPay (c : Dev nD) (k : Fin 16) : sProp 𝕄 := pts (ch512 zdM k) c fullShare (zdC m ρ c)
def sXRPay (c : Dev nD) (k : Fin 4) : sProp 𝕄 := pts (ch512 zdM ⟨2 * k.val, by have := k.isLt; omega⟩) c fullShare.left (zdC m ρ c)
def rXRPay (c : Dev nD) (k : Fin 4) : sProp 𝕄 := pts (ch128 xrM k) c fullShare (xrC m ρ c)
def sZRPay (c : Dev nD) (k : Fin 4) : sProp 𝕄 := pts (ch512 xdM ⟨2 * k.val + 1, by have := k.isLt; omega⟩) c fullShare.left (xdC m ρ c)
def rZRPay (c : Dev nD) (k : Fin 4) : sProp 𝕄 := pts (ch128 zrM k) c fullShare (zrC m ρ c)

/-- The same, by the semaphore's number in the device's pool of 130 (0 and 1 are the pipeline's own). -/
def dmaPay (c : Dev nD) (i : ℕ) : sProp 𝕄 :=
  if h : i < 2 then iprop(emp)
  else if h : i < 18 then sYPay m ρ c ⟨i - 2, by omega⟩
  else if h : i < 34 then rYPay m ρ c ⟨i - 18, by omega⟩
  else if h : i < 42 then sYDPay m ρ c ⟨i - 34, by omega⟩
  else if h : i < 50 then rYDPay m ρ c ⟨i - 42, by omega⟩
  else if h : i < 66 then sXDPay m ρ c ⟨i - 50, by omega⟩
  else if h : i < 82 then rXDPay m ρ c ⟨i - 66, by omega⟩
  else if h : i < 98 then sZDPay m ρ c ⟨i - 82, by omega⟩
  else if h : i < 114 then rZDPay m ρ c ⟨i - 98, by omega⟩
  else if h : i < 118 then sXRPay m ρ c ⟨i - 114, by omega⟩
  else if h : i < 122 then rXRPay m ρ c ⟨i - 118, by omega⟩
  else if h : i < 126 then sZRPay m ρ c ⟨i - 122, by omega⟩
  else if h : i < 130 then rZRPay m ρ c ⟨i - 126, by omega⟩
  else iprop(emp)

/-- One round, round 0: a barrier semaphore has three duties of one unit, one per neighbour; a block's send or
    receive semaphore one duty of the block's credit. -/
def Rd : Rounds.Schedule (GSem nD τ sig) (Fin 3) 𝕄 where
  duties g r := if r = 0 ∧ g.1.2 = .tc then
      (match g.2 with | .reg s => if s = barS then Finset.univ else ∅ | .dma i => if 2 ≤ i.val then {0} else ∅) else ∅
  unitless _ := False
  amount g _ _ := match g.2 with | .reg _ => 1 | .dma _ => N
  payload g _ d := match g.2 with | .reg _ => barPay g.1.1 d | .dma i => dmaPay m ρ g.1.1 i.val
  amount_pos g _ _ _ := by cases g.2 <;> first | exact Nat.one_pos | exact N_pos

instance barPay_storable (c : Dev nD) (j : Fin 3) : BI.Storable (upEmb : UEmb _ 𝕄) (barPay (F := F) c j) := by
  unfold barPay; split <;> infer_instance
instance sYPay_st (c : Dev nD) (k) : BI.Storable (upEmb : UEmb _ 𝕄) (sYPay (F := F) m ρ c k) := by unfold sYPay; infer_instance
instance rYPay_st (c : Dev nD) (k) : BI.Storable (upEmb : UEmb _ 𝕄) (rYPay (F := F) m ρ c k) := by unfold rYPay; infer_instance
instance sYDPay_st (c : Dev nD) (k) : BI.Storable (upEmb : UEmb _ 𝕄) (sYDPay (F := F) m ρ c k) := by unfold sYDPay; infer_instance
instance rYDPay_st (c : Dev nD) (k) : BI.Storable (upEmb : UEmb _ 𝕄) (rYDPay (F := F) m ρ c k) := by unfold rYDPay; infer_instance
instance sXDPay_st (c : Dev nD) (k) : BI.Storable (upEmb : UEmb _ 𝕄) (sXDPay (F := F) m ρ c k) := by unfold sXDPay; infer_instance
instance rXDPay_st (c : Dev nD) (k) : BI.Storable (upEmb : UEmb _ 𝕄) (rXDPay (F := F) m ρ c k) := by unfold rXDPay; infer_instance
instance sZDPay_st (c : Dev nD) (k) : BI.Storable (upEmb : UEmb _ 𝕄) (sZDPay (F := F) m ρ c k) := by unfold sZDPay; infer_instance
instance rZDPay_st (c : Dev nD) (k) : BI.Storable (upEmb : UEmb _ 𝕄) (rZDPay (F := F) m ρ c k) := by unfold rZDPay; infer_instance
instance sXRPay_st (c : Dev nD) (k) : BI.Storable (upEmb : UEmb _ 𝕄) (sXRPay (F := F) m ρ c k) := by unfold sXRPay; infer_instance
instance rXRPay_st (c : Dev nD) (k) : BI.Storable (upEmb : UEmb _ 𝕄) (rXRPay (F := F) m ρ c k) := by unfold rXRPay; infer_instance
instance sZRPay_st (c : Dev nD) (k) : BI.Storable (upEmb : UEmb _ 𝕄) (sZRPay (F := F) m ρ c k) := by unfold sZRPay; infer_instance
instance rZRPay_st (c : Dev nD) (k) : BI.Storable (upEmb : UEmb _ 𝕄) (rZRPay (F := F) m ρ c k) := by unfold rZRPay; infer_instance
omit [FloatOps F] in
theorem st_dite {p : Prop} [Decidable p] {A : p → sProp 𝕄} {B : ¬ p → sProp 𝕄}
    (hA : ∀ h, BI.Storable (upEmb : UEmb _ 𝕄) (A h)) (hB : ∀ h, BI.Storable (upEmb : UEmb _ 𝕄) (B h)) :
    BI.Storable (upEmb : UEmb _ 𝕄) (dite p A B) := by
  by_cases h : p
  · rw [dif_pos h]; exact hA h
  · rw [dif_neg h]; exact hB h
instance dmaPay_storable (c : Dev nD) (i : ℕ) : BI.Storable (upEmb : UEmb _ 𝕄) (dmaPay (F := F) m ρ c i) := by
  unfold dmaPay
  iterate 13 (refine st_dite (fun _ => inferInstance) (fun _ => ?_))
  infer_instance
instance Rd_payload_storable (g : GSem nD τ sig) (r : ℕ) (d : Fin 3) :
    BI.Storable (upEmb : UEmb _ 𝕄) ((Rd (F := F) m ρ).payload g r d) := by
  show BI.Storable upEmb (match g.2 with | .reg _ => barPay g.1.1 d | .dma i => dmaPay m ρ g.1.1 i.val)
  split <;> infer_instance

/-! ## The cells, block by block -/

abbrev bcell (c : Dev nD) : GSem nD τ sig := ((c : Thread nD τ), .reg barS)
abbrev dcell (c : Dev nD) (i : DmaSem sig) : GSem nD τ sig := ((c : Thread nD τ), .dma i)

/-- A family of blocks travelling the same way: how many, where its send and its receive semaphores start in the
    device's pool, and which neighbour receives them. -/
structure Fam where
  n : ℕ
  sB : ℕ
  rB : ℕ
  j : Fin 3
  hs : 2 ≤ sB ∧ sB + n ≤ 130
  hr : 2 ≤ rB ∧ rB + n ≤ 130

def fY : Fam := ⟨16, 2, 18, 0, by decide, by decide⟩
def fYD : Fam := ⟨8, 34, 42, 0, by decide, by decide⟩
def fXD : Fam := ⟨16, 50, 66, 1, by decide, by decide⟩
def fZD : Fam := ⟨16, 82, 98, 2, by decide, by decide⟩
def fXR : Fam := ⟨4, 114, 118, 1, by decide, by decide⟩
def fZR : Fam := ⟨4, 122, 126, 2, by decide, by decide⟩

def Fam.sS (f : Fam) (k : Fin f.n) : DmaSem sig := ⟨f.sB + k.val, by have := f.hs.2; have := k.isLt; show f.sB + k.val < 130; omega⟩
def Fam.rS (f : Fam) (k : Fin f.n) : DmaSem sig := ⟨f.rB + k.val, by have := f.hr.2; have := k.isLt; show f.rB + k.val < 130; omega⟩
theorem Fam.sS_val (f : Fam) (k : Fin f.n) : (f.sS k).val = f.sB + k.val := rfl
theorem Fam.rS_val (f : Fam) (k : Fin f.n) : (f.rS k).val = f.rB + k.val := rfl
theorem Fam.two_le_sS (f : Fam) (k : Fin f.n) : 2 ≤ (f.sS k).val := by have := f.hs.1; rw [Fam.sS_val]; omega
theorem Fam.two_le_rS (f : Fam) (k : Fin f.n) : 2 ≤ (f.rS k).val := by have := f.hr.1; rw [Fam.rS_val]; omega

/-- Block `k`'s send cell on its sender `c`, and its receive cell on its receiver `c`. -/
abbrev Fam.sc (f : Fam) (c : Dev nD) (k : Fin f.n) : GSem nD τ sig := dcell c (f.sS k)
abbrev Fam.rc (f : Fam) (c : Dev nD) (k : Fin f.n) : GSem nD τ sig := dcell c (f.rS k)

/-! ## The schedule's tables -/

section Tables
variable (c : Dev nD)

omit [FloatOps F] in
theorem duties_bar : (Rd (F := F) m ρ).duties (bcell c) 0 = Finset.univ := by
  dsimp only [Rd]; rw [if_pos ⟨rfl, rfl⟩]; exact if_pos rfl
omit [FloatOps F] in
theorem duties_dma (i : DmaSem sig) (h : 2 ≤ i.val) : (Rd (F := F) m ρ).duties (dcell c i) 0 = {0} := by
  dsimp only [Rd]; rw [if_pos ⟨rfl, rfl⟩]; exact if_pos h
omit [FloatOps F] in
theorem duties_later (g : GSem nD τ sig) : ∀ r, 1 ≤ r → (Rd (F := F) m ρ).duties g r = ∅ :=
  fun r hr => by dsimp only [Rd]; rw [if_neg fun h => by omega]
omit [FloatOps F] in
theorem amount_bar (d : Fin 3) : (Rd (F := F) m ρ).amount (bcell c) 0 d = 1 := rfl
omit [FloatOps F] in
theorem amount_dma (i : DmaSem sig) (d : Fin 3) : (Rd (F := F) m ρ).amount (dcell c i) 0 d = N := rfl
omit [FloatOps F] in
theorem expect_bar : (Rd (F := F) m ρ).expect (bcell c) 0 = 3 := by
  unfold Schedule.expect Schedule.amountOf
  rw [duties_bar, Finset.sum_congr rfl fun d _ => amount_bar m ρ c d, Finset.sum_const, Finset.card_univ, Fintype.card_fin, smul_eq_mul]
omit [FloatOps F] in
theorem expect_dma (i : DmaSem sig) (h : 2 ≤ i.val) : (Rd (F := F) m ρ).expect (dcell c i) 0 = N := by
  unfold Schedule.expect Schedule.amountOf; rw [duties_dma m ρ c i h, Finset.sum_singleton, amount_dma]
omit [FloatOps F] in
theorem payload_bar (j : Fin 3) : (Rd (F := F) m ρ).payload (bcell c) 0 j = barPay c j := rfl
omit [FloatOps F] in
theorem payload_dma (i : DmaSem sig) (d : Fin 3) : (Rd (F := F) m ρ).payload (dcell c i) 0 d = dmaPay m ρ c i.val := rfl

omit [FloatOps F] in
/-- The whole round of a block's semaphore, nothing taken yet: its one payload. -/
theorem rest_dma (i : DmaSem sig) (h : 2 ≤ i.val) :
    bigSep ((Rd (F := F) m ρ).duties (dcell c i) 0 \ ∅) (fun d => (Rd (F := F) m ρ).payload (dcell c i) 0 d) = dmaPay m ρ c i.val := by
  rw [Finset.sdiff_empty, duties_dma m ρ c i h, bigSep_singleton, payload_dma]
omit [FloatOps F] in
/-- The whole round of the barrier semaphore: the three neighbours' landing buffers. -/
theorem rest_bar :
    bigSep ((Rd (F := F) m ρ).duties (bcell c) 0 \ ∅) (fun d => (Rd (F := F) m ρ).payload (bcell c) 0 d)
      = iprop(barPay c 0 ∗ barPay c 1 ∗ barPay c 2) := by
  rw [Finset.sdiff_empty, duties_bar, bigSep_univ_eq_bigSepL [(0 : Fin 3), 1, 2] (by decide) (by decide), bigSepL_cons_cons, bigSepL_cons_cons, bigSepL_singleton]
  rfl

omit [FloatOps F] in
theorem dmaPay_sY (k : Fin 16) : dmaPay (F := F) m ρ c (fY.sS k).val = sYPay m ρ c k := by
  have := k.isLt; show dmaPay m ρ c (2 + k.val) = _; unfold dmaPay
  rw [dif_neg (by omega), dif_pos (by omega)]; exact congrArg _ (Fin.ext (by simp))
omit [FloatOps F] in
theorem dmaPay_rY (k : Fin 16) : dmaPay (F := F) m ρ c (fY.rS k).val = rYPay m ρ c k := by
  have := k.isLt; show dmaPay m ρ c (18 + k.val) = _; unfold dmaPay
  rw [dif_neg (by omega), dif_neg (by omega), dif_pos (by omega)]; exact congrArg _ (Fin.ext (by simp))
omit [FloatOps F] in
theorem dmaPay_sYD (k : Fin 8) : dmaPay (F := F) m ρ c (fYD.sS k).val = sYDPay m ρ c k := by
  have := k.isLt; show dmaPay m ρ c (34 + k.val) = _; unfold dmaPay
  rw [dif_neg (by omega), dif_neg (by omega), dif_neg (by omega), dif_pos (by omega)]; exact congrArg _ (Fin.ext (by simp))
omit [FloatOps F] in
theorem dmaPay_rYD (k : Fin 8) : dmaPay (F := F) m ρ c (fYD.rS k).val = rYDPay m ρ c k := by
  have := k.isLt; show dmaPay m ρ c (42 + k.val) = _; unfold dmaPay
  rw [dif_neg (by omega), dif_neg (by omega), dif_neg (by omega), dif_neg (by omega), dif_pos (by omega)]; exact congrArg _ (Fin.ext (by simp))
omit [FloatOps F] in
theorem dmaPay_sXD (k : Fin 16) : dmaPay (F := F) m ρ c (fXD.sS k).val = sXDPay m ρ c k := by
  have := k.isLt; show dmaPay m ρ c (50 + k.val) = _; unfold dmaPay
  rw [dif_neg (by omega), dif_neg (by omega), dif_neg (by omega), dif_neg (by omega), dif_neg (by omega), dif_pos (by omega)]; exact congrArg _ (Fin.ext (by simp))
omit [FloatOps F] in
theorem dmaPay_rXD (k : Fin 16) : dmaPay (F := F) m ρ c (fXD.rS k).val = rXDPay m ρ c k := by
  have := k.isLt; show dmaPay m ρ c (66 + k.val) = _; unfold dmaPay
  rw [dif_neg (by omega), dif_neg (by omega), dif_neg (by omega), dif_neg (by omega), dif_neg (by omega), dif_neg (by omega), dif_pos (by omega)]; exact congrArg _ (Fin.ext (by simp))
omit [FloatOps F] in
theorem dmaPay_sZD (k : Fin 16) : dmaPay (F := F) m ρ c (fZD.sS k).val = sZDPay m ρ c k := by
  have := k.isLt; show dmaPay m ρ c (82 + k.val) = _; unfold dmaPay
  rw [dif_neg (by omega), dif_neg (by omega), dif_neg (by omega), dif_neg (by omega), dif_neg (by omega), dif_neg (by omega), dif_neg (by omega), dif_pos (by omega)]; exact congrArg _ (Fin.ext (by simp))
omit [FloatOps F] in
theorem dmaPay_rZD (k : Fin 16) : dmaPay (F := F) m ρ c (fZD.rS k).val = rZDPay m ρ c k := by
  have := k.isLt; show dmaPay m ρ c (98 + k.val) = _; unfold dmaPay
  rw [dif_neg (by omega), dif_neg (by omega), dif_neg (by omega), dif_neg (by omega), dif_neg (by omega), dif_neg (by omega), dif_neg (by omega), dif_neg (by omega), dif_pos (by omega)]; exact congrArg _ (Fin.ext (by simp))
omit [FloatOps F] in
theorem dmaPay_sXR (k : Fin 4) : dmaPay (F := F) m ρ c (fXR.sS k).val = sXRPay m ρ c k := by
  have := k.isLt; show dmaPay m ρ c (114 + k.val) = _; unfold dmaPay
  rw [dif_neg (by omega), dif_neg (by omega), dif_neg (by omega), dif_neg (by omega), dif_neg (by omega), dif_neg (by omega), dif_neg (by omega), dif_neg (by omega), dif_neg (by omega), dif_pos (by omega)]; exact congrArg _ (Fin.ext (by simp))
omit [FloatOps F] in
theorem dmaPay_rXR (k : Fin 4) : dmaPay (F := F) m ρ c (fXR.rS k).val = rXRPay m ρ c k := by
  have := k.isLt; show dmaPay m ρ c (118 + k.val) = _; unfold dmaPay
  rw [dif_neg (by omega), dif_neg (by omega), dif_neg (by omega), dif_neg (by omega), dif_neg (by omega), dif_neg (by omega), dif_neg (by omega), dif_neg (by omega), dif_neg (by omega), dif_neg (by omega), dif_pos (by omega)]; exact congrArg _ (Fin.ext (by simp))
omit [FloatOps F] in
theorem dmaPay_sZR (k : Fin 4) : dmaPay (F := F) m ρ c (fZR.sS k).val = sZRPay m ρ c k := by
  have := k.isLt; show dmaPay m ρ c (122 + k.val) = _; unfold dmaPay
  rw [dif_neg (by omega), dif_neg (by omega), dif_neg (by omega), dif_neg (by omega), dif_neg (by omega), dif_neg (by omega), dif_neg (by omega), dif_neg (by omega), dif_neg (by omega), dif_neg (by omega), dif_neg (by omega), dif_pos (by omega)]; exact congrArg _ (Fin.ext (by simp))
omit [FloatOps F] in
theorem dmaPay_rZR (k : Fin 4) : dmaPay (F := F) m ρ c (fZR.rS k).val = rZRPay m ρ c k := by
  have := k.isLt; show dmaPay m ρ c (126 + k.val) = _; unfold dmaPay
  rw [dif_neg (by omega), dif_neg (by omega), dif_neg (by omega), dif_neg (by omega), dif_neg (by omega), dif_neg (by omega), dif_neg (by omega), dif_neg (by omega), dif_neg (by omega), dif_neg (by omega), dif_neg (by omega), dif_neg (by omega), dif_pos (by omega)]; exact congrArg _ (Fin.ext (by simp))

end Tables

/-! ## What a device owes at launch, and the levels -/

/-- The receive credit of the blocks `S` of family `f` that device `c` still has to send; the barrier units of
    the neighbours `S` it still has to greet. -/
def famOwed (f : Fam) (c : Dev nD) (S : Finset (Fin f.n)) : CellTallies nD τ sig Unit :=
  ∑ k ∈ S, tallyAt (f.rc (nbr f.j c) k) () N
def barOwed (c : Dev nD) (S : Finset (Fin 3)) : CellTallies nD τ sig Unit :=
  ∑ j ∈ S, tallyAt (bcell (nbr j c)) () 1

/-- What is owed with the blocks `A` … `E'` of the six families and the greetings `B` outstanding. -/
def owedAt (c : Dev nD) (A : Finset (Fin fY.n)) (A' : Finset (Fin fYD.n)) (C : Finset (Fin fXD.n)) (C' : Finset (Fin fZD.n))
    (E : Finset (Fin fXR.n)) (E' : Finset (Fin fZR.n)) (B : Finset (Fin 3)) : CellTallies nD τ sig Unit :=
  famOwed fY c A + famOwed fYD c A' + famOwed fXD c C + famOwed fZD c C' + famOwed fXR c E + famOwed fZR c E' + barOwed c B

def O₀ (c : Dev nD) : CellTallies nD τ sig Unit :=
  owedAt c Finset.univ Finset.univ Finset.univ Finset.univ Finset.univ Finset.univ Finset.univ

def L (g : GSem nD τ sig) : Finset Unit := if g.1.2 = .tc then {()} else ∅

/-- Receive semaphores across the middle axis at 2, of the first forwarding at 3, of the second at 4; the barrier
    at 1; every send semaphore and the pipeline's own at 0: a device waits on a cell only while everything it still
    has to send lands on cells above it. -/
def lvD (i : ℕ) : ℕ :=
  if (18 ≤ i ∧ i < 34) ∨ (42 ≤ i ∧ i < 50) then 2
  else if (66 ≤ i ∧ i < 82) ∨ (98 ≤ i ∧ i < 114) then 3
  else if (118 ≤ i ∧ i < 122) ∨ 126 ≤ i then 4 else 0
def lv (g : GSem nD τ sig) (_ : Unit) : ℕ := match g.2 with | .reg s => if s = barS then 1 else 0 | .dma i => lvD i.val

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A device may wait on its cell `sm` while what it owes lies on TensorCore cells strictly above level `b ≥ lv sm`. -/
theorem mayWait_of (c : Dev nD) (sm : SemLoc sig) (O : CellTallies nD τ sig Unit) (b : ℕ)
    (hb : lv ((c : Thread nD τ), sm) () ≤ b)
    (hO : ∀ (g : GSem nD τ sig) (u : Unit), 0 < O g u → g.1.2 = .tc ∧ b < lv g u) :
    (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

/-! ## The ghost state a device starts from -/

/-- The cells of the protocol: every TensorCore's barrier cell and block cells. -/
def isProto (g : GSem nD τ sig) : Prop := g.1.2 = .tc ∧ (g.2 = .reg barS ∨ ∃ i : DmaSem sig, g.2 = .dma i ∧ 2 ≤ i.val)
instance (g : GSem nD τ sig) : Decidable (isProto g) := by unfold isProto; infer_instance
def protoCells : Finset (GSem nD τ sig) := Finset.univ.filter isProto

theorem bcell_mem (c : Dev nD) : bcell c ∈ protoCells := Finset.mem_filter.mpr ⟨Finset.mem_univ _, rfl, .inl rfl⟩
theorem dcell_mem (c : Dev nD) (i : DmaSem sig) (h : 2 ≤ i.val) : dcell c i ∈ protoCells :=
  Finset.mem_filter.mpr ⟨Finset.mem_univ _, rfl, .inr ⟨i, rfl, h⟩⟩

/-- Every cell's invariant under the names `K`, and that every cell is at its round 0: known to all. -/
def records (K : GSem nD τ sig → ℕ) : sProp 𝕄 :=
  iprop((bigSep protoCells fun g => cellInv ER (Rd m ρ) (K g) g) ∗ bigSep protoCells fun g => reached ER g 0)

instance records_persistent (K : GSem nD τ sig → ℕ) : BI.Persistent (records (F := F) m ρ K) := by unfold records; infer_instance

/-- A family's part of device `c`'s start: its own cells' positions; the duty tokens it pays with — its send
    cell's and the receiver's receive cell's; the credit for what its own receive cells expect. -/
def famPos (f : Fam) (c : Dev nD) : sProp 𝕄 :=
  bigSep Finset.univ fun k : Fin f.n => iprop(atPos ER (f.sc c k) 0 ∅ 0 ∗ atPos ER (f.rc c k) 0 ∅ 0)
def famToks (f : Fam) (c : Dev nD) : sProp 𝕄 :=
  bigSep Finset.univ fun k : Fin f.n => iprop(dutyTok ER (f.sc c k) 0 (0 : Fin 3) ∗ dutyTok ER (f.rc (nbr f.j c) k) 0 (0 : Fin 3))
def famCreds (f : Fam) (c : Dev nD) : sProp 𝕄 :=
  bigSep Finset.univ fun k : Fin f.n => cred (tallyAt (f.rc c k) () N)

def ghost (K : GSem nD τ sig → ℕ) (c : Dev nD) : sProp 𝕄 :=
  iprop(records m ρ K
    ∗ atPos ER (bcell c) 0 ∅ 0
    ∗ (bigSep Finset.univ fun j : Fin 3 => dutyTok ER (bcell (nbr j c)) 0 j)
    ∗ (famPos fY c ∗ famPos fYD c ∗ famPos fXD c ∗ famPos fZD c ∗ famPos fXR c ∗ famPos fZR c)
    ∗ (famToks fY c ∗ famToks fYD c ∗ famToks fXD c ∗ famToks fZD c ∗ famToks fXR c ∗ famToks fZR c))

/-- What device `c`'s body starts from. -/
def start (c : Dev nD) : sProp 𝕄 :=
  iprop((∃ K, ghost m ρ K c) ∗ cred (tallyAt (bcell c) () 3)
    ∗ (famCreds fY c ∗ famCreds fYD c ∗ famCreds fXD c ∗ famCreds fZD c ∗ famCreds fXR c ∗ famCreds fZR c)
    ∗ levAts L lv)

/-- The six landing buffers, whole, at some contents. -/
def scr (c : Dev nD) : sProp 𝕄 :=
  iprop(anyBuf cc0_scratch0 c ∗ anyBuf cc0_scratch1 c ∗ anyBuf cc0_scratch2 c ∗ anyBuf cc0_scratch3 c ∗ anyBuf cc0_scratch4 c ∗ anyBuf cc0_scratch5 c)

/-- A family's cells at zero, handed back. -/
def famZero (f : Fam) (c : Dev nD) : sProp 𝕄 :=
  bigSep Finset.univ fun k : Fin f.n => iprop(semVal (f.sc c k) 0 ∗ semVal (f.rc c k) 0)

def Φ₀ (c : Dev nD) : sProp 𝕄 := iprop(start m ρ c ∗ scr c)
def Φ₁ (c : Dev nD) : sProp 𝕄 :=
  iprop(scr (F := F) c ∗ (famZero fY c ∗ famZero fYD c ∗ famZero fXD c ∗ famZero fZD c ∗ famZero fXR c ∗ famZero fZR c))

/-! ## The pipeline's proof data -/

/-- The result the body leaves staged: the device's own slab plus its partners', entry by entry. -/
def outAt (c : Dev nD) : (cc0_stg1_0 : Ref sig .tc).ty.Contents (Elt F) := outSpec (fun d => xstg m ρ d) c

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelIdeal.Proto

end
-- ==== Proof.GenBodyDefs.lean ====
/-
  The kernel body laid out by what it does: greet the three neighbours and wait for them; send the 16 + 8 blocks
  across the middle axis; per block of the own quarter, wait for it, forward it twice and add it in; per block of the
  two neighbouring quarters, wait, forward the blocks that go on, add in; add in the opposite quarter's blocks as
  they arrive by their three routes; wait for every send.  The printed body is this program.
-/
import proofs.«901025_g7700000000001026_dist_rs_v7x_xyz2x2x2_y_m2048_n512_f32_1_alg».proof.Proof.Proto

noncomputable section

namespace Cert.KernelIdeal.GenBody

open Cert.KernelIdeal Cert.KernelIdeal.Gen Cert.KernelIdeal.Proto Cert.RS
open Idealize.ShloMosaic Idealize.ShloMosaic.TcCoe Idealize.SL.Sem

variable {F : FTy → Type} [FloatOps F]

/-! ## Which neighbour each greeting and each block names -/

def devY : Fin 16 → Dev nD → ℕ := ![k0_dev4, k0_dev5, k0_dev6, k0_dev7, k0_dev8, k0_dev9, k0_dev10, k0_dev11, k0_dev12, k0_dev13, k0_dev14, k0_dev15, k0_dev16, k0_dev17, k0_dev18, k0_dev19]
def devYD : Fin 8 → Dev nD → ℕ := ![k0_dev20, k0_dev21, k0_dev22, k0_dev23, k0_dev24, k0_dev25, k0_dev26, k0_dev27]
def devXD : Fin 16 → Dev nD → ℕ := ![k0_dev28, k0_dev30, k0_dev32, k0_dev34, k0_dev36, k0_dev38, k0_dev40, k0_dev42, k0_dev44, k0_dev46, k0_dev48, k0_dev50, k0_dev52, k0_dev54, k0_dev56, k0_dev58]
def devZD : Fin 16 → Dev nD → ℕ := ![k0_dev29, k0_dev31, k0_dev33, k0_dev35, k0_dev37, k0_dev39, k0_dev41, k0_dev43, k0_dev45, k0_dev47, k0_dev49, k0_dev51, k0_dev53, k0_dev55, k0_dev57, k0_dev59]
def devXR : Fin 4 → Dev nD → ℕ := ![k0_dev60, k0_dev62, k0_dev64, k0_dev66]
def devZR : Fin 4 → Dev nD → ℕ := ![k0_dev61, k0_dev63, k0_dev65, k0_dev67]

theorem devY_eq : ∀ (k : Fin 16) (d0 : Dev nD), devY k d0 = (peer d0).val := by decide +kernel
theorem devYD_eq : ∀ (k : Fin 8) (d0 : Dev nD), devYD k d0 = (peer d0).val := by decide +kernel
theorem devXD_eq : ∀ (k : Fin 16) (d0 : Dev nD), devXD k d0 = (xnb d0).val := by decide +kernel
theorem devZD_eq : ∀ (k : Fin 16) (d0 : Dev nD), devZD k d0 = (znb d0).val := by decide +kernel
theorem devXR_eq : ∀ (k : Fin 4) (d0 : Dev nD), devXR k d0 = (xnb d0).val := by decide +kernel
theorem devZR_eq : ∀ (k : Fin 4) (d0 : Dev nD), devZR k d0 = (znb d0).val := by decide +kernel
theorem dev1_eq : ∀ d0 : Dev nD, k0_dev1 d0 = (peer d0).val := by decide +kernel
theorem dev2_eq : ∀ d0 : Dev nD, k0_dev2 d0 = (xnb d0).val := by decide +kernel
theorem dev3_eq : ∀ d0 : Dev nD, k0_dev3 d0 = (znb d0).val := by decide +kernel

theorem devY_lt (k : Fin 16) (d0 : Dev nD) : devY k d0 < nD := by rw [devY_eq]; exact (peer d0).isLt
theorem devYD_lt (k : Fin 8) (d0 : Dev nD) : devYD k d0 < nD := by rw [devYD_eq]; exact (peer d0).isLt
theorem devXD_lt (k : Fin 16) (d0 : Dev nD) : devXD k d0 < nD := by rw [devXD_eq]; exact (xnb d0).isLt
theorem devZD_lt (k : Fin 16) (d0 : Dev nD) : devZD k d0 < nD := by rw [devZD_eq]; exact (znb d0).isLt
theorem devXR_lt (k : Fin 4) (d0 : Dev nD) : devXR k d0 < nD := by rw [devXR_eq]; exact (xnb d0).isLt
theorem devZR_lt (k : Fin 4) (d0 : Dev nD) : devZR k d0 < nD := by rw [devZR_eq]; exact (znb d0).isLt

/-! ## The semaphores of a block -/

theorem inbS16 (k : Fin 16) : ∀ a, (![k.val] : Fin 1 → Nat) a + S1.size a ≤ S16.size a := by
  intro a; have := k.isLt; fin_cases a; show k.val + 1 ≤ 16; omega
theorem inbS8 (k : Fin 8) : ∀ a, (![k.val] : Fin 1 → Nat) a + S1.size a ≤ S8.size a := by
  intro a; have := k.isLt; fin_cases a; show k.val + 1 ≤ 8; omega
theorem inbS4 (k : Fin 4) : ∀ a, (![k.val] : Fin 1 → Nat) a + S1.size a ≤ S4.size a := by
  intro a; have := k.isLt; fin_cases a; show k.val + 1 ≤ 4; omega

abbrev sem16 (A : DmaSems sig S16) (k : Fin 16) : DmaSem sig := ((A.slice (Rect.unit (s := S16) ![k.val] S1.size (inbS16 k))).squeeze S_ squeezes_S1_S_).sem
abbrev sem8 (A : DmaSems sig S8) (k : Fin 8) : DmaSem sig := ((A.slice (Rect.unit (s := S8) ![k.val] S1.size (inbS8 k))).squeeze S_ squeezes_S1_S_).sem
abbrev sem4 (A : DmaSems sig S4) (k : Fin 4) : DmaSem sig := ((A.slice (Rect.unit (s := S4) ![k.val] S1.size (inbS4 k))).squeeze S_ squeezes_S1_S_).sem

/-- An even and an odd block of the first half. -/
abbrev ev (j : Fin 4) : Fin 16 := ⟨2 * j.val, by have := j.isLt; omega⟩
abbrev od (j : Fin 4) : Fin 16 := ⟨2 * j.val + 1, by have := j.isLt; omega⟩
abbrev hi (j : Fin 8) : Fin 16 := ⟨8 + j.val, by have := j.isLt; omega⟩

/-! ## The steps -/

/-- The sum stored: the slab's block, its leading unit axis dropped, plus the landed block. -/
def pay (v : Vec F S1x32x512 .f32) (w : Vec F S32x512 .f32) : FVec F S32x512 .f32 :=
  addf (shapeCast S32x512 v shapeCasts_S1x32x512_S32x512) w

def sendY (d0 : Dev nD) (k : Fin 16) : Prog (TpuEff nD τ sig (Elt F) Λ₀ .tc) PUnit :=
  Prog.lift (.enqueueDma (xsY d0 k) (.remote (Dev.tc (⟨devY k d0, devY_lt k d0⟩ : Dev nD)) (ch512 ybM k) (.dma (sem16 cc0_scratch6 k))) (.dma (sem16 cc0_scratch7 k)) ((View.wordExact_bits rfl).reshape _ _) (View.wordExact_bits rfl) ⟨⟨rfl, Or.inl rfl⟩, trivial⟩)
def sendYD (d0 : Dev nD) (k : Fin 8) : Prog (TpuEff nD τ sig (Elt F) Λ₀ .tc) PUnit :=
  Prog.lift (.enqueueDma (xsYD d0 k) (.remote (Dev.tc (⟨devYD k d0, devYD_lt k d0⟩ : Dev nD)) (ch256 ydM k) (.dma (sem8 cc0_scratch8 k))) (.dma (sem8 cc0_scratch9 k)) ((View.wordExact_bits rfl).reshape _ _) (View.wordExact_bits rfl) ⟨⟨rfl, Or.inl rfl⟩, trivial⟩)
def sendXD (d0 : Dev nD) (k : Fin 16) : Prog (TpuEff nD τ sig (Elt F) Λ₀ .tc) PUnit :=
  Prog.lift (.enqueueDma (ch512 ybM k) (.remote (Dev.tc (⟨devXD k d0, devXD_lt k d0⟩ : Dev nD)) (ch512 xdM k) (.dma (sem16 cc0_scratch10 k))) (.dma (sem16 cc0_scratch11 k)) (View.wordExact_bits rfl) (View.wordExact_bits rfl) ⟨⟨rfl, Or.inl rfl⟩, trivial⟩)
def sendZD (d0 : Dev nD) (k : Fin 16) : Prog (TpuEff nD τ sig (Elt F) Λ₀ .tc) PUnit :=
  Prog.lift (.enqueueDma (ch512 ybM k) (.remote (Dev.tc (⟨devZD k d0, devZD_lt k d0⟩ : Dev nD)) (ch512 zdM k) (.dma (sem16 cc0_scratch12 k))) (.dma (sem16 cc0_scratch13 k)) (View.wordExact_bits rfl) (View.wordExact_bits rfl) ⟨⟨rfl, Or.inl rfl⟩, trivial⟩)
def sendXR (d0 : Dev nD) (j : Fin 4) : Prog (TpuEff nD τ sig (Elt F) Λ₀ .tc) PUnit :=
  Prog.lift (.enqueueDma (ch512 zdM (ev j)) (.remote (Dev.tc (⟨devXR j d0, devXR_lt j d0⟩ : Dev nD)) (ch128 xrM j) (.dma (sem4 cc0_scratch14 j))) (.dma (sem4 cc0_scratch15 j)) (View.wordExact_bits rfl) (View.wordExact_bits rfl) ⟨⟨rfl, Or.inl rfl⟩, trivial⟩)
def sendZR (d0 : Dev nD) (j : Fin 4) : Prog (TpuEff nD τ sig (Elt F) Λ₀ .tc) PUnit :=
  Prog.lift (.enqueueDma (ch512 xdM (od j)) (.remote (Dev.tc (⟨devZR j d0, devZR_lt j d0⟩ : Dev nD)) (ch128 zrM j) (.dma (sem4 cc0_scratch16 j))) (.dma (sem4 cc0_scratch17 j)) (View.wordExact_bits rfl) (View.wordExact_bits rfl) ⟨⟨rfl, Or.inl rfl⟩, trivial⟩)

/-- The waits for a block's arrival … -/
def waitYr (d0 : Dev nD) (k : Fin 16) : Prog (TpuEff nD τ sig (Elt F) Λ₀ .tc) PUnit := Prog.lift (.waitDma2 (sem16 cc0_scratch7 k) (xsY d0 k) (ch512 ybM k) ((View.wordExact_bits rfl).reshape _ _) (View.wordExact_bits rfl))
def waitYDr (d0 : Dev nD) (k : Fin 8) : Prog (TpuEff nD τ sig (Elt F) Λ₀ .tc) PUnit := Prog.lift (.waitDma2 (sem8 cc0_scratch9 k) (xsYD d0 k) (ch256 ydM k) ((View.wordExact_bits rfl).reshape _ _) (View.wordExact_bits rfl))
def waitXDr (k : Fin 16) : Prog (TpuEff nD τ sig (Elt F) Λ₀ .tc) PUnit := Prog.lift (.waitDma2 (sem16 cc0_scratch11 k) (ch512 ybM k) (ch512 xdM k) (View.wordExact_bits rfl) (View.wordExact_bits rfl))
def waitZDr (k : Fin 16) : Prog (TpuEff nD τ sig (Elt F) Λ₀ .tc) PUnit := Prog.lift (.waitDma2 (sem16 cc0_scratch13 k) (ch512 ybM k) (ch512 zdM k) (View.wordExact_bits rfl) (View.wordExact_bits rfl))
def waitXRr (j : Fin 4) : Prog (TpuEff nD τ sig (Elt F) Λ₀ .tc) PUnit := Prog.lift (.waitDma2 (sem4 cc0_scratch15 j) (ch512 zdM (ev j)) (ch128 xrM j) (View.wordExact_bits rfl) (View.wordExact_bits rfl))
def waitZRr (j : Fin 4) : Prog (TpuEff nD τ sig (Elt F) Λ₀ .tc) PUnit := Prog.lift (.waitDma2 (sem4 cc0_scratch17 j) (ch512 xdM (od j)) (ch128 zrM j) (View.wordExact_bits rfl) (View.wordExact_bits rfl))
/-- … and for its departure. -/
def waitYs (d0 : Dev nD) (k : Fin 16) : Prog (TpuEff nD τ sig (Elt F) Λ₀ .tc) PUnit := Prog.lift (.waitDma2 (sem16 cc0_scratch6 k) (ch512 ybM k) (xsY d0 k) (View.wordExact_bits rfl) ((View.wordExact_bits rfl).reshape _ _))
def waitYDs (d0 : Dev nD) (k : Fin 8) : Prog (TpuEff nD τ sig (Elt F) Λ₀ .tc) PUnit := Prog.lift (.waitDma2 (sem8 cc0_scratch8 k) (ch256 ydM k) (xsYD d0 k) (View.wordExact_bits rfl) ((View.wordExact_bits rfl).reshape _ _))
def waitXDs (k : Fin 16) : Prog (TpuEff nD τ sig (Elt F) Λ₀ .tc) PUnit := Prog.lift (.waitDma2 (sem16 cc0_scratch10 k) (ch512 xdM k) (ch512 ybM k) (View.wordExact_bits rfl) (View.wordExact_bits rfl))
def waitZDs (k : Fin 16) : Prog (TpuEff nD τ sig (Elt F) Λ₀ .tc) PUnit := Prog.lift (.waitDma2 (sem16 cc0_scratch12 k) (ch512 zdM k) (ch512 ybM k) (View.wordExact_bits rfl) (View.wordExact_bits rfl))
def waitXRs (j : Fin 4) : Prog (TpuEff nD τ sig (Elt F) Λ₀ .tc) PUnit := Prog.lift (.waitDma2 (sem4 cc0_scratch14 j) (ch128 xrM j) (ch512 zdM (ev j)) (View.wordExact_bits rfl) (View.wordExact_bits rfl))
def waitZRs (j : Fin 4) : Prog (TpuEff nD τ sig (Elt F) Λ₀ .tc) PUnit := Prog.lift (.waitDma2 (sem4 cc0_scratch16 j) (ch128 zrM j) (ch512 xdM (od j)) (View.wordExact_bits rfl) (View.wordExact_bits rfl))

/-- Add a landed block into the result: load the slab's block at the row offset `ox`, the landed block, the result's
    block (unused), store the sum at the result's row offset `oo`. -/
def acc512 (ox : Fin 3 → Nat) (hx : ∀ a, ox a + S1x32x512.size a ≤ S1x2048x1024.size a) (oo : Fin 2 → Nat) (ho : ∀ a, oo a + S32x512.size a ≤ S2048x512.size a)
    (bM : Memref sig .tc .vmem S512x512 .f32) (k : Fin 16) : Prog (TpuEff nD τ sig (Elt F) Λ₀ .tc) PUnit := do
  let v1 : Vec F S1x32x512 .f32 ← Prog.lift (.load xM (Rect.unit (s := S1x2048x1024) ox S1x32x512.size hx).toLoadRect (View.loadsAt_vmem h_S1x32x512))
  let v2 : Vec F S32x512 .f32 ← Prog.lift (.load bM (Rect.unit (s := S512x512) ![32 * k.val, 0] S32x512.size (inb512 k)).toLoadRect (View.loadsAt_vmem h_S32x512))
  let _v3 : Vec F S32x512 .f32 ← Prog.lift (.load oM (Rect.unit (s := S2048x512) oo S32x512.size ho).toLoadRect (View.loadsAt_vmem h_S32x512))
  Prog.lift (.store oM (Rect.unit (s := S2048x512) oo S32x512.size ho) (pay v1 v2) Finset.univ (View.stores_vmem_bits_univ h_S32x512 rfl) (.inl rfl))
def acc256 (ox : Fin 3 → Nat) (hx : ∀ a, ox a + S1x32x512.size a ≤ S1x2048x1024.size a) (oo : Fin 2 → Nat) (ho : ∀ a, oo a + S32x512.size a ≤ S2048x512.size a)
    (bM : Memref sig .tc .vmem S256x512 .f32) (k : Fin 8) : Prog (TpuEff nD τ sig (Elt F) Λ₀ .tc) PUnit := do
  let v1 : Vec F S1x32x512 .f32 ← Prog.lift (.load xM (Rect.unit (s := S1x2048x1024) ox S1x32x512.size hx).toLoadRect (View.loadsAt_vmem h_S1x32x512))
  let v2 : Vec F S32x512 .f32 ← Prog.lift (.load bM (Rect.unit (s := S256x512) ![32 * k.val, 0] S32x512.size (inb256 k)).toLoadRect (View.loadsAt_vmem h_S32x512))
  let _v3 : Vec F S32x512 .f32 ← Prog.lift (.load oM (Rect.unit (s := S2048x512) oo S32x512.size ho).toLoadRect (View.loadsAt_vmem h_S32x512))
  Prog.lift (.store oM (Rect.unit (s := S2048x512) oo S32x512.size ho) (pay v1 v2) Finset.univ (View.stores_vmem_bits_univ h_S32x512 rfl) (.inl rfl))
def acc128 (ox : Fin 3 → Nat) (hx : ∀ a, ox a + S1x32x512.size a ≤ S1x2048x1024.size a) (oo : Fin 2 → Nat) (ho : ∀ a, oo a + S32x512.size a ≤ S2048x512.size a)
    (bM : Memref sig .tc .vmem S128x512 .f32) (k : Fin 4) : Prog (TpuEff nD τ sig (Elt F) Λ₀ .tc) PUnit := do
  let v1 : Vec F S1x32x512 .f32 ← Prog.lift (.load xM (Rect.unit (s := S1x2048x1024) ox S1x32x512.size hx).toLoadRect (View.loadsAt_vmem h_S1x32x512))
  let v2 : Vec F S32x512 .f32 ← Prog.lift (.load bM (Rect.unit (s := S128x512) ![32 * k.val, 0] S32x512.size (inb128 k)).toLoadRect (View.loadsAt_vmem h_S32x512))
  let _v3 : Vec F S32x512 .f32 ← Prog.lift (.load oM (Rect.unit (s := S2048x512) oo S32x512.size ho).toLoadRect (View.loadsAt_vmem h_S32x512))
  Prog.lift (.store oM (Rect.unit (s := S2048x512) oo S32x512.size ho) (pay v1 v2) Finset.univ (View.stores_vmem_bits_univ h_S32x512 rfl) (.inl rfl))

abbrev w32 (k : Fin 16) : BitVec 32 := BitVec.ofNat 32 (32 * k.val)

def accA (d0 : Dev nD) (k : Fin 16) : Prog (TpuEff nD τ sig (Elt F) Λ₀ .tc) PUnit := acc512 (k0_off3 d0 (w32 k)) (k0_off3_inb d0 k) (k0_off4 d0 (w32 k)) (k0_off4_inb d0 k) ybM k
def accZ (d0 : Dev nD) (k : Fin 16) : Prog (TpuEff nD τ sig (Elt F) Λ₀ .tc) PUnit := acc512 (k0_off5 d0 (w32 k)) (k0_off5_inb d0 k) (k0_off6 d0 (w32 k)) (k0_off6_inb d0 k) zdM k
def accX (d0 : Dev nD) (k : Fin 16) : Prog (TpuEff nD τ sig (Elt F) Λ₀ .tc) PUnit := acc512 (k0_off7 d0 (w32 k)) (k0_off7_inb d0 k) (k0_off8 d0 (w32 k)) (k0_off8_inb d0 k) xdM k
def accDX (d0 : Dev nD) (j : Fin 4) : Prog (TpuEff nD τ sig (Elt F) Λ₀ .tc) PUnit := acc128 (k0_off9 d0 (w32 (ev j))) (k0_off9_inb d0 (ev j)) (k0_off10 d0 (w32 (ev j))) (k0_off10_inb d0 (ev j)) xrM j
def accDZ (d0 : Dev nD) (j : Fin 4) : Prog (TpuEff nD τ sig (Elt F) Λ₀ .tc) PUnit := acc128 (k0_off9 d0 (w32 (od j))) (k0_off9_inb d0 (od j)) (k0_off10 d0 (w32 (od j))) (k0_off10_inb d0 (od j)) zrM j
def accDY (d0 : Dev nD) (j : Fin 8) : Prog (TpuEff nD τ sig (Elt F) Λ₀ .tc) PUnit := acc256 (k0_off9 d0 (w32 (hi j))) (k0_off9_inb d0 (hi j)) (k0_off10 d0 (w32 (hi j))) (k0_off10_inb d0 (hi j)) ydM j

/-- One block of the own quarter: wait for it, forward it across the outer and the inner axis, add it in. -/
def iter2 (d0 : Dev nD) (k : Fin 16) : Prog (TpuEff nD τ sig (Elt F) Λ₀ .tc) PUnit := do
  waitYr d0 k
  sendXD d0 k
  sendZD d0 k
  accA d0 k

/-- Blocks `2j` and `2j + 1` (first half) of the two neighbouring quarters: wait for each, add it in; the even one
    that came across the inner axis goes on across the outer one, the odd one that came across the outer axis goes
    on across the inner one. -/
def iter3a (d0 : Dev nD) (j : Fin 4) : Prog (TpuEff nD τ sig (Elt F) Λ₀ .tc) PUnit := do
  waitZDr (ev j)
  sendXR d0 j
  accZ d0 (ev j)
  waitXDr (ev j)
  accX d0 (ev j)
  waitZDr (od j)
  accZ d0 (od j)
  waitXDr (od j)
  sendZR d0 j
  accX d0 (od j)

/-- Block `8 + i` (second half) of the two neighbouring quarters: nothing goes on. -/
def iter3b (d0 : Dev nD) (i : Fin 8) : Prog (TpuEff nD τ sig (Elt F) Λ₀ .tc) PUnit := do
  waitZDr (hi i)
  accZ d0 (hi i)
  waitXDr (hi i)
  accX d0 (hi i)

def fin4X (d0 : Dev nD) (j : Fin 4) : Prog (TpuEff nD τ sig (Elt F) Λ₀ .tc) PUnit := do waitXRr j; accDX d0 j
def fin4Z (d0 : Dev nD) (j : Fin 4) : Prog (TpuEff nD τ sig (Elt F) Λ₀ .tc) PUnit := do waitZRr j; accDZ d0 j
def fin8Y (d0 : Dev nD) (j : Fin 8) : Prog (TpuEff nD τ sig (Elt F) Λ₀ .tc) PUnit := do waitYDr d0 j; accDY d0 j
def sw16 (d0 : Dev nD) (k : Fin 16) : Prog (TpuEff nD τ sig (Elt F) Λ₀ .tc) PUnit := do waitYs d0 k; waitXDs k; waitZDs k

def seq16 (f : Fin 16 → Prog (TpuEff nD τ sig (Elt F) Λ₀ .tc) PUnit) : Prog (TpuEff nD τ sig (Elt F) Λ₀ .tc) PUnit := do
  f 0
  f 1
  f 2
  f 3
  f 4
  f 5
  f 6
  f 7
  f 8
  f 9
  f 10
  f 11
  f 12
  f 13
  f 14
  f 15

def seq8 (f : Fin 8 → Prog (TpuEff nD τ sig (Elt F) Λ₀ .tc) PUnit) : Prog (TpuEff nD τ sig (Elt F) Λ₀ .tc) PUnit := do
  f 0
  f 1
  f 2
  f 3
  f 4
  f 5
  f 6
  f 7

def seq4 (f : Fin 4 → Prog (TpuEff nD τ sig (Elt F) Λ₀ .tc) PUnit) : Prog (TpuEff nD τ sig (Elt F) Λ₀ .tc) PUnit := do
  f 0
  f 1
  f 2
  f 3

abbrev barA : Sems sig S_ := SemArray.scalar (sig.barrier 0 rfl)

def genBody : Prog (TpuEff nD τ sig (Elt F) Λ₀ .tc) PUnit := do
  let d0 : Dev nD ← Prog.lift .deviceId
  semSignalWord (⟨k0_dev1 d0, k0_dev1_lt d0⟩ : Dev nD) barA.sem 1#32 hamt_1
  semSignalWord (⟨k0_dev2 d0, k0_dev2_lt d0⟩ : Dev nD) barA.sem 1#32 hamt_1
  semSignalWord (⟨k0_dev3 d0, k0_dev3_lt d0⟩ : Dev nD) barA.sem 1#32 hamt_1
  semWaitWord barA.sem 3#32 hamt_3
  seq16 (sendY d0)
  seq8 (sendYD d0)
  seq16 (iter2 d0)
  seq4 (iter3a d0)
  seq8 (iter3b d0)
  seq4 (fin4X d0)
  seq4 (fin4Z d0)
  seq8 (fin8Y d0)
  seq16 (sw16 d0)
  seq4 waitXRs
  seq4 waitZRs
  seq8 (waitYDs d0)

end Cert.KernelIdeal.GenBody

end
-- ==== Proof.GenBody.lean ====
/-
  The printed kernel body is the program laid out by what it does.
-/
import proofs.«901025_g7700000000001026_dist_rs_v7x_xyz2x2x2_y_m2048_n512_f32_1_alg».proof.Proof.GenBodyDefs
import Idealize.ShloMosaic.Lib.Pipeline.Regions

noncomputable section

namespace Cert.KernelIdeal.GenBody

open Cert.KernelIdeal Cert.KernelIdeal.Gen Cert.KernelIdeal.Proto Cert.RS
open Idealize.ShloMosaic Idealize.ShloMosaic.TcCoe Idealize.SL.Sem

variable {F : FTy → Type} [FloatOps F]

set_option maxRecDepth 65536 in
/-- The printed body, on the buffers the pipeline calls it with, is that program. -/
theorem body_eq :
    cc0_body (F := F) xM (Memref.isWhole_whole _) oM (Memref.isWhole_whole _) ybM (Memref.isWhole_whole _) ydM (Memref.isWhole_whole _)
      xdM (Memref.isWhole_whole _) zdM (Memref.isWhole_whole _) xrM (Memref.isWhole_whole _) zrM (Memref.isWhole_whole _)
      cc0_scratch6 cc0_scratch7 cc0_scratch8 cc0_scratch9 cc0_scratch10 cc0_scratch11 cc0_scratch12 cc0_scratch13 cc0_scratch14 cc0_scratch15 cc0_scratch16 cc0_scratch17
      = genBody := by chain_rfl

end Cert.KernelIdeal.GenBody

end
-- ==== Proof.StepDefs.lean ====
/-
  What every step of the body carries along, and the names the program's semaphores and neighbours go by.
-/
import proofs.«901025_g7700000000001026_dist_rs_v7x_xyz2x2x2_y_m2048_n512_f32_1_alg».proof.Proof.GenBodyDefs

noncomputable section

namespace Cert.KernelIdeal.StepDefs

open Cert.KernelIdeal Cert.KernelIdeal.Gen Cert.KernelIdeal.Proto Cert.KernelIdeal.GenBody Cert.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Known to every step, for good: every cell's invariant, every cell at its round 0, the levels. -/
def Pz (K : GSem nD τ sig → ℕ) : sProp 𝕄 := iprop(records m ρ K ∗ levAts L lv)

instance Pz_persistent (K : GSem nD τ sig → ℕ) : BI.Persistent (Pz (F := F) m ρ K) := by unfold Pz; infer_instance

/-- The device owes the tallies `O`, whatever waits it has recorded. -/
def owesE (c : Dev nD) (O : CellTallies nD τ sig Unit) : sProp 𝕄 := iprop(∃ W : Waits sig Unit, owes (c : Thread nD τ) O W)

omit [FloatOps F] in
theorem inv_of (K : GSem nD τ sig → ℕ) (g : GSem nD τ sig) (hg : g ∈ protoCells) : Pz (F := F) m ρ K ⊢ cellInv ER (Rd m ρ) (K g) g := by
  have h1 : (bigSep protoCells fun g => cellInv ER (Rd m ρ) (K g) g : sProp 𝕄) ⊢ cellInv ER (Rd m ρ) (K g) g := bigSep_elim hg
  unfold Pz records
  iintro ⟨⟨HI, -⟩, -⟩
  iapply h1; iexact HI
omit [FloatOps F] in
theorem reached_of (K : GSem nD τ sig → ℕ) (g : GSem nD τ sig) (hg : g ∈ protoCells) : Pz (F := F) m ρ K ⊢ reached ER g 0 := by
  have h1 : (bigSep protoCells fun g => reached ER g 0 : sProp 𝕄) ⊢ reached ER g 0 := bigSep_elim hg
  unfold Pz records
  iintro ⟨⟨-, HR⟩, -⟩
  iapply h1; iexact HR
omit [FloatOps F] in
theorem lev_of (K : GSem nD τ sig → ℕ) : Pz (F := F) m ρ K ⊢ (levAts L lv : sProp 𝕄) := by
  unfold Pz; iintro ⟨-, H⟩; iexact H

/-! ## The result rows a block is added into -/

/-- The first result row of block `k` of the own quarter, of the inner and of the outer neighbour's quarter, and of
    block `kk` of the opposite quarter. -/
def rowA (c : Dev nD) (k : Fin 16) : ℕ := 1024 * (c.val / 4) + 512 * (c.val % 2) + 32 * k.val
def rowZ (c : Dev nD) (k : Fin 16) : ℕ := (1024 * (c.val / 4) + 32 * k.val + 512) - 512 * (c.val % 2)
def rowX (c : Dev nD) (k : Fin 16) : ℕ := (512 * (c.val % 2) + 32 * k.val + 1024) - 1024 * (c.val / 4)
def rowD (c : Dev nD) (k : Fin 16) : ℕ := (32 * k.val + 1536) - (1024 * (c.val / 4) + 512 * (c.val % 2))

/-! ## The program's spelling of a block's semaphores is the pool number -/

theorem sem_s6 (k : Fin 16) : sem16 cc0_scratch6 k = fY.sS k := by fin_cases k <;> rfl
theorem sem_s7 (k : Fin 16) : sem16 cc0_scratch7 k = fY.rS k := by fin_cases k <;> rfl
theorem sem_s8 (k : Fin 8) : sem8 cc0_scratch8 k = fYD.sS k := by fin_cases k <;> rfl
theorem sem_s9 (k : Fin 8) : sem8 cc0_scratch9 k = fYD.rS k := by fin_cases k <;> rfl
theorem sem_s10 (k : Fin 16) : sem16 cc0_scratch10 k = fXD.sS k := by fin_cases k <;> rfl
theorem sem_s11 (k : Fin 16) : sem16 cc0_scratch11 k = fXD.rS k := by fin_cases k <;> rfl
theorem sem_s12 (k : Fin 16) : sem16 cc0_scratch12 k = fZD.sS k := by fin_cases k <;> rfl
theorem sem_s13 (k : Fin 16) : sem16 cc0_scratch13 k = fZD.rS k := by fin_cases k <;> rfl
theorem sem_s14 (k : Fin 4) : sem4 cc0_scratch14 k = fXR.sS k := by fin_cases k <;> rfl
theorem sem_s15 (k : Fin 4) : sem4 cc0_scratch15 k = fXR.rS k := by fin_cases k <;> rfl
theorem sem_s16 (k : Fin 4) : sem4 cc0_scratch16 k = fZR.sS k := by fin_cases k <;> rfl
theorem sem_s17 (k : Fin 4) : sem4 cc0_scratch17 k = fZR.rS k := by fin_cases k <;> rfl

/-! ## The program's spelling of a neighbour is the neighbour -/

theorem dY (k : Fin 16) (c : Dev nD) : (⟨devY k c, devY_lt k c⟩ : Dev nD) = peer c := Fin.ext (devY_eq k c)
theorem dYD (k : Fin 8) (c : Dev nD) : (⟨devYD k c, devYD_lt k c⟩ : Dev nD) = peer c := Fin.ext (devYD_eq k c)
theorem dXD (k : Fin 16) (c : Dev nD) : (⟨devXD k c, devXD_lt k c⟩ : Dev nD) = xnb c := Fin.ext (devXD_eq k c)
theorem dZD (k : Fin 16) (c : Dev nD) : (⟨devZD k c, devZD_lt k c⟩ : Dev nD) = znb c := Fin.ext (devZD_eq k c)
theorem dXR (k : Fin 4) (c : Dev nD) : (⟨devXR k c, devXR_lt k c⟩ : Dev nD) = xnb c := Fin.ext (devXR_eq k c)
theorem dZR (k : Fin 4) (c : Dev nD) : (⟨devZR k c, devZR_lt k c⟩ : Dev nD) = znb c := Fin.ext (devZR_eq k c)
theorem dB1 (c : Dev nD) : (⟨k0_dev1 c, k0_dev1_lt c⟩ : Dev nD) = peer c := Fin.ext (dev1_eq c)
theorem dB2 (c : Dev nD) : (⟨k0_dev2 c, k0_dev2_lt c⟩ : Dev nD) = xnb c := Fin.ext (dev2_eq c)
theorem dB3 (c : Dev nD) : (⟨k0_dev3 c, k0_dev3_lt c⟩ : Dev nD) = znb c := Fin.ext (dev3_eq c)

end Cert.KernelIdeal.StepDefs

end
-- ==== Proof.XSplit.lean ====
/-
  The staged slab of a device, split by columns.  The device only ever loads the column half its middle coordinate
  names; out of the other half, 24 blocks of 32 rows are lent to copies to the neighbour across the middle axis:
  16 from the device's own quarter of the rows and 8 from the second half of the opposite quarter.  Holding the whole
  slab is holding the own half, each of the 24 blocks, and what is left of the other half.
-/
import proofs.«901025_g7700000000001026_dist_rs_v7x_xyz2x2x2_y_m2048_n512_f32_1_alg».proof.Proof.Proto

noncomputable section

namespace Cert.KernelIdeal.XSplit

open Cert.KernelIdeal Cert.KernelIdeal.Gen Cert.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Proto

variable {F : FTy → Type} [FloatOps F]

local notation "𝕄" => MT nD τ sig Unit (Elt F) ℕ UU ℕ

/-! ## The element sets, by coordinates -/

/-- The device's own column half of its slab: columns `512 · my c` to `512 · my c + 511`, every row. -/
def keepSet (c : Dev nD) : Finset (Idx (xM.view.loc (c : Thread nD τ))) :=
  Finset.univ.filter fun i : S1x2048x1024.Idx => 512 * my c ≤ (i 2).val ∧ (i 2).val < 512 * my c + 512

/-- Block `k` of the device's own quarter, at the other column half. -/
def ySet (c : Dev nD) (k : Fin 16) : Finset (Idx (xM.view.loc (c : Thread nD τ))) := (xsY c k).view.set
/-- Block `8 + k` of the opposite quarter, at the other column half. -/
def ydSet (c : Dev nD) (k : Fin 8) : Finset (Idx (xM.view.loc (c : Thread nD τ))) := (xsYD c k).view.set

theorem mem_keepSet (c : Dev nD) (i : S1x2048x1024.Idx) :
    i ∈ keepSet c ↔ 512 * my c ≤ (i 2).val ∧ (i 2).val < 512 * my c + 512 := by
  unfold keepSet; rw [Finset.mem_filter]; exact ⟨fun h => h.2, fun h => ⟨Finset.mem_univ _, h⟩⟩

theorem ySet_eq (c : Dev nD) (k : Fin 16) :
    ySet c k = (Rect.unit (s := S1x2048x1024) (k0_off1 c (BitVec.ofNat 32 (32 * k.val))) S1x32x512.size (k0_off1_inb c k)).set :=
  (View.set_reshape _ _).trans (View.set_slice_whole _ _)

theorem ydSet_eq (c : Dev nD) (k : Fin 8) :
    ydSet c k = (Rect.unit (s := S1x2048x1024) (k0_off2 c (BitVec.ofNat 32 (256 + 32 * k.val))) S1x32x512.size (k0_off2_inb c k)).set :=
  (View.set_reshape _ _).trans (View.set_slice_whole _ _)

/-- Membership in a rectangle of one slab, 32 rows and 512 columns at row `A` and column `B`, by coordinates. -/
theorem forall3 (A B : ℕ) (i : S1x2048x1024.Idx) :
    (∀ a : Fin S1x2048x1024.rank, (![0, A, B] : Fin 3 → ℕ) a ≤ (i a).val ∧ (i a).val < (![0, A, B] : Fin 3 → ℕ) a + S1x32x512.size a)
      ↔ (A ≤ (i 1).val ∧ (i 1).val < A + 32) ∧ (B ≤ (i 2).val ∧ (i 2).val < B + 512) := by
  constructor
  · intro h; exact ⟨h 1, h 2⟩
  · rintro ⟨h1, h2⟩ a
    match a with
    | ⟨0, _⟩ => exact ⟨Nat.zero_le _, by have : (i 0).val < 1 := (i 0).isLt; show (i 0).val < 0 + 1; omega⟩
    | ⟨1, _⟩ => exact h1
    | ⟨2, _⟩ => exact h2

/-- An element is in block `k` of the own quarter exactly when its row is among the block's 32 and its column in the
    other half. -/
theorem mem_ySet (c : Dev nD) (k : Fin 16) (i : S1x2048x1024.Idx) :
    i ∈ ySet c k ↔ (qmine c + 32 * k.val ≤ (i 1).val ∧ (i 1).val < qmine c + 32 * k.val + 32)
      ∧ (512 - 512 * my c ≤ (i 2).val ∧ (i 2).val < 512 - 512 * my c + 512) := by
  rw [ySet_eq, Rect.mem_set_unit, k0_off1_eq c k, forall3]
  exact Iff.rfl

/-- An element is in block `8 + k` of the opposite quarter exactly when its row is among the block's 32 and its
    column in the other half. -/
theorem mem_ydSet (c : Dev nD) (k : Fin 8) (i : S1x2048x1024.Idx) :
    i ∈ ydSet c k ↔ ((32 * k.val + 1792) - qmine c ≤ (i 1).val ∧ (i 1).val < (32 * k.val + 1792) - qmine c + 32)
      ∧ (512 - 512 * my c ≤ (i 2).val ∧ (i 2).val < 512 - 512 * my c + 512) := by
  rw [ydSet_eq, Rect.mem_set_unit, k0_off2_eq c k, forall3]
  exact Iff.rfl

theorem qmine_cases (c : Dev nD) : qmine c = 0 ∨ qmine c = 512 ∨ qmine c = 1024 ∨ qmine c = 1536 := by
  have hc : c.val < 8 := c.isLt
  unfold qmine; omega

/-- The 24 blocks lie in the other column half. -/
theorem ySet_sub (c : Dev nD) (k : Fin 16) : ySet c k ⊆ Finset.univ \ keepSet c := fun i hi => by
  have h := (mem_ySet c k i).mp hi
  have hm := my_lt c
  refine Finset.mem_sdiff.mpr ⟨Finset.mem_univ _, fun hk => ?_⟩
  have h' := (mem_keepSet c i).mp hk
  omega
theorem ydSet_sub (c : Dev nD) (k : Fin 8) : ydSet c k ⊆ Finset.univ \ keepSet c := fun i hi => by
  have h := (mem_ydSet c k i).mp hi
  have hm := my_lt c
  refine Finset.mem_sdiff.mpr ⟨Finset.mem_univ _, fun hk => ?_⟩
  have h' := (mem_keepSet c i).mp hk
  omega

/-- They are pairwise disjoint: two blocks of one family have different rows; the two families lie in different
    quarters of the rows. -/
theorem ySet_disj (c : Dev nD) (k k' : Fin 16) (h : k ≠ k') : Disjoint (ySet c k) (ySet c k') :=
  Finset.disjoint_left.mpr fun i h1 h2 => by
    have a := (mem_ySet c k i).mp h1
    have b := (mem_ySet c k' i).mp h2
    have : k.val ≠ k'.val := fun e => h (Fin.ext e)
    omega
theorem ydSet_disj (c : Dev nD) (k k' : Fin 8) (h : k ≠ k') : Disjoint (ydSet c k) (ydSet c k') :=
  Finset.disjoint_left.mpr fun i h1 h2 => by
    have a := (mem_ydSet c k i).mp h1
    have b := (mem_ydSet c k' i).mp h2
    have : k.val ≠ k'.val := fun e => h (Fin.ext e)
    have := qmine_cases c
    omega
theorem ySet_ydSet_disj (c : Dev nD) (k : Fin 16) (k' : Fin 8) : Disjoint (ySet c k) (ydSet c k') :=
  Finset.disjoint_left.mpr fun i h1 h2 => by
    have a := (mem_ySet c k i).mp h1
    have b := (mem_ydSet c k' i).mp h2
    have := qmine_cases c
    have := k.isLt
    have := k'.isLt
    omega

/-! ## The split -/

/-- What is left of the other column half once the 24 blocks are taken out. -/
def restSet (c : Dev nD) : Finset (Idx (xM.view.loc (c : Thread nD τ))) :=
  ((Finset.univ \ keepSet c) \ Finset.univ.biUnion (ySet c)) \ Finset.univ.biUnion (ydSet c)

omit [FloatOps F] in
/-- The slab held at share `q` with contents `f` is: the own column half, each of the 24 lent blocks, and the rest of the
    other half, each held at `q` with `f`. -/
theorem xsplit_at (c : Dev nD) (q : PosShare TreeShare) (f : Buf (Elt F) (xM.view.loc (c : Thread nD τ))) :
    ((xM.view.loc (c : Thread nD τ)) ↦{q} f : sProp 𝕄)
      = iprop(((xM.view.loc (c : Thread nD τ)) ↦[keepSet c]{q} f)
          ∗ (bigSep Finset.univ fun k : Fin 16 => pts (xsY c k) c q f)
          ∗ (bigSep Finset.univ fun k : Fin 8 => pts (xsYD c k) c q f)
          ∗ ((xM.view.loc (c : Thread nD τ)) ↦[restSet c]{q} f)) := by
  have hY : Finset.univ.biUnion (ySet c) ⊆ Finset.univ \ keepSet c :=
    Finset.biUnion_subset.mpr fun k _ => ySet_sub c k
  have hD : Finset.univ.biUnion (ydSet c) ⊆ (Finset.univ \ keepSet c) \ Finset.univ.biUnion (ySet c) := fun i hi => by
    obtain ⟨k', -, hk'⟩ := Finset.mem_biUnion.mp hi
    refine Finset.mem_sdiff.mpr ⟨ydSet_sub c k' hk', fun hy => ?_⟩
    obtain ⟨k, -, hk⟩ := Finset.mem_biUnion.mp hy
    exact Finset.disjoint_left.mp (ySet_ydSet_disj c k k') hk hk'
  have e1 : ((xM.view.loc (c : Thread nD τ)) ↦{q} f : sProp 𝕄)
      = iprop(((xM.view.loc (c : Thread nD τ)) ↦[keepSet c]{q} f) ∗ ((xM.view.loc (c : Thread nD τ)) ↦[Finset.univ \ keepSet c]{q} f)) :=
    have h := pointsTo_split_subset (ℓ := xM.view.loc (c : Thread nD τ)) (q := q) (f := f) (Finset.subset_univ (keepSet c))
    BI.equiv_iff.mp ⟨h.1, h.2⟩
  have e2 : ((xM.view.loc (c : Thread nD τ)) ↦[Finset.univ \ keepSet c]{q} f : sProp 𝕄)
      = iprop(((xM.view.loc (c : Thread nD τ)) ↦[Finset.univ.biUnion (ySet c)]{q} f)
          ∗ ((xM.view.loc (c : Thread nD τ)) ↦[(Finset.univ \ keepSet c) \ Finset.univ.biUnion (ySet c)]{q} f)) :=
    have h := pointsTo_split_subset (ℓ := xM.view.loc (c : Thread nD τ)) (q := q) (f := f) hY
    BI.equiv_iff.mp ⟨h.1, h.2⟩
  have e3 : ((xM.view.loc (c : Thread nD τ)) ↦[(Finset.univ \ keepSet c) \ Finset.univ.biUnion (ySet c)]{q} f : sProp 𝕄)
      = iprop(((xM.view.loc (c : Thread nD τ)) ↦[Finset.univ.biUnion (ydSet c)]{q} f)
          ∗ ((xM.view.loc (c : Thread nD τ)) ↦[restSet c]{q} f)) :=
    have h := pointsTo_split_subset (ℓ := xM.view.loc (c : Thread nD τ)) (q := q) (f := f) hD
    BI.equiv_iff.mp ⟨h.1, h.2⟩
  have e4 : ((xM.view.loc (c : Thread nD τ)) ↦[Finset.univ.biUnion (ySet c)]{q} f : sProp 𝕄)
      = bigSep Finset.univ fun k : Fin 16 => ((xM.view.loc (c : Thread nD τ)) ↦[ySet c k]{q} f) :=
    pointsTo_biUnion _ _ fun k _ k' _ h => ySet_disj c k k' h
  have e5 : ((xM.view.loc (c : Thread nD τ)) ↦[Finset.univ.biUnion (ydSet c)]{q} f : sProp 𝕄)
      = bigSep Finset.univ fun k : Fin 8 => ((xM.view.loc (c : Thread nD τ)) ↦[ydSet c k]{q} f) :=
    pointsTo_biUnion _ _ fun k _ k' _ h => ydSet_disj c k k' h
  rw [e1, e2, e3, e4, e5]
  rfl

variable (m : (ℓ : Loc nD τ sig) → Buf (Elt F) ℓ) (ρ : Dev nD → PrngReg)

/-- The own column half of the staged slab, and what is left of the other half, at the slab's staged contents. -/
def xKeep (c : Dev nD) : sProp 𝕄 := (xM.view.loc (c : Thread nD τ)) ↦[keepSet c]{fullShare} xstg m ρ c
def xRest (c : Dev nD) : sProp 𝕄 := (xM.view.loc (c : Thread nD τ)) ↦[restSet c]{fullShare} xstg m ρ c

omit [FloatOps F] in
/-- The staged slab is its own column half, the 24 lent blocks, and the rest. -/
theorem xsplit (c : Dev nD) :
    (((c : Thread nD τ).loc cc0_stg0_0) ↦{fullShare} xstg m ρ c : sProp 𝕄)
      ⊣⊢ iprop(xKeep m ρ c ∗ (bigSep Finset.univ fun k : Fin 16 => pts (xsY c k) c fullShare (xstg m ρ c))
          ∗ (bigSep Finset.univ fun k : Fin 8 => pts (xsYD c k) c fullShare (xstg m ρ c)) ∗ xRest m ρ c) :=
  BiEntails.of_eq (xsplit_at c fullShare (xstg m ρ c))

/-! ## The kernel's loads stay in the own half -/

omit [FloatOps F] in
/-- A load of 32 rows and 512 columns at column `512 · my c` reads only the own column half. -/
theorem load_keep_of (c : Dev nD) (off : Fin 3 → ℕ) (A : ℕ)
    (inb : ∀ a, off a + S1x32x512.size a ≤ S1x2048x1024.size a) (h : off = ![0, A, 512 * my c]) :
    xM.view.setOn (Rect.unit (s := S1x2048x1024) off S1x32x512.size inb).toLoadRect.set ⊆ keepSet c := by
  subst h
  intro i hi
  rw [View.setOn, Finset.mem_map] at hi
  obtain ⟨j, hj, rfl⟩ := hi
  have h2 := ((forall3 A (512 * my c) j).mp (Rect.mem_set_unit.mp hj)).2
  exact (mem_keepSet c j).mpr h2

omit [FloatOps F] in
theorem load_keep3 (c : Dev nD) (k : Fin 16) :
    xM.view.setOn (Rect.unit (s := S1x2048x1024) (k0_off3 c (BitVec.ofNat 32 (32 * k.val))) S1x32x512.size (k0_off3_inb c k)).toLoadRect.set ⊆ keepSet c :=
  load_keep_of c _ _ _ (k0_off3_eq c k)

omit [FloatOps F] in
theorem load_keep5 (c : Dev nD) (k : Fin 16) :
    xM.view.setOn (Rect.unit (s := S1x2048x1024) (k0_off5 c (BitVec.ofNat 32 (32 * k.val))) S1x32x512.size (k0_off5_inb c k)).toLoadRect.set ⊆ keepSet c :=
  load_keep_of c _ _ _ (k0_off5_eq c k)

omit [FloatOps F] in
theorem load_keep7 (c : Dev nD) (k : Fin 16) :
    xM.view.setOn (Rect.unit (s := S1x2048x1024) (k0_off7 c (BitVec.ofNat 32 (32 * k.val))) S1x32x512.size (k0_off7_inb c k)).toLoadRect.set ⊆ keepSet c :=
  load_keep_of c _ _ _ (k0_off7_eq c k)

omit [FloatOps F] in
theorem load_keep9 (c : Dev nD) (k : Fin 16) :
    xM.view.setOn (Rect.unit (s := S1x2048x1024) (k0_off9 c (BitVec.ofNat 32 (32 * k.val))) S1x32x512.size (k0_off9_inb c k)).toLoadRect.set ⊆ keepSet c :=
  load_keep_of c _ _ _ (k0_off9_eq c k)

end Cert.KernelIdeal.XSplit

end
-- ==== Proof.Accum.lean ====
/-
  Adding a landed block into the staged result.

  The body adds a 32 × 512 block that has landed in one of the landing buffers to the matching block of the
  device's own slab and stores the sum into 32 rows of the staged result.  The result buffer is tracked by the
  rows done so far: each such row already holds its final values; the store extends the rows done by the 32 it
  writes, and leaves every other row as it was.
-/
import proofs.«901025_g7700000000001026_dist_rs_v7x_xyz2x2x2_y_m2048_n512_f32_1_alg».proof.Proof.Proto
import Idealize.ShloMosaic.Lib.Tactic

noncomputable section

namespace Cert.KernelIdeal.Accum

open Cert.KernelIdeal Cert.KernelIdeal.Gen Cert.RS Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result buffer's invariant, the sum, the program -/

/-- The staged result, whole, at contents that are final on the rows `D`. -/
def outInv (c : Dev nD) (D : ℕ → Prop) : sProp 𝕄 :=
  iprop(∃ g : Buf (Elt F) (oM.view.loc (c : Thread nD τ)), pts oM c fullShare g ∗ ⌜∀ i : S2048x512.Idx, D (i 0).val → g i = outAt m ρ c i⌝)

/-- The sum the body stores: the slab's block, its leading axis of one dropped, plus the landed block. -/
def pay (v : Vec F S1x32x512 .f32) (w : Vec F S32x512 .f32) : FVec F S32x512 .f32 :=
  addf (shapeCast S32x512 v shapeCasts_S1x32x512_S32x512) w

/-- The four operations, for a landing buffer of any two extents and a block of it at any offsets. -/
def accG (ox : Fin 3 → Nat) (hx : ∀ a, ox a + S1x32x512.size a ≤ S1x2048x1024.size a)
    (oo : Fin 2 → Nat) (ho : ∀ a, oo a + S32x512.size a ≤ S2048x512.size a)
    {db : Fin 2 → ℕ} (bM : Memref sig .tc .vmem ⟨2, db⟩ .f32) (ob : Fin 2 → Nat) (hb : ∀ a, ob a + S32x512.size a ≤ (⟨2, db⟩ : Shape).size a) :
    Prog (TpuEff nD τ sig (Elt F) Λ₀ .tc) PUnit := do
  let v1 : Vec F S1x32x512 .f32 ← Prog.lift (.load xM (Rect.unit (s := S1x2048x1024) ox S1x32x512.size hx).toLoadRect (View.loadsAt_vmem h_S1x32x512))
  let v2 : Vec F S32x512 .f32 ← Prog.lift (.load bM (Rect.unit (s := ⟨2, db⟩) ob S32x512.size hb).toLoadRect (View.loadsAt_vmem h_S32x512))
  let _v3 : Vec F S32x512 .f32 ← Prog.lift (.load oM (Rect.unit (s := S2048x512) oo S32x512.size ho).toLoadRect (View.loadsAt_vmem h_S32x512))
  Prog.lift (.store oM (Rect.unit (s := S2048x512) oo S32x512.size ho) (pay v1 v2) Finset.univ (View.stores_vmem_bits_univ h_S32x512 rfl) (.inl rfl))

def acc512 (ox : Fin 3 → Nat) (hx : ∀ a, ox a + S1x32x512.size a ≤ S1x2048x1024.size a)
    (oo : Fin 2 → Nat) (ho : ∀ a, oo a + S32x512.size a ≤ S2048x512.size a)
    (bM : Memref sig .tc .vmem S512x512 .f32) (k : Fin 16) : Prog (TpuEff nD τ sig (Elt F) Λ₀ .tc) PUnit := do
  let v1 : Vec F S1x32x512 .f32 ← Prog.lift (.load xM (Rect.unit (s := S1x2048x1024) ox S1x32x512.size hx).toLoadRect (View.loadsAt_vmem h_S1x32x512))
  let v2 : Vec F S32x512 .f32 ← Prog.lift (.load bM (Rect.unit (s := S512x512) ![32 * k.val, 0] S32x512.size (inb512 k)).toLoadRect (View.loadsAt_vmem h_S32x512))
  let _v3 : Vec F S32x512 .f32 ← Prog.lift (.load oM (Rect.unit (s := S2048x512) oo S32x512.size ho).toLoadRect (View.loadsAt_vmem h_S32x512))
  Prog.lift (.store oM (Rect.unit (s := S2048x512) oo S32x512.size ho) (pay v1 v2) Finset.univ (View.stores_vmem_bits_univ h_S32x512 rfl) (.inl rfl))

def acc256 (ox : Fin 3 → Nat) (hx : ∀ a, ox a + S1x32x512.size a ≤ S1x2048x1024.size a)
    (oo : Fin 2 → Nat) (ho : ∀ a, oo a + S32x512.size a ≤ S2048x512.size a)
    (bM : Memref sig .tc .vmem S256x512 .f32) (k : Fin 8) : Prog (TpuEff nD τ sig (Elt F) Λ₀ .tc) PUnit := do
  let v1 : Vec F S1x32x512 .f32 ← Prog.lift (.load xM (Rect.unit (s := S1x2048x1024) ox S1x32x512.size hx).toLoadRect (View.loadsAt_vmem h_S1x32x512))
  let v2 : Vec F S32x512 .f32 ← Prog.lift (.load bM (Rect.unit (s := S256x512) ![32 * k.val, 0] S32x512.size (inb256 k)).toLoadRect (View.loadsAt_vmem h_S32x512))
  let _v3 : Vec F S32x512 .f32 ← Prog.lift (.load oM (Rect.unit (s := S2048x512) oo S32x512.size ho).toLoadRect (View.loadsAt_vmem h_S32x512))
  Prog.lift (.store oM (Rect.unit (s := S2048x512) oo S32x512.size ho) (pay v1 v2) Finset.univ (View.stores_vmem_bits_univ h_S32x512 rfl) (.inl rfl))

def acc128 (ox : Fin 3 → Nat) (hx : ∀ a, ox a + S1x32x512.size a ≤ S1x2048x1024.size a)
    (oo : Fin 2 → Nat) (ho : ∀ a, oo a + S32x512.size a ≤ S2048x512.size a)
    (bM : Memref sig .tc .vmem S128x512 .f32) (k : Fin 4) : Prog (TpuEff nD τ sig (Elt F) Λ₀ .tc) PUnit := do
  let v1 : Vec F S1x32x512 .f32 ← Prog.lift (.load xM (Rect.unit (s := S1x2048x1024) ox S1x32x512.size hx).toLoadRect (View.loadsAt_vmem h_S1x32x512))
  let v2 : Vec F S32x512 .f32 ← Prog.lift (.load bM (Rect.unit (s := S128x512) ![32 * k.val, 0] S32x512.size (inb128 k)).toLoadRect (View.loadsAt_vmem h_S32x512))
  let _v3 : Vec F S32x512 .f32 ← Prog.lift (.load oM (Rect.unit (s := S2048x512) oo S32x512.size ho).toLoadRect (View.loadsAt_vmem h_S32x512))
  Prog.lift (.store oM (Rect.unit (s := S2048x512) oo S32x512.size ho) (pay v1 v2) Finset.univ (View.stores_vmem_bits_univ h_S32x512 rfl) (.inl rfl))

theorem acc512_eq (ox hx oo ho) (bM : Memref sig .tc .vmem S512x512 .f32) (k : Fin 16) :
    acc512 (F := F) ox hx oo ho bM k = accG ox hx oo ho bM ![32 * k.val, 0] (inb512 k) := rfl
theorem acc256_eq (ox hx oo ho) (bM : Memref sig .tc .vmem S256x512 .f32) (k : Fin 8) :
    acc256 (F := F) ox hx oo ho bM k = accG ox hx oo ho bM ![32 * k.val, 0] (inb256 k) := rfl
theorem acc128_eq (ox hx oo ho) (bM : Memref sig .tc .vmem S128x512 .f32) (k : Fin 4) :
    acc128 (F := F) ox hx oo ho bM k = accG ox hx oo ho bM ![32 * k.val, 0] (inb128 k) := rfl

/-! ## The rows a store covers -/

/-- A block stored at row `R` lies inside the result's 2048 rows. -/
theorem row_lt {oo : Fin 2 → Nat} (ho : ∀ a, oo a + S32x512.size a ≤ S2048x512.size a) {R : ℕ} (hR : oo = ![R, 0]) (j : S32x512.Idx) :
    R + (j 0).val < 2048 := by
  have h0 : oo 0 + 32 ≤ 2048 := ho 0
  have hj : (j 0).val < 32 := (j 0).isLt
  rw [hR] at h0
  have : (![R, 0] : Fin 2 → ℕ) 0 = R := rfl
  omega

/-- The elements a store at row `R` writes: rows `R` … `R + 31`, every column. -/
theorem mem_store_iff {R : ℕ} (ho : ∀ a, (![R, 0] : Fin 2 → ℕ) a + S32x512.size a ≤ S2048x512.size a) (i : S2048x512.Idx) :
    i ∈ ((oM.access (Rect.unit (s := S2048x512) ![R, 0] S32x512.size ho) : View sig .tc _ _ _).setOn Finset.univ)
      ↔ R ≤ (i 0).val ∧ (i 0).val < R + 32 := by
  rw [View.setOn_univ]
  show i ∈ ((View.whole cc0_stg1_0).slice (Rect.unit (s := S2048x512) ![R, 0] S32x512.size ho)).set ↔ _
  rw [View.set_slice_whole, Rect.mem_set_unit]
  constructor
  · intro h; exact h 0
  · intro h a
    fin_cases a
    · exact h
    · have h1 : (i 1).val < 512 := (i 1).isLt
      exact ⟨Nat.zero_le _, by show (i 1).val < 0 + 512; omega⟩

/-- Where the stored block's own index `j` sits in the result. -/
theorem emb_store {R : ℕ} (ho : ∀ a, (![R, 0] : Fin 2 → ℕ) a + S32x512.size a ≤ S2048x512.size a) (j : S32x512.Idx) (h : R + (j 0).val < 2048) :
    ((oM.access (Rect.unit (s := S2048x512) ![R, 0] S32x512.size ho) : View sig .tc _ _ _).emb j : S2048x512.Idx)
      = ValueIdx.ix2 ⟨R + (j 0).val, h⟩ (j 1) := by
  funext a
  refine Fin.ext ?_
  fin_cases a
  · show R + 1 * (j 0).val = R + (j 0).val; omega
  · show 0 + 1 * (j 1).val = (j 1).val; omega

/-! ## The four operations -/

theorem wp_accG (c : Dev nD) (ox : Fin 3 → Nat) (hx : ∀ a, ox a + S1x32x512.size a ≤ S1x2048x1024.size a)
    (oo : Fin 2 → Nat) (ho : ∀ a, oo a + S32x512.size a ≤ S2048x512.size a)
    {db : Fin 2 → ℕ} (bM : Memref sig .tc .vmem ⟨2, db⟩ .f32) (ob : Fin 2 → Nat) (hb : ∀ a, ob a + S32x512.size a ≤ (⟨2, db⟩ : Shape).size a)
    (R : ℕ) (hR : oo = ![R, 0]) (D : ℕ → Prop)
    (Sx : Finset (Idx (xM.view.loc (c : Thread nD τ)))) (qx : PosShare TreeShare)
    (hSx : xM.view.setOn (Rect.unit (s := S1x2048x1024) ox S1x32x512.size hx).toLoadRect.set ⊆ Sx)
    (qb : PosShare TreeShare)
    (B : Buf (Elt F) ((bM.slice (Rect.unit (s := ⟨2, db⟩) ob S32x512.size hb) (fun _ => rfl)).view.loc (c : Thread nD τ)))
    (hval : ∀ j : S32x512.Idx,
      pay (xM.view.readAt (Elt F) (Rect.unit (s := S1x2048x1024) ox S1x32x512.size hx).toLoadRect (xstg m ρ c))
          (bM.view.readAt (Elt F) (Rect.unit (s := ⟨2, db⟩) ob S32x512.size hb).toLoadRect B) j
        = outAt m ρ c (ValueIdx.ix2 ⟨R + (j 0).val, row_lt ho hR j⟩ (j 1)))
    (Kt : PUnit → sProp 𝕄) :
    iprop(((xM.view.loc (c : Thread nD τ)) ↦[Sx]{qx} xstg m ρ c)
        ∗ pts (bM.slice (Rect.unit (s := ⟨2, db⟩) ob S32x512.size hb) (fun _ => rfl)) c qb B
        ∗ outInv m ρ c D
        ∗ ((((xM.view.loc (c : Thread nD τ)) ↦[Sx]{qx} xstg m ρ c)
            ∗ pts (bM.slice (Rect.unit (s := ⟨2, db⟩) ob S32x512.size hb) (fun _ => rfl)) c qb B
            ∗ outInv m ρ c (fun r => D r ∨ (R ≤ r ∧ r < R + 32))) -∗ Kt ⟨⟩))
      ⊢ wp frame (wpE (defs₀ (F := F)) 𝒱₀ (c : Thread nD τ) none) Set.univ (accG ox hx oo ho bM ob hb) Kt := by
  subst hR
  unfold accG outInv
  simp only [Prog.lift, Prog.bind_op, Prog.bind_ret, Prog.pure_eq_ret]
  iintro ⟨Hx, Hb, ⟨%g, Hg, %hg⟩, Hk⟩
  iapply (wp_load 𝒱₀ (c : Thread nD τ) none Set.univ (m := xM) hSx) $$ Hx; iintro Hx
  iapply (wp_load 𝒱₀ (c : Thread nD τ) none Set.univ (m := bM)
    (S := (bM.slice (Rect.unit (s := ⟨2, db⟩) ob S32x512.size hb) (fun _ => rfl)).view.set)
    (by show bM.view.setOn _ ⊆ (bM.view.slice (Rect.unit (s := ⟨2, db⟩) ob S32x512.size hb)).set; rw [View.set_slice]; exact Finset.Subset.refl _)) $$ Hb; iintro Hb
  iapply (wp_load 𝒱₀ (c : Thread nD τ) none Set.univ (m := oM) (View.setOn_subset_set _ _)) $$ Hg; iintro Hg
  iapply (wp_store 𝒱₀ (c : Thread nD τ) none Set.univ (m := oM) (r := Rect.unit (s := S2048x512) ![R, 0] S32x512.size ho)
    (Mk := Finset.univ) (S := oM.view.set) (View.set_slice_subset _ _)) $$ Hg; iintro Hg
  rw [wp_ret]; imodintro
  iapply Hk
  isplitl [Hx]; · iexact Hx
  isplitl [Hb]; · iexact Hb
  iexists _
  isplitl [Hg]; · iexact Hg
  ipureintro
  intro i hi
  by_cases hin : R ≤ (i 0).val ∧ (i 0).val < R + 32
  · obtain ⟨j, -, rfl⟩ := Finset.mem_map.mp ((mem_store_iff ho i).mpr hin)
    rw [View.write_emb_of_mem _ _ (Finset.mem_univ j), hval j, emb_store ho j (row_lt ho rfl j)]
    rfl
  · rw [View.write_of_not_mem _ _ _ (fun h => hin ((mem_store_iff ho i).mp h))]
    exact hg i (hi.resolve_right hin)

theorem wp_acc512 (c : Dev nD) (ox : Fin 3 → Nat) (hx : ∀ a, ox a + S1x32x512.size a ≤ S1x2048x1024.size a)
    (oo : Fin 2 → Nat) (ho : ∀ a, oo a + S32x512.size a ≤ S2048x512.size a)
    (bM : Memref sig .tc .vmem S512x512 .f32) (k : Fin 16) (R : ℕ) (hR : oo = ![R, 0]) (D : ℕ → Prop)
    (Sx : Finset (Idx (xM.view.loc (c : Thread nD τ)))) (qx : PosShare TreeShare)
    (hSx : xM.view.setOn (Rect.unit (s := S1x2048x1024) ox S1x32x512.size hx).toLoadRect.set ⊆ Sx)
    (qb : PosShare TreeShare) (B : Buf (Elt F) ((ch512 bM k).view.loc (c : Thread nD τ)))
    (hval : ∀ j : S32x512.Idx,
      pay (xM.view.readAt (Elt F) (Rect.unit (s := S1x2048x1024) ox S1x32x512.size hx).toLoadRect (xstg m ρ c))
          (bM.view.readAt (Elt F) (Rect.unit (s := S512x512) ![32 * k.val, 0] S32x512.size (inb512 k)).toLoadRect B) j
        = outAt m ρ c (ValueIdx.ix2 ⟨R + (j 0).val, row_lt ho hR j⟩ (j 1)))
    (Kt : PUnit → sProp 𝕄) :
    iprop(((xM.view.loc (c : Thread nD τ)) ↦[Sx]{qx} xstg m ρ c) ∗ pts (ch512 bM k) c qb B ∗ outInv m ρ c D
        ∗ ((((xM.view.loc (c : Thread nD τ)) ↦[Sx]{qx} xstg m ρ c) ∗ pts (ch512 bM k) c qb B
            ∗ outInv m ρ c (fun r => D r ∨ (R ≤ r ∧ r < R + 32))) -∗ Kt ⟨⟩))
      ⊢ wp frame (wpE (defs₀ (F := F)) 𝒱₀ (c : Thread nD τ) none) Set.univ (acc512 ox hx oo ho bM k) Kt :=
  wp_accG m ρ c ox hx oo ho bM ![32 * k.val, 0] (inb512 k) R hR D Sx qx hSx qb B hval Kt

theorem wp_acc256 (c : Dev nD) (ox : Fin 3 → Nat) (hx : ∀ a, ox a + S1x32x512.size a ≤ S1x2048x1024.size a)
    (oo : Fin 2 → Nat) (ho : ∀ a, oo a + S32x512.size a ≤ S2048x512.size a)
    (bM : Memref sig .tc .vmem S256x512 .f32) (k : Fin 8) (R : ℕ) (hR : oo = ![R, 0]) (D : ℕ → Prop)
    (Sx : Finset (Idx (xM.view.loc (c : Thread nD τ)))) (qx : PosShare TreeShare)
    (hSx : xM.view.setOn (Rect.unit (s := S1x2048x1024) ox S1x32x512.size hx).toLoadRect.set ⊆ Sx)
    (qb : PosShare TreeShare) (B : Buf (Elt F) ((ch256 bM k).view.loc (c : Thread nD τ)))
    (hval : ∀ j : S32x512.Idx,
      pay (xM.view.readAt (Elt F) (Rect.unit (s := S1x2048x1024) ox S1x32x512.size hx).toLoadRect (xstg m ρ c))
          (bM.view.readAt (Elt F) (Rect.unit (s := S256x512) ![32 * k.val, 0] S32x512.size (inb256 k)).toLoadRect B) j
        = outAt m ρ c (ValueIdx.ix2 ⟨R + (j 0).val, row_lt ho hR j⟩ (j 1)))
    (Kt : PUnit → sProp 𝕄) :
    iprop(((xM.view.loc (c : Thread nD τ)) ↦[Sx]{qx} xstg m ρ c) ∗ pts (ch256 bM k) c qb B ∗ outInv m ρ c D
        ∗ ((((xM.view.loc (c : Thread nD τ)) ↦[Sx]{qx} xstg m ρ c) ∗ pts (ch256 bM k) c qb B
            ∗ outInv m ρ c (fun r => D r ∨ (R ≤ r ∧ r < R + 32))) -∗ Kt ⟨⟩))
      ⊢ wp frame (wpE (defs₀ (F := F)) 𝒱₀ (c : Thread nD τ) none) Set.univ (acc256 ox hx oo ho bM k) Kt :=
  wp_accG m ρ c ox hx oo ho bM ![32 * k.val, 0] (inb256 k) R hR D Sx qx hSx qb B hval Kt

theorem wp_acc128 (c : Dev nD) (ox : Fin 3 → Nat) (hx : ∀ a, ox a + S1x32x512.size a ≤ S1x2048x1024.size a)
    (oo : Fin 2 → Nat) (ho : ∀ a, oo a + S32x512.size a ≤ S2048x512.size a)
    (bM : Memref sig .tc .vmem S128x512 .f32) (k : Fin 4) (R : ℕ) (hR : oo = ![R, 0]) (D : ℕ → Prop)
    (Sx : Finset (Idx (xM.view.loc (c : Thread nD τ)))) (qx : PosShare TreeShare)
    (hSx : xM.view.setOn (Rect.unit (s := S1x2048x1024) ox S1x32x512.size hx).toLoadRect.set ⊆ Sx)
    (qb : PosShare TreeShare) (B : Buf (Elt F) ((ch128 bM k).view.loc (c : Thread nD τ)))
    (hval : ∀ j : S32x512.Idx,
      pay (xM.view.readAt (Elt F) (Rect.unit (s := S1x2048x1024) ox S1x32x512.size hx).toLoadRect (xstg m ρ c))
          (bM.view.readAt (Elt F) (Rect.unit (s := S128x512) ![32 * k.val, 0] S32x512.size (inb128 k)).toLoadRect B) j
        = outAt m ρ c (ValueIdx.ix2 ⟨R + (j 0).val, row_lt ho hR j⟩ (j 1)))
    (Kt : PUnit → sProp 𝕄) :
    iprop(((xM.view.loc (c : Thread nD τ)) ↦[Sx]{qx} xstg m ρ c) ∗ pts (ch128 bM k) c qb B ∗ outInv m ρ c D
        ∗ ((((xM.view.loc (c : Thread nD τ)) ↦[Sx]{qx} xstg m ρ c) ∗ pts (ch128 bM k) c qb B
            ∗ outInv m ρ c (fun r => D r ∨ (R ≤ r ∧ r < R + 32))) -∗ Kt ⟨⟩))
      ⊢ wp frame (wpE (defs₀ (F := F)) 𝒱₀ (c : Thread nD τ) none) Set.univ (acc128 ox hx oo ho bM k) Kt :=
  wp_accG m ρ c ox hx oo ho bM ![32 * k.val, 0] (inb128 k) R hR D Sx qx hSx qb B hval Kt

/-- info: 'Cert.KernelIdeal.Accum.wp_accG' depends on axioms: [propext, Classical.choice, Quot.sound] -/
#guard_msgs in #print axioms wp_accG

end Cert.KernelIdeal.Accum

end
-- ==== Proof.Loops.lean ====
/-
  Unrolled loops.  Step `k` of a loop turns the shared state `Sh k` and its own resource `A k` into the shared state
  `Sh (k + 1)` and `B k`; run one after the other, the steps turn `Sh 0` and all the `A`'s into `Sh n` and all the
  `B`'s.  Proved once for a list of steps by induction on the list, then read off for 16, 8 and 4 steps.
-/
import proofs.«901025_g7700000000001026_dist_rs_v7x_xyz2x2x2_y_m2048_n512_f32_1_alg».proof.Proof.GenBodyDefs

noncomputable section

namespace Cert.KernelIdeal.Loops

open Cert.KernelIdeal Cert.KernelIdeal.Gen Cert.RS
open Cert.KernelIdeal.Proto Cert.KernelIdeal.GenBody

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The programs of a list, one after the other (the last one ends the sequence: no trailing `pure`). -/
def seqL : List (Prog (TpuEff nD τ sig (Elt F) Λ₀ .tc) PUnit) → Prog (TpuEff nD τ sig (Elt F) Λ₀ .tc) PUnit
  | [] => pure ⟨⟩
  | [p] => p
  | p :: q :: l => do p; seqL (q :: l)

/-- The chain over a list of at least two, with the head split off, as a separating conjunction of `iprop`. -/
theorem bigSepL_cons_cons_iprop {ι : Type} (i i' : ι) (l : List ι) (Φ : ι → sProp 𝕄) :
    bigSepL (i :: i' :: l) Φ = iprop(Φ i ∗ bigSepL (i' :: l) Φ) := rfl

/-- A list of steps whose positions `ix` count up from `j`: from `Sh j` and every step's `A`, to `Sh (j + length)` and
    every step's `B`.  Induction on the list; the head step runs by `h` with the rest of the list as its continuation. -/
theorem wp_seqL {ι : Type} (c : Dev nD) (Sh : ℕ → sProp 𝕄) (A B : ι → sProp 𝕄) (ix : ι → ℕ)
    (f : ι → Prog (TpuEff nD τ sig (Elt F) Λ₀ .tc) PUnit)
    (h : ∀ (k : ι) (Kt : PUnit → sProp 𝕄), iprop(Sh (ix k) ∗ A k ∗ ((Sh (ix k + 1) ∗ B k) -∗ Kt ⟨⟩))
      ⊢ wp frame (wpE (defs₀ (F := F)) 𝒱₀ (c : Thread nD τ) none) Set.univ (f k) Kt) :
    ∀ (l : List ι) (j : ℕ), l.map ix = List.range' j l.length → ∀ (Kt : PUnit → sProp 𝕄),
      iprop(Sh j ∗ bigSepL l A ∗ ((Sh (j + l.length) ∗ bigSepL l B) -∗ Kt ⟨⟩))
        ⊢ wp frame (wpE (defs₀ (F := F)) 𝒱₀ (c : Thread nD τ) none) Set.univ (seqL (l.map f)) Kt
  | [], j, _, Kt => by
    simp only [List.map_nil, seqL, wp_pure, bigSepL_nil, List.length_nil, Nat.add_zero]
    iintro ⟨HS, -, Hk⟩
    imodintro
    iapply Hk
    isplitl [HS]; · iexact HS
    iempintro
  | [i], j, hl, Kt => by
    have hi : ix i = j := by simpa using hl
    subst hi
    exact h i Kt
  | i :: i' :: l, j, hl, Kt => by
    have hl' : ix i :: (i' :: l).map ix = j :: List.range' (j + 1) (i' :: l).length := by
      rw [← List.range'_succ]; exact hl
    obtain ⟨hi, ht⟩ := List.cons.inj hl'
    subst hi
    have ih := wp_seqL c Sh A B ix f h (i' :: l) (ix i + 1) ht Kt
    have hn : ix i + (i :: i' :: l).length = ix i + 1 + (i' :: l).length := by
      simp only [List.length_cons]; omega
    rw [hn]
    simp only [List.map_cons, seqL, wp_bind, bigSepL_cons_cons_iprop]
    simp only [List.map_cons] at ih
    iintro ⟨HS, ⟨HA, HAs⟩, Hk⟩
    iapply (h i _)
    isplitl [HS]; · iexact HS
    isplitl [HA]; · iexact HA
    iintro ⟨HS', HB⟩
    iapply ih
    isplitl [HS']; · iexact HS'
    isplitl [HAs]; · iexact HAs
    iintro ⟨HSn, HBs⟩
    iapply Hk
    isplitl [HSn]; · iexact HSn
    isplitl [HB]; · iexact HB
    iexact HBs

/-- 16 steps. -/
theorem wp_seq16 (c : Dev nD) (Sh : ℕ → sProp 𝕄) (A B : Fin 16 → sProp 𝕄) (f : Fin 16 → Prog (TpuEff nD τ sig (Elt F) Λ₀ .tc) PUnit)
    (h : ∀ (k : Fin 16) (Kt : PUnit → sProp 𝕄), iprop(Sh k.val ∗ A k ∗ ((Sh (k.val + 1) ∗ B k) -∗ Kt ⟨⟩))
      ⊢ wp frame (wpE (defs₀ (F := F)) 𝒱₀ (c : Thread nD τ) none) Set.univ (f k) Kt)
    (Kt : PUnit → sProp 𝕄) :
    iprop(Sh 0 ∗ bigSep Finset.univ A ∗ ((Sh 16 ∗ bigSep Finset.univ B) -∗ Kt ⟨⟩))
      ⊢ wp frame (wpE (defs₀ (F := F)) 𝒱₀ (c : Thread nD τ) none) Set.univ (seq16 f) Kt := by
  rw [bigSep_univ_eq_bigSepL [(0 : Fin 16), 1, 2, 3, 4, 5, 6, 7, 8, 9, 10, 11, 12, 13, 14, 15] (by decide) (by decide) A,
    bigSep_univ_eq_bigSepL [(0 : Fin 16), 1, 2, 3, 4, 5, 6, 7, 8, 9, 10, 11, 12, 13, 14, 15] (by decide) (by decide) B]
  exact wp_seqL c Sh A B (fun k => k.val) f h [(0 : Fin 16), 1, 2, 3, 4, 5, 6, 7, 8, 9, 10, 11, 12, 13, 14, 15] 0 (by decide) Kt

/-- 8 steps. -/
theorem wp_seq8 (c : Dev nD) (Sh : ℕ → sProp 𝕄) (A B : Fin 8 → sProp 𝕄) (f : Fin 8 → Prog (TpuEff nD τ sig (Elt F) Λ₀ .tc) PUnit)
    (h : ∀ (k : Fin 8) (Kt : PUnit → sProp 𝕄), iprop(Sh k.val ∗ A k ∗ ((Sh (k.val + 1) ∗ B k) -∗ Kt ⟨⟩))
      ⊢ wp frame (wpE (defs₀ (F := F)) 𝒱₀ (c : Thread nD τ) none) Set.univ (f k) Kt)
    (Kt : PUnit → sProp 𝕄) :
    iprop(Sh 0 ∗ bigSep Finset.univ A ∗ ((Sh 8 ∗ bigSep Finset.univ B) -∗ Kt ⟨⟩))
      ⊢ wp frame (wpE (defs₀ (F := F)) 𝒱₀ (c : Thread nD τ) none) Set.univ (seq8 f) Kt := by
  rw [bigSep_univ_eq_bigSepL [(0 : Fin 8), 1, 2, 3, 4, 5, 6, 7] (by decide) (by decide) A,
    bigSep_univ_eq_bigSepL [(0 : Fin 8), 1, 2, 3, 4, 5, 6, 7] (by decide) (by decide) B]
  exact wp_seqL c Sh A B (fun k => k.val) f h [(0 : Fin 8), 1, 2, 3, 4, 5, 6, 7] 0 (by decide) Kt

/-- 4 steps. -/
theorem wp_seq4 (c : Dev nD) (Sh : ℕ → sProp 𝕄) (A B : Fin 4 → sProp 𝕄) (f : Fin 4 → Prog (TpuEff nD τ sig (Elt F) Λ₀ .tc) PUnit)
    (h : ∀ (k : Fin 4) (Kt : PUnit → sProp 𝕄), iprop(Sh k.val ∗ A k ∗ ((Sh (k.val + 1) ∗ B k) -∗ Kt ⟨⟩))
      ⊢ wp frame (wpE (defs₀ (F := F)) 𝒱₀ (c : Thread nD τ) none) Set.univ (f k) Kt)
    (Kt : PUnit → sProp 𝕄) :
    iprop(Sh 0 ∗ bigSep Finset.univ A ∗ ((Sh 4 ∗ bigSep Finset.univ B) -∗ Kt ⟨⟩))
      ⊢ wp frame (wpE (defs₀ (F := F)) 𝒱₀ (c : Thread nD τ) none) Set.univ (seq4 f) Kt := by
  rw [bigSep_univ_eq_bigSepL [(0 : Fin 4), 1, 2, 3] (by decide) (by decide) A,
    bigSep_univ_eq_bigSepL [(0 : Fin 4), 1, 2, 3] (by decide) (by decide) B]
  exact wp_seqL c Sh A B (fun k => k.val) f h [(0 : Fin 4), 1, 2, 3] 0 (by decide) Kt

end Cert.KernelIdeal.Loops

end
-- ==== Proof.PhaseDefs.lean ====
/-
  The body, phase by phase: what the device holds between the phases' steps.
-/
import proofs.«901025_g7700000000001026_dist_rs_v7x_xyz2x2x2_y_m2048_n512_f32_1_alg».proof.Proof.StepDefs
import proofs.«901025_g7700000000001026_dist_rs_v7x_xyz2x2x2_y_m2048_n512_f32_1_alg».proof.Proof.XSplit
import proofs.«901025_g7700000000001026_dist_rs_v7x_xyz2x2x2_y_m2048_n512_f32_1_alg».proof.Proof.Accum
import proofs.«901025_g7700000000001026_dist_rs_v7x_xyz2x2x2_y_m2048_n512_f32_1_alg».proof.Proof.Loops

noncomputable section

namespace Cert.KernelIdeal.PhaseDefs

open Cert.KernelIdeal Cert.KernelIdeal.Gen Cert.KernelIdeal.Proto Cert.KernelIdeal.GenBody Cert.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.KernelIdeal.StepDefs Cert.KernelIdeal.XSplit Cert.KernelIdeal.Accum

/-- The blocks from `j` on. -/
def from16 (j : ℕ) : Finset (Fin 16) := Finset.univ.filter fun k => j ≤ k.val
def from8 (j : ℕ) : Finset (Fin 8) := Finset.univ.filter fun k => j ≤ k.val
def from4 (j : ℕ) : Finset (Fin 4) := Finset.univ.filter fun k => j ≤ k.val

/-- A block's rows. -/
def rows32 (R : ℕ) (r : ℕ) : Prop := R ≤ r ∧ r < R + 32

/-- The result rows added in so far: `a` blocks of the own quarter, `z` and `x` blocks of the inner and outer
    neighbours' quarters, and of the opposite quarter `dx` even blocks, `dz` odd blocks of its first half and
    `dy` blocks of its second half. -/
def doneRows (c : Dev nD) (a z x dx dz dy : ℕ) (r : ℕ) : Prop :=
  (∃ k : Fin 16, k.val < a ∧ rows32 (rowA c k) r) ∨ (∃ k : Fin 16, k.val < z ∧ rows32 (rowZ c k) r)
    ∨ (∃ k : Fin 16, k.val < x ∧ rows32 (rowX c k) r) ∨ (∃ j : Fin 4, j.val < dx ∧ rows32 (rowD c (ev j)) r)
    ∨ (∃ j : Fin 4, j.val < dz ∧ rows32 (rowD c (od j)) r) ∨ (∃ j : Fin 8, j.val < dy ∧ rows32 (rowD c (hi j)) r)

/-- A family's tokens and landing block for block `k`: what a send of it consumes besides the source. -/
def sendKit (f : Fam) (dst : Fin f.n → Memref sig .tc .vmem S32x512 .f32) (c : Dev nD) (k : Fin f.n) : sProp 𝕄 :=
  iprop(dutyTok ER (f.sc c k) 0 (0 : Fin 3) ∗ dutyTok ER (f.rc (nbr f.j c) k) 0 (0 : Fin 3)
    ∗ (∃ fd : Buf (Elt F) ((dst k).view.loc ((nbr f.j c : Dev nD) : Thread nD τ)), pts (dst k) (nbr f.j c) fullShare fd))

/-- What a receive wait consumes: the credit and the position. -/
def recvKit (f : Fam) (c : Dev nD) (k : Fin f.n) : sProp 𝕄 :=
  iprop(cred (tallyAt (f.rc c k) () N) ∗ atPos ER (f.rc c k) 0 ∅ 0)
/-- What a departure wait consumes. -/
def sentKit (f : Fam) (c : Dev nD) (k : Fin f.n) : sProp 𝕄 :=
  iprop(cred (tallyAt (f.sc c k) () N) ∗ atPos ER (f.sc c k) 0 ∅ 0)

/-! ## The sends across the middle axis -/

def ShY (K : GSem nD τ sig → ℕ) (c : Dev nD) (j : ℕ) : sProp 𝕄 :=
  iprop(Pz m ρ K ∗ owesE c (owedAt c (from16 j) Finset.univ Finset.univ Finset.univ Finset.univ Finset.univ ∅))
def AY (c : Dev nD) (k : Fin 16) : sProp 𝕄 := iprop(sendKit fY (fun k => ch512 ybM k) c k ∗ pts (xsY c k) c fullShare (xstg m ρ c))
def BY (c : Dev nD) (k : Fin 16) : sProp 𝕄 := cred (tallyAt (fY.sc c k) () N)

def ShYD (K : GSem nD τ sig → ℕ) (c : Dev nD) (j : ℕ) : sProp 𝕄 :=
  iprop(Pz m ρ K ∗ owesE c (owedAt c ∅ (from8 j) Finset.univ Finset.univ Finset.univ Finset.univ ∅))
def AYD (c : Dev nD) (k : Fin 8) : sProp 𝕄 := iprop(sendKit fYD (fun k => ch256 ydM k) c k ∗ pts (xsYD c k) c fullShare (xstg m ρ c))
def BYD (c : Dev nD) (k : Fin 8) : sProp 𝕄 := cred (tallyAt (fYD.sc c k) () N)

/-! ## The own quarter: wait, forward twice, add in -/

def Sh2 (K : GSem nD τ sig → ℕ) (c : Dev nD) (j : ℕ) : sProp 𝕄 :=
  iprop(Pz m ρ K ∗ owesE c (owedAt c ∅ ∅ (from16 j) (from16 j) Finset.univ Finset.univ ∅) ∗ xKeep m ρ c ∗ outInv m ρ c (doneRows c j 0 0 0 0 0))
def A2 (c : Dev nD) (k : Fin 16) : sProp 𝕄 :=
  iprop(recvKit fY c k ∗ sendKit fXD (fun k => ch512 xdM k) c k ∗ sendKit fZD (fun k => ch512 zdM k) c k)
def B2 (c : Dev nD) (k : Fin 16) : sProp 𝕄 :=
  iprop(atPos ER (fY.rc c k) 1 ∅ 0 ∗ cred (tallyAt (fXD.sc c k) () N) ∗ cred (tallyAt (fZD.sc c k) () N)
    ∗ pts (ch512 ybM k) c fullShare.right.right (ybC m ρ c))

/-! ## The neighbouring quarters, first half: blocks 2j and 2j + 1 -/

def Sh3a (K : GSem nD τ sig → ℕ) (c : Dev nD) (j : ℕ) : sProp 𝕄 :=
  iprop(Pz m ρ K ∗ owesE c (owedAt c ∅ ∅ ∅ ∅ (from4 j) (from4 j) ∅) ∗ xKeep m ρ c ∗ outInv m ρ c (doneRows c 16 (2 * j) (2 * j) 0 0 0))
def A3a (c : Dev nD) (j : Fin 4) : sProp 𝕄 :=
  iprop(recvKit fZD c (ev j) ∗ recvKit fXD c (ev j) ∗ recvKit fZD c (od j) ∗ recvKit fXD c (od j)
    ∗ sendKit fXR (fun k => ch128 xrM k) c j ∗ sendKit fZR (fun k => ch128 zrM k) c j)
def B3a (c : Dev nD) (j : Fin 4) : sProp 𝕄 :=
  iprop(atPos ER (fZD.rc c (ev j)) 1 ∅ 0 ∗ atPos ER (fXD.rc c (ev j)) 1 ∅ 0 ∗ atPos ER (fZD.rc c (od j)) 1 ∅ 0 ∗ atPos ER (fXD.rc c (od j)) 1 ∅ 0
    ∗ cred (tallyAt (fXR.sc c j) () N) ∗ cred (tallyAt (fZR.sc c j) () N)
    ∗ pts (ch512 zdM (ev j)) c fullShare.right (zdC m ρ c) ∗ pts (ch512 xdM (ev j)) c fullShare (xdC m ρ c)
    ∗ pts (ch512 zdM (od j)) c fullShare (zdC m ρ c) ∗ pts (ch512 xdM (od j)) c fullShare.right (xdC m ρ c))

/-! ## The neighbouring quarters, second half -/

def Sh3b (K : GSem nD τ sig → ℕ) (c : Dev nD) (i : ℕ) : sProp 𝕄 :=
  iprop(Pz m ρ K ∗ owesE c 0 ∗ xKeep m ρ c ∗ outInv m ρ c (doneRows c 16 (8 + i) (8 + i) 0 0 0))
def A3b (c : Dev nD) (i : Fin 8) : sProp 𝕄 := iprop(recvKit fZD c (hi i) ∗ recvKit fXD c (hi i))
def B3b (c : Dev nD) (i : Fin 8) : sProp 𝕄 :=
  iprop(atPos ER (fZD.rc c (hi i)) 1 ∅ 0 ∗ atPos ER (fXD.rc c (hi i)) 1 ∅ 0
    ∗ pts (ch512 zdM (hi i)) c fullShare (zdC m ρ c) ∗ pts (ch512 xdM (hi i)) c fullShare (xdC m ρ c))

/-! ## The opposite quarter, by its three routes -/

def Sh4 (K : GSem nD τ sig → ℕ) (c : Dev nD) (dx dz dy : ℕ) : sProp 𝕄 :=
  iprop(Pz m ρ K ∗ owesE c 0 ∗ xKeep m ρ c ∗ outInv m ρ c (doneRows c 16 16 16 dx dz dy))
def B4X (c : Dev nD) (j : Fin 4) : sProp 𝕄 := iprop(atPos ER (fXR.rc c j) 1 ∅ 0 ∗ pts (ch128 xrM j) c fullShare (xrC m ρ c))
def B4Z (c : Dev nD) (j : Fin 4) : sProp 𝕄 := iprop(atPos ER (fZR.rc c j) 1 ∅ 0 ∗ pts (ch128 zrM j) c fullShare (zrC m ρ c))
def B4Y (c : Dev nD) (j : Fin 8) : sProp 𝕄 := iprop(atPos ER (fYD.rc c j) 1 ∅ 0 ∗ pts (ch256 ydM j) c fullShare (ydC m ρ c))

/-! ## The departures -/

def ShW (K : GSem nD τ sig → ℕ) (c : Dev nD) (_ : ℕ) : sProp 𝕄 := iprop(Pz m ρ K ∗ owesE (F := F) c 0)
def AW16 (c : Dev nD) (k : Fin 16) : sProp 𝕄 := iprop(sentKit fY c k ∗ sentKit fXD c k ∗ sentKit fZD c k)
def BW16 (c : Dev nD) (k : Fin 16) : sProp 𝕄 :=
  iprop(atPos ER (fY.sc c k) 1 ∅ 0 ∗ atPos ER (fXD.sc c k) 1 ∅ 0 ∗ atPos ER (fZD.sc c k) 1 ∅ 0
    ∗ pts (xsY c k) c fullShare (xstg m ρ c) ∗ pts (ch512 ybM k) c fullShare.left (ybC m ρ c) ∗ pts (ch512 ybM k) c fullShare.right.left (ybC m ρ c))
def BWXR (c : Dev nD) (j : Fin 4) : sProp 𝕄 := iprop(atPos ER (fXR.sc c j) 1 ∅ 0 ∗ pts (ch512 zdM (ev j)) c fullShare.left (zdC m ρ c))
def BWZR (c : Dev nD) (j : Fin 4) : sProp 𝕄 := iprop(atPos ER (fZR.sc c j) 1 ∅ 0 ∗ pts (ch512 xdM (od j)) c fullShare.left (xdC m ρ c))
def BWYD (c : Dev nD) (j : Fin 8) : sProp 𝕄 := iprop(atPos ER (fYD.sc c j) 1 ∅ 0 ∗ pts (xsYD c j) c fullShare (xstg m ρ c))

end Cert.KernelIdeal.PhaseDefs

end
-- ==== Proof.States.lean ====
/-
  What the device holds between the phases of its body.
-/
import proofs.«901025_g7700000000001026_dist_rs_v7x_xyz2x2x2_y_m2048_n512_f32_1_alg».proof.Proof.PhaseDefs

noncomputable section

namespace Cert.KernelIdeal.States

open Cert.KernelIdeal Cert.KernelIdeal.Gen Cert.KernelIdeal.Proto Cert.KernelIdeal.GenBody Cert.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.KernelIdeal.StepDefs Cert.KernelIdeal.XSplit Cert.KernelIdeal.Accum Cert.KernelIdeal.PhaseDefs

/-! ## The pieces of what the device holds between phases -/

def kits (f : Fam) (dst : Fin f.n → Memref sig .tc .vmem S32x512 .f32) (c : Dev nD) : sProp 𝕄 := bigSep Finset.univ fun k => sendKit (F := F) f dst c k
def rks (f : Fam) (c : Dev nD) : sProp 𝕄 := bigSep Finset.univ fun k => recvKit (F := F) f c k
/-- The receive kits of a 16-block family by halves: blocks 2j and 2j + 1 of the first half, then the second half. -/
def rkA (f : Fam) (h : f.n = 16) (c : Dev nD) : sProp 𝕄 :=
  bigSep Finset.univ fun j : Fin 4 => iprop(recvKit (F := F) f c (Fin.cast h.symm (ev j)) ∗ recvKit (F := F) f c (Fin.cast h.symm (od j)))
def rkB (f : Fam) (h : f.n = 16) (c : Dev nD) : sProp 𝕄 :=
  bigSep Finset.univ fun i : Fin 8 => recvKit (F := F) f c (Fin.cast h.symm (hi i))
def poss (f : Fam) (c : Dev nD) : sProp 𝕄 := bigSep Finset.univ fun k : Fin f.n => (atPos ER (f.sc c k) 0 ∅ 0 : sProp 𝕄)
def crs (f : Fam) (c : Dev nD) : sProp 𝕄 := bigSep Finset.univ fun k : Fin f.n => (cred (tallyAt (f.sc c k) () N) : sProp 𝕄)
def xsYs (c : Dev nD) : sProp 𝕄 := bigSep Finset.univ fun k : Fin 16 => pts (xsY c k) c fullShare (xstg m ρ c)
def xsYDs (c : Dev nD) : sProp 𝕄 := bigSep Finset.univ fun k : Fin 8 => pts (xsYD c k) c fullShare (xstg m ρ c)
/-- What the own quarter's phase leaves per block besides the send credits: its receive cell done, a quarter share of the block. -/
def b2r (c : Dev nD) : sProp 𝕄 :=
  bigSep Finset.univ fun k : Fin 16 => iprop(atPos ER (fY.rc c k) 1 ∅ 0 ∗ pts (ch512 ybM k) c fullShare.right.right (ybC m ρ c))
/-- What the neighbouring quarters' first half leaves per pair of blocks besides the send credits. -/
def b3ar (c : Dev nD) : sProp 𝕄 :=
  bigSep Finset.univ fun j : Fin 4 => iprop(atPos ER (fZD.rc c (ev j)) 1 ∅ 0 ∗ atPos ER (fXD.rc c (ev j)) 1 ∅ 0 ∗ atPos ER (fZD.rc c (od j)) 1 ∅ 0 ∗ atPos ER (fXD.rc c (od j)) 1 ∅ 0
    ∗ pts (ch512 zdM (ev j)) c fullShare.right (zdC m ρ c) ∗ pts (ch512 xdM (ev j)) c fullShare (xdC m ρ c)
    ∗ pts (ch512 zdM (od j)) c fullShare (zdC m ρ c) ∗ pts (ch512 xdM (od j)) c fullShare.right (xdC m ρ c))
def b3bs (c : Dev nD) : sProp 𝕄 := bigSep Finset.univ fun i : Fin 8 => B3b m ρ c i
def b4xs (c : Dev nD) : sProp 𝕄 := bigSep Finset.univ fun j : Fin 4 => B4X m ρ c j
def b4zs (c : Dev nD) : sProp 𝕄 := bigSep Finset.univ fun j : Fin 4 => B4Z m ρ c j
def b4ys (c : Dev nD) : sProp 𝕄 := bigSep Finset.univ fun j : Fin 8 => B4Y m ρ c j
def bw16s (c : Dev nD) : sProp 𝕄 := bigSep Finset.univ fun k : Fin 16 => BW16 m ρ c k
def bwxrs (c : Dev nD) : sProp 𝕄 := bigSep Finset.univ fun j : Fin 4 => BWXR m ρ c j
def bwzrs (c : Dev nD) : sProp 𝕄 := bigSep Finset.univ fun j : Fin 4 => BWZR m ρ c j
def bwyds (c : Dev nD) : sProp 𝕄 := bigSep Finset.univ fun j : Fin 8 => BWYD m ρ c j
def bar1 (c : Dev nD) : sProp 𝕄 := (atPos ER (bcell c) 1 ∅ 0 : sProp 𝕄)
def OW (c : Dev nD) (O : CellTallies nD τ sig Unit) : sProp 𝕄 := owesE (F := F) c O
def OUT (c : Dev nD) (a z x dx dz dy : ℕ) : sProp 𝕄 := outInv m ρ c (doneRows c a z x dx dz dy)

/-! ## The states -/

def T1 (K : GSem nD τ sig → ℕ) (c : Dev nD) : sProp 𝕄 :=
  iprop(OW (F := F) c (owedAt c (from16 0) Finset.univ Finset.univ Finset.univ Finset.univ Finset.univ ∅)
    ∗ OUT m ρ c 0 0 0 0 0 0
    ∗ Pz m ρ K
    ∗ bar1 (F := F) c
    ∗ kits (F := F) fY (fun k => ch512 ybM k) c
    ∗ kits (F := F) fYD (fun k => ch256 ydM k) c
    ∗ kits (F := F) fXD (fun k => ch512 xdM k) c
    ∗ kits (F := F) fZD (fun k => ch512 zdM k) c
    ∗ kits (F := F) fXR (fun k => ch128 xrM k) c
    ∗ kits (F := F) fZR (fun k => ch128 zrM k) c
    ∗ xsYs m ρ c
    ∗ xsYDs m ρ c
    ∗ xKeep m ρ c
    ∗ xRest m ρ c
    ∗ rks (F := F) fY c
    ∗ rks (F := F) fYD c
    ∗ rkA (F := F) fXD rfl c
    ∗ rkB (F := F) fXD rfl c
    ∗ rkA (F := F) fZD rfl c
    ∗ rkB (F := F) fZD rfl c
    ∗ rks (F := F) fXR c
    ∗ rks (F := F) fZR c
    ∗ poss (F := F) fY c
    ∗ poss (F := F) fYD c
    ∗ poss (F := F) fXD c
    ∗ poss (F := F) fZD c
    ∗ poss (F := F) fXR c
    ∗ poss (F := F) fZR c)

def T2 (K : GSem nD τ sig → ℕ) (c : Dev nD) : sProp 𝕄 :=
  iprop(OW (F := F) c (owedAt c ∅ (from8 0) Finset.univ Finset.univ Finset.univ Finset.univ ∅)
    ∗ OUT m ρ c 0 0 0 0 0 0
    ∗ Pz m ρ K
    ∗ bar1 (F := F) c
    ∗ kits (F := F) fYD (fun k => ch256 ydM k) c
    ∗ kits (F := F) fXD (fun k => ch512 xdM k) c
    ∗ kits (F := F) fZD (fun k => ch512 zdM k) c
    ∗ kits (F := F) fXR (fun k => ch128 xrM k) c
    ∗ kits (F := F) fZR (fun k => ch128 zrM k) c
    ∗ xsYDs m ρ c
    ∗ xKeep m ρ c
    ∗ xRest m ρ c
    ∗ rks (F := F) fY c
    ∗ rks (F := F) fYD c
    ∗ rkA (F := F) fXD rfl c
    ∗ rkB (F := F) fXD rfl c
    ∗ rkA (F := F) fZD rfl c
    ∗ rkB (F := F) fZD rfl c
    ∗ rks (F := F) fXR c
    ∗ rks (F := F) fZR c
    ∗ poss (F := F) fY c
    ∗ poss (F := F) fYD c
    ∗ poss (F := F) fXD c
    ∗ poss (F := F) fZD c
    ∗ poss (F := F) fXR c
    ∗ poss (F := F) fZR c
    ∗ crs (F := F) fY c)

def T3 (K : GSem nD τ sig → ℕ) (c : Dev nD) : sProp 𝕄 :=
  iprop(OW (F := F) c (owedAt c ∅ ∅ (from16 0) (from16 0) Finset.univ Finset.univ ∅)
    ∗ OUT m ρ c 0 0 0 0 0 0
    ∗ Pz m ρ K
    ∗ bar1 (F := F) c
    ∗ kits (F := F) fXD (fun k => ch512 xdM k) c
    ∗ kits (F := F) fZD (fun k => ch512 zdM k) c
    ∗ kits (F := F) fXR (fun k => ch128 xrM k) c
    ∗ kits (F := F) fZR (fun k => ch128 zrM k) c
    ∗ xKeep m ρ c
    ∗ xRest m ρ c
    ∗ rks (F := F) fY c
    ∗ rks (F := F) fYD c
    ∗ rkA (F := F) fXD rfl c
    ∗ rkB (F := F) fXD rfl c
    ∗ rkA (F := F) fZD rfl c
    ∗ rkB (F := F) fZD rfl c
    ∗ rks (F := F) fXR c
    ∗ rks (F := F) fZR c
    ∗ poss (F := F) fY c
    ∗ poss (F := F) fYD c
    ∗ poss (F := F) fXD c
    ∗ poss (F := F) fZD c
    ∗ poss (F := F) fXR c
    ∗ poss (F := F) fZR c
    ∗ crs (F := F) fY c
    ∗ crs (F := F) fYD c)

def T4 (K : GSem nD τ sig → ℕ) (c : Dev nD) : sProp 𝕄 :=
  iprop(OW (F := F) c (owedAt c ∅ ∅ ∅ ∅ (from4 0) (from4 0) ∅)
    ∗ OUT m ρ c 16 0 0 0 0 0
    ∗ Pz m ρ K
    ∗ bar1 (F := F) c
    ∗ kits (F := F) fXR (fun k => ch128 xrM k) c
    ∗ kits (F := F) fZR (fun k => ch128 zrM k) c
    ∗ xKeep m ρ c
    ∗ xRest m ρ c
    ∗ rks (F := F) fYD c
    ∗ rkA (F := F) fXD rfl c
    ∗ rkB (F := F) fXD rfl c
    ∗ rkA (F := F) fZD rfl c
    ∗ rkB (F := F) fZD rfl c
    ∗ rks (F := F) fXR c
    ∗ rks (F := F) fZR c
    ∗ poss (F := F) fY c
    ∗ poss (F := F) fYD c
    ∗ poss (F := F) fXD c
    ∗ poss (F := F) fZD c
    ∗ poss (F := F) fXR c
    ∗ poss (F := F) fZR c
    ∗ crs (F := F) fY c
    ∗ crs (F := F) fYD c
    ∗ crs (F := F) fXD c
    ∗ crs (F := F) fZD c
    ∗ b2r m ρ c)

def T5 (K : GSem nD τ sig → ℕ) (c : Dev nD) : sProp 𝕄 :=
  iprop(OW (F := F) c 0
    ∗ OUT m ρ c 16 8 8 0 0 0
    ∗ Pz m ρ K
    ∗ bar1 (F := F) c
    ∗ xKeep m ρ c
    ∗ xRest m ρ c
    ∗ rks (F := F) fYD c
    ∗ rkB (F := F) fXD rfl c
    ∗ rkB (F := F) fZD rfl c
    ∗ rks (F := F) fXR c
    ∗ rks (F := F) fZR c
    ∗ poss (F := F) fY c
    ∗ poss (F := F) fYD c
    ∗ poss (F := F) fXD c
    ∗ poss (F := F) fZD c
    ∗ poss (F := F) fXR c
    ∗ poss (F := F) fZR c
    ∗ crs (F := F) fY c
    ∗ crs (F := F) fYD c
    ∗ crs (F := F) fXD c
    ∗ crs (F := F) fZD c
    ∗ b2r m ρ c
    ∗ crs (F := F) fXR c
    ∗ crs (F := F) fZR c
    ∗ b3ar m ρ c)

def T6 (K : GSem nD τ sig → ℕ) (c : Dev nD) : sProp 𝕄 :=
  iprop(OW (F := F) c 0
    ∗ OUT m ρ c 16 16 16 0 0 0
    ∗ Pz m ρ K
    ∗ bar1 (F := F) c
    ∗ xKeep m ρ c
    ∗ xRest m ρ c
    ∗ rks (F := F) fYD c
    ∗ rks (F := F) fXR c
    ∗ rks (F := F) fZR c
    ∗ poss (F := F) fY c
    ∗ poss (F := F) fYD c
    ∗ poss (F := F) fXD c
    ∗ poss (F := F) fZD c
    ∗ poss (F := F) fXR c
    ∗ poss (F := F) fZR c
    ∗ crs (F := F) fY c
    ∗ crs (F := F) fYD c
    ∗ crs (F := F) fXD c
    ∗ crs (F := F) fZD c
    ∗ b2r m ρ c
    ∗ crs (F := F) fXR c
    ∗ crs (F := F) fZR c
    ∗ b3ar m ρ c
    ∗ b3bs m ρ c)

def T7 (K : GSem nD τ sig → ℕ) (c : Dev nD) : sProp 𝕄 :=
  iprop(OW (F := F) c 0
    ∗ OUT m ρ c 16 16 16 4 0 0
    ∗ Pz m ρ K
    ∗ bar1 (F := F) c
    ∗ xKeep m ρ c
    ∗ xRest m ρ c
    ∗ rks (F := F) fYD c
    ∗ rks (F := F) fZR c
    ∗ poss (F := F) fY c
    ∗ poss (F := F) fYD c
    ∗ poss (F := F) fXD c
    ∗ poss (F := F) fZD c
    ∗ poss (F := F) fXR c
    ∗ poss (F := F) fZR c
    ∗ crs (F := F) fY c
    ∗ crs (F := F) fYD c
    ∗ crs (F := F) fXD c
    ∗ crs (F := F) fZD c
    ∗ b2r m ρ c
    ∗ crs (F := F) fXR c
    ∗ crs (F := F) fZR c
    ∗ b3ar m ρ c
    ∗ b3bs m ρ c
    ∗ b4xs m ρ c)

def T8 (K : GSem nD τ sig → ℕ) (c : Dev nD) : sProp 𝕄 :=
  iprop(OW (F := F) c 0
    ∗ OUT m ρ c 16 16 16 4 4 0
    ∗ Pz m ρ K
    ∗ bar1 (F := F) c
    ∗ xKeep m ρ c
    ∗ xRest m ρ c
    ∗ rks (F := F) fYD c
    ∗ poss (F := F) fY c
    ∗ poss (F := F) fYD c
    ∗ poss (F := F) fXD c
    ∗ poss (F := F) fZD c
    ∗ poss (F := F) fXR c
    ∗ poss (F := F) fZR c
    ∗ crs (F := F) fY c
    ∗ crs (F := F) fYD c
    ∗ crs (F := F) fXD c
    ∗ crs (F := F) fZD c
    ∗ b2r m ρ c
    ∗ crs (F := F) fXR c
    ∗ crs (F := F) fZR c
    ∗ b3ar m ρ c
    ∗ b3bs m ρ c
    ∗ b4xs m ρ c
    ∗ b4zs m ρ c)

def T9 (K : GSem nD τ sig → ℕ) (c : Dev nD) : sProp 𝕄 :=
  iprop(OW (F := F) c 0
    ∗ OUT m ρ c 16 16 16 4 4 8
    ∗ Pz m ρ K
    ∗ bar1 (F := F) c
    ∗ xKeep m ρ c
    ∗ xRest m ρ c
    ∗ poss (F := F) fY c
    ∗ poss (F := F) fYD c
    ∗ poss (F := F) fXD c
    ∗ poss (F := F) fZD c
    ∗ poss (F := F) fXR c
    ∗ poss (F := F) fZR c
    ∗ crs (F := F) fY c
    ∗ crs (F := F) fYD c
    ∗ crs (F := F) fXD c
    ∗ crs (F := F) fZD c
    ∗ b2r m ρ c
    ∗ crs (F := F) fXR c
    ∗ crs (F := F) fZR c
    ∗ b3ar m ρ c
    ∗ b3bs m ρ c
    ∗ b4xs m ρ c
    ∗ b4zs m ρ c
    ∗ b4ys m ρ c)

def T10 (K : GSem nD τ sig → ℕ) (c : Dev nD) : sProp 𝕄 :=
  iprop(OW (F := F) c 0
    ∗ OUT m ρ c 16 16 16 4 4 8
    ∗ Pz m ρ K
    ∗ bar1 (F := F) c
    ∗ xKeep m ρ c
    ∗ xRest m ρ c
    ∗ poss (F := F) fYD c
    ∗ poss (F := F) fXR c
    ∗ poss (F := F) fZR c
    ∗ crs (F := F) fYD c
    ∗ b2r m ρ c
    ∗ crs (F := F) fXR c
    ∗ crs (F := F) fZR c
    ∗ b3ar m ρ c
    ∗ b3bs m ρ c
    ∗ b4xs m ρ c
    ∗ b4zs m ρ c
    ∗ b4ys m ρ c
    ∗ bw16s m ρ c)

def T11 (K : GSem nD τ sig → ℕ) (c : Dev nD) : sProp 𝕄 :=
  iprop(OW (F := F) c 0
    ∗ OUT m ρ c 16 16 16 4 4 8
    ∗ Pz m ρ K
    ∗ bar1 (F := F) c
    ∗ xKeep m ρ c
    ∗ xRest m ρ c
    ∗ poss (F := F) fYD c
    ∗ poss (F := F) fZR c
    ∗ crs (F := F) fYD c
    ∗ b2r m ρ c
    ∗ crs (F := F) fZR c
    ∗ b3ar m ρ c
    ∗ b3bs m ρ c
    ∗ b4xs m ρ c
    ∗ b4zs m ρ c
    ∗ b4ys m ρ c
    ∗ bw16s m ρ c
    ∗ bwxrs m ρ c)

def T12 (K : GSem nD τ sig → ℕ) (c : Dev nD) : sProp 𝕄 :=
  iprop(OW (F := F) c 0
    ∗ OUT m ρ c 16 16 16 4 4 8
    ∗ Pz m ρ K
    ∗ bar1 (F := F) c
    ∗ xKeep m ρ c
    ∗ xRest m ρ c
    ∗ poss (F := F) fYD c
    ∗ crs (F := F) fYD c
    ∗ b2r m ρ c
    ∗ b3ar m ρ c
    ∗ b3bs m ρ c
    ∗ b4xs m ρ c
    ∗ b4zs m ρ c
    ∗ b4ys m ρ c
    ∗ bw16s m ρ c
    ∗ bwxrs m ρ c
    ∗ bwzrs m ρ c)

def T13 (K : GSem nD τ sig → ℕ) (c : Dev nD) : sProp 𝕄 :=
  iprop(OW (F := F) c 0
    ∗ OUT m ρ c 16 16 16 4 4 8
    ∗ Pz m ρ K
    ∗ bar1 (F := F) c
    ∗ xKeep m ρ c
    ∗ xRest m ρ c
    ∗ b2r m ρ c
    ∗ b3ar m ρ c
    ∗ b3bs m ρ c
    ∗ b4xs m ρ c
    ∗ b4zs m ρ c
    ∗ b4ys m ρ c
    ∗ bw16s m ρ c
    ∗ bwxrs m ρ c
    ∗ bwzrs m ρ c
    ∗ bwyds m ρ c)

end Cert.KernelIdeal.States

end
-- ==== Proof.BodyDefs.lean ====
/-
  What the pipeline hands the body and expects back.
-/
import proofs.«901025_g7700000000001026_dist_rs_v7x_xyz2x2x2_y_m2048_n512_f32_1_alg».proof.Proof.States

noncomputable section

namespace Cert.KernelIdeal.BodyDefs

open Cert.KernelIdeal Cert.KernelIdeal.Gen Cert.KernelIdeal.Proto Cert.KernelIdeal.GenBody Cert.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.KernelIdeal.StepDefs Cert.KernelIdeal.XSplit Cert.KernelIdeal.Accum Cert.KernelIdeal.PhaseDefs Cert.KernelIdeal.States

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : GSem nD τ sig → ℕ) (c : Dev nD) : sProp 𝕄 :=
  iprop((ghost m ρ K c ∗ cred (tallyAt (bcell c) () 3)
      ∗ (famCreds fY c ∗ famCreds fYD c ∗ famCreds fXD c ∗ famCreds fZD c ∗ famCreds fXR c ∗ famCreds fZR c)
      ∗ levAts L lv ∗ scr c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

end Cert.KernelIdeal.BodyDefs

end
-- ==== Proof.Sends.lean ====
/-
  The six kinds of remote copy, one step each.
-/
import proofs.«901025_g7700000000001026_dist_rs_v7x_xyz2x2x2_y_m2048_n512_f32_1_alg».proof.Proof.StepDefs
import Idealize.ShloMosaic.Lib.ValueLayout

noncomputable section

namespace Cert.KernelIdeal.Sends

open Cert.KernelIdeal Cert.KernelIdeal.Gen Cert.KernelIdeal.Proto Cert.KernelIdeal.GenBody Cert.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.KernelIdeal.StepDefs

/-! ## One remote copy of a block, at the protocol's cells -/

omit [FloatOps F] in
/-- What a copy leaves on the landing elements agrees with contents `G` that read, through the destination, as the
    source reads. -/
theorem write_read_congr {sp sp' : Space} {S : Shape} {e : EltTy} (src : View sig .tc sp S e) (dst : View sig .tc sp' S e)
    (fs : src.ty.Contents (Elt F)) (fd G : dst.ty.Contents (Elt F))
    (h : ∀ y : S.Idx, dst.read (Elt F) G y = src.read (Elt F) fs y) :
    ∀ i ∈ dst.set, dst.write (Elt F) fd (src.read (Elt F) fs) Finset.univ i = G i := by
  intro i hi
  obtain ⟨y, -, rfl⟩ := Finset.mem_map.mp hi
  rw [View.write_emb_of_mem _ _ (Finset.mem_univ y), ← h y, View.read_apply, cast_cast, cast_eq]

/-- The copy of a 32 × 512 block from device `c` to its neighbour `n`, on the send semaphore `sS` of `c` and the
    receive semaphore `rS` of `n`: the source goes to the send cell's payload, the landing block rewritten to the
    receive cell's; the device is credited the block on its send cell and owes the receive cell no longer. -/
theorem wp_send_gen (K : GSem nD τ sig → ℕ) (c n : Dev nD) (sS rS : DmaSem sig) (h2s : 2 ≤ sS.val) (h2r : 2 ≤ rS.val)
    (src dst : Memref sig .tc .vmem S32x512 .f32)
    {hsc : (dst : Memref sig (Dev.tc n : Thread nD τ).2.kind .vmem S32x512 .f32).view.ref.isScScratch = false}
    {hsrc : src.view.WordExact} {hdst : dst.view.WordExact}
    {hsem : DmaTarget.Typed .vmem (.dma rS) (.remote (Dev.tc n : Thread nD τ) dst (.dma sS) hsc)}
    {α : Type} {Q : α → sProp 𝕄} {k : PUnit → Prog (TpuEff nD τ sig (Elt F) Λ₀ .tc) α}
    (q : PosShare TreeShare) (fs : Buf (Elt F) (src.view.loc (c : Thread nD τ))) (fd : Buf (Elt F) (dst.view.loc (n : Thread nD τ)))
    (O : CellTallies nD τ sig Unit) (W : Waits sig Unit)
    (hN : dst.view.amount (.dma rS) = N)
    (hpay₁ : (src.view.loc (c : Thread nD τ) ↦[src.view.set]{q} fs) ⊢ (dmaPay m ρ c sS.val : sProp 𝕄))
    (hpay₂ : (dst.view.loc (n : Thread nD τ) ↦[dst.view.set]{fullShare} (dst.view.write (Elt F) fd (src.view.read (Elt F) fs) Finset.univ))
      ⊢ (dmaPay m ρ n rS.val : sProp 𝕄)) :
    iprop(Pz m ρ K ∗ owes (c : Thread nD τ) (O + tallyAt (dcell n rS) () N) W
        ∗ dutyTok ER (dcell c sS) 0 (0 : Fin 3) ∗ dutyTok ER (dcell n rS) 0 (0 : Fin 3)
        ∗ (dst.view.loc (n : Thread nD τ) ↦[dst.view.set]{fullShare} fd)
        ∗ (src.view.loc (c : Thread nD τ) ↦[src.view.set]{q} fs))
      ⊢ iprop(((cred (tallyAt (dcell c sS) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma rS) hsrc hdst hsem) k) Q) := by
  iintro ⟨#HP, HO, Ht1, Ht2, Hd, Hs⟩
  ihave #HI1 := (inv_of m ρ K (dcell c sS) (dcell_mem c sS h2s)) $$ HP
  ihave #HI2 := (inv_of m ρ K (dcell n rS) (dcell_mem n rS h2r)) $$ HP
  ihave #HR1 := (reached_of m ρ K (dcell c sS) (dcell_mem c sS h2s)) $$ HP
  ihave #HR2 := (reached_of m ρ K (dcell n rS) (dcell_mem n rS h2r)) $$ HP
  iapply (Rounds.wp_send_pointsTo 𝒱₀ ER (Rd m ρ) (c : Thread nD τ) none (κ₁ := K (dcell c sS)) (κ₂ := K (dcell n rS))
    (r₁ := 0) (r₂ := 0) (d₁ := (0 : Fin 3)) (d₂ := (0 : Fin 3)) (fd := fd)
    (by rw [duties_dma m ρ c sS h2s]; exact Finset.mem_singleton_self _)
    (by rw [duties_dma m ρ n rS h2r]; exact Finset.mem_singleton_self _)
    () () N hN (amount_dma m ρ c sS 0) (amount_dma m ρ n rS 0) O rfl (W := W)
    (by rw [payload_dma]; exact hpay₁) (by rw [payload_dma]; exact hpay₂))
  isplitr; · iexact HI1
  isplitr; · iexact HI2
  isplitl [Hs]; · iexact Hs
  isplitl [Hd]; · iexact Hd
  isplitl [HO]; · iexact HO
  isplitl [Ht1]; · iexact Ht1
  isplitr; · iexact HR1
  isplitl [Ht2]; · iexact Ht2
  iexact HR2

/-- The same for a step of the body: the program's spellings of the neighbour and of the two semaphores are the
    neighbour and the family's semaphores; the recorded waits stay hidden. -/
theorem step_send_gen (K : GSem nD τ sig → ℕ) (c : Dev nD) (f : Fam) (kk : Fin f.n) (nb : Dev nD)
    (n : Dev nD) (hn : n = nb) (sS rS : DmaSem sig) (hs : sS = f.sS kk) (hr : rS = f.rS kk)
    (src dst : Memref sig .tc .vmem S32x512 .f32)
    {hsc : (dst : Memref sig (Dev.tc n : Thread nD τ).2.kind .vmem S32x512 .f32).view.ref.isScScratch = false}
    {hsrc : src.view.WordExact} {hdst : dst.view.WordExact}
    {hsem : DmaTarget.Typed .vmem (.dma rS) (.remote (Dev.tc n : Thread nD τ) dst (.dma sS) hsc)}
    (q : PosShare TreeShare) (fs : Buf (Elt F) (src.view.loc (c : Thread nD τ)))
    (O : CellTallies nD τ sig Unit) (Kt : PUnit → sProp 𝕄)
    (hN : dst.view.amount (.dma (f.rS kk)) = N)
    (hpay₁ : (src.view.loc (c : Thread nD τ) ↦[src.view.set]{q} fs) ⊢ (dmaPay m ρ c (f.sS kk).val : sProp 𝕄))
    (hpay₂ : ∀ fd : Buf (Elt F) (dst.view.loc (nb : Thread nD τ)),
      (dst.view.loc (nb : Thread nD τ) ↦[dst.view.set]{fullShare} (dst.view.write (Elt F) fd (src.view.read (Elt F) fs) Finset.univ))
        ⊢ (dmaPay m ρ nb (f.rS kk).val : sProp 𝕄)) :
    iprop(Pz m ρ K ∗ owesE c (O + tallyAt (f.rc nb kk) () N)
        ∗ dutyTok ER (f.sc c kk) 0 (0 : Fin 3) ∗ dutyTok ER (f.rc nb kk) 0 (0 : Fin 3)
        ∗ (∃ fd : Buf (Elt F) (dst.view.loc (nb : Thread nD τ)), (dst.view.loc (nb : Thread nD τ) ↦[dst.view.set]{fullShare} fd))
        ∗ (src.view.loc (c : Thread nD τ) ↦[src.view.set]{q} fs)
        ∗ ((owesE c O ∗ cred (tallyAt (f.sc c kk) () N)) -∗ Kt ⟨⟩))
      ⊢ wp frame (wpE (defs₀ (F := F)) 𝒱₀ (c : Thread nD τ) none) Set.univ
          (Prog.lift (.enqueueDma src (.remote (Dev.tc n : Thread nD τ) dst (.dma sS) hsc) (.dma rS) hsrc hdst hsem)) Kt := by
  subst hn hs hr
  unfold owesE
  simp only [Prog.lift]
  iintro ⟨#HP, ⟨%W, HO⟩, Ht1, Ht2, ⟨%fd, Hd⟩, Hs, Hk⟩
  iapply (wp_send_gen m ρ K c n (f.sS kk) (f.rS kk) (f.two_le_sS kk) (f.two_le_rS kk) src dst q fs fd O W hN hpay₁ (hpay₂ fd)) $$ [HO Ht1 Ht2 Hd Hs]
  · isplitr; · iexact HP
    isplitl [HO]; · iexact HO
    isplitl [Ht1]; · iexact Ht1
    isplitl [Ht2]; · iexact Ht2
    isplitl [Hd]; · iexact Hd
    iexact Hs
  iintro ⟨Hc, HO⟩
  rw [wp_ret]; imodintro
  iapply Hk
  isplitl [HO]
  · iexists W; iexact HO
  iexact Hc

omit [FloatOps F] in
/-- Block `j` of the twice-forwarded landing buffer across the outer axis holds the even block `2j` of what the
    neighbour received across the inner axis. -/
theorem xr_idx (d : Dev nD) (j : Fin 4) (y : S32x512.Idx) :
    xrC m ρ d ((ch128 xrM j).view.emb y) = zdC m ρ (xnb d) ((ch512 zdM (ev j)).view.emb y) := by
  have hy : (y 0).val < 32 := (y 0).isLt
  unfold xrC
  refine congrArg (zdC m ρ (xnb d)) (funext fun a => Fin.ext ?_)
  fin_cases a
  · show 64 * ((32 * j.val + 1 * (y 0).val) / 32) + (32 * j.val + 1 * (y 0).val) % 32 = 32 * (2 * j.val) + 1 * (y 0).val
    omega
  · rfl

omit [FloatOps F] in
/-- Block `j` of the twice-forwarded landing buffer across the inner axis holds the odd block `2j + 1` of what the
    neighbour received across the outer axis. -/
theorem zr_idx (d : Dev nD) (j : Fin 4) (y : S32x512.Idx) :
    zrC m ρ d ((ch128 zrM j).view.emb y) = xdC m ρ (znb d) ((ch512 xdM (od j)).view.emb y) := by
  have hy : (y 0).val < 32 := (y 0).isLt
  unfold zrC
  refine congrArg (xdC m ρ (znb d)) (funext fun a => Fin.ext ?_)
  fin_cases a
  · show 64 * ((32 * j.val + 1 * (y 0).val) / 32) + 32 + (32 * j.val + 1 * (y 0).val) % 32 = 32 * (2 * j.val + 1) + 1 * (y 0).val
    omega
  · rfl

theorem qmine_peer (c : Dev nD) : qmine (peer c) = qmine c := by revert c; decide

omit [FloatOps F] in
/-- Block `k` of what the partner receives across the middle axis is the block the device sends: its own quarter's
    rows `32k` …, at the partner's column half. -/
theorem y_idx (c : Dev nD) (k : Fin 16) (y : S32x512.Idx) :
    ybC m ρ (peer c) ((ch512 ybM k).view.emb y) = xstg m ρ c ((xsY c k).view.emb y) := by
  obtain ⟨y0, y1, rfl⟩ : ∃ (a : Fin 32) (b : Fin 512), y = ValueIdx.ix2 a b := ⟨y 0, y 1, ValueIdx.eq_ix2 y⟩
  have hq : qmine (peer c) = qmine c := qmine_peer c
  have hm : 512 * my (peer c) = 512 - 512 * my c := by rw [my_peer]; have := my_lt c; omega
  have hemb : (xsY c k).view.emb (ValueIdx.ix2 y0 y1)
      = (Rect.unit (s := S1x2048x1024) (k0_off1 c (BitVec.ofNat 32 (32 * k.val))) S1x32x512.size (k0_off1_inb c k)).emb
          (ValueIdx.ix3 (⟨0, Nat.one_pos⟩ : Fin 1) y0 y1) := by
    show (Rect.unit (s := S1x2048x1024) _ S1x32x512.size _).emb (Shape.reshapeEquiv _ (ValueIdx.ix2 y0 y1)) = _
    rw [ValueIdx.reshapeEquiv_ix2_1ab]
  unfold ybC
  rw [peer_peer, hemb]
  refine congrArg (xstg m ρ c) (funext fun a => Fin.ext ?_)
  have hoff := k0_off1_eq c k
  fin_cases a
  · show 0 = (k0_off1 c (BitVec.ofNat 32 (32 * k.val))) 0 + 1 * 0
    rw [hoff]; rfl
  · show qmine (peer c) + (32 * k.val + 1 * y0.val) = (k0_off1 c (BitVec.ofNat 32 (32 * k.val))) 1 + 1 * y0.val
    rw [hoff, hq]
    show qmine c + (32 * k.val + 1 * y0.val) = (1024 * (c.val / 4) + 512 * (c.val % 2) + 32 * k.val) + 1 * y0.val
    unfold qmine; omega
  · show 512 * my (peer c) + (0 + 1 * y1.val) = (k0_off1 c (BitVec.ofNat 32 (32 * k.val))) 2 + 1 * y1.val
    rw [hoff, hm]
    show 512 - 512 * my c + (0 + 1 * y1.val) = (512 - 512 * ((c.val / 2) % 2)) + 1 * y1.val
    unfold my; omega

omit [FloatOps F] in
/-- The same for the second half of the opposite quarter. -/
theorem yd_idx (c : Dev nD) (k : Fin 8) (y : S32x512.Idx) :
    ydC m ρ (peer c) ((ch256 ydM k).view.emb y) = xstg m ρ c ((xsYD c k).view.emb y) := by
  obtain ⟨y0, y1, rfl⟩ : ∃ (a : Fin 32) (b : Fin 512), y = ValueIdx.ix2 a b := ⟨y 0, y 1, ValueIdx.eq_ix2 y⟩
  have hq : qmine (peer c) = qmine c := qmine_peer c
  have hql := qmine_le c
  have hm : 512 * my (peer c) = 512 - 512 * my c := by rw [my_peer]; have := my_lt c; omega
  have hemb : (xsYD c k).view.emb (ValueIdx.ix2 y0 y1)
      = (Rect.unit (s := S1x2048x1024) (k0_off2 c (BitVec.ofNat 32 (256 + 32 * k.val))) S1x32x512.size (k0_off2_inb c k)).emb
          (ValueIdx.ix3 (⟨0, Nat.one_pos⟩ : Fin 1) y0 y1) := by
    show (Rect.unit (s := S1x2048x1024) _ S1x32x512.size _).emb (Shape.reshapeEquiv _ (ValueIdx.ix2 y0 y1)) = _
    rw [ValueIdx.reshapeEquiv_ix2_1ab]
  unfold ydC
  rw [peer_peer, hemb]
  refine congrArg (xstg m ρ c) (funext fun a => Fin.ext ?_)
  have hoff := k0_off2_eq c k
  fin_cases a
  · show 0 = (k0_off2 c (BitVec.ofNat 32 (256 + 32 * k.val))) 0 + 1 * 0
    rw [hoff]; rfl
  · show (1792 - qmine (peer c)) + (32 * k.val + 1 * y0.val) = (k0_off2 c (BitVec.ofNat 32 (256 + 32 * k.val))) 1 + 1 * y0.val
    rw [hoff, hq]
    show (1792 - qmine c) + (32 * k.val + 1 * y0.val) = ((32 * k.val + 1792) - (1024 * (c.val / 4) + 512 * (c.val % 2))) + 1 * y0.val
    unfold qmine at hql ⊢; omega
  · show 512 * my (peer c) + (0 + 1 * y1.val) = (k0_off2 c (BitVec.ofNat 32 (256 + 32 * k.val))) 2 + 1 * y1.val
    rw [hoff, hm]
    show 512 - 512 * my c + (0 + 1 * y1.val) = (512 - 512 * ((c.val / 2) % 2)) + 1 * y1.val
    unfold my; omega

/-- Sending block `k` of this family: the device pays the receiver's receive cell (the landing block at its final
    contents) and its own send cell (the source block back), and is credited the block on its send cell. -/
theorem step_sendY (K : GSem nD τ sig → ℕ) (c : Dev nD) (k : Fin 16) (O : CellTallies nD τ sig Unit) (Kt : PUnit → sProp 𝕄) :
    iprop(Pz m ρ K ∗ owesE c (O + tallyAt (fY.rc (peer c) k) () N)
        ∗ dutyTok ER (fY.sc c k) 0 (0 : Fin 3) ∗ dutyTok ER (fY.rc (peer c) k) 0 (0 : Fin 3)
        ∗ (∃ fd : Buf (Elt F) ((ch512 ybM k).view.loc ((peer c : Dev nD) : Thread nD τ)), pts (ch512 ybM k) (peer c) fullShare fd)
        ∗ pts (xsY c k) c fullShare (xstg m ρ c)
        ∗ ((owesE c O ∗ cred (tallyAt (fY.sc c k) () N)) -∗ Kt ⟨⟩))
      ⊢ wp frame (wpE (defs₀ (F := F)) 𝒱₀ (c : Thread nD τ) none) Set.univ (sendY c k) Kt := by
  unfold sendY
  exact step_send_gen m ρ K c fY k (peer c) _ (dY k c) _ _ (sem_s6 k) (sem_s7 k) (xsY c k) (ch512 ybM k)
    fullShare (xstg m ρ c) O Kt rfl
    (by rw [dmaPay_sY]; exact BI.Entails.refl _)
    (fun fd => by
      rw [dmaPay_rY]; unfold rYPay
      refine Entails.of_eq (pointsTo_congr (write_read_congr (F := F) (xsY c k).view (ch512 ybM k).view (xstg m ρ c) fd (ybC m ρ (peer c)) fun y => ?_))
      show ybC m ρ (peer c) ((ch512 ybM k).view.emb y) = xstg m ρ c ((xsY c k).view.emb y)
      exact y_idx m ρ c k y)

/-- Sending block `k` of this family: the device pays the receiver's receive cell (the landing block at its final
    contents) and its own send cell (the source block back), and is credited the block on its send cell. -/
theorem step_sendYD (K : GSem nD τ sig → ℕ) (c : Dev nD) (k : Fin 8) (O : CellTallies nD τ sig Unit) (Kt : PUnit → sProp 𝕄) :
    iprop(Pz m ρ K ∗ owesE c (O + tallyAt (fYD.rc (peer c) k) () N)
        ∗ dutyTok ER (fYD.sc c k) 0 (0 : Fin 3) ∗ dutyTok ER (fYD.rc (peer c) k) 0 (0 : Fin 3)
        ∗ (∃ fd : Buf (Elt F) ((ch256 ydM k).view.loc ((peer c : Dev nD) : Thread nD τ)), pts (ch256 ydM k) (peer c) fullShare fd)
        ∗ pts (xsYD c k) c fullShare (xstg m ρ c)
        ∗ ((owesE c O ∗ cred (tallyAt (fYD.sc c k) () N)) -∗ Kt ⟨⟩))
      ⊢ wp frame (wpE (defs₀ (F := F)) 𝒱₀ (c : Thread nD τ) none) Set.univ (sendYD c k) Kt := by
  unfold sendYD
  exact step_send_gen m ρ K c fYD k (peer c) _ (dYD k c) _ _ (sem_s8 k) (sem_s9 k) (xsYD c k) (ch256 ydM k)
    fullShare (xstg m ρ c) O Kt rfl
    (by rw [dmaPay_sYD]; exact BI.Entails.refl _)
    (fun fd => by
      rw [dmaPay_rYD]; unfold rYDPay
      refine Entails.of_eq (pointsTo_congr (write_read_congr (F := F) (xsYD c k).view (ch256 ydM k).view (xstg m ρ c) fd (ydC m ρ (peer c)) fun y => ?_))
      show ydC m ρ (peer c) ((ch256 ydM k).view.emb y) = xstg m ρ c ((xsYD c k).view.emb y)
      exact yd_idx m ρ c k y)

/-- Sending block `k` of this family: the device pays the receiver's receive cell (the landing block at its final
    contents) and its own send cell (the source block back), and is credited the block on its send cell. -/
theorem step_sendXD (K : GSem nD τ sig → ℕ) (c : Dev nD) (k : Fin 16) (O : CellTallies nD τ sig Unit) (Kt : PUnit → sProp 𝕄) :
    iprop(Pz m ρ K ∗ owesE c (O + tallyAt (fXD.rc (xnb c) k) () N)
        ∗ dutyTok ER (fXD.sc c k) 0 (0 : Fin 3) ∗ dutyTok ER (fXD.rc (xnb c) k) 0 (0 : Fin 3)
        ∗ (∃ fd : Buf (Elt F) ((ch512 xdM k).view.loc ((xnb c : Dev nD) : Thread nD τ)), pts (ch512 xdM k) (xnb c) fullShare fd)
        ∗ pts (ch512 ybM k) c fullShare.left (ybC m ρ c)
        ∗ ((owesE c O ∗ cred (tallyAt (fXD.sc c k) () N)) -∗ Kt ⟨⟩))
      ⊢ wp frame (wpE (defs₀ (F := F)) 𝒱₀ (c : Thread nD τ) none) Set.univ (sendXD c k) Kt := by
  unfold sendXD
  exact step_send_gen m ρ K c fXD k (xnb c) _ (dXD k c) _ _ (sem_s10 k) (sem_s11 k) (ch512 ybM k) (ch512 xdM k)
    fullShare.left (ybC m ρ c) O Kt rfl
    (by rw [dmaPay_sXD]; exact BI.Entails.refl _)
    (fun fd => by
      rw [dmaPay_rXD]; unfold rXDPay
      refine Entails.of_eq (pointsTo_congr (write_read_congr (F := F) (ch512 ybM k).view (ch512 xdM k).view (ybC m ρ c) fd (xdC m ρ (xnb c)) fun y => ?_))
      show (ch512 xdM k).view.read (Elt F) (ybC m ρ (xnb (xnb c))) y = _
      rw [xnb_xnb]; rfl)

/-- Sending block `k` of this family: the device pays the receiver's receive cell (the landing block at its final
    contents) and its own send cell (the source block back), and is credited the block on its send cell. -/
theorem step_sendZD (K : GSem nD τ sig → ℕ) (c : Dev nD) (k : Fin 16) (O : CellTallies nD τ sig Unit) (Kt : PUnit → sProp 𝕄) :
    iprop(Pz m ρ K ∗ owesE c (O + tallyAt (fZD.rc (znb c) k) () N)
        ∗ dutyTok ER (fZD.sc c k) 0 (0 : Fin 3) ∗ dutyTok ER (fZD.rc (znb c) k) 0 (0 : Fin 3)
        ∗ (∃ fd : Buf (Elt F) ((ch512 zdM k).view.loc ((znb c : Dev nD) : Thread nD τ)), pts (ch512 zdM k) (znb c) fullShare fd)
        ∗ pts (ch512 ybM k) c fullShare.right.left (ybC m ρ c)
        ∗ ((owesE c O ∗ cred (tallyAt (fZD.sc c k) () N)) -∗ Kt ⟨⟩))
      ⊢ wp frame (wpE (defs₀ (F := F)) 𝒱₀ (c : Thread nD τ) none) Set.univ (sendZD c k) Kt := by
  unfold sendZD
  exact step_send_gen m ρ K c fZD k (znb c) _ (dZD k c) _ _ (sem_s12 k) (sem_s13 k) (ch512 ybM k) (ch512 zdM k)
    fullShare.right.left (ybC m ρ c) O Kt rfl
    (by rw [dmaPay_sZD]; exact BI.Entails.refl _)
    (fun fd => by
      rw [dmaPay_rZD]; unfold rZDPay
      refine Entails.of_eq (pointsTo_congr (write_read_congr (F := F) (ch512 ybM k).view (ch512 zdM k).view (ybC m ρ c) fd (zdC m ρ (znb c)) fun y => ?_))
      show (ch512 zdM k).view.read (Elt F) (ybC m ρ (znb (znb c))) y = _
      rw [znb_znb]; rfl)

/-- Sending block `k` of this family: the device pays the receiver's receive cell (the landing block at its final
    contents) and its own send cell (the source block back), and is credited the block on its send cell. -/
theorem step_sendXR (K : GSem nD τ sig → ℕ) (c : Dev nD) (k : Fin 4) (O : CellTallies nD τ sig Unit) (Kt : PUnit → sProp 𝕄) :
    iprop(Pz m ρ K ∗ owesE c (O + tallyAt (fXR.rc (xnb c) k) () N)
        ∗ dutyTok ER (fXR.sc c k) 0 (0 : Fin 3) ∗ dutyTok ER (fXR.rc (xnb c) k) 0 (0 : Fin 3)
        ∗ (∃ fd : Buf (Elt F) ((ch128 xrM k).view.loc ((xnb c : Dev nD) : Thread nD τ)), pts (ch128 xrM k) (xnb c) fullShare fd)
        ∗ pts (ch512 zdM (ev k)) c fullShare.left (zdC m ρ c)
        ∗ ((owesE c O ∗ cred (tallyAt (fXR.sc c k) () N)) -∗ Kt ⟨⟩))
      ⊢ wp frame (wpE (defs₀ (F := F)) 𝒱₀ (c : Thread nD τ) none) Set.univ (sendXR c k) Kt := by
  unfold sendXR
  exact step_send_gen m ρ K c fXR k (xnb c) _ (dXR k c) _ _ (sem_s14 k) (sem_s15 k) (ch512 zdM (ev k)) (ch128 xrM k)
    fullShare.left (zdC m ρ c) O Kt rfl
    (by rw [dmaPay_sXR]; exact BI.Entails.refl _)
    (fun fd => by
      rw [dmaPay_rXR]; unfold rXRPay
      refine Entails.of_eq (pointsTo_congr (write_read_congr (F := F) (ch512 zdM (ev k)).view (ch128 xrM k).view (zdC m ρ c) fd (xrC m ρ (xnb c)) fun y => ?_))
      show xrC m ρ (xnb c) ((ch128 xrM k).view.emb y) = zdC m ρ c ((ch512 zdM (ev k)).view.emb y)
      rw [xr_idx, xnb_xnb])

/-- Sending block `k` of this family: the device pays the receiver's receive cell (the landing block at its final
    contents) and its own send cell (the source block back), and is credited the block on its send cell. -/
theorem step_sendZR (K : GSem nD τ sig → ℕ) (c : Dev nD) (k : Fin 4) (O : CellTallies nD τ sig Unit) (Kt : PUnit → sProp 𝕄) :
    iprop(Pz m ρ K ∗ owesE c (O + tallyAt (fZR.rc (znb c) k) () N)
        ∗ dutyTok ER (fZR.sc c k) 0 (0 : Fin 3) ∗ dutyTok ER (fZR.rc (znb c) k) 0 (0 : Fin 3)
        ∗ (∃ fd : Buf (Elt F) ((ch128 zrM k).view.loc ((znb c : Dev nD) : Thread nD τ)), pts (ch128 zrM k) (znb c) fullShare fd)
        ∗ pts (ch512 xdM (od k)) c fullShare.left (xdC m ρ c)
        ∗ ((owesE c O ∗ cred (tallyAt (fZR.sc c k) () N)) -∗ Kt ⟨⟩))
      ⊢ wp frame (wpE (defs₀ (F := F)) 𝒱₀ (c : Thread nD τ) none) Set.univ (sendZR c k) Kt := by
  unfold sendZR
  exact step_send_gen m ρ K c fZR k (znb c) _ (dZR k c) _ _ (sem_s16 k) (sem_s17 k) (ch512 xdM (od k)) (ch128 zrM k)
    fullShare.left (xdC m ρ c) O Kt rfl
    (by rw [dmaPay_sZR]; exact BI.Entails.refl _)
    (fun fd => by
      rw [dmaPay_rZR]; unfold rZRPay
      refine Entails.of_eq (pointsTo_congr (write_read_congr (F := F) (ch512 xdM (od k)).view (ch128 zrM k).view (xdC m ρ c) fd (zrC m ρ (znb c)) fun y => ?_))
      show zrC m ρ (znb c) ((ch128 zrM k).view.emb y) = xdC m ρ c ((ch512 xdM (od k)).view.emb y)
      rw [zr_idx, znb_znb])

/-- info: 'Cert.KernelIdeal.Sends.step_sendY' depends on axioms: [propext, Classical.choice, Quot.sound] -/
#guard_msgs in #print axioms step_sendY
/-- info: 'Cert.KernelIdeal.Sends.step_sendYD' depends on axioms: [propext, Classical.choice, Quot.sound] -/
#guard_msgs in #print axioms step_sendYD
/-- info: 'Cert.KernelIdeal.Sends.step_sendXD' depends on axioms: [propext, Classical.choice, Quot.sound] -/
#guard_msgs in #print axioms step_sendXD
/-- info: 'Cert.KernelIdeal.Sends.step_sendZD' depends on axioms: [propext, Classical.choice, Quot.sound] -/
#guard_msgs in #print axioms step_sendZD
/-- info: 'Cert.KernelIdeal.Sends.step_sendXR' depends on axioms: [propext, Classical.choice, Quot.sound] -/
#guard_msgs in #print axioms step_sendXR
/-- info: 'Cert.KernelIdeal.Sends.step_sendZR' depends on axioms: [propext, Classical.choice, Quot.sound] -/
#guard_msgs in #print axioms step_sendZR

end Cert.KernelIdeal.Sends

end
-- ==== Proof.StepsSend.lean ====
/-
  The greeting, and the sends across the middle axis as loop steps.
-/
import proofs.«901025_g7700000000001026_dist_rs_v7x_xyz2x2x2_y_m2048_n512_f32_1_alg».proof.Proof.PhaseDefs
import proofs.«901025_g7700000000001026_dist_rs_v7x_xyz2x2x2_y_m2048_n512_f32_1_alg».proof.Proof.Sends

noncomputable section

namespace Cert.KernelIdeal.StepsSend

open Cert.KernelIdeal Cert.KernelIdeal.Gen Cert.KernelIdeal.Proto Cert.KernelIdeal.GenBody Cert.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.KernelIdeal.StepDefs Cert.KernelIdeal.XSplit Cert.KernelIdeal.Accum Cert.KernelIdeal.PhaseDefs

open Cert.KernelIdeal.Sends

/-! ## Peeling one block off what is still to be sent -/

/-- The blocks from `k` on are block `k` and the blocks from `k + 1` on. -/
theorem from16_succ (k : Fin 16) : from16 k.val = insert k (from16 (k.val + 1)) := by
  ext i
  simp only [from16, Finset.mem_filter, Finset.mem_univ, true_and, Finset.mem_insert]
  constructor
  · intro h
    by_cases hik : i = k
    · exact Or.inl hik
    · have hne : i.val ≠ k.val := fun h' => hik (Fin.ext h')
      exact Or.inr (by omega)
  · rintro (h | h)
    · rw [h]
    · omega
theorem not_mem_from16_succ (k : Fin 16) : k ∉ from16 (k.val + 1) := by
  simp only [from16, Finset.mem_filter, Finset.mem_univ, true_and]; omega

theorem from8_succ (k : Fin 8) : from8 k.val = insert k (from8 (k.val + 1)) := by
  ext i
  simp only [from8, Finset.mem_filter, Finset.mem_univ, true_and, Finset.mem_insert]
  constructor
  · intro h
    by_cases hik : i = k
    · exact Or.inl hik
    · have hne : i.val ≠ k.val := fun h' => hik (Fin.ext h')
      exact Or.inr (by omega)
  · rintro (h | h)
    · rw [h]
    · omega
theorem not_mem_from8_succ (k : Fin 8) : k ∉ from8 (k.val + 1) := by
  simp only [from8, Finset.mem_filter, Finset.mem_univ, true_and]; omega

/-- With the blocks from `k` on of the first family outstanding, the device owes what it owes with the blocks from
    `k + 1` on outstanding, and block `k`'s credit on the partner's receive cell. -/
theorem owedY_succ (c : Dev nD) (k : Fin 16) :
    owedAt c (from16 k.val) Finset.univ Finset.univ Finset.univ Finset.univ Finset.univ ∅
      = owedAt c (from16 (k.val + 1)) Finset.univ Finset.univ Finset.univ Finset.univ Finset.univ ∅
          + tallyAt (fY.rc (peer c) k) () N := by
  have h : famOwed fY c (from16 k.val) = famOwed fY c (from16 (k.val + 1)) + tallyAt (fY.rc (peer c) k) () N :=
    (congrArg (famOwed fY c) (from16_succ k)).trans
      ((Finset.sum_insert (not_mem_from16_succ k)).trans (add_comm _ _))
  unfold owedAt
  rw [h]
  abel

theorem owedYD_succ (c : Dev nD) (k : Fin 8) :
    owedAt c ∅ (from8 k.val) Finset.univ Finset.univ Finset.univ Finset.univ ∅
      = owedAt c ∅ (from8 (k.val + 1)) Finset.univ Finset.univ Finset.univ Finset.univ ∅
          + tallyAt (fYD.rc (peer c) k) () N := by
  have h : famOwed fYD c (from8 k.val) = famOwed fYD c (from8 (k.val + 1)) + tallyAt (fYD.rc (peer c) k) () N :=
    (congrArg (famOwed fYD c) (from8_succ k)).trans
      ((Finset.sum_insert (not_mem_from8_succ k)).trans (add_comm _ _))
  unfold owedAt
  rw [h]
  abel

/-! ## The greeting's bookkeeping -/

/-- The three greetings owed, one by one. -/
theorem barOwed_univ (c : Dev nD) :
    barOwed c Finset.univ
      = tallyAt (bcell (znb c)) () 1 + tallyAt (bcell (xnb c)) () 1 + tallyAt (bcell (peer c)) () 1 := by
  unfold barOwed
  rw [Fin.sum_univ_three]
  show tallyAt (bcell (peer c)) () 1 + tallyAt (bcell (xnb c)) () 1 + tallyAt (bcell (znb c)) () 1 = _
  abel

theorem owed_greet (c : Dev nD) (O : CellTallies nD τ sig Unit) :
    O + barOwed c Finset.univ
      = O + tallyAt (bcell (znb c)) () 1 + tallyAt (bcell (xnb c)) () 1 + tallyAt (bcell (peer c)) () 1 := by
  rw [barOwed_univ, ← add_assoc, ← add_assoc]

/-- What a device's unit on a neighbour's barrier cell carries: the neighbour's neighbour across the same axis is the
    device itself, so it is the device's own two landing buffers for that neighbour. -/
theorem pay_peer (c : Dev nD) :
    (Rd (F := F) m ρ).payload (bcell (peer c)) 0 (0 : Fin 3) = iprop(anyBuf cc0_scratch0 c ∗ anyBuf cc0_scratch1 c) := by
  show iprop(anyBuf cc0_scratch0 (peer (peer c)) ∗ anyBuf cc0_scratch1 (peer (peer c))) = _
  rw [peer_peer]
theorem pay_xnb (c : Dev nD) :
    (Rd (F := F) m ρ).payload (bcell (xnb c)) 0 (1 : Fin 3) = iprop(anyBuf cc0_scratch2 c ∗ anyBuf cc0_scratch4 c) := by
  show iprop(anyBuf cc0_scratch2 (xnb (xnb c)) ∗ anyBuf cc0_scratch4 (xnb (xnb c))) = _
  rw [xnb_xnb]
theorem pay_znb (c : Dev nD) :
    (Rd (F := F) m ρ).payload (bcell (znb c)) 0 (2 : Fin 3) = iprop(anyBuf cc0_scratch3 c ∗ anyBuf cc0_scratch5 c) := by
  show iprop(anyBuf cc0_scratch3 (znb (znb c)) ∗ anyBuf cc0_scratch5 (znb (znb c))) = _
  rw [znb_znb]

/-- The three tokens the device pays its greetings with, one by one. -/
theorem toks_three (c : Dev nD) :
    (bigSep Finset.univ fun j : Fin 3 => dutyTok (ER (F := F)) (bcell (nbr j c)) 0 j)
      = iprop(dutyTok (ER (F := F)) (bcell (peer c)) 0 (0 : Fin 3) ∗ dutyTok (ER (F := F)) (bcell (xnb c)) 0 (1 : Fin 3)
          ∗ dutyTok (ER (F := F)) (bcell (znb c)) 0 (2 : Fin 3)) := by
  rw [bigSep_univ_eq_bigSepL [(0 : Fin 3), 1, 2] (by decide) (by decide), bigSepL_cons_cons, bigSepL_cons_cons, bigSepL_singleton]
  rfl

/-- The barrier cell sits at level 1. -/
theorem lv_bar (c : Dev nD) : lv ((c : Thread nD τ), SemLoc.reg barS) () ≤ 1 := by
  show (if (barS : Sem sig) = barS then 1 else 0) ≤ 1
  rw [if_pos rfl]

/-- The greeting: one unit to each neighbour's barrier semaphore, then the wait for one's own three. -/
def prelude (c : Dev nD) : Prog (TpuEff nD τ sig (Elt F) Λ₀ .tc) PUnit := do
  semSignalWord (⟨k0_dev1 c, k0_dev1_lt c⟩ : Dev nD) barA.sem 1#32 hamt_1
  semSignalWord (⟨k0_dev2 c, k0_dev2_lt c⟩ : Dev nD) barA.sem 1#32 hamt_1
  semSignalWord (⟨k0_dev3 c, k0_dev3_lt c⟩ : Dev nD) barA.sem 1#32 hamt_1
  semWaitWord barA.sem 3#32 hamt_3

/-- The device hands each neighbour the two landing buffers it reserves for it, and receives the three neighbours'. -/
theorem step_prelude (K : GSem nD τ sig → ℕ) (c : Dev nD) (O : CellTallies nD τ sig Unit)
    (hO : ∀ (g : GSem nD τ sig) (u : Unit), 0 < O g u → g.1.2 = .tc ∧ 1 < lv g u) (Kt : PUnit → sProp 𝕄) :
    iprop(Pz m ρ K ∗ owesE c (O + barOwed c Finset.univ) ∗ (bigSep Finset.univ fun j : Fin 3 => dutyTok ER (bcell (nbr j c)) 0 j)
        ∗ cred (tallyAt (bcell c) () 3) ∗ atPos ER (bcell c) 0 ∅ 0 ∗ scr c
        ∗ ((owesE c O ∗ atPos ER (bcell c) 1 ∅ 0 ∗ barPay c 0 ∗ barPay c 1 ∗ barPay c 2) -∗ Kt ⟨⟩))
      ⊢ wp frame (wpE (defs₀ (F := F)) 𝒱₀ (c : Thread nD τ) none) Set.univ (prelude c) Kt := by
  unfold prelude
  simp only [semSignalWord, semWaitWord, Prog.lift, Prog.bind_op, Prog.bind_ret, Prog.pure_eq_ret]
  simp only [dB1 c, dB2 c, dB3 c, show (1#32 : BitVec 32).toNat = 1 from rfl, show (3#32 : BitVec 32).toNat = 3 from rfl]
  rw [owed_greet c O, toks_three c]
  unfold owesE scr
  iintro ⟨#HP, ⟨%W, HO⟩, ⟨Ht0, Ht1, Ht2⟩, Hc, Hat, ⟨Hb0, Hb1, Hb2, Hb3, Hb4, Hb5⟩, Hk⟩
  -- the unit to the neighbour across the middle axis: with it go the two buffers that neighbour's blocks land in
  iapply (Rounds.wp_signal 𝒱₀ ER (Rd m ρ) (c : Thread nD τ) none (dst := (peer c : Thread nD τ)) (κ := K (bcell (peer c)))
      (d := (0 : Fin 3)) (by rw [duties_bar]; exact Finset.mem_univ _) (amount_bar m ρ (peer c) 0) ()
      (O + tallyAt (bcell (znb c)) () 1 + tallyAt (bcell (xnb c)) () 1) rfl) $$ [HO Ht0 Hb0 Hb1]
  · isplitr; · iapply (inv_of m ρ K _ (bcell_mem (peer c))); iexact HP
    isplitl [HO]; · iexact HO
    isplitl [Ht0]; · iexact Ht0
    isplitl [Hb0 Hb1]
    · iapply (Entails.of_eq (pay_peer m ρ c).symm)
      isplitl [Hb0]; · iexact Hb0
      iexact Hb1
    · iapply (reached_of m ρ K _ (bcell_mem (peer c))); iexact HP
  iintro HO
  -- the unit to the neighbour across the outer axis
  iapply (Rounds.wp_signal 𝒱₀ ER (Rd m ρ) (c : Thread nD τ) none (dst := (xnb c : Thread nD τ)) (κ := K (bcell (xnb c)))
      (d := (1 : Fin 3)) (by rw [duties_bar]; exact Finset.mem_univ _) (amount_bar m ρ (xnb c) 1) ()
      (O + tallyAt (bcell (znb c)) () 1) rfl) $$ [HO Ht1 Hb2 Hb4]
  · isplitr; · iapply (inv_of m ρ K _ (bcell_mem (xnb c))); iexact HP
    isplitl [HO]; · iexact HO
    isplitl [Ht1]; · iexact Ht1
    isplitl [Hb2 Hb4]
    · iapply (Entails.of_eq (pay_xnb m ρ c).symm)
      isplitl [Hb2]; · iexact Hb2
      iexact Hb4
    · iapply (reached_of m ρ K _ (bcell_mem (xnb c))); iexact HP
  iintro HO
  -- the unit to the neighbour across the inner axis
  iapply (Rounds.wp_signal 𝒱₀ ER (Rd m ρ) (c : Thread nD τ) none (dst := (znb c : Thread nD τ)) (κ := K (bcell (znb c)))
      (d := (2 : Fin 3)) (by rw [duties_bar]; exact Finset.mem_univ _) (amount_bar m ρ (znb c) 2) ()
      O rfl) $$ [HO Ht2 Hb3 Hb5]
  · isplitr; · iapply (inv_of m ρ K _ (bcell_mem (znb c))); iexact HP
    isplitl [HO]; · iexact HO
    isplitl [Ht2]; · iexact Ht2
    isplitl [Hb3 Hb5]
    · iapply (Entails.of_eq (pay_znb m ρ c).symm)
      isplitl [Hb3]; · iexact Hb3
      iexact Hb5
    · iapply (reached_of m ρ K _ (bcell_mem (znb c))); iexact HP
  iintro HO
  -- the wait for the three neighbours' units: everything still owed lies above the barrier's level
  iapply (Rounds.wp_wait_rest_token 𝒱₀ ER (Rd m ρ) (c : Thread nD τ) none (κ := K (bcell c))
      (wpE_semWait_eq 𝒱₀ (c : Thread nD τ) none Set.univ) (Set.mem_univ _) () (O := O) (W := W) (R := 0) (m := 0) (T := ∅)
      (by rw [expect_bar])) $$ [Hc HO Hat]
  · isplitr; · iapply (inv_of m ρ K _ (bcell_mem c)); iexact HP
    isplitl [Hc]; · iexact Hc
    isplitl [HO]; · iexact HO
    isplitr
    · iapply (mayWait_of c (SemLoc.reg barS) O 1 (lv_bar c) hO)
      iapply (lev_of m ρ K); iexact HP
    iexact Hat
  iintro ⟨HO, Hat, -, Hpay⟩
  ihave Hp := (Entails.of_eq (rest_bar m ρ c)) $$ Hpay
  simp only [wp_ret]
  imodintro
  iapply Hk
  isplitl [HO]
  · iexists (insert (SemLoc.reg barS, ()) W); iexact HO
  isplitl [Hat]; · iexact Hat
  iexact Hp

theorem hstepY (K : GSem nD τ sig → ℕ) (c : Dev nD) (k : Fin 16) (Kt : PUnit → sProp 𝕄) :
    iprop(ShY m ρ K c k.val ∗ AY m ρ c k ∗ ((ShY m ρ K c (k.val + 1) ∗ BY (F := F) c k) -∗ Kt ⟨⟩))
      ⊢ wp frame (wpE (defs₀ (F := F)) 𝒱₀ (c : Thread nD τ) none) Set.univ (sendY c k) Kt := by
  unfold ShY AY BY sendKit
  rw [owedY_succ c k]
  iintro ⟨⟨#HP, HO⟩, ⟨⟨Ht1, Ht2, Hd⟩, Hx⟩, Hk⟩
  iapply (step_sendY m ρ K c k (owedAt c (from16 (k.val + 1)) Finset.univ Finset.univ Finset.univ Finset.univ Finset.univ ∅) Kt)
  isplitr; · iexact HP
  isplitl [HO]; · iexact HO
  isplitl [Ht1]; · iexact Ht1
  isplitl [Ht2]; · iexact Ht2
  isplitl [Hd]; · iexact Hd
  isplitl [Hx]; · iexact Hx
  iintro ⟨HO, Hc⟩
  iapply Hk
  isplitl [HO]
  · isplitr; · iexact HP
    iexact HO
  iexact Hc

theorem hstepYD (K : GSem nD τ sig → ℕ) (c : Dev nD) (k : Fin 8) (Kt : PUnit → sProp 𝕄) :
    iprop(ShYD m ρ K c k.val ∗ AYD m ρ c k ∗ ((ShYD m ρ K c (k.val + 1) ∗ BYD (F := F) c k) -∗ Kt ⟨⟩))
      ⊢ wp frame (wpE (defs₀ (F := F)) 𝒱₀ (c : Thread nD τ) none) Set.univ (sendYD c k) Kt := by
  unfold ShYD AYD BYD sendKit
  rw [owedYD_succ c k]
  iintro ⟨⟨#HP, HO⟩, ⟨⟨Ht1, Ht2, Hd⟩, Hx⟩, Hk⟩
  iapply (step_sendYD m ρ K c k (owedAt c ∅ (from8 (k.val + 1)) Finset.univ Finset.univ Finset.univ Finset.univ ∅) Kt)
  isplitr; · iexact HP
  isplitl [HO]; · iexact HO
  isplitl [Ht1]; · iexact Ht1
  isplitl [Ht2]; · iexact Ht2
  isplitl [Hd]; · iexact Hd
  isplitl [Hx]; · iexact Hx
  iintro ⟨HO, Hc⟩
  iapply Hk
  isplitl [HO]
  · isplitr; · iexact HP
    iexact HO
  iexact Hc

end Cert.KernelIdeal.StepsSend

end
-- ==== Proof.LibRowBlocks.lean ====
/-
  Row blocks.  A rank-two index set of `h · n` rows is the disjoint union of its `n` blocks of `h` consecutive rows
  (block `k`: rows `h · k` to `h · k + h - 1`, every column).  So a whole buffer held at a share with some contents is
  the same as each member of a disjoint covering family of its rectangles held at that share with those contents.
-/
import Idealize.ShloMosaic.Rules.PointsTo

noncomputable section

namespace Cert.RowBlocks

open Idealize.ShloMosaic
open Idealize.SL Idealize.SL.RA Idealize.SL.BI
open scoped Idealize.SL.BI
open Idealize.SL.BI.BIBase

/-- Blocks of `h` rows starting at rows `h · k` and `h · k'`, `k ≠ k'`, have no element in common: one ends before the
    other begins. -/
theorem disjoint {d : Fin 2 → ℕ} {h w k k' : ℕ}
    (inb : ∀ a, (![h * k, 0] : Fin 2 → ℕ) a + (![h, w] : Fin 2 → ℕ) a ≤ (⟨2, d⟩ : Shape).size a)
    (inb' : ∀ a, (![h * k', 0] : Fin 2 → ℕ) a + (![h, w] : Fin 2 → ℕ) a ≤ (⟨2, d⟩ : Shape).size a) (hne : k ≠ k') :
    Disjoint (Rect.unit (s := ⟨2, d⟩) ![h * k, 0] ![h, w] inb).set (Rect.unit (s := ⟨2, d⟩) ![h * k', 0] ![h, w] inb').set := by
  refine Rect.unit_disjoint (0 : Fin 2) ?_
  show h * k + h ≤ h * k' ∨ h * k' + h ≤ h * k
  rcases Nat.lt_or_gt_of_ne hne with hlt | hgt
  · exact .inl ((Nat.mul_succ h k).symm.trans_le (Nat.mul_le_mul_left h hlt))
  · exact .inr ((Nat.mul_succ h k').symm.trans_le (Nat.mul_le_mul_left h hgt))

/-- The `n` blocks of `h` rows cover an index set of `h · n` rows and `w` columns: the element at row `x` lies in block
    `x / h`. -/
theorem cover {d : Fin 2 → ℕ} {h w n : ℕ} (hpos : 0 < h) (hd0 : d 0 = h * n) (hd1 : d 1 = w)
    (inb : ∀ k : Fin n, ∀ a, (![h * k.val, 0] : Fin 2 → ℕ) a + (![h, w] : Fin 2 → ℕ) a ≤ (⟨2, d⟩ : Shape).size a) :
    (Finset.univ : Finset (Fin n)).biUnion (fun k => (Rect.unit (s := ⟨2, d⟩) ![h * k.val, 0] ![h, w] (inb k)).set)
      = Finset.univ := by
  ext i
  simp only [Finset.mem_biUnion, Finset.mem_univ, true_and, iff_true]
  have hi0 : (i 0).val < d 0 := (i 0).isLt
  have hi1 : (i 1).val < d 1 := (i 1).isLt
  have hlt : (i 0).val / h < n := by
    rw [Nat.div_lt_iff_lt_mul hpos, Nat.mul_comm]; exact hd0 ▸ hi0
  refine ⟨⟨(i 0).val / h, hlt⟩, Rect.mem_set_unit.mpr fun a => ?_⟩
  match a with
  | ⟨0, _⟩ =>
    show h * ((i 0).val / h) ≤ (i 0).val ∧ (i 0).val < h * ((i 0).val / h) + h
    exact ⟨Nat.mul_div_le _ _, (Nat.lt_mul_div_succ _ hpos).trans_eq (Nat.mul_succ _ _)⟩
  | ⟨1, _⟩ =>
    show 0 ≤ (i 1).val ∧ (i 1).val < 0 + w
    omega

section PointsTo

variable {nD : Nat} {τ : Topo} {sig : RefSig} {Ix : Type} [DecidableEq Ix]
variable {Val : EltTy → Type} {Name : Type} [DecidableEq Name] {U : Type} [URA U] {Lvl : Type}

local notation "𝕄" => MT nD τ sig Ix Val Name U Lvl

/-- A whole buffer held at share `q` with contents `f` is each rectangle of a pairwise disjoint family covering its
    index set held at `q` with `f`. -/
theorem pointsTo_univ_slices (c : Thread nD τ) (b : Ref sig c.2.kind) {T : Type} [Fintype T] (r : T → Rect b.ty.shape)
    (hd : ∀ t t', t ≠ t' → Disjoint (r t).set (r t').set)
    (hcov : (Finset.univ : Finset T).biUnion (fun t => (r t).set) = Finset.univ)
    (q : PosShare TreeShare) (f : Buf Val (c.loc b)) :
    (c.loc b ↦{q} f : sProp 𝕄)
      = bigSep Finset.univ fun t => (((View.whole b).slice (r t)).loc c ↦[((View.whole b).slice (r t)).set]{q} f) := by
  have h := pointsTo_biUnion (ℓ := c.loc b) (q := q) (f := f) (Val := Val) (Ix := Ix) (Name := Name) (U := U) (Lvl := Lvl)
    (Finset.univ : Finset T) (fun t => (r t).set) (fun t _ t' _ => hd t t')
  rw [hcov] at h
  rw [h]
  exact bigSep_congr fun t _ => by rw [View.set_slice_whole]

end PointsTo

end Cert.RowBlocks

end
-- ==== Proof.Chunks.lean ====
/-
  A landing buffer of 32 · n rows is the disjoint union of its n blocks of 32 rows: holding the whole buffer at a
  share, with some contents, is the same as holding each block at that share with those contents.
-/
import proofs.«901025_g7700000000001026_dist_rs_v7x_xyz2x2x2_y_m2048_n512_f32_1_alg».proof.Proof.Proto
import proofs.«901025_g7700000000001026_dist_rs_v7x_xyz2x2x2_y_m2048_n512_f32_1_alg».proof.Proof.LibRowBlocks

noncomputable section

namespace Cert.KernelIdeal.Chunks

open Cert.KernelIdeal Cert.KernelIdeal.Gen Cert.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Proto

variable {F : FTy → Type} [FloatOps F]

local notation "𝕄" => MT nD τ sig Unit (Elt F) ℕ UU ℕ

omit [FloatOps F] in
/-- The landing buffer `cc0_scratch0` (512 rows) is the disjoint union of its 16 blocks of 32 rows. -/
theorem chunks_yb (c : Dev nD) (q : PosShare TreeShare) (f : Buf (Elt F) ((c : Thread nD τ).loc cc0_scratch0)) :
    (((c : Thread nD τ).loc cc0_scratch0) ↦{q} f : sProp 𝕄) ⊣⊢ bigSep Finset.univ fun k : Fin 16 => pts (ch512 ybM k) c q f :=
  BiEntails.of_eq (Cert.RowBlocks.pointsTo_univ_slices (c : Thread nD τ) cc0_scratch0
    (fun k : Fin 16 => Rect.unit (s := S512x512) ![32 * k.val, 0] S32x512.size (inb512 k))
    (fun k k' h => Cert.RowBlocks.disjoint _ _ (fun e => h (Fin.ext e)))
    (Cert.RowBlocks.cover (by decide) rfl rfl _) q f)

omit [FloatOps F] in
/-- The landing buffer `cc0_scratch2` (512 rows) is the disjoint union of its 16 blocks of 32 rows. -/
theorem chunks_xd (c : Dev nD) (q : PosShare TreeShare) (f : Buf (Elt F) ((c : Thread nD τ).loc cc0_scratch2)) :
    (((c : Thread nD τ).loc cc0_scratch2) ↦{q} f : sProp 𝕄) ⊣⊢ bigSep Finset.univ fun k : Fin 16 => pts (ch512 xdM k) c q f :=
  BiEntails.of_eq (Cert.RowBlocks.pointsTo_univ_slices (c : Thread nD τ) cc0_scratch2
    (fun k : Fin 16 => Rect.unit (s := S512x512) ![32 * k.val, 0] S32x512.size (inb512 k))
    (fun k k' h => Cert.RowBlocks.disjoint _ _ (fun e => h (Fin.ext e)))
    (Cert.RowBlocks.cover (by decide) rfl rfl _) q f)

omit [FloatOps F] in
/-- The landing buffer `cc0_scratch3` (512 rows) is the disjoint union of its 16 blocks of 32 rows. -/
theorem chunks_zd (c : Dev nD) (q : PosShare TreeShare) (f : Buf (Elt F) ((c : Thread nD τ).loc cc0_scratch3)) :
    (((c : Thread nD τ).loc cc0_scratch3) ↦{q} f : sProp 𝕄) ⊣⊢ bigSep Finset.univ fun k : Fin 16 => pts (ch512 zdM k) c q f :=
  BiEntails.of_eq (Cert.RowBlocks.pointsTo_univ_slices (c : Thread nD τ) cc0_scratch3
    (fun k : Fin 16 => Rect.unit (s := S512x512) ![32 * k.val, 0] S32x512.size (inb512 k))
    (fun k k' h => Cert.RowBlocks.disjoint _ _ (fun e => h (Fin.ext e)))
    (Cert.RowBlocks.cover (by decide) rfl rfl _) q f)

omit [FloatOps F] in
/-- The landing buffer `cc0_scratch1` (256 rows) is the disjoint union of its 8 blocks of 32 rows. -/
theorem chunks_yd (c : Dev nD) (q : PosShare TreeShare) (f : Buf (Elt F) ((c : Thread nD τ).loc cc0_scratch1)) :
    (((c : Thread nD τ).loc cc0_scratch1) ↦{q} f : sProp 𝕄) ⊣⊢ bigSep Finset.univ fun k : Fin 8 => pts (ch256 ydM k) c q f :=
  BiEntails.of_eq (Cert.RowBlocks.pointsTo_univ_slices (c : Thread nD τ) cc0_scratch1
    (fun k : Fin 8 => Rect.unit (s := S256x512) ![32 * k.val, 0] S32x512.size (inb256 k))
    (fun k k' h => Cert.RowBlocks.disjoint _ _ (fun e => h (Fin.ext e)))
    (Cert.RowBlocks.cover (by decide) rfl rfl _) q f)

omit [FloatOps F] in
/-- The landing buffer `cc0_scratch4` (128 rows) is the disjoint union of its 4 blocks of 32 rows. -/
theorem chunks_xr (c : Dev nD) (q : PosShare TreeShare) (f : Buf (Elt F) ((c : Thread nD τ).loc cc0_scratch4)) :
    (((c : Thread nD τ).loc cc0_scratch4) ↦{q} f : sProp 𝕄) ⊣⊢ bigSep Finset.univ fun k : Fin 4 => pts (ch128 xrM k) c q f :=
  BiEntails.of_eq (Cert.RowBlocks.pointsTo_univ_slices (c : Thread nD τ) cc0_scratch4
    (fun k : Fin 4 => Rect.unit (s := S128x512) ![32 * k.val, 0] S32x512.size (inb128 k))
    (fun k k' h => Cert.RowBlocks.disjoint _ _ (fun e => h (Fin.ext e)))
    (Cert.RowBlocks.cover (by decide) rfl rfl _) q f)

omit [FloatOps F] in
/-- The landing buffer `cc0_scratch5` (128 rows) is the disjoint union of its 4 blocks of 32 rows. -/
theorem chunks_zr (c : Dev nD) (q : PosShare TreeShare) (f : Buf (Elt F) ((c : Thread nD τ).loc cc0_scratch5)) :
    (((c : Thread nD τ).loc cc0_scratch5) ↦{q} f : sProp 𝕄) ⊣⊢ bigSep Finset.univ fun k : Fin 4 => pts (ch128 zrM k) c q f :=
  BiEntails.of_eq (Cert.RowBlocks.pointsTo_univ_slices (c : Thread nD τ) cc0_scratch5
    (fun k : Fin 4 => Rect.unit (s := S128x512) ![32 * k.val, 0] S32x512.size (inb128 k))
    (fun k k' h => Cert.RowBlocks.disjoint _ _ (fun e => h (Fin.ext e)))
    (Cert.RowBlocks.cover (by decide) rfl rfl _) q f)

end Cert.KernelIdeal.Chunks

end
-- ==== Proof.Setup.lean ====
/-
  From what the pipeline hands the body, through the greeting, to the state the sends start from.
-/
import proofs.«901025_g7700000000001026_dist_rs_v7x_xyz2x2x2_y_m2048_n512_f32_1_alg».proof.Proof.BodyDefs
import proofs.«901025_g7700000000001026_dist_rs_v7x_xyz2x2x2_y_m2048_n512_f32_1_alg».proof.Proof.StepsSend
import proofs.«901025_g7700000000001026_dist_rs_v7x_xyz2x2x2_y_m2048_n512_f32_1_alg».proof.Proof.Chunks

noncomputable section

namespace Cert.KernelIdeal.Setup

open Cert.KernelIdeal Cert.KernelIdeal.Gen Cert.KernelIdeal.Proto Cert.KernelIdeal.GenBody Cert.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.KernelIdeal.StepDefs Cert.KernelIdeal.XSplit Cert.KernelIdeal.Accum Cert.KernelIdeal.PhaseDefs Cert.KernelIdeal.States Cert.KernelIdeal.BodyDefs
open Cert.KernelIdeal.StepsSend Cert.KernelIdeal.Chunks

/-! ## What is owed at the start -/

/-- Every block is from block 0 on. -/
theorem from16_zero : from16 0 = Finset.univ := Finset.filter_true_of_mem fun _ _ => Nat.zero_le _

/-- What a device owes at launch: every block's receive credit, and the three greetings. -/
theorem O₀_eq (c : Dev nD) :
    O₀ c = owedAt c (from16 0) Finset.univ Finset.univ Finset.univ Finset.univ Finset.univ ∅ + barOwed c Finset.univ := by
  unfold O₀ owedAt
  rw [from16_zero, show barOwed c ∅ = 0 from Finset.sum_empty, add_zero]
  rfl

/-- A positive entry of a family's outstanding credit is the receive cell, on the family's neighbour, of one of the
    outstanding blocks. -/
theorem famOwed_pos (f : Fam) (c : Dev nD) (S : Finset (Fin f.n)) (g : GSem nD τ sig) (u : Unit)
    (h : 0 < famOwed f c S g u) : ∃ k ∈ S, g = f.rc (nbr f.j c) k := by
  have e : famOwed f c S g u = ∑ k ∈ S, tallyAt (f.rc (nbr f.j c) k) () N g u := by
    unfold famOwed; rw [Finset.sum_apply, Finsupp.finsetSum_apply]
  rw [e] at h
  by_contra hne
  have h0 : ∑ k ∈ S, tallyAt (f.rc (nbr f.j c) k) () N g u = 0 := Finset.sum_eq_zero fun k hk => by
    rw [tallyAt_apply, if_neg]; rintro ⟨hg, -⟩; exact hne ⟨k, hk, hg⟩
  omega

/-- A receive cell's level is its pool number's. -/
theorem lv_rc (f : Fam) (c' : Dev nD) (k : Fin f.n) : lv (f.rc c' k) () = lvD (f.rB + k.val) := rfl

theorem lvD_fY (k : Fin fY.n) : 1 < lvD (fY.rB + k.val) := by
  have h : k.val < 16 := k.isLt
  show 1 < lvD (18 + k.val)
  unfold lvD; split_ifs <;> omega
theorem lvD_fYD (k : Fin fYD.n) : 1 < lvD (fYD.rB + k.val) := by
  have h : k.val < 8 := k.isLt
  show 1 < lvD (42 + k.val)
  unfold lvD; split_ifs <;> omega
theorem lvD_fXD (k : Fin fXD.n) : 1 < lvD (fXD.rB + k.val) := by
  have h : k.val < 16 := k.isLt
  show 1 < lvD (66 + k.val)
  unfold lvD; split_ifs <;> omega
theorem lvD_fZD (k : Fin fZD.n) : 1 < lvD (fZD.rB + k.val) := by
  have h : k.val < 16 := k.isLt
  show 1 < lvD (98 + k.val)
  unfold lvD; split_ifs <;> omega
theorem lvD_fXR (k : Fin fXR.n) : 1 < lvD (fXR.rB + k.val) := by
  have h : k.val < 4 := k.isLt
  show 1 < lvD (118 + k.val)
  unfold lvD; split_ifs <;> omega
theorem lvD_fZR (k : Fin fZR.n) : 1 < lvD (fZR.rB + k.val) := by
  have h : k.val < 4 := k.isLt
  show 1 < lvD (126 + k.val)
  unfold lvD; split_ifs <;> omega

/-- A family's outstanding credit lies on TensorCore cells above the barrier's level, when its receive cells do. -/
theorem famOwed_above (f : Fam) (hf : ∀ k : Fin f.n, 1 < lvD (f.rB + k.val)) (c : Dev nD) (S : Finset (Fin f.n))
    (g : GSem nD τ sig) (u : Unit) (h : 0 < famOwed f c S g u) : g.1.2 = .tc ∧ 1 < lv g u := by
  obtain ⟨k, -, rfl⟩ := famOwed_pos f c S g u h
  exact ⟨rfl, hf k⟩

/-- With the greetings paid, everything a device owes lies on receive cells, all above the barrier's level. -/
theorem owed_above (c : Dev nD) (A : Finset (Fin fY.n)) (A' : Finset (Fin fYD.n)) (C : Finset (Fin fXD.n)) (C' : Finset (Fin fZD.n))
    (E : Finset (Fin fXR.n)) (E' : Finset (Fin fZR.n)) (g : GSem nD τ sig) (u : Unit)
    (h : 0 < owedAt c A A' C C' E E' ∅ g u) : g.1.2 = .tc ∧ 1 < lv g u := by
  unfold owedAt at h
  rcases Pipeline.add_pos_cases h with h | h
  · rcases Pipeline.add_pos_cases h with h | h
    · rcases Pipeline.add_pos_cases h with h | h
      · rcases Pipeline.add_pos_cases h with h | h
        · rcases Pipeline.add_pos_cases h with h | h
          · rcases Pipeline.add_pos_cases h with h | h
            · exact famOwed_above fY lvD_fY c A g u h
            · exact famOwed_above fYD lvD_fYD c A' g u h
          · exact famOwed_above fXD lvD_fXD c C g u h
        · exact famOwed_above fZD lvD_fZD c C' g u h
      · exact famOwed_above fXR lvD_fXR c E g u h
    · exact famOwed_above fZR lvD_fZR c E' g u h
  · rw [show barOwed c ∅ = 0 from Finset.sum_empty] at h
    exact absurd h (Nat.lt_irrefl 0)

/-! ## Sixteen blocks by pairs and a second half -/

omit [FloatOps F] in
/-- Sixteen things are the four pairs (2j, 2j + 1) of the first eight and the second eight. -/
theorem split16 (Φ : Fin 16 → sProp 𝕄) :
    bigSep Finset.univ Φ
      = iprop((bigSep Finset.univ fun j : Fin 4 => iprop(Φ (ev j) ∗ Φ (od j))) ∗ bigSep Finset.univ fun i : Fin 8 => Φ (hi i)) := by
  rw [bigSep_univ_eq_bigSepL [ev 0, od 0, ev 1, od 1, ev 2, od 2, ev 3, od 3, hi 0, hi 1, hi 2, hi 3, hi 4, hi 5, hi 6, hi 7] (by decide) (by decide) Φ,
    bigSep_univ_eq_bigSepL [(0 : Fin 4), 1, 2, 3] (by decide) (by decide),
    bigSep_univ_eq_bigSepL [(0 : Fin 8), 1, 2, 3, 4, 5, 6, 7] (by decide) (by decide)]
  show (iprop(Φ (ev 0) ∗ Φ (od 0) ∗ Φ (ev 1) ∗ Φ (od 1) ∗ Φ (ev 2) ∗ Φ (od 2) ∗ Φ (ev 3) ∗ Φ (od 3)
        ∗ Φ (hi 0) ∗ Φ (hi 1) ∗ Φ (hi 2) ∗ Φ (hi 3) ∗ Φ (hi 4) ∗ Φ (hi 5) ∗ Φ (hi 6) ∗ Φ (hi 7)) : sProp 𝕄)
      = iprop(((Φ (ev 0) ∗ Φ (od 0)) ∗ (Φ (ev 1) ∗ Φ (od 1)) ∗ (Φ (ev 2) ∗ Φ (od 2)) ∗ (Φ (ev 3) ∗ Φ (od 3)))
        ∗ Φ (hi 0) ∗ Φ (hi 1) ∗ Φ (hi 2) ∗ Φ (hi 3) ∗ Φ (hi 4) ∗ Φ (hi 5) ∗ Φ (hi 6) ∗ Φ (hi 7))
  have h1 : (iprop(Φ (ev 0) ∗ Φ (od 0) ∗ Φ (ev 1) ∗ Φ (od 1) ∗ Φ (ev 2) ∗ Φ (od 2) ∗ Φ (ev 3) ∗ Φ (od 3)
        ∗ Φ (hi 0) ∗ Φ (hi 1) ∗ Φ (hi 2) ∗ Φ (hi 3) ∗ Φ (hi 4) ∗ Φ (hi 5) ∗ Φ (hi 6) ∗ Φ (hi 7)) : sProp 𝕄)
      ⊢ iprop(((Φ (ev 0) ∗ Φ (od 0)) ∗ (Φ (ev 1) ∗ Φ (od 1)) ∗ (Φ (ev 2) ∗ Φ (od 2)) ∗ (Φ (ev 3) ∗ Φ (od 3)))
        ∗ Φ (hi 0) ∗ Φ (hi 1) ∗ Φ (hi 2) ∗ Φ (hi 3) ∗ Φ (hi 4) ∗ Φ (hi 5) ∗ Φ (hi 6) ∗ Φ (hi 7)) := by
    iintro ⟨A0, B0, A1, B1, A2, B2, A3, B3, C0, C1, C2, C3, C4, C5, C6, C7⟩
    isplitl [A0 B0 A1 B1 A2 B2 A3 B3]
    · isplitl [A0 B0]
      · isplitl [A0] <;> iassumption
      isplitl [A1 B1]
      · isplitl [A1] <;> iassumption
      isplitl [A2 B2]
      · isplitl [A2] <;> iassumption
      isplitl [A3] <;> iassumption
    · isplitl [C0]; · iexact C0
      isplitl [C1]; · iexact C1
      isplitl [C2]; · iexact C2
      isplitl [C3]; · iexact C3
      isplitl [C4]; · iexact C4
      isplitl [C5]; · iexact C5
      isplitl [C6]; · iexact C6
      iexact C7
  have h2 : (iprop(((Φ (ev 0) ∗ Φ (od 0)) ∗ (Φ (ev 1) ∗ Φ (od 1)) ∗ (Φ (ev 2) ∗ Φ (od 2)) ∗ (Φ (ev 3) ∗ Φ (od 3)))
        ∗ Φ (hi 0) ∗ Φ (hi 1) ∗ Φ (hi 2) ∗ Φ (hi 3) ∗ Φ (hi 4) ∗ Φ (hi 5) ∗ Φ (hi 6) ∗ Φ (hi 7)) : sProp 𝕄)
      ⊢ iprop(Φ (ev 0) ∗ Φ (od 0) ∗ Φ (ev 1) ∗ Φ (od 1) ∗ Φ (ev 2) ∗ Φ (od 2) ∗ Φ (ev 3) ∗ Φ (od 3)
        ∗ Φ (hi 0) ∗ Φ (hi 1) ∗ Φ (hi 2) ∗ Φ (hi 3) ∗ Φ (hi 4) ∗ Φ (hi 5) ∗ Φ (hi 6) ∗ Φ (hi 7)) := by
    iintro ⟨⟨⟨A0, B0⟩, ⟨A1, B1⟩, ⟨A2, B2⟩, A3, B3⟩, C0, C1, C2, C3, C4, C5, C6, C7⟩
    isplitl [A0]; · iexact A0
    isplitl [B0]; · iexact B0
    isplitl [A1]; · iexact A1
    isplitl [B1]; · iexact B1
    isplitl [A2]; · iexact A2
    isplitl [B2]; · iexact B2
    isplitl [A3]; · iexact A3
    isplitl [B3]; · iexact B3
    isplitl [C0]; · iexact C0
    isplitl [C1]; · iexact C1
    isplitl [C2]; · iexact C2
    isplitl [C3]; · iexact C3
    isplitl [C4]; · iexact C4
    isplitl [C5]; · iexact C5
    isplitl [C6]; · iexact C6
    iexact C7
  exact BI.equiv_iff.mp ⟨h1, h2⟩

/-! ## Sorting the ghost state by family -/

omit [FloatOps F] in
/-- A family's positions are its send cells' and its receive cells'. -/
theorem famPos_eq (f : Fam) (c : Dev nD) :
    famPos (F := F) f c = iprop(poss f c ∗ bigSep Finset.univ fun k : Fin f.n => (atPos ER (f.rc c k) 0 ∅ 0 : sProp 𝕄)) := by
  unfold famPos poss; exact bigSep_sep' _ _ _

omit [FloatOps F] in
/-- What a family's receive waits consume is its receive credit and its receive cells' positions. -/
theorem rks_eq (f : Fam) (c : Dev nD) :
    rks (F := F) f c = iprop(famCreds f c ∗ bigSep Finset.univ fun k : Fin f.n => (atPos ER (f.rc c k) 0 ∅ 0 : sProp 𝕄)) := by
  unfold rks recvKit famCreds; exact bigSep_sep' _ _ _

omit [FloatOps F] in
theorem sort_fam (f : Fam) (c : Dev nD) : iprop(famPos (F := F) f c ∗ famCreds f c) ⊢ iprop(poss f c ∗ rks f c) := by
  rw [famPos_eq, rks_eq]
  iintro ⟨⟨H1, H2⟩, H3⟩
  isplitl [H1]; · iexact H1
  isplitl [H3]; · iexact H3
  iexact H2

omit [FloatOps F] in
/-- For a family of sixteen blocks, the same by halves. -/
theorem rks_halves (f : Fam) (h : f.n = 16) (c : Dev nD) : rks (F := F) f c = iprop(rkA f h c ∗ rkB f h c) := by
  obtain ⟨n, sB, rB, j, hs, hr⟩ := f
  dsimp only at h
  subst h
  unfold rks rkA rkB
  exact split16 (fun k : Fin 16 => recvKit (F := F) ⟨16, sB, rB, j, hs, hr⟩ c k)

omit [FloatOps F] in
/-- A family's tokens, with each block's landing place on the neighbour at some contents, are its sends' kits. -/
theorem kits_intro (f : Fam) (dst : Fin f.n → Memref sig .tc .vmem S32x512 .f32) (c : Dev nD) (P : Fin f.n → sProp 𝕄)
    (hP : ∀ k, P k ⊢ iprop(∃ fd : Buf (Elt F) ((dst k).view.loc ((nbr f.j c : Dev nD) : Thread nD τ)), pts (dst k) (nbr f.j c) fullShare fd)) :
    iprop(famToks (F := F) f c ∗ bigSep Finset.univ P) ⊢ kits (F := F) f dst c := by
  have hk : ∀ k : Fin f.n, iprop(iprop(dutyTok ER (f.sc c k) 0 (0 : Fin 3) ∗ dutyTok ER (f.rc (nbr f.j c) k) 0 (0 : Fin 3)) ∗ P k)
      ⊢ sendKit (F := F) f dst c k := by
    intro k
    unfold sendKit
    iintro ⟨⟨H1, H2⟩, H3⟩
    isplitl [H1]; · iexact H1
    isplitl [H2]; · iexact H2
    iapply (hP k); iexact H3
  unfold famToks kits
  rw [← bigSep_sep']
  exact bigSep_mono fun k _ => hk k

omit [FloatOps F] in
theorem kits_fY (c : Dev nD) : iprop(famToks (F := F) fY c ∗ anyBuf cc0_scratch0 (peer c)) ⊢ kits (F := F) fY (fun k => ch512 ybM k) c := by
  iintro ⟨Ht, ⟨%f, Hb⟩⟩
  ihave Hb' := (chunks_yb (peer c) fullShare f).1 $$ Hb
  iapply (kits_intro fY (fun k => ch512 ybM k) c (fun k => pts (ch512 ybM k) (peer c) fullShare f) (fun k => by iintro H; iexists f; iexact H))
  isplitl [Ht]; · iexact Ht
  iexact Hb'
omit [FloatOps F] in
theorem kits_fYD (c : Dev nD) : iprop(famToks (F := F) fYD c ∗ anyBuf cc0_scratch1 (peer c)) ⊢ kits (F := F) fYD (fun k => ch256 ydM k) c := by
  iintro ⟨Ht, ⟨%f, Hb⟩⟩
  ihave Hb' := (chunks_yd (peer c) fullShare f).1 $$ Hb
  iapply (kits_intro fYD (fun k => ch256 ydM k) c (fun k => pts (ch256 ydM k) (peer c) fullShare f) (fun k => by iintro H; iexists f; iexact H))
  isplitl [Ht]; · iexact Ht
  iexact Hb'
omit [FloatOps F] in
theorem kits_fXD (c : Dev nD) : iprop(famToks (F := F) fXD c ∗ anyBuf cc0_scratch2 (xnb c)) ⊢ kits (F := F) fXD (fun k => ch512 xdM k) c := by
  iintro ⟨Ht, ⟨%f, Hb⟩⟩
  ihave Hb' := (chunks_xd (xnb c) fullShare f).1 $$ Hb
  iapply (kits_intro fXD (fun k => ch512 xdM k) c (fun k => pts (ch512 xdM k) (xnb c) fullShare f) (fun k => by iintro H; iexists f; iexact H))
  isplitl [Ht]; · iexact Ht
  iexact Hb'
omit [FloatOps F] in
theorem kits_fZD (c : Dev nD) : iprop(famToks (F := F) fZD c ∗ anyBuf cc0_scratch3 (znb c)) ⊢ kits (F := F) fZD (fun k => ch512 zdM k) c := by
  iintro ⟨Ht, ⟨%f, Hb⟩⟩
  ihave Hb' := (chunks_zd (znb c) fullShare f).1 $$ Hb
  iapply (kits_intro fZD (fun k => ch512 zdM k) c (fun k => pts (ch512 zdM k) (znb c) fullShare f) (fun k => by iintro H; iexists f; iexact H))
  isplitl [Ht]; · iexact Ht
  iexact Hb'
omit [FloatOps F] in
theorem kits_fXR (c : Dev nD) : iprop(famToks (F := F) fXR c ∗ anyBuf cc0_scratch4 (xnb c)) ⊢ kits (F := F) fXR (fun k => ch128 xrM k) c := by
  iintro ⟨Ht, ⟨%f, Hb⟩⟩
  ihave Hb' := (chunks_xr (xnb c) fullShare f).1 $$ Hb
  iapply (kits_intro fXR (fun k => ch128 xrM k) c (fun k => pts (ch128 xrM k) (xnb c) fullShare f) (fun k => by iintro H; iexists f; iexact H))
  isplitl [Ht]; · iexact Ht
  iexact Hb'
omit [FloatOps F] in
theorem kits_fZR (c : Dev nD) : iprop(famToks (F := F) fZR c ∗ anyBuf cc0_scratch5 (znb c)) ⊢ kits (F := F) fZR (fun k => ch128 zrM k) c := by
  iintro ⟨Ht, ⟨%f, Hb⟩⟩
  ihave Hb' := (chunks_zr (znb c) fullShare f).1 $$ Hb
  iapply (kits_intro fZR (fun k => ch128 zrM k) c (fun k => pts (ch128 zrM k) (znb c) fullShare f) (fun k => by iintro H; iexists f; iexact H))
  isplitl [Ht]; · iexact Ht
  iexact Hb'

/-! ## The staged result before any block is added -/

omit [FloatOps F] in
/-- The whole staged result, through its memref. -/
theorem pts_oM (c : Dev nD) (g : Buf (Elt F) ((c : Thread nD τ).loc cc0_stg1_0)) :
    (pts oM c fullShare g : sProp 𝕄) = (((c : Thread nD τ).loc cc0_stg1_0) ↦{fullShare} g) := by
  show ((oM.view.loc (c : Thread nD τ)) ↦[oM.view.set]{fullShare} g : sProp 𝕄) = _
  rw [(Memref.isWhole_whole cc0_stg1_0).set_eq_univ]

/-- No row is done before the first block is added in: the staged result at any contents will do. -/
theorem out_start (c : Dev nD) (g : Buf (Elt F) ((c : Thread nD τ).loc cc0_stg1_0)) :
    (((c : Thread nD τ).loc cc0_stg1_0) ↦{fullShare} g : sProp 𝕄) ⊢ OUT m ρ c 0 0 0 0 0 0 := by
  unfold OUT outInv
  iintro H
  iexists g
  isplitl [H]
  · rw [pts_oM]; iexact H
  · ipureintro
    intro i hD
    exfalso
    unfold doneRows at hD
    rcases hD with ⟨k, hk, -⟩ | ⟨k, hk, -⟩ | ⟨k, hk, -⟩ | ⟨k, hk, -⟩ | ⟨k, hk, -⟩ | ⟨k, hk, -⟩ <;> exact Nat.not_lt_zero _ hk

/-! ## The start of the body -/

/-- The body's start: the ghost state sorted by family, the slab split into what is kept and what is lent, and —
    through the greeting — the three neighbours' landing buffers, cut into blocks. -/
theorem setup (K : GSem nD τ sig → ℕ) (c : Dev nD) (Kt : PUnit → sProp 𝕄) :
    iprop(bodyPre m ρ K c ∗ (T1 m ρ K c -∗ Kt ⟨⟩))
      ⊢ wp frame (wpE (defs₀ (F := F)) 𝒱₀ (c : Thread nD τ) none) Set.univ (prelude c) Kt := by
  have e0 : barPay (F := F) c 0 = iprop(anyBuf cc0_scratch0 (peer c) ∗ anyBuf cc0_scratch1 (peer c)) := rfl
  have e1 : barPay (F := F) c 1 = iprop(anyBuf cc0_scratch2 (xnb c) ∗ anyBuf cc0_scratch4 (xnb c)) := rfl
  have e2 : barPay (F := F) c 2 = iprop(anyBuf cc0_scratch3 (znb c) ∗ anyBuf cc0_scratch5 (znb c)) := rfl
  unfold bodyPre ghost
  iintro ⟨⟨⟨⟨#Hrec, HatB, HtB, ⟨HpY, HpYD, HpXD, HpZD, HpXR, HpZR⟩, HtY, HtYD, HtXD, HtZD, HtXR, HtZR⟩, HcB,
    ⟨HcY, HcYD, HcXD, HcZD, HcXR, HcZR⟩, #Hlev, Hscr⟩, Ho, ⟨%d0, %g0, %hg0, Hx⟩, ⟨%d1, %g1, %hg1, Hout⟩⟩, Hk⟩
  -- the input window is fetched at the one grid point: the staged slab holds the device's block of the input
  have hx : g0 = xstg m ρ c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl, O₀_eq c]
  -- the greeting
  iapply (step_prelude m ρ K c (owedAt c (from16 0) Finset.univ Finset.univ Finset.univ Finset.univ Finset.univ ∅)
    (owed_above c (from16 0) Finset.univ Finset.univ Finset.univ Finset.univ Finset.univ) Kt)
  rw [e0, e1, e2]
  isplitr
  · unfold Pz; isplitr; · iexact Hrec
    iexact Hlev
  isplitl [HO]; · unfold owesE; iexists W; iexact HO
  isplitl [HtB]; · iexact HtB
  isplitl [HcB]; · iexact HcB
  isplitl [HatB]; · iexact HatB
  isplitl [Hscr]; · iexact Hscr
  iintro ⟨HO, Hb1, ⟨Hyb, Hyd⟩, ⟨Hxd, Hxr⟩, ⟨Hzd, Hzr⟩⟩
  -- the neighbours' landing buffers, block by block, with the tokens: the sends' kits
  ihave HkY := (kits_fY (F := F) c) $$ [HtY Hyb]
  · isplitl [HtY] <;> iassumption
  ihave HkYD := (kits_fYD (F := F) c) $$ [HtYD Hyd]
  · isplitl [HtYD] <;> iassumption
  ihave HkXD := (kits_fXD (F := F) c) $$ [HtXD Hxd]
  · isplitl [HtXD] <;> iassumption
  ihave HkZD := (kits_fZD (F := F) c) $$ [HtZD Hzd]
  · isplitl [HtZD] <;> iassumption
  ihave HkXR := (kits_fXR (F := F) c) $$ [HtXR Hxr]
  · isplitl [HtXR] <;> iassumption
  ihave HkZR := (kits_fZR (F := F) c) $$ [HtZR Hzr]
  · isplitl [HtZR] <;> iassumption
  -- positions and credits, by family
  ihave HsY := (sort_fam (F := F) fY c) $$ [HpY HcY]
  · isplitl [HpY] <;> iassumption
  icases HsY with ⟨HposY, HrkY⟩
  ihave HsYD := (sort_fam (F := F) fYD c) $$ [HpYD HcYD]
  · isplitl [HpYD] <;> iassumption
  icases HsYD with ⟨HposYD, HrkYD⟩
  ihave HsXD := (sort_fam (F := F) fXD c) $$ [HpXD HcXD]
  · isplitl [HpXD] <;> iassumption
  icases HsXD with ⟨HposXD, HrkXD⟩
  ihave HsZD := (sort_fam (F := F) fZD c) $$ [HpZD HcZD]
  · isplitl [HpZD] <;> iassumption
  icases HsZD with ⟨HposZD, HrkZD⟩
  ihave HsXR := (sort_fam (F := F) fXR c) $$ [HpXR HcXR]
  · isplitl [HpXR] <;> iassumption
  icases HsXR with ⟨HposXR, HrkXR⟩
  ihave HsZR := (sort_fam (F := F) fZR c) $$ [HpZR HcZR]
  · isplitl [HpZR] <;> iassumption
  icases HsZR with ⟨HposZR, HrkZR⟩
  ihave HhXD := (Entails.of_eq (rks_halves (F := F) fXD rfl c)) $$ HrkXD
  icases HhXD with ⟨HrkXDa, HrkXDb⟩
  ihave HhZD := (Entails.of_eq (rks_halves (F := F) fZD rfl c)) $$ HrkZD
  icases HhZD with ⟨HrkZDa, HrkZDb⟩
  -- the slab, and the staged result
  ihave Hx' := (xsplit m ρ c).1 $$ Hx
  icases Hx' with ⟨HxK, HxY, HxYD, HxR⟩
  ihave HOUT := (out_start m ρ c g1) $$ Hout
  iapply Hk
  unfold T1 OW bar1 xsYs xsYDs
  isplitl [HO]; · iexact HO
  isplitl [HOUT]; · iexact HOUT
  isplitr
  · unfold Pz; isplitr; · iexact Hrec
    iexact Hlev
  isplitl [Hb1]; · iexact Hb1
  isplitl [HkY]; · iexact HkY
  isplitl [HkYD]; · iexact HkYD
  isplitl [HkXD]; · iexact HkXD
  isplitl [HkZD]; · iexact HkZD
  isplitl [HkXR]; · iexact HkXR
  isplitl [HkZR]; · iexact HkZR
  isplitl [HxY]; · iexact HxY
  isplitl [HxYD]; · iexact HxYD
  isplitl [HxK]; · iexact HxK
  isplitl [HxR]; · iexact HxR
  isplitl [HrkY]; · iexact HrkY
  isplitl [HrkYD]; · iexact HrkYD
  isplitl [HrkXDa]; · iexact HrkXDa
  isplitl [HrkXDb]; · iexact HrkXDb
  isplitl [HrkZDa]; · iexact HrkZDa
  isplitl [HrkZDb]; · iexact HrkZDb
  isplitl [HrkXR]; · iexact HrkXR
  isplitl [HrkZR]; · iexact HrkZR
  isplitl [HposY]; · iexact HposY
  isplitl [HposYD]; · iexact HposYD
  isplitl [HposXD]; · iexact HposXD
  isplitl [HposZD]; · iexact HposZD
  isplitl [HposXR]; · iexact HposXR
  iexact HposZR

end Cert.KernelIdeal.Setup

end
-- ==== Proof.Values.lean ====
/-
  What the kernel stores at a row of its result is the final value there.  The stored value is the sum of an entry of
  the device's own slab and the entry a landing buffer holds once everything has arrived; the landing buffer's entry is
  an entry of another device's slab, at the same row and at the column the device's middle coordinate names; and that
  other device is the one the specification names for the row.
-/
import proofs.«901025_g7700000000001026_dist_rs_v7x_xyz2x2x2_y_m2048_n512_f32_1_alg».proof.Proof.GenBodyDefs
import Idealize.ShloMosaic.Lib.Pipeline.Value
import Idealize.ShloMosaic.Lib.ValueIdx

noncomputable section

namespace Cert.KernelIdeal.Values

open Cert.KernelIdeal Cert.KernelIdeal.Gen Cert.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Proto Cert.KernelIdeal.GenBody
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The neighbours, by their numbers -/

theorem peer_val (c : Dev nD) : (peer c).val = (4 * (c.val / 4) + (c.val % 2) + 2) - 2 * ((c.val / 2) % 2) := rfl
theorem xnb_val (c : Dev nD) : (xnb c).val = (2 * ((c.val / 2) % 2) + (c.val % 2) + 4) - 4 * (c.val / 4) := rfl
theorem znb_val (c : Dev nD) : (znb c).val = (4 * (c.val / 4) + 2 * ((c.val / 2) % 2) + 1) - (c.val % 2) := rfl

/-! ## The two readings -/

/-- An index of a slab is determined by its row and its column (the slab axis has one coordinate). -/
theorem idx3_ext (p q : S1x2048x1024.Idx) (h1 : (p 1).val = (q 1).val) (h2 : (p 2).val = (q 2).val) : p = q := by
  funext a
  refine Fin.ext ?_
  match a with
  | ⟨0, _⟩ =>
    have hp : (p 0).val < 1 := (p 0).isLt
    have hq : (q 0).val < 1 := (q 0).isLt
    show (p 0).val = (q 0).val
    omega
  | ⟨1, _⟩ => exact h1
  | ⟨2, _⟩ => exact h2

/-- The final value at a row and column of the result is the sum of the device's own slab entry and the entry of the
    slab of the device the specification names for the row, both at that row and at the column the device's middle
    coordinate names. -/
theorem out_eq (c d : Dev nD) (I : S2048x512.Idx) (i1 i2 : S1x2048x1024.Idx)
    (h1r : (i1 1).val = (I 0).val) (h1c : (i1 2).val = 512 * my c + (I 1).val)
    (hd : srcDev c (I 0).val = d) (h2r : (i2 1).val = (I 0).val) (h2c : (i2 2).val = 512 * my c + (I 1).val) :
    FloatOps.addf (xstg m ρ c i1) (xstg m ρ d i2) = outAt m ρ c I := by
  subst hd
  have hb : 512 * my c + (I 1).val < 1024 := by
    have := my_lt c; have h1 : (I 1).val < 512 := (I 1).isLt; omega
  have e1 : i1 = ix3 (0 : Fin 1) (I 0) (⟨512 * my c + (I 1).val, hb⟩ : Fin 1024) := idx3_ext _ _ h1r h1c
  have e2 : i2 = ix3 (0 : Fin 1) (I 0) (⟨512 * my c + (I 1).val, hb⟩ : Fin 1024) := idx3_ext _ _ h2r h2c
  rw [e1, e2]
  rfl

/-- The stored sum at an index: the slab's entry at the block's offset plus the index, plus the landed entry. -/
theorem pay_apply (ox : Fin 3 → ℕ) (hx : ∀ a, ox a + S1x32x512.size a ≤ S1x2048x1024.size a)
    (f : (cc0_stg0_0 : Ref sig .tc).ty.Contents (Elt F)) (w : Vec F S32x512 .f32) (j : S32x512.Idx) :
    pay (xM.view.readAt (Elt F) (Rect.unit (s := S1x2048x1024) ox S1x32x512.size hx).toLoadRect f) w j
      = FloatOps.addf (f ((Rect.unit (s := S1x2048x1024) ox S1x32x512.size hx).toLoadRect.idx (ix3 (0 : Fin 1) (j 0) (j 1)))) (w j) := by
  have hv := shapeCast_apply (xM.view.readAt (Elt F) (Rect.unit (s := S1x2048x1024) ox S1x32x512.size hx).toLoadRect f)
    shapeCasts_S1x32x512_S32x512 j (ix3 (0 : Fin 1) (j 0) (j 1)) (by
      rw [Shape.rowMajor_val_three, Shape.rowMajor_val_two]
      show (0 * 32 + (j 0).val) * 512 + (j 1).val = (j 0).val * 512 + (j 1).val
      omega)
  show FloatOps.addf (shapeCast S32x512 _ shapeCasts_S1x32x512_S32x512 j) (w j) = _
  rw [hv]
  rfl

/-- The stored sum is the final value: the slab block is read at row `A` and at the column the middle coordinate names,
    and the landed entry is the named device's slab entry at the same row and column. -/
theorem pay_eq (c d : Dev nD) (ox : Fin 3 → ℕ) (hx : ∀ a, ox a + S1x32x512.size a ≤ S1x2048x1024.size a) (A : ℕ)
    (hox : ox = ![0, A, 512 * my c]) (w : Vec F S32x512 .f32) (j : S32x512.Idx) (hA : A + (j 0).val < 2048)
    (i2 : S1x2048x1024.Idx) (hw : w j = xstg m ρ d i2) (hd : srcDev c (A + (j 0).val) = d)
    (h2r : (i2 1).val = A + (j 0).val) (h2c : (i2 2).val = 512 * my c + (j 1).val) :
    pay (xM.view.readAt (Elt F) (Rect.unit (s := S1x2048x1024) ox S1x32x512.size hx).toLoadRect (xstg m ρ c)) w j
      = outAt m ρ c (ix2 (n0 := 2048) (n1 := 512) ⟨A + (j 0).val, hA⟩ (j 1)) := by
  subst hox
  rw [pay_apply, hw]
  refine out_eq m ρ c d _ _ _ ?_ ?_ hd h2r h2c
  · show A + 1 * (j 0).val = A + (j 0).val
    omega
  · show 512 * my c + 1 * (j 1).val = 512 * my c + (j 1).val
    omega

/-! ## The neighbours' quarters and partners, device by device -/

theorem q_znb : ∀ c : Dev nD, qmine (znb c) = (1024 * (c.val / 4) + 512) - 512 * (c.val % 2) := by decide
theorem q_xnb : ∀ c : Dev nD, qmine (xnb c) = (512 * (c.val % 2) + 1024) - 1024 * (c.val / 4) := by decide
theorem q_zx : ∀ c : Dev nD, qmine (znb (xnb c)) = 1536 - (1024 * (c.val / 4) + 512 * (c.val % 2)) := by decide
theorem q_xz : ∀ c : Dev nD, qmine (xnb (znb c)) = 1536 - (1024 * (c.val / 4) + 512 * (c.val % 2)) := by decide
theorem p_own : ∀ c : Dev nD, (peer c).val = 4 * (c.val / 4) + 2 * (1 - my c) + c.val % 2 := by decide
theorem p_z : ∀ c : Dev nD, (peer (znb c)).val = 4 * (c.val / 4) + 2 * (1 - my c) + (1 - c.val % 2) := by decide
theorem p_x : ∀ c : Dev nD, (peer (xnb c)).val = 4 * (1 - c.val / 4) + 2 * (1 - my c) + c.val % 2 := by decide
theorem p_zx : ∀ c : Dev nD, (peer (znb (xnb c))).val = 4 * (1 - c.val / 4) + 2 * (1 - my c) + (1 - c.val % 2) := by decide
theorem p_xz : ∀ c : Dev nD, (peer (xnb (znb c))).val = 4 * (1 - c.val / 4) + 2 * (1 - my c) + (1 - c.val % 2) := by decide

/-! ## Which device a row's partner values come from -/

/-- In the device's own quarter: the device across the middle axis. -/
theorem src_own (c : Dev nD) (r : ℕ) (h0 : 1024 * (c.val / 4) + 512 * (c.val % 2) ≤ r)
    (h1 : r < 1024 * (c.val / 4) + 512 * (c.val % 2) + 512) : srcDev c r = peer c := by
  have hc : c.val < 8 := c.isLt
  unfold srcDev
  split
  · rfl
  · refine Fin.ext ?_
    show 4 * ((r / 1024) % 2) + 2 * (1 - my c) + (r / 512) % 2 = (peer c).val
    rw [p_own]; omega

/-- In the inner neighbour's quarter: the device across the middle axis from the inner neighbour. -/
theorem src_z (c : Dev nD) (r : ℕ) (h0 : (1024 * (c.val / 4) + 512) - 512 * (c.val % 2) ≤ r)
    (h1 : r < (1024 * (c.val / 4) + 512) - 512 * (c.val % 2) + 512) : srcDev c r = peer (znb c) := by
  have hc : c.val < 8 := c.isLt
  unfold srcDev
  split
  · rename_i h; exfalso; omega
  · refine Fin.ext ?_
    show 4 * ((r / 1024) % 2) + 2 * (1 - my c) + (r / 512) % 2 = (peer (znb c)).val
    rw [p_z]; omega

/-- In the outer neighbour's quarter: the device across the middle axis from the outer neighbour. -/
theorem src_x (c : Dev nD) (r : ℕ) (h0 : (512 * (c.val % 2) + 1024) - 1024 * (c.val / 4) ≤ r)
    (h1 : r < (512 * (c.val % 2) + 1024) - 1024 * (c.val / 4) + 512) : srcDev c r = peer (xnb c) := by
  have hc : c.val < 8 := c.isLt
  unfold srcDev
  split
  · rename_i h; exfalso; omega
  · refine Fin.ext ?_
    show 4 * ((r / 1024) % 2) + 2 * (1 - my c) + (r / 512) % 2 = (peer (xnb c)).val
    rw [p_x]; omega

/-- In the second half of the opposite quarter: the device across the middle axis. -/
theorem src_dy (c : Dev nD) (r : ℕ) (h0 : 1792 - (1024 * (c.val / 4) + 512 * (c.val % 2)) ≤ r)
    (h1 : r < 2048 - (1024 * (c.val / 4) + 512 * (c.val % 2))) : srcDev c r = peer c := by
  have hc : c.val < 8 := c.isLt
  unfold srcDev
  split
  · rfl
  · rename_i h; exfalso; omega

/-- In the first half of the opposite quarter: the device across the middle axis from the diagonal neighbour, reached
    through the outer then the inner axis, or through the inner then the outer. -/
theorem src_dxz (c : Dev nD) (r : ℕ) (h0 : 1536 - (1024 * (c.val / 4) + 512 * (c.val % 2)) ≤ r)
    (h1 : r < 1792 - (1024 * (c.val / 4) + 512 * (c.val % 2))) :
    srcDev c r = peer (znb (xnb c)) ∧ srcDev c r = peer (xnb (znb c)) := by
  have hc : c.val < 8 := c.isLt
  unfold srcDev
  split
  · rename_i h; exfalso; omega
  · constructor
    · refine Fin.ext ?_
      show 4 * ((r / 1024) % 2) + 2 * (1 - my c) + (r / 512) % 2 = (peer (znb (xnb c))).val
      rw [p_zx]; omega
    · refine Fin.ext ?_
      show 4 * ((r / 1024) % 2) + 2 * (1 - my c) + (r / 512) % 2 = (peer (xnb (znb c))).val
      rw [p_xz]; omega

/-- A block of the own quarter, landed across the middle axis. -/
theorem valA (c : Dev nD) (k : Fin 16) (j : S32x512.Idx) :
    pay (xM.view.readAt (Elt F) (Rect.unit (s := S1x2048x1024) (k0_off3 c (w32 k)) S1x32x512.size (k0_off3_inb c k)).toLoadRect (xstg m ρ c))
        (ybM.view.readAt (Elt F) (Rect.unit (s := S512x512) ![32 * k.val, 0] S32x512.size (inb512 k)).toLoadRect (ybC m ρ c)) j
      = outAt m ρ c (ix2 (n0 := 2048) (n1 := 512) ⟨(1024 * (c.val / 4) + 512 * (c.val % 2) + 32 * k.val) + (j 0).val, by
          have hc : c.val < 8 := c.isLt; have hk := k.isLt; have h0 : (j 0).val < 32 := (j 0).isLt; omega⟩ (j 1)) := by
  have hc : c.val < 8 := c.isLt
  have hk := k.isLt
  have h0 : (j 0).val < 32 := (j 0).isLt
  refine pay_eq m ρ c (peer c) _ _ (1024 * (c.val / 4) + 512 * (c.val % 2) + 32 * k.val) (k0_off3_eq c k) _ j _ _ rfl ?_ ?_ ?_
  · exact src_own c _ (by omega) (by omega)
  · show qmine c + (32 * k.val + 1 * (j 0).val) = _
    unfold qmine; omega
  · show 512 * my c + (0 + 1 * (j 1).val) = _
    omega

/-- A block of the inner neighbour's quarter, forwarded across the inner axis. -/
theorem valZ (c : Dev nD) (k : Fin 16) (j : S32x512.Idx) :
    pay (xM.view.readAt (Elt F) (Rect.unit (s := S1x2048x1024) (k0_off5 c (w32 k)) S1x32x512.size (k0_off5_inb c k)).toLoadRect (xstg m ρ c))
        (zdM.view.readAt (Elt F) (Rect.unit (s := S512x512) ![32 * k.val, 0] S32x512.size (inb512 k)).toLoadRect (zdC m ρ c)) j
      = outAt m ρ c (ix2 (n0 := 2048) (n1 := 512) ⟨((1024 * (c.val / 4) + 32 * k.val + 512) - 512 * (c.val % 2)) + (j 0).val, by
          have hc : c.val < 8 := c.isLt; have hk := k.isLt; have h0 : (j 0).val < 32 := (j 0).isLt; omega⟩ (j 1)) := by
  have hc : c.val < 8 := c.isLt
  have hk := k.isLt
  have h0 : (j 0).val < 32 := (j 0).isLt
  refine pay_eq m ρ c (peer (znb c)) _ _ ((1024 * (c.val / 4) + 32 * k.val + 512) - 512 * (c.val % 2)) (k0_off5_eq c k) _ j _ _ rfl ?_ ?_ ?_
  · exact src_z c _ (by omega) (by omega)
  · show qmine (znb c) + (32 * k.val + 1 * (j 0).val) = _
    rw [q_znb]; omega
  · show 512 * my (znb c) + (0 + 1 * (j 1).val) = _
    rw [my_znb]; omega

/-- A block of the outer neighbour's quarter, forwarded across the outer axis. -/
theorem valX (c : Dev nD) (k : Fin 16) (j : S32x512.Idx) :
    pay (xM.view.readAt (Elt F) (Rect.unit (s := S1x2048x1024) (k0_off7 c (w32 k)) S1x32x512.size (k0_off7_inb c k)).toLoadRect (xstg m ρ c))
        (xdM.view.readAt (Elt F) (Rect.unit (s := S512x512) ![32 * k.val, 0] S32x512.size (inb512 k)).toLoadRect (xdC m ρ c)) j
      = outAt m ρ c (ix2 (n0 := 2048) (n1 := 512) ⟨((512 * (c.val % 2) + 32 * k.val + 1024) - 1024 * (c.val / 4)) + (j 0).val, by
          have hc : c.val < 8 := c.isLt; have hk := k.isLt; have h0 : (j 0).val < 32 := (j 0).isLt; omega⟩ (j 1)) := by
  have hc : c.val < 8 := c.isLt
  have hk := k.isLt
  have h0 : (j 0).val < 32 := (j 0).isLt
  refine pay_eq m ρ c (peer (xnb c)) _ _ ((512 * (c.val % 2) + 32 * k.val + 1024) - 1024 * (c.val / 4)) (k0_off7_eq c k) _ j _ _ rfl ?_ ?_ ?_
  · exact src_x c _ (by omega) (by omega)
  · show qmine (xnb c) + (32 * k.val + 1 * (j 0).val) = _
    rw [q_xnb]; omega
  · show 512 * my (xnb c) + (0 + 1 * (j 1).val) = _
    rw [my_xnb]; omega

/-- An even block of the first half of the opposite quarter, forwarded across the inner then the outer axis. -/
theorem valDX (c : Dev nD) (j4 : Fin 4) (j : S32x512.Idx) :
    pay (xM.view.readAt (Elt F) (Rect.unit (s := S1x2048x1024) (k0_off9 c (w32 (ev j4))) S1x32x512.size (k0_off9_inb c (ev j4))).toLoadRect (xstg m ρ c))
        (xrM.view.readAt (Elt F) (Rect.unit (s := S128x512) ![32 * j4.val, 0] S32x512.size (inb128 j4)).toLoadRect (xrC m ρ c)) j
      = outAt m ρ c (ix2 (n0 := 2048) (n1 := 512) ⟨((32 * (ev j4).val + 1536) - (1024 * (c.val / 4) + 512 * (c.val % 2))) + (j 0).val, by
          have hc : c.val < 8 := c.isLt; have hk := (ev j4).isLt; have h0 : (j 0).val < 32 := (j 0).isLt; omega⟩ (j 1)) := by
  have hc : c.val < 8 := c.isLt
  have hk := j4.isLt
  have hev : (ev j4).val = 2 * j4.val := rfl
  have h0 : (j 0).val < 32 := (j 0).isLt
  refine pay_eq m ρ c (peer (znb (xnb c))) _ _ ((32 * (ev j4).val + 1536) - (1024 * (c.val / 4) + 512 * (c.val % 2))) (k0_off9_eq c (ev j4)) _ j _ _ rfl ?_ ?_ ?_
  · exact (src_dxz c _ (by omega) (by omega)).1
  · show qmine (znb (xnb c)) + (64 * ((32 * j4.val + 1 * (j 0).val) / 32) + (32 * j4.val + 1 * (j 0).val) % 32) = _
    rw [q_zx]; omega
  · show 512 * my (znb (xnb c)) + (0 + 1 * (j 1).val) = _
    rw [my_znb, my_xnb]; omega

/-- An odd block of the first half of the opposite quarter, forwarded across the outer then the inner axis. -/
theorem valDZ (c : Dev nD) (j4 : Fin 4) (j : S32x512.Idx) :
    pay (xM.view.readAt (Elt F) (Rect.unit (s := S1x2048x1024) (k0_off9 c (w32 (od j4))) S1x32x512.size (k0_off9_inb c (od j4))).toLoadRect (xstg m ρ c))
        (zrM.view.readAt (Elt F) (Rect.unit (s := S128x512) ![32 * j4.val, 0] S32x512.size (inb128 j4)).toLoadRect (zrC m ρ c)) j
      = outAt m ρ c (ix2 (n0 := 2048) (n1 := 512) ⟨((32 * (od j4).val + 1536) - (1024 * (c.val / 4) + 512 * (c.val % 2))) + (j 0).val, by
          have hc : c.val < 8 := c.isLt; have hk := (od j4).isLt; have h0 : (j 0).val < 32 := (j 0).isLt; omega⟩ (j 1)) := by
  have hc : c.val < 8 := c.isLt
  have hk := j4.isLt
  have hod : (od j4).val = 2 * j4.val + 1 := rfl
  have h0 : (j 0).val < 32 := (j 0).isLt
  refine pay_eq m ρ c (peer (xnb (znb c))) _ _ ((32 * (od j4).val + 1536) - (1024 * (c.val / 4) + 512 * (c.val % 2))) (k0_off9_eq c (od j4)) _ j _ _ rfl ?_ ?_ ?_
  · exact (src_dxz c _ (by omega) (by omega)).2
  · show qmine (xnb (znb c)) + (64 * ((32 * j4.val + 1 * (j 0).val) / 32) + 32 + (32 * j4.val + 1 * (j 0).val) % 32) = _
    rw [q_xz]; omega
  · show 512 * my (xnb (znb c)) + (0 + 1 * (j 1).val) = _
    rw [my_xnb, my_znb]; omega

/-- A block of the second half of the opposite quarter, landed across the middle axis. -/
theorem valDY (c : Dev nD) (j8 : Fin 8) (j : S32x512.Idx) :
    pay (xM.view.readAt (Elt F) (Rect.unit (s := S1x2048x1024) (k0_off9 c (w32 (hi j8))) S1x32x512.size (k0_off9_inb c (hi j8))).toLoadRect (xstg m ρ c))
        (ydM.view.readAt (Elt F) (Rect.unit (s := S256x512) ![32 * j8.val, 0] S32x512.size (inb256 j8)).toLoadRect (ydC m ρ c)) j
      = outAt m ρ c (ix2 (n0 := 2048) (n1 := 512) ⟨((32 * (hi j8).val + 1536) - (1024 * (c.val / 4) + 512 * (c.val % 2))) + (j 0).val, by
          have hc : c.val < 8 := c.isLt; have hk := (hi j8).isLt; have h0 : (j 0).val < 32 := (j 0).isLt; omega⟩ (j 1)) := by
  have hc : c.val < 8 := c.isLt
  have hk := j8.isLt
  have hhi : (hi j8).val = 8 + j8.val := rfl
  have h0 : (j 0).val < 32 := (j 0).isLt
  refine pay_eq m ρ c (peer c) _ _ ((32 * (hi j8).val + 1536) - (1024 * (c.val / 4) + 512 * (c.val % 2))) (k0_off9_eq c (hi j8)) _ j _ _ rfl ?_ ?_ ?_
  · exact src_dy c _ (by omega) (by omega)
  · show (1792 - qmine c) + (32 * j8.val + 1 * (j 0).val) = _
    unfold qmine; omega
  · show 512 * my c + (0 + 1 * (j 1).val) = _
    omega

end Cert.KernelIdeal.Values

end
-- ==== Proof.AccSteps.lean ====
/-
  Adding a landed block in, for each of the six landing buffers.
-/
import proofs.«901025_g7700000000001026_dist_rs_v7x_xyz2x2x2_y_m2048_n512_f32_1_alg».proof.Proof.PhaseDefs
import proofs.«901025_g7700000000001026_dist_rs_v7x_xyz2x2x2_y_m2048_n512_f32_1_alg».proof.Proof.Values

noncomputable section

namespace Cert.KernelIdeal.AccSteps

open Cert.KernelIdeal Cert.KernelIdeal.Gen Cert.KernelIdeal.Proto Cert.KernelIdeal.GenBody Cert.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.KernelIdeal.StepDefs Cert.KernelIdeal.XSplit Cert.KernelIdeal.Accum Cert.KernelIdeal.PhaseDefs

/-- Knowing fewer rows done is knowing less. -/
theorem outInv_mono (c : Dev nD) {D D' : ℕ → Prop} (h : ∀ r, D' r → D r) : outInv m ρ c D ⊢ outInv m ρ c D' := by
  unfold outInv
  iintro ⟨%g, Hg, %hg⟩
  iexists g
  isplitl [Hg]; · iexact Hg
  ipureintro
  exact fun i hi => hg i (h _ hi)

/-- Adding a landed block into the result: the block's rows now hold their final values. -/
theorem step_accA (c : Dev nD) (k : Fin 16) (D : ℕ → Prop) (q : PosShare TreeShare) (Kt : PUnit → sProp 𝕄) :
    iprop(xKeep m ρ c ∗ pts (ch512 ybM k) c q (ybC m ρ c) ∗ outInv m ρ c D
        ∗ ((xKeep m ρ c ∗ pts (ch512 ybM k) c q (ybC m ρ c) ∗ outInv m ρ c (fun r => D r ∨ rows32 (rowA c k) r)) -∗ Kt ⟨⟩))
      ⊢ wp frame (wpE (defs₀ (F := F)) 𝒱₀ (c : Thread nD τ) none) Set.univ (accA c k) Kt := by
  unfold xKeep
  exact Accum.wp_acc512 m ρ c (k0_off3 c (w32 k)) (k0_off3_inb c k) (k0_off4 c (w32 k)) (k0_off4_inb c k) ybM k
    (rowA c k) (k0_off4_eq c k) D (keepSet c) fullShare (load_keep3 c k) q (ybC m ρ c) (Values.valA m ρ c k) Kt

/-- Adding a landed block into the result: the block's rows now hold their final values. -/
theorem step_accZ (c : Dev nD) (k : Fin 16) (D : ℕ → Prop) (q : PosShare TreeShare) (Kt : PUnit → sProp 𝕄) :
    iprop(xKeep m ρ c ∗ pts (ch512 zdM k) c q (zdC m ρ c) ∗ outInv m ρ c D
        ∗ ((xKeep m ρ c ∗ pts (ch512 zdM k) c q (zdC m ρ c) ∗ outInv m ρ c (fun r => D r ∨ rows32 (rowZ c k) r)) -∗ Kt ⟨⟩))
      ⊢ wp frame (wpE (defs₀ (F := F)) 𝒱₀ (c : Thread nD τ) none) Set.univ (accZ c k) Kt := by
  unfold xKeep
  exact Accum.wp_acc512 m ρ c (k0_off5 c (w32 k)) (k0_off5_inb c k) (k0_off6 c (w32 k)) (k0_off6_inb c k) zdM k
    (rowZ c k) (k0_off6_eq c k) D (keepSet c) fullShare (load_keep5 c k) q (zdC m ρ c) (Values.valZ m ρ c k) Kt

/-- Adding a landed block into the result: the block's rows now hold their final values. -/
theorem step_accX (c : Dev nD) (k : Fin 16) (D : ℕ → Prop) (q : PosShare TreeShare) (Kt : PUnit → sProp 𝕄) :
    iprop(xKeep m ρ c ∗ pts (ch512 xdM k) c q (xdC m ρ c) ∗ outInv m ρ c D
        ∗ ((xKeep m ρ c ∗ pts (ch512 xdM k) c q (xdC m ρ c) ∗ outInv m ρ c (fun r => D r ∨ rows32 (rowX c k) r)) -∗ Kt ⟨⟩))
      ⊢ wp frame (wpE (defs₀ (F := F)) 𝒱₀ (c : Thread nD τ) none) Set.univ (accX c k) Kt := by
  unfold xKeep
  exact Accum.wp_acc512 m ρ c (k0_off7 c (w32 k)) (k0_off7_inb c k) (k0_off8 c (w32 k)) (k0_off8_inb c k) xdM k
    (rowX c k) (k0_off8_eq c k) D (keepSet c) fullShare (load_keep7 c k) q (xdC m ρ c) (Values.valX m ρ c k) Kt

/-- Adding a landed block into the result: the block's rows now hold their final values. -/
theorem step_accDX (c : Dev nD) (k : Fin 4) (D : ℕ → Prop) (q : PosShare TreeShare) (Kt : PUnit → sProp 𝕄) :
    iprop(xKeep m ρ c ∗ pts (ch128 xrM k) c q (xrC m ρ c) ∗ outInv m ρ c D
        ∗ ((xKeep m ρ c ∗ pts (ch128 xrM k) c q (xrC m ρ c) ∗ outInv m ρ c (fun r => D r ∨ rows32 (rowD c (ev k)) r)) -∗ Kt ⟨⟩))
      ⊢ wp frame (wpE (defs₀ (F := F)) 𝒱₀ (c : Thread nD τ) none) Set.univ (accDX c k) Kt := by
  unfold xKeep
  exact Accum.wp_acc128 m ρ c (k0_off9 c (w32 (ev k))) (k0_off9_inb c (ev k)) (k0_off10 c (w32 (ev k))) (k0_off10_inb c (ev k)) xrM k
    (rowD c (ev k)) (k0_off10_eq c (ev k)) D (keepSet c) fullShare (load_keep9 c (ev k)) q (xrC m ρ c) (Values.valDX m ρ c k) Kt

/-- Adding a landed block into the result: the block's rows now hold their final values. -/
theorem step_accDZ (c : Dev nD) (k : Fin 4) (D : ℕ → Prop) (q : PosShare TreeShare) (Kt : PUnit → sProp 𝕄) :
    iprop(xKeep m ρ c ∗ pts (ch128 zrM k) c q (zrC m ρ c) ∗ outInv m ρ c D
        ∗ ((xKeep m ρ c ∗ pts (ch128 zrM k) c q (zrC m ρ c) ∗ outInv m ρ c (fun r => D r ∨ rows32 (rowD c (od k)) r)) -∗ Kt ⟨⟩))
      ⊢ wp frame (wpE (defs₀ (F := F)) 𝒱₀ (c : Thread nD τ) none) Set.univ (accDZ c k) Kt := by
  unfold xKeep
  exact Accum.wp_acc128 m ρ c (k0_off9 c (w32 (od k))) (k0_off9_inb c (od k)) (k0_off10 c (w32 (od k))) (k0_off10_inb c (od k)) zrM k
    (rowD c (od k)) (k0_off10_eq c (od k)) D (keepSet c) fullShare (load_keep9 c (od k)) q (zrC m ρ c) (Values.valDZ m ρ c k) Kt

/-- Adding a landed block into the result: the block's rows now hold their final values. -/
theorem step_accDY (c : Dev nD) (k : Fin 8) (D : ℕ → Prop) (q : PosShare TreeShare) (Kt : PUnit → sProp 𝕄) :
    iprop(xKeep m ρ c ∗ pts (ch256 ydM k) c q (ydC m ρ c) ∗ outInv m ρ c D
        ∗ ((xKeep m ρ c ∗ pts (ch256 ydM k) c q (ydC m ρ c) ∗ outInv m ρ c (fun r => D r ∨ rows32 (rowD c (hi k)) r)) -∗ Kt ⟨⟩))
      ⊢ wp frame (wpE (defs₀ (F := F)) 𝒱₀ (c : Thread nD τ) none) Set.univ (accDY c k) Kt := by
  unfold xKeep
  exact Accum.wp_acc256 m ρ c (k0_off9 c (w32 (hi k))) (k0_off9_inb c (hi k)) (k0_off10 c (w32 (hi k))) (k0_off10_inb c (hi k)) ydM k
    (rowD c (hi k)) (k0_off10_eq c (hi k)) D (keepSet c) fullShare (load_keep9 c (hi k)) q (ydC m ρ c) (Values.valDY m ρ c k) Kt

end Cert.KernelIdeal.AccSteps

end
-- ==== Proof.Waits.lean ====
/-
  The waits: for a block's arrival, for a block's departure; a finished cell closed.
-/
import proofs.«901025_g7700000000001026_dist_rs_v7x_xyz2x2x2_y_m2048_n512_f32_1_alg».proof.Proof.StepDefs

noncomputable section

namespace Cert.KernelIdeal.Waits

open Cert.KernelIdeal Cert.KernelIdeal.Gen Cert.KernelIdeal.Proto Cert.KernelIdeal.GenBody Cert.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.KernelIdeal.StepDefs

/-- Waiting for block `k` of this family to arrive: the landing block, at its final contents, is the device's. -/
theorem step_waitRY (K : GSem nD τ sig → ℕ) (c : Dev nD) (k : Fin 16) (O : CellTallies nD τ sig Unit)
    (hO : ∀ (g : GSem nD τ sig) (u : Unit), 0 < O g u → g.1.2 = .tc ∧ 2 < lv g u) (Kt : PUnit → sProp 𝕄) :
    iprop(Pz m ρ K ∗ owesE c O ∗ cred (tallyAt (fY.rc c k) () N) ∗ atPos ER (fY.rc c k) 0 ∅ 0
        ∗ ((owesE c O ∗ atPos ER (fY.rc c k) 1 ∅ 0 ∗ pts (ch512 ybM k) c fullShare (ybC m ρ c)) -∗ Kt ⟨⟩))
      ⊢ wp frame (wpE (defs₀ (F := F)) 𝒱₀ (c : Thread nD τ) none) Set.univ (waitYr c k) Kt := by
  have hk := k.isLt
  unfold waitYr
  rw [sem_s7]
  simp only [Prog.lift]
  iintro ⟨#HP, HO, Hc, Hat, Hk⟩
  unfold owesE
  icases HO with ⟨%W, HO⟩
  have hx : 0 + (ch512 ybM k).view.dmaCredit = (Rd m ρ).expect ((c : Thread nD τ), .dma (fY.rS k)) 0 := by
    rw [Nat.zero_add]; exact (expect_dma m ρ c (fY.rS k) (fY.two_le_rS k)).symm
  iapply (Rounds.wp_wait_rest_token 𝒱₀ ER (Rd m ρ) (c : Thread nD τ) none (κ := K (fY.rc c k))
      (wpE_waitDma2_eq 𝒱₀ (c : Thread nD τ) none Set.univ) (Set.mem_univ _) () (O := O) (W := W) (R := 0) (m := 0) (T := ∅) hx) $$ [HO Hc Hat]
  · isplitr; · iapply (inv_of m ρ K _ (dcell_mem c _ (fY.two_le_rS k))); iexact HP
    isplitl [Hc]; · iexact Hc
    isplitl [HO]; · iexact HO
    isplitr
    · iapply (mayWait_of c (.dma (fY.rS k)) O 2 (by show lvD (18 + k.val) ≤ 2; unfold lvD; split_ifs <;> omega) hO)
      iapply (lev_of m ρ K); iexact HP
    iexact Hat
  iintro ⟨HO, Hat, -, Hpay⟩
  ihave Hp := (Entails.of_eq ((rest_dma m ρ c (fY.rS k) (fY.two_le_rS k)).trans (dmaPay_rY m ρ c k))) $$ Hpay
  unfold rYPay
  rw [wp_ret]; imodintro
  iapply Hk
  isplitl [HO]; · iexists _; iexact HO
  isplitl [Hat]; · iexact Hat
  iexact Hp

/-- Waiting for block `k` of this family to arrive: the landing block, at its final contents, is the device's. -/
theorem step_waitRYD (K : GSem nD τ sig → ℕ) (c : Dev nD) (k : Fin 8) (O : CellTallies nD τ sig Unit)
    (hO : ∀ (g : GSem nD τ sig) (u : Unit), 0 < O g u → g.1.2 = .tc ∧ 2 < lv g u) (Kt : PUnit → sProp 𝕄) :
    iprop(Pz m ρ K ∗ owesE c O ∗ cred (tallyAt (fYD.rc c k) () N) ∗ atPos ER (fYD.rc c k) 0 ∅ 0
        ∗ ((owesE c O ∗ atPos ER (fYD.rc c k) 1 ∅ 0 ∗ pts (ch256 ydM k) c fullShare (ydC m ρ c)) -∗ Kt ⟨⟩))
      ⊢ wp frame (wpE (defs₀ (F := F)) 𝒱₀ (c : Thread nD τ) none) Set.univ (waitYDr c k) Kt := by
  have hk := k.isLt
  unfold waitYDr
  rw [sem_s9]
  simp only [Prog.lift]
  iintro ⟨#HP, HO, Hc, Hat, Hk⟩
  unfold owesE
  icases HO with ⟨%W, HO⟩
  have hx : 0 + (ch256 ydM k).view.dmaCredit = (Rd m ρ).expect ((c : Thread nD τ), .dma (fYD.rS k)) 0 := by
    rw [Nat.zero_add]; exact (expect_dma m ρ c (fYD.rS k) (fYD.two_le_rS k)).symm
  iapply (Rounds.wp_wait_rest_token 𝒱₀ ER (Rd m ρ) (c : Thread nD τ) none (κ := K (fYD.rc c k))
      (wpE_waitDma2_eq 𝒱₀ (c : Thread nD τ) none Set.univ) (Set.mem_univ _) () (O := O) (W := W) (R := 0) (m := 0) (T := ∅) hx) $$ [HO Hc Hat]
  · isplitr; · iapply (inv_of m ρ K _ (dcell_mem c _ (fYD.two_le_rS k))); iexact HP
    isplitl [Hc]; · iexact Hc
    isplitl [HO]; · iexact HO
    isplitr
    · iapply (mayWait_of c (.dma (fYD.rS k)) O 2 (by show lvD (42 + k.val) ≤ 2; unfold lvD; split_ifs <;> omega) hO)
      iapply (lev_of m ρ K); iexact HP
    iexact Hat
  iintro ⟨HO, Hat, -, Hpay⟩
  ihave Hp := (Entails.of_eq ((rest_dma m ρ c (fYD.rS k) (fYD.two_le_rS k)).trans (dmaPay_rYD m ρ c k))) $$ Hpay
  unfold rYDPay
  rw [wp_ret]; imodintro
  iapply Hk
  isplitl [HO]; · iexists _; iexact HO
  isplitl [Hat]; · iexact Hat
  iexact Hp

/-- Waiting for block `k` of this family to arrive: the landing block, at its final contents, is the device's. -/
theorem step_waitRXD (K : GSem nD τ sig → ℕ) (c : Dev nD) (k : Fin 16) (O : CellTallies nD τ sig Unit)
    (hO : ∀ (g : GSem nD τ sig) (u : Unit), 0 < O g u → g.1.2 = .tc ∧ 3 < lv g u) (Kt : PUnit → sProp 𝕄) :
    iprop(Pz m ρ K ∗ owesE c O ∗ cred (tallyAt (fXD.rc c k) () N) ∗ atPos ER (fXD.rc c k) 0 ∅ 0
        ∗ ((owesE c O ∗ atPos ER (fXD.rc c k) 1 ∅ 0 ∗ pts (ch512 xdM k) c fullShare (xdC m ρ c)) -∗ Kt ⟨⟩))
      ⊢ wp frame (wpE (defs₀ (F := F)) 𝒱₀ (c : Thread nD τ) none) Set.univ (waitXDr k) Kt := by
  have hk := k.isLt
  unfold waitXDr
  rw [sem_s11]
  simp only [Prog.lift]
  iintro ⟨#HP, HO, Hc, Hat, Hk⟩
  unfold owesE
  icases HO with ⟨%W, HO⟩
  have hx : 0 + (ch512 xdM k).view.dmaCredit = (Rd m ρ).expect ((c : Thread nD τ), .dma (fXD.rS k)) 0 := by
    rw [Nat.zero_add]; exact (expect_dma m ρ c (fXD.rS k) (fXD.two_le_rS k)).symm
  iapply (Rounds.wp_wait_rest_token 𝒱₀ ER (Rd m ρ) (c : Thread nD τ) none (κ := K (fXD.rc c k))
      (wpE_waitDma2_eq 𝒱₀ (c : Thread nD τ) none Set.univ) (Set.mem_univ _) () (O := O) (W := W) (R := 0) (m := 0) (T := ∅) hx) $$ [HO Hc Hat]
  · isplitr; · iapply (inv_of m ρ K _ (dcell_mem c _ (fXD.two_le_rS k))); iexact HP
    isplitl [Hc]; · iexact Hc
    isplitl [HO]; · iexact HO
    isplitr
    · iapply (mayWait_of c (.dma (fXD.rS k)) O 3 (by show lvD (66 + k.val) ≤ 3; unfold lvD; split_ifs <;> omega) hO)
      iapply (lev_of m ρ K); iexact HP
    iexact Hat
  iintro ⟨HO, Hat, -, Hpay⟩
  ihave Hp := (Entails.of_eq ((rest_dma m ρ c (fXD.rS k) (fXD.two_le_rS k)).trans (dmaPay_rXD m ρ c k))) $$ Hpay
  unfold rXDPay
  rw [wp_ret]; imodintro
  iapply Hk
  isplitl [HO]; · iexists _; iexact HO
  isplitl [Hat]; · iexact Hat
  iexact Hp

/-- Waiting for block `k` of this family to arrive: the landing block, at its final contents, is the device's. -/
theorem step_waitRZD (K : GSem nD τ sig → ℕ) (c : Dev nD) (k : Fin 16) (O : CellTallies nD τ sig Unit)
    (hO : ∀ (g : GSem nD τ sig) (u : Unit), 0 < O g u → g.1.2 = .tc ∧ 3 < lv g u) (Kt : PUnit → sProp 𝕄) :
    iprop(Pz m ρ K ∗ owesE c O ∗ cred (tallyAt (fZD.rc c k) () N) ∗ atPos ER (fZD.rc c k) 0 ∅ 0
        ∗ ((owesE c O ∗ atPos ER (fZD.rc c k) 1 ∅ 0 ∗ pts (ch512 zdM k) c fullShare (zdC m ρ c)) -∗ Kt ⟨⟩))
      ⊢ wp frame (wpE (defs₀ (F := F)) 𝒱₀ (c : Thread nD τ) none) Set.univ (waitZDr k) Kt := by
  have hk := k.isLt
  unfold waitZDr
  rw [sem_s13]
  simp only [Prog.lift]
  iintro ⟨#HP, HO, Hc, Hat, Hk⟩
  unfold owesE
  icases HO with ⟨%W, HO⟩
  have hx : 0 + (ch512 zdM k).view.dmaCredit = (Rd m ρ).expect ((c : Thread nD τ), .dma (fZD.rS k)) 0 := by
    rw [Nat.zero_add]; exact (expect_dma m ρ c (fZD.rS k) (fZD.two_le_rS k)).symm
  iapply (Rounds.wp_wait_rest_token 𝒱₀ ER (Rd m ρ) (c : Thread nD τ) none (κ := K (fZD.rc c k))
      (wpE_waitDma2_eq 𝒱₀ (c : Thread nD τ) none Set.univ) (Set.mem_univ _) () (O := O) (W := W) (R := 0) (m := 0) (T := ∅) hx) $$ [HO Hc Hat]
  · isplitr; · iapply (inv_of m ρ K _ (dcell_mem c _ (fZD.two_le_rS k))); iexact HP
    isplitl [Hc]; · iexact Hc
    isplitl [HO]; · iexact HO
    isplitr
    · iapply (mayWait_of c (.dma (fZD.rS k)) O 3 (by show lvD (98 + k.val) ≤ 3; unfold lvD; split_ifs <;> omega) hO)
      iapply (lev_of m ρ K); iexact HP
    iexact Hat
  iintro ⟨HO, Hat, -, Hpay⟩
  ihave Hp := (Entails.of_eq ((rest_dma m ρ c (fZD.rS k) (fZD.two_le_rS k)).trans (dmaPay_rZD m ρ c k))) $$ Hpay
  unfold rZDPay
  rw [wp_ret]; imodintro
  iapply Hk
  isplitl [HO]; · iexists _; iexact HO
  isplitl [Hat]; · iexact Hat
  iexact Hp

/-- Waiting for block `k` of this family to arrive: the landing block, at its final contents, is the device's. -/
theorem step_waitRXR (K : GSem nD τ sig → ℕ) (c : Dev nD) (k : Fin 4) (O : CellTallies nD τ sig Unit)
    (hO : ∀ (g : GSem nD τ sig) (u : Unit), 0 < O g u → g.1.2 = .tc ∧ 4 < lv g u) (Kt : PUnit → sProp 𝕄) :
    iprop(Pz m ρ K ∗ owesE c O ∗ cred (tallyAt (fXR.rc c k) () N) ∗ atPos ER (fXR.rc c k) 0 ∅ 0
        ∗ ((owesE c O ∗ atPos ER (fXR.rc c k) 1 ∅ 0 ∗ pts (ch128 xrM k) c fullShare (xrC m ρ c)) -∗ Kt ⟨⟩))
      ⊢ wp frame (wpE (defs₀ (F := F)) 𝒱₀ (c : Thread nD τ) none) Set.univ (waitXRr k) Kt := by
  have hk := k.isLt
  unfold waitXRr
  rw [sem_s15]
  simp only [Prog.lift]
  iintro ⟨#HP, HO, Hc, Hat, Hk⟩
  unfold owesE
  icases HO with ⟨%W, HO⟩
  have hx : 0 + (ch128 xrM k).view.dmaCredit = (Rd m ρ).expect ((c : Thread nD τ), .dma (fXR.rS k)) 0 := by
    rw [Nat.zero_add]; exact (expect_dma m ρ c (fXR.rS k) (fXR.two_le_rS k)).symm
  iapply (Rounds.wp_wait_rest_token 𝒱₀ ER (Rd m ρ) (c : Thread nD τ) none (κ := K (fXR.rc c k))
      (wpE_waitDma2_eq 𝒱₀ (c : Thread nD τ) none Set.univ) (Set.mem_univ _) () (O := O) (W := W) (R := 0) (m := 0) (T := ∅) hx) $$ [HO Hc Hat]
  · isplitr; · iapply (inv_of m ρ K _ (dcell_mem c _ (fXR.two_le_rS k))); iexact HP
    isplitl [Hc]; · iexact Hc
    isplitl [HO]; · iexact HO
    isplitr
    · iapply (mayWait_of c (.dma (fXR.rS k)) O 4 (by show lvD (118 + k.val) ≤ 4; unfold lvD; split_ifs <;> omega) hO)
      iapply (lev_of m ρ K); iexact HP
    iexact Hat
  iintro ⟨HO, Hat, -, Hpay⟩
  ihave Hp := (Entails.of_eq ((rest_dma m ρ c (fXR.rS k) (fXR.two_le_rS k)).trans (dmaPay_rXR m ρ c k))) $$ Hpay
  unfold rXRPay
  rw [wp_ret]; imodintro
  iapply Hk
  isplitl [HO]; · iexists _; iexact HO
  isplitl [Hat]; · iexact Hat
  iexact Hp

/-- Waiting for block `k` of this family to arrive: the landing block, at its final contents, is the device's. -/
theorem step_waitRZR (K : GSem nD τ sig → ℕ) (c : Dev nD) (k : Fin 4) (O : CellTallies nD τ sig Unit)
    (hO : ∀ (g : GSem nD τ sig) (u : Unit), 0 < O g u → g.1.2 = .tc ∧ 4 < lv g u) (Kt : PUnit → sProp 𝕄) :
    iprop(Pz m ρ K ∗ owesE c O ∗ cred (tallyAt (fZR.rc c k) () N) ∗ atPos ER (fZR.rc c k) 0 ∅ 0
        ∗ ((owesE c O ∗ atPos ER (fZR.rc c k) 1 ∅ 0 ∗ pts (ch128 zrM k) c fullShare (zrC m ρ c)) -∗ Kt ⟨⟩))
      ⊢ wp frame (wpE (defs₀ (F := F)) 𝒱₀ (c : Thread nD τ) none) Set.univ (waitZRr k) Kt := by
  have hk := k.isLt
  unfold waitZRr
  rw [sem_s17]
  simp only [Prog.lift]
  iintro ⟨#HP, HO, Hc, Hat, Hk⟩
  unfold owesE
  icases HO with ⟨%W, HO⟩
  have hx : 0 + (ch128 zrM k).view.dmaCredit = (Rd m ρ).expect ((c : Thread nD τ), .dma (fZR.rS k)) 0 := by
    rw [Nat.zero_add]; exact (expect_dma m ρ c (fZR.rS k) (fZR.two_le_rS k)).symm
  iapply (Rounds.wp_wait_rest_token 𝒱₀ ER (Rd m ρ) (c : Thread nD τ) none (κ := K (fZR.rc c k))
      (wpE_waitDma2_eq 𝒱₀ (c : Thread nD τ) none Set.univ) (Set.mem_univ _) () (O := O) (W := W) (R := 0) (m := 0) (T := ∅) hx) $$ [HO Hc Hat]
  · isplitr; · iapply (inv_of m ρ K _ (dcell_mem c _ (fZR.two_le_rS k))); iexact HP
    isplitl [Hc]; · iexact Hc
    isplitl [HO]; · iexact HO
    isplitr
    · iapply (mayWait_of c (.dma (fZR.rS k)) O 4 (by show lvD (126 + k.val) ≤ 4; unfold lvD; split_ifs <;> omega) hO)
      iapply (lev_of m ρ K); iexact HP
    iexact Hat
  iintro ⟨HO, Hat, -, Hpay⟩
  ihave Hp := (Entails.of_eq ((rest_dma m ρ c (fZR.rS k) (fZR.two_le_rS k)).trans (dmaPay_rZR m ρ c k))) $$ Hpay
  unfold rZRPay
  rw [wp_ret]; imodintro
  iapply Hk
  isplitl [HO]; · iexists _; iexact HO
  isplitl [Hat]; · iexact Hat
  iexact Hp

/-- Waiting for block `k` of this family to have left: the source block comes back at the share it was lent at. -/
theorem step_waitSY (K : GSem nD τ sig → ℕ) (c : Dev nD) (k : Fin 16) (Kt : PUnit → sProp 𝕄) :
    iprop(Pz m ρ K ∗ owesE c 0 ∗ cred (tallyAt (fY.sc c k) () N) ∗ atPos ER (fY.sc c k) 0 ∅ 0
        ∗ ((owesE c 0 ∗ atPos ER (fY.sc c k) 1 ∅ 0 ∗ pts (xsY c k) c fullShare (xstg m ρ c)) -∗ Kt ⟨⟩))
      ⊢ wp frame (wpE (defs₀ (F := F)) 𝒱₀ (c : Thread nD τ) none) Set.univ (waitYs c k) Kt := by
  have hk := k.isLt
  unfold waitYs
  rw [sem_s6]
  simp only [Prog.lift]
  iintro ⟨#HP, HO, Hc, Hat, Hk⟩
  unfold owesE
  icases HO with ⟨%W, HO⟩
  have hx : 0 + (xsY c k).view.dmaCredit = (Rd m ρ).expect ((c : Thread nD τ), .dma (fY.sS k)) 0 := by
    rw [Nat.zero_add]; exact (expect_dma m ρ c (fY.sS k) (fY.two_le_sS k)).symm
  iapply (Rounds.wp_wait_rest_token 𝒱₀ ER (Rd m ρ) (c : Thread nD τ) none (κ := K (fY.sc c k))
      (wpE_waitDma2_eq 𝒱₀ (c : Thread nD τ) none Set.univ) (Set.mem_univ _) () (O := 0) (W := W) (R := 0) (m := 0) (T := ∅) hx) $$ [HO Hc Hat]
  · isplitr; · iapply (inv_of m ρ K _ (dcell_mem c _ (fY.two_le_sS k))); iexact HP
    isplitl [Hc]; · iexact Hc
    isplitl [HO]; · iexact HO
    isplitr; · rw [MayWait_zero]; iempintro
    iexact Hat
  iintro ⟨HO, Hat, -, Hpay⟩
  ihave Hp := (Entails.of_eq ((rest_dma m ρ c (fY.sS k) (fY.two_le_sS k)).trans (dmaPay_sY m ρ c k))) $$ Hpay
  unfold sYPay
  rw [wp_ret]; imodintro
  iapply Hk
  isplitl [HO]; · iexists _; iexact HO
  isplitl [Hat]; · iexact Hat
  iexact Hp

/-- Waiting for block `k` of this family to have left: the source block comes back at the share it was lent at. -/
theorem step_waitSYD (K : GSem nD τ sig → ℕ) (c : Dev nD) (k : Fin 8) (Kt : PUnit → sProp 𝕄) :
    iprop(Pz m ρ K ∗ owesE c 0 ∗ cred (tallyAt (fYD.sc c k) () N) ∗ atPos ER (fYD.sc c k) 0 ∅ 0
        ∗ ((owesE c 0 ∗ atPos ER (fYD.sc c k) 1 ∅ 0 ∗ pts (xsYD c k) c fullShare (xstg m ρ c)) -∗ Kt ⟨⟩))
      ⊢ wp frame (wpE (defs₀ (F := F)) 𝒱₀ (c : Thread nD τ) none) Set.univ (waitYDs c k) Kt := by
  have hk := k.isLt
  unfold waitYDs
  rw [sem_s8]
  simp only [Prog.lift]
  iintro ⟨#HP, HO, Hc, Hat, Hk⟩
  unfold owesE
  icases HO with ⟨%W, HO⟩
  have hx : 0 + (xsYD c k).view.dmaCredit = (Rd m ρ).expect ((c : Thread nD τ), .dma (fYD.sS k)) 0 := by
    rw [Nat.zero_add]; exact (expect_dma m ρ c (fYD.sS k) (fYD.two_le_sS k)).symm
  iapply (Rounds.wp_wait_rest_token 𝒱₀ ER (Rd m ρ) (c : Thread nD τ) none (κ := K (fYD.sc c k))
      (wpE_waitDma2_eq 𝒱₀ (c : Thread nD τ) none Set.univ) (Set.mem_univ _) () (O := 0) (W := W) (R := 0) (m := 0) (T := ∅) hx) $$ [HO Hc Hat]
  · isplitr; · iapply (inv_of m ρ K _ (dcell_mem c _ (fYD.two_le_sS k))); iexact HP
    isplitl [Hc]; · iexact Hc
    isplitl [HO]; · iexact HO
    isplitr; · rw [MayWait_zero]; iempintro
    iexact Hat
  iintro ⟨HO, Hat, -, Hpay⟩
  ihave Hp := (Entails.of_eq ((rest_dma m ρ c (fYD.sS k) (fYD.two_le_sS k)).trans (dmaPay_sYD m ρ c k))) $$ Hpay
  unfold sYDPay
  rw [wp_ret]; imodintro
  iapply Hk
  isplitl [HO]; · iexists _; iexact HO
  isplitl [Hat]; · iexact Hat
  iexact Hp

/-- Waiting for block `k` of this family to have left: the source block comes back at the share it was lent at. -/
theorem step_waitSXD (K : GSem nD τ sig → ℕ) (c : Dev nD) (k : Fin 16) (Kt : PUnit → sProp 𝕄) :
    iprop(Pz m ρ K ∗ owesE c 0 ∗ cred (tallyAt (fXD.sc c k) () N) ∗ atPos ER (fXD.sc c k) 0 ∅ 0
        ∗ ((owesE c 0 ∗ atPos ER (fXD.sc c k) 1 ∅ 0 ∗ pts (ch512 ybM k) c fullShare.left (ybC m ρ c)) -∗ Kt ⟨⟩))
      ⊢ wp frame (wpE (defs₀ (F := F)) 𝒱₀ (c : Thread nD τ) none) Set.univ (waitXDs k) Kt := by
  have hk := k.isLt
  unfold waitXDs
  rw [sem_s10]
  simp only [Prog.lift]
  iintro ⟨#HP, HO, Hc, Hat, Hk⟩
  unfold owesE
  icases HO with ⟨%W, HO⟩
  have hx : 0 + (ch512 ybM k).view.dmaCredit = (Rd m ρ).expect ((c : Thread nD τ), .dma (fXD.sS k)) 0 := by
    rw [Nat.zero_add]; exact (expect_dma m ρ c (fXD.sS k) (fXD.two_le_sS k)).symm
  iapply (Rounds.wp_wait_rest_token 𝒱₀ ER (Rd m ρ) (c : Thread nD τ) none (κ := K (fXD.sc c k))
      (wpE_waitDma2_eq 𝒱₀ (c : Thread nD τ) none Set.univ) (Set.mem_univ _) () (O := 0) (W := W) (R := 0) (m := 0) (T := ∅) hx) $$ [HO Hc Hat]
  · isplitr; · iapply (inv_of m ρ K _ (dcell_mem c _ (fXD.two_le_sS k))); iexact HP
    isplitl [Hc]; · iexact Hc
    isplitl [HO]; · iexact HO
    isplitr; · rw [MayWait_zero]; iempintro
    iexact Hat
  iintro ⟨HO, Hat, -, Hpay⟩
  ihave Hp := (Entails.of_eq ((rest_dma m ρ c (fXD.sS k) (fXD.two_le_sS k)).trans (dmaPay_sXD m ρ c k))) $$ Hpay
  unfold sXDPay
  rw [wp_ret]; imodintro
  iapply Hk
  isplitl [HO]; · iexists _; iexact HO
  isplitl [Hat]; · iexact Hat
  iexact Hp

/-- Waiting for block `k` of this family to have left: the source block comes back at the share it was lent at. -/
theorem step_waitSZD (K : GSem nD τ sig → ℕ) (c : Dev nD) (k : Fin 16) (Kt : PUnit → sProp 𝕄) :
    iprop(Pz m ρ K ∗ owesE c 0 ∗ cred (tallyAt (fZD.sc c k) () N) ∗ atPos ER (fZD.sc c k) 0 ∅ 0
        ∗ ((owesE c 0 ∗ atPos ER (fZD.sc c k) 1 ∅ 0 ∗ pts (ch512 ybM k) c fullShare.right.left (ybC m ρ c)) -∗ Kt ⟨⟩))
      ⊢ wp frame (wpE (defs₀ (F := F)) 𝒱₀ (c : Thread nD τ) none) Set.univ (waitZDs k) Kt := by
  have hk := k.isLt
  unfold waitZDs
  rw [sem_s12]
  simp only [Prog.lift]
  iintro ⟨#HP, HO, Hc, Hat, Hk⟩
  unfold owesE
  icases HO with ⟨%W, HO⟩
  have hx : 0 + (ch512 ybM k).view.dmaCredit = (Rd m ρ).expect ((c : Thread nD τ), .dma (fZD.sS k)) 0 := by
    rw [Nat.zero_add]; exact (expect_dma m ρ c (fZD.sS k) (fZD.two_le_sS k)).symm
  iapply (Rounds.wp_wait_rest_token 𝒱₀ ER (Rd m ρ) (c : Thread nD τ) none (κ := K (fZD.sc c k))
      (wpE_waitDma2_eq 𝒱₀ (c : Thread nD τ) none Set.univ) (Set.mem_univ _) () (O := 0) (W := W) (R := 0) (m := 0) (T := ∅) hx) $$ [HO Hc Hat]
  · isplitr; · iapply (inv_of m ρ K _ (dcell_mem c _ (fZD.two_le_sS k))); iexact HP
    isplitl [Hc]; · iexact Hc
    isplitl [HO]; · iexact HO
    isplitr; · rw [MayWait_zero]; iempintro
    iexact Hat
  iintro ⟨HO, Hat, -, Hpay⟩
  ihave Hp := (Entails.of_eq ((rest_dma m ρ c (fZD.sS k) (fZD.two_le_sS k)).trans (dmaPay_sZD m ρ c k))) $$ Hpay
  unfold sZDPay
  rw [wp_ret]; imodintro
  iapply Hk
  isplitl [HO]; · iexists _; iexact HO
  isplitl [Hat]; · iexact Hat
  iexact Hp

/-- Waiting for block `k` of this family to have left: the source block comes back at the share it was lent at. -/
theorem step_waitSXR (K : GSem nD τ sig → ℕ) (c : Dev nD) (k : Fin 4) (Kt : PUnit → sProp 𝕄) :
    iprop(Pz m ρ K ∗ owesE c 0 ∗ cred (tallyAt (fXR.sc c k) () N) ∗ atPos ER (fXR.sc c k) 0 ∅ 0
        ∗ ((owesE c 0 ∗ atPos ER (fXR.sc c k) 1 ∅ 0 ∗ pts (ch512 zdM (ev k)) c fullShare.left (zdC m ρ c)) -∗ Kt ⟨⟩))
      ⊢ wp frame (wpE (defs₀ (F := F)) 𝒱₀ (c : Thread nD τ) none) Set.univ (waitXRs k) Kt := by
  have hk := k.isLt
  unfold waitXRs
  rw [sem_s14]
  simp only [Prog.lift]
  iintro ⟨#HP, HO, Hc, Hat, Hk⟩
  unfold owesE
  icases HO with ⟨%W, HO⟩
  have hx : 0 + (ch512 zdM (ev k)).view.dmaCredit = (Rd m ρ).expect ((c : Thread nD τ), .dma (fXR.sS k)) 0 := by
    rw [Nat.zero_add]; exact (expect_dma m ρ c (fXR.sS k) (fXR.two_le_sS k)).symm
  iapply (Rounds.wp_wait_rest_token 𝒱₀ ER (Rd m ρ) (c : Thread nD τ) none (κ := K (fXR.sc c k))
      (wpE_waitDma2_eq 𝒱₀ (c : Thread nD τ) none Set.univ) (Set.mem_univ _) () (O := 0) (W := W) (R := 0) (m := 0) (T := ∅) hx) $$ [HO Hc Hat]
  · isplitr; · iapply (inv_of m ρ K _ (dcell_mem c _ (fXR.two_le_sS k))); iexact HP
    isplitl [Hc]; · iexact Hc
    isplitl [HO]; · iexact HO
    isplitr; · rw [MayWait_zero]; iempintro
    iexact Hat
  iintro ⟨HO, Hat, -, Hpay⟩
  ihave Hp := (Entails.of_eq ((rest_dma m ρ c (fXR.sS k) (fXR.two_le_sS k)).trans (dmaPay_sXR m ρ c k))) $$ Hpay
  unfold sXRPay
  rw [wp_ret]; imodintro
  iapply Hk
  isplitl [HO]; · iexists _; iexact HO
  isplitl [Hat]; · iexact Hat
  iexact Hp

/-- Waiting for block `k` of this family to have left: the source block comes back at the share it was lent at. -/
theorem step_waitSZR (K : GSem nD τ sig → ℕ) (c : Dev nD) (k : Fin 4) (Kt : PUnit → sProp 𝕄) :
    iprop(Pz m ρ K ∗ owesE c 0 ∗ cred (tallyAt (fZR.sc c k) () N) ∗ atPos ER (fZR.sc c k) 0 ∅ 0
        ∗ ((owesE c 0 ∗ atPos ER (fZR.sc c k) 1 ∅ 0 ∗ pts (ch512 xdM (od k)) c fullShare.left (xdC m ρ c)) -∗ Kt ⟨⟩))
      ⊢ wp frame (wpE (defs₀ (F := F)) 𝒱₀ (c : Thread nD τ) none) Set.univ (waitZRs k) Kt := by
  have hk := k.isLt
  unfold waitZRs
  rw [sem_s16]
  simp only [Prog.lift]
  iintro ⟨#HP, HO, Hc, Hat, Hk⟩
  unfold owesE
  icases HO with ⟨%W, HO⟩
  have hx : 0 + (ch512 xdM (od k)).view.dmaCredit = (Rd m ρ).expect ((c : Thread nD τ), .dma (fZR.sS k)) 0 := by
    rw [Nat.zero_add]; exact (expect_dma m ρ c (fZR.sS k) (fZR.two_le_sS k)).symm
  iapply (Rounds.wp_wait_rest_token 𝒱₀ ER (Rd m ρ) (c : Thread nD τ) none (κ := K (fZR.sc c k))
      (wpE_waitDma2_eq 𝒱₀ (c : Thread nD τ) none Set.univ) (Set.mem_univ _) () (O := 0) (W := W) (R := 0) (m := 0) (T := ∅) hx) $$ [HO Hc Hat]
  · isplitr; · iapply (inv_of m ρ K _ (dcell_mem c _ (fZR.two_le_sS k))); iexact HP
    isplitl [Hc]; · iexact Hc
    isplitl [HO]; · iexact HO
    isplitr; · rw [MayWait_zero]; iempintro
    iexact Hat
  iintro ⟨HO, Hat, -, Hpay⟩
  ihave Hp := (Entails.of_eq ((rest_dma m ρ c (fZR.sS k) (fZR.two_le_sS k)).trans (dmaPay_sZR m ρ c k))) $$ Hpay
  unfold sZRPay
  rw [wp_ret]; imodintro
  iapply Hk
  isplitl [HO]; · iexists _; iexact HO
  isplitl [Hat]; · iexact Hat
  iexact Hp

/-- A block's cell whose one round is consumed is closed: its counter, at zero, is the device's again. -/
theorem close_cell (K : GSem nD τ sig → ℕ) (c : Dev nD) (i : DmaSem sig) (h2 : 2 ≤ i.val) :
    iprop(Pz m ρ K ∗ atPos ER (dcell c i) 1 ∅ 0) ⊢ (|={Set.univ}=> semVal (dcell c i) 0 : sProp 𝕄) := by
  iintro ⟨#HP, Hat⟩
  iapply (Rounds.cell_close ER (Rd m ρ) (Set.mem_univ (K (dcell c i))) (fun h => h) (R := 0 + 1) (duties_later m ρ _))
  isplitr; · iapply (inv_of m ρ K _ (dcell_mem c i h2)); iexact HP
  iexact Hat

end Cert.KernelIdeal.Waits

end
-- ==== Proof.StepsMid.lean ====
/-
  The own quarter and the neighbouring quarters as loop steps.
-/
import proofs.«901025_g7700000000001026_dist_rs_v7x_xyz2x2x2_y_m2048_n512_f32_1_alg».proof.Proof.AccSteps
import proofs.«901025_g7700000000001026_dist_rs_v7x_xyz2x2x2_y_m2048_n512_f32_1_alg».proof.Proof.Sends
import proofs.«901025_g7700000000001026_dist_rs_v7x_xyz2x2x2_y_m2048_n512_f32_1_alg».proof.Proof.Waits

noncomputable section

namespace Cert.KernelIdeal.StepsMid

open Cert.KernelIdeal Cert.KernelIdeal.Gen Cert.KernelIdeal.Proto Cert.KernelIdeal.GenBody Cert.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.KernelIdeal.StepDefs Cert.KernelIdeal.XSplit Cert.KernelIdeal.Accum Cert.KernelIdeal.PhaseDefs

open Cert.KernelIdeal.Sends Cert.KernelIdeal.Waits Cert.KernelIdeal.AccSteps

/-! ## The rows done, one step on -/

/-- The second-half step: blocks `8 + i` of the two neighbouring quarters are the new rows. -/
theorem done3b (c : Dev nD) (i : Fin 8) (r : ℕ) :
    doneRows c 16 (8 + (i.val + 1)) (8 + (i.val + 1)) 0 0 0 r →
      (doneRows c 16 (8 + i.val) (8 + i.val) 0 0 0 r ∨ rows32 (rowZ c (hi i)) r) ∨ rows32 (rowX c (hi i)) r := by
  unfold doneRows
  rintro (h | ⟨k', hk', hr⟩ | ⟨k', hk', hr⟩ | h)
  · exact Or.inl (Or.inl (Or.inl h))
  · by_cases e : k'.val < 8 + i.val
    · exact Or.inl (Or.inl (Or.inr (Or.inl ⟨k', e, hr⟩)))
    · have hk : k' = hi i := Fin.ext (by show k'.val = 8 + i.val; omega)
      subst hk; exact Or.inl (Or.inr hr)
  · by_cases e : k'.val < 8 + i.val
    · exact Or.inl (Or.inl (Or.inr (Or.inr (Or.inl ⟨k', e, hr⟩))))
    · have hk : k' = hi i := Fin.ext (by show k'.val = 8 + i.val; omega)
      subst hk; exact Or.inr hr
  · exact Or.inl (Or.inl (Or.inr (Or.inr (Or.inr h))))

/-- Nothing is owed: no entry of the zero tallies is positive. -/
theorem zero_owed (b : ℕ) : ∀ (g : GSem nD τ sig) (u : Unit), 0 < (0 : CellTallies nD τ sig Unit) g u → g.1.2 = .tc ∧ b < lv g u :=
  fun g u h => absurd h (by simp)

/-! ## What is owed, block by block -/

theorem from16_succ (k : Fin 16) : from16 k.val = insert k (from16 (k.val + 1)) := by
  ext x
  simp only [from16, Finset.mem_filter, Finset.mem_univ, true_and, Finset.mem_insert]
  constructor
  · intro h
    by_cases e : x = k
    · exact Or.inl e
    · right
      have : x.val ≠ k.val := fun h => e (Fin.ext h)
      omega
  · rintro (rfl | h)
    · exact le_refl _
    · omega

theorem not_mem_from16 (k : Fin 16) : k ∉ from16 (k.val + 1) := by
  simp only [from16, Finset.mem_filter, Finset.mem_univ, true_and]; omega

theorem from4_succ (k : Fin 4) : from4 k.val = insert k (from4 (k.val + 1)) := by
  ext x
  simp only [from4, Finset.mem_filter, Finset.mem_univ, true_and, Finset.mem_insert]
  constructor
  · intro h
    by_cases e : x = k
    · exact Or.inl e
    · right
      have : x.val ≠ k.val := fun h => e (Fin.ext h)
      omega
  · rintro (rfl | h)
    · exact le_refl _
    · omega

theorem not_mem_from4 (k : Fin 4) : k ∉ from4 (k.val + 1) := by
  simp only [from4, Finset.mem_filter, Finset.mem_univ, true_and]; omega

/-- One more block outstanding is one more block's credit owed. -/
theorem famOwed_insert (f : Fam) (c : Dev nD) (S : Finset (Fin f.n)) (k : Fin f.n) (h : k ∉ S) :
    famOwed f c (insert k S) = famOwed f c S + tallyAt (f.rc (nbr f.j c) k) () N := by
  unfold famOwed; rw [Finset.sum_insert h, add_comm]

theorem famOwed_XD (c : Dev nD) (k : Fin 16) :
    famOwed fXD c (from16 k.val) = famOwed fXD c (from16 (k.val + 1)) + tallyAt (fXD.rc (xnb c) k) () N := by
  rw [from16_succ k]; exact famOwed_insert fXD c (from16 (k.val + 1)) k (not_mem_from16 k)
theorem famOwed_ZD (c : Dev nD) (k : Fin 16) :
    famOwed fZD c (from16 k.val) = famOwed fZD c (from16 (k.val + 1)) + tallyAt (fZD.rc (znb c) k) () N := by
  rw [from16_succ k]; exact famOwed_insert fZD c (from16 (k.val + 1)) k (not_mem_from16 k)
theorem famOwed_XR (c : Dev nD) (k : Fin 4) :
    famOwed fXR c (from4 k.val) = famOwed fXR c (from4 (k.val + 1)) + tallyAt (fXR.rc (xnb c) k) () N := by
  rw [from4_succ k]; exact famOwed_insert fXR c (from4 (k.val + 1)) k (not_mem_from4 k)
theorem famOwed_ZR (c : Dev nD) (k : Fin 4) :
    famOwed fZR c (from4 k.val) = famOwed fZR c (from4 (k.val + 1)) + tallyAt (fZR.rc (znb c) k) () N := by
  rw [from4_succ k]; exact famOwed_insert fZR c (from4 (k.val + 1)) k (not_mem_from4 k)

/-- Peeling one block of each forwarding family off what is owed. -/
theorem owed_XD (c : Dev nD) (k : Fin 16) (C' : Finset (Fin fZD.n)) (E : Finset (Fin fXR.n)) (E' : Finset (Fin fZR.n)) :
    owedAt c ∅ ∅ (from16 k.val) C' E E' ∅ = owedAt c ∅ ∅ (from16 (k.val + 1)) C' E E' ∅ + tallyAt (fXD.rc (xnb c) k) () N := by
  unfold owedAt; rw [famOwed_XD c k]; abel
theorem owed_ZD (c : Dev nD) (k : Fin 16) (C : Finset (Fin fXD.n)) (E : Finset (Fin fXR.n)) (E' : Finset (Fin fZR.n)) :
    owedAt c ∅ ∅ C (from16 k.val) E E' ∅ = owedAt c ∅ ∅ C (from16 (k.val + 1)) E E' ∅ + tallyAt (fZD.rc (znb c) k) () N := by
  unfold owedAt; rw [famOwed_ZD c k]; abel
theorem owed_XR (c : Dev nD) (k : Fin 4) (C : Finset (Fin fXD.n)) (C' : Finset (Fin fZD.n)) (E' : Finset (Fin fZR.n)) :
    owedAt c ∅ ∅ C C' (from4 k.val) E' ∅ = owedAt c ∅ ∅ C C' (from4 (k.val + 1)) E' ∅ + tallyAt (fXR.rc (xnb c) k) () N := by
  unfold owedAt; rw [famOwed_XR c k]; abel
theorem owed_ZR (c : Dev nD) (k : Fin 4) (C : Finset (Fin fXD.n)) (C' : Finset (Fin fZD.n)) (E : Finset (Fin fXR.n)) :
    owedAt c ∅ ∅ C C' E (from4 k.val) ∅ = owedAt c ∅ ∅ C C' E (from4 (k.val + 1)) ∅ + tallyAt (fZR.rc (znb c) k) () N := by
  unfold owedAt; rw [famOwed_ZR c k]; abel

/-- A positive entry of a family's outstanding credit is the receive cell of one of its outstanding blocks. -/
theorem famOwed_pos (f : Fam) (c : Dev nD) (S : Finset (Fin f.n)) (g : GSem nD τ sig) (u : Unit)
    (h : 0 < famOwed f c S g u) : ∃ k ∈ S, g = f.rc (nbr f.j c) k := by
  by_contra hne
  have h0 : famOwed f c S g u = 0 := by
    unfold famOwed
    rw [Finset.sum_apply, Finsupp.finsetSum_apply]
    refine Finset.sum_eq_zero fun k hk => ?_
    rw [tallyAt_apply, if_neg]
    rintro ⟨hg, -⟩
    exact hne ⟨k, hk, hg⟩
  omega

theorem famOwed_empty (f : Fam) (c : Dev nD) : famOwed f c ∅ = 0 := Finset.sum_empty
theorem barOwed_empty (c : Dev nD) : barOwed c ∅ = 0 := Finset.sum_empty

/-- With the sends across the middle axis and the greetings done, a positive entry of what is owed is the receive cell
    of an outstanding block of one of the four forwarding families. -/
theorem owed_pos (c : Dev nD) (C C' : Finset (Fin 16)) (E E' : Finset (Fin 4)) (g : GSem nD τ sig) (u : Unit)
    (h : 0 < owedAt c ∅ ∅ C C' E E' ∅ g u) :
    (∃ k ∈ C, g = fXD.rc (xnb c) k) ∨ (∃ k ∈ C', g = fZD.rc (znb c) k) ∨ (∃ k ∈ E, g = fXR.rc (xnb c) k) ∨ (∃ k ∈ E', g = fZR.rc (znb c) k) := by
  unfold owedAt at h
  rw [famOwed_empty, famOwed_empty, barOwed_empty, zero_add, zero_add, add_zero] at h
  simp only [Pi.add_apply, Finsupp.add_apply] at h
  by_cases h1 : 0 < famOwed fXD c C g u
  · exact Or.inl (famOwed_pos fXD c C g u h1)
  by_cases h2 : 0 < famOwed fZD c C' g u
  · exact Or.inr (Or.inl (famOwed_pos fZD c C' g u h2))
  by_cases h3 : 0 < famOwed fXR c E g u
  · exact Or.inr (Or.inr (Or.inl (famOwed_pos fXR c E g u h3)))
  by_cases h4 : 0 < famOwed fZR c E' g u
  · exact Or.inr (Or.inr (Or.inr (famOwed_pos fZR c E' g u h4)))
  omega

/-- The forwarding families' receive cells lie above level 2 … -/
theorem owed_lv2 (c : Dev nD) (C C' : Finset (Fin 16)) (E E' : Finset (Fin 4)) :
    ∀ (g : GSem nD τ sig) (u : Unit), 0 < owedAt c ∅ ∅ C C' E E' ∅ g u → g.1.2 = .tc ∧ 2 < lv g u := by
  intro g u h
  rcases owed_pos c C C' E E' g u h with ⟨k, -, rfl⟩ | ⟨k, -, rfl⟩ | ⟨k, -, rfl⟩ | ⟨k, -, rfl⟩
  · have := k.isLt; exact ⟨rfl, by show 2 < lvD (66 + k.val); unfold lvD; split_ifs <;> omega⟩
  · have := k.isLt; exact ⟨rfl, by show 2 < lvD (98 + k.val); unfold lvD; split_ifs <;> omega⟩
  · have := k.isLt; exact ⟨rfl, by show 2 < lvD (118 + k.val); unfold lvD; split_ifs <;> omega⟩
  · have := k.isLt; exact ⟨rfl, by show 2 < lvD (126 + k.val); unfold lvD; split_ifs <;> omega⟩

/-- … and those of the second forwarding above level 3. -/
theorem owed_lv3 (c : Dev nD) (E E' : Finset (Fin 4)) :
    ∀ (g : GSem nD τ sig) (u : Unit), 0 < owedAt c ∅ ∅ ∅ ∅ E E' ∅ g u → g.1.2 = .tc ∧ 3 < lv g u := by
  intro g u h
  rcases owed_pos c ∅ ∅ E E' g u h with ⟨k, hk, -⟩ | ⟨k, hk, -⟩ | ⟨k, -, rfl⟩ | ⟨k, -, rfl⟩
  · exact absurd hk (Finset.notMem_empty _)
  · exact absurd hk (Finset.notMem_empty _)
  · have := k.isLt; exact ⟨rfl, by show 3 < lvD (118 + k.val); unfold lvD; split_ifs <;> omega⟩
  · have := k.isLt; exact ⟨rfl, by show 3 < lvD (126 + k.val); unfold lvD; split_ifs <;> omega⟩

/-- The own-quarter step: block `k` of the own quarter is the new rows. -/
theorem done2 (c : Dev nD) (k : Fin 16) (r : ℕ) :
    doneRows c (k.val + 1) 0 0 0 0 0 r → doneRows c k.val 0 0 0 0 0 r ∨ rows32 (rowA c k) r := by
  unfold doneRows
  rintro (⟨k', hk', hr⟩ | h)
  · by_cases e : k'.val < k.val
    · exact Or.inl (Or.inl ⟨k', e, hr⟩)
    · have hk : k' = k := Fin.ext (by omega)
      subst hk; exact Or.inr hr
  · exact Or.inl (Or.inr h)

theorem hstep2 (K : GSem nD τ sig → ℕ) (c : Dev nD) (k : Fin 16) (Kt : PUnit → sProp 𝕄) :
    iprop(Sh2 m ρ K c k.val ∗ A2 (F := F) c k ∗ ((Sh2 m ρ K c (k.val + 1) ∗ B2 m ρ c k) -∗ Kt ⟨⟩))
      ⊢ wp frame (wpE (defs₀ (F := F)) 𝒱₀ (c : Thread nD τ) none) Set.univ (iter2 c k) Kt := by
  unfold iter2 Sh2 A2 B2 recvKit sendKit
  simp only [wp_bind]
  iintro ⟨⟨#HP, HO, HX, HOut⟩, ⟨⟨Hc, Hat⟩, ⟨Hts1, Htr1, Hd1⟩, ⟨Hts2, Htr2, Hd2⟩⟩, Hk⟩
  iapply (step_waitRY m ρ K c k _ (owed_lv2 c _ _ _ _) _)
  isplitr; · iexact HP
  isplitl [HO]; · iexact HO
  isplitl [Hc]; · iexact Hc
  isplitl [Hat]; · iexact Hat
  iintro ⟨HO, Hat, Hy⟩
  ihave Hy2 := (pointsTo_share (PosShare.mem_left_op_right fullShare)).1 $$ Hy
  icases Hy2 with ⟨Hl, Hr⟩
  ihave Hr2 := (pointsTo_share (PosShare.mem_left_op_right fullShare.right)).1 $$ Hr
  icases Hr2 with ⟨Hrl, Hrr⟩
  ihave HO := (Entails.of_eq (congrArg (owesE (F := F) c) (owed_XD c k (from16 k.val) Finset.univ Finset.univ))) $$ HO
  iapply (step_sendXD m ρ K c k _ _)
  isplitr; · iexact HP
  isplitl [HO]; · iexact HO
  isplitl [Hts1]; · iexact Hts1
  isplitl [Htr1]; · iexact Htr1
  isplitl [Hd1]; · iexact Hd1
  isplitl [Hl]; · iexact Hl
  iintro ⟨HO, Hcx⟩
  ihave HO := (Entails.of_eq (congrArg (owesE (F := F) c) (owed_ZD c k (from16 (k.val + 1)) Finset.univ Finset.univ))) $$ HO
  iapply (step_sendZD m ρ K c k _ _)
  isplitr; · iexact HP
  isplitl [HO]; · iexact HO
  isplitl [Hts2]; · iexact Hts2
  isplitl [Htr2]; · iexact Htr2
  isplitl [Hd2]; · iexact Hd2
  isplitl [Hrl]; · iexact Hrl
  iintro ⟨HO, Hcz⟩
  iapply (step_accA m ρ c k _ fullShare.right.right _)
  isplitl [HX]; · iexact HX
  isplitl [Hrr]; · iexact Hrr
  isplitl [HOut]; · iexact HOut
  iintro ⟨HX, Hrr, HOut⟩
  iapply Hk
  isplitl [HO HX HOut]
  · isplitr; · iexact HP
    isplitl [HO]; · iexact HO
    isplitl [HX]; · iexact HX
    iapply (outInv_mono m ρ c (done2 c k)); iexact HOut
  isplitl [Hat]; · iexact Hat
  isplitl [Hcx]; · iexact Hcx
  isplitl [Hcz]; · iexact Hcz
  iexact Hrr

/-- The first-half step: blocks `2j` and `2j + 1` of the two neighbouring quarters are the new rows. -/
theorem done3a (c : Dev nD) (j : Fin 4) (r : ℕ) :
    doneRows c 16 (2 * (j.val + 1)) (2 * (j.val + 1)) 0 0 0 r →
      (((doneRows c 16 (2 * j.val) (2 * j.val) 0 0 0 r ∨ rows32 (rowZ c (ev j)) r) ∨ rows32 (rowX c (ev j)) r)
        ∨ rows32 (rowZ c (od j)) r) ∨ rows32 (rowX c (od j)) r := by
  unfold doneRows
  rintro (h | ⟨k', hk', hr⟩ | ⟨k', hk', hr⟩ | h)
  · exact Or.inl (Or.inl (Or.inl (Or.inl (Or.inl h))))
  · by_cases e : k'.val < 2 * j.val
    · exact Or.inl (Or.inl (Or.inl (Or.inl (Or.inr (Or.inl ⟨k', e, hr⟩)))))
    · by_cases e2 : k'.val = 2 * j.val
      · have hk : k' = ev j := Fin.ext e2
        subst hk; exact Or.inl (Or.inl (Or.inl (Or.inr hr)))
      · have hk : k' = od j := Fin.ext (by show k'.val = 2 * j.val + 1; omega)
        subst hk; exact Or.inl (Or.inr hr)
  · by_cases e : k'.val < 2 * j.val
    · exact Or.inl (Or.inl (Or.inl (Or.inl (Or.inr (Or.inr (Or.inl ⟨k', e, hr⟩))))))
    · by_cases e2 : k'.val = 2 * j.val
      · have hk : k' = ev j := Fin.ext e2
        subst hk; exact Or.inl (Or.inl (Or.inr hr))
      · have hk : k' = od j := Fin.ext (by show k'.val = 2 * j.val + 1; omega)
        subst hk; exact Or.inr hr
  · exact Or.inl (Or.inl (Or.inl (Or.inl (Or.inr (Or.inr (Or.inr h))))))

theorem hstep3a (K : GSem nD τ sig → ℕ) (c : Dev nD) (j : Fin 4) (Kt : PUnit → sProp 𝕄) :
    iprop(Sh3a m ρ K c j.val ∗ A3a (F := F) c j ∗ ((Sh3a m ρ K c (j.val + 1) ∗ B3a m ρ c j) -∗ Kt ⟨⟩))
      ⊢ wp frame (wpE (defs₀ (F := F)) 𝒱₀ (c : Thread nD τ) none) Set.univ (iter3a c j) Kt := by
  unfold iter3a Sh3a A3a B3a recvKit sendKit
  simp only [wp_bind]
  iintro ⟨⟨#HP, HO, HX, HOut⟩, ⟨⟨Hc1, Hat1⟩, ⟨Hc2, Hat2⟩, ⟨Hc3, Hat3⟩, ⟨Hc4, Hat4⟩, ⟨Hts1, Htr1, Hd1⟩, ⟨Hts2, Htr2, Hd2⟩⟩, Hk⟩
  -- the even block across the inner axis lands; its left half goes on across the outer axis
  iapply (step_waitRZD m ρ K c (ev j) _ (owed_lv3 c _ _) _)
  isplitr; · iexact HP
  isplitl [HO]; · iexact HO
  isplitl [Hc1]; · iexact Hc1
  isplitl [Hat1]; · iexact Hat1
  iintro ⟨HO, Hat1, Hze⟩
  ihave Hze2 := (pointsTo_share (PosShare.mem_left_op_right fullShare)).1 $$ Hze
  icases Hze2 with ⟨Hzel, Hzer⟩
  ihave HO := (Entails.of_eq (congrArg (owesE (F := F) c) (owed_XR c j ∅ ∅ (from4 j.val)))) $$ HO
  iapply (step_sendXR m ρ K c j _ _)
  isplitr; · iexact HP
  isplitl [HO]; · iexact HO
  isplitl [Hts1]; · iexact Hts1
  isplitl [Htr1]; · iexact Htr1
  isplitl [Hd1]; · iexact Hd1
  isplitl [Hzel]; · iexact Hzel
  iintro ⟨HO, Hcx⟩
  iapply (step_accZ m ρ c (ev j) _ fullShare.right _)
  isplitl [HX]; · iexact HX
  isplitl [Hzer]; · iexact Hzer
  isplitl [HOut]; · iexact HOut
  iintro ⟨HX, Hzer, HOut⟩
  -- the even block across the outer axis
  iapply (step_waitRXD m ρ K c (ev j) _ (owed_lv3 c _ _) _)
  isplitr; · iexact HP
  isplitl [HO]; · iexact HO
  isplitl [Hc2]; · iexact Hc2
  isplitl [Hat2]; · iexact Hat2
  iintro ⟨HO, Hat2, Hxe⟩
  iapply (step_accX m ρ c (ev j) _ fullShare _)
  isplitl [HX]; · iexact HX
  isplitl [Hxe]; · iexact Hxe
  isplitl [HOut]; · iexact HOut
  iintro ⟨HX, Hxe, HOut⟩
  -- the odd block across the inner axis
  iapply (step_waitRZD m ρ K c (od j) _ (owed_lv3 c _ _) _)
  isplitr; · iexact HP
  isplitl [HO]; · iexact HO
  isplitl [Hc3]; · iexact Hc3
  isplitl [Hat3]; · iexact Hat3
  iintro ⟨HO, Hat3, Hzo⟩
  iapply (step_accZ m ρ c (od j) _ fullShare _)
  isplitl [HX]; · iexact HX
  isplitl [Hzo]; · iexact Hzo
  isplitl [HOut]; · iexact HOut
  iintro ⟨HX, Hzo, HOut⟩
  -- the odd block across the outer axis lands; its left half goes on across the inner axis
  iapply (step_waitRXD m ρ K c (od j) _ (owed_lv3 c _ _) _)
  isplitr; · iexact HP
  isplitl [HO]; · iexact HO
  isplitl [Hc4]; · iexact Hc4
  isplitl [Hat4]; · iexact Hat4
  iintro ⟨HO, Hat4, Hxo⟩
  ihave Hxo2 := (pointsTo_share (PosShare.mem_left_op_right fullShare)).1 $$ Hxo
  icases Hxo2 with ⟨Hxol, Hxor⟩
  ihave HO := (Entails.of_eq (congrArg (owesE (F := F) c) (owed_ZR c j ∅ ∅ (from4 (j.val + 1))))) $$ HO
  iapply (step_sendZR m ρ K c j _ _)
  isplitr; · iexact HP
  isplitl [HO]; · iexact HO
  isplitl [Hts2]; · iexact Hts2
  isplitl [Htr2]; · iexact Htr2
  isplitl [Hd2]; · iexact Hd2
  isplitl [Hxol]; · iexact Hxol
  iintro ⟨HO, Hcz⟩
  iapply (step_accX m ρ c (od j) _ fullShare.right _)
  isplitl [HX]; · iexact HX
  isplitl [Hxor]; · iexact Hxor
  isplitl [HOut]; · iexact HOut
  iintro ⟨HX, Hxor, HOut⟩
  iapply Hk
  isplitl [HO HX HOut]
  · isplitr; · iexact HP
    isplitl [HO]; · iexact HO
    isplitl [HX]; · iexact HX
    iapply (outInv_mono m ρ c (done3a c j)); iexact HOut
  isplitl [Hat1]; · iexact Hat1
  isplitl [Hat2]; · iexact Hat2
  isplitl [Hat3]; · iexact Hat3
  isplitl [Hat4]; · iexact Hat4
  isplitl [Hcx]; · iexact Hcx
  isplitl [Hcz]; · iexact Hcz
  isplitl [Hzer]; · iexact Hzer
  isplitl [Hxe]; · iexact Hxe
  isplitl [Hzo]; · iexact Hzo
  iexact Hxor

theorem hstep3b (K : GSem nD τ sig → ℕ) (c : Dev nD) (i : Fin 8) (Kt : PUnit → sProp 𝕄) :
    iprop(Sh3b m ρ K c i.val ∗ A3b (F := F) c i ∗ ((Sh3b m ρ K c (i.val + 1) ∗ B3b m ρ c i) -∗ Kt ⟨⟩))
      ⊢ wp frame (wpE (defs₀ (F := F)) 𝒱₀ (c : Thread nD τ) none) Set.univ (iter3b c i) Kt := by
  unfold iter3b Sh3b A3b B3b recvKit
  simp only [wp_bind]
  iintro ⟨⟨#HP, HO, HX, HOut⟩, ⟨⟨Hc1, Hat1⟩, ⟨Hc2, Hat2⟩⟩, Hk⟩
  iapply (step_waitRZD m ρ K c (hi i) 0 (zero_owed 3) _)
  isplitr; · iexact HP
  isplitl [HO]; · iexact HO
  isplitl [Hc1]; · iexact Hc1
  isplitl [Hat1]; · iexact Hat1
  iintro ⟨HO, Hat1, Hz⟩
  iapply (step_accZ m ρ c (hi i) _ fullShare _)
  isplitl [HX]; · iexact HX
  isplitl [Hz]; · iexact Hz
  isplitl [HOut]; · iexact HOut
  iintro ⟨HX, Hz, HOut⟩
  iapply (step_waitRXD m ρ K c (hi i) 0 (zero_owed 3) _)
  isplitr; · iexact HP
  isplitl [HO]; · iexact HO
  isplitl [Hc2]; · iexact Hc2
  isplitl [Hat2]; · iexact Hat2
  iintro ⟨HO, Hat2, Hx⟩
  iapply (step_accX m ρ c (hi i) _ fullShare _)
  isplitl [HX]; · iexact HX
  isplitl [Hx]; · iexact Hx
  isplitl [HOut]; · iexact HOut
  iintro ⟨HX, Hx, HOut⟩
  iapply Hk
  isplitl [HO HX HOut]
  · isplitr; · iexact HP
    isplitl [HO]; · iexact HO
    isplitl [HX]; · iexact HX
    iapply (outInv_mono m ρ c (done3b c i)); iexact HOut
  isplitl [Hat1]; · iexact Hat1
  isplitl [Hat2]; · iexact Hat2
  isplitl [Hz]; · iexact Hz
  iexact Hx

end Cert.KernelIdeal.StepsMid

end
-- ==== Proof.StepsEnd.lean ====
/-
  The opposite quarter and the departures as loop steps.
-/
import proofs.«901025_g7700000000001026_dist_rs_v7x_xyz2x2x2_y_m2048_n512_f32_1_alg».proof.Proof.AccSteps
import proofs.«901025_g7700000000001026_dist_rs_v7x_xyz2x2x2_y_m2048_n512_f32_1_alg».proof.Proof.Waits

noncomputable section

namespace Cert.KernelIdeal.StepsEnd

open Cert.KernelIdeal Cert.KernelIdeal.Gen Cert.KernelIdeal.Proto Cert.KernelIdeal.GenBody Cert.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.KernelIdeal.StepDefs Cert.KernelIdeal.XSplit Cert.KernelIdeal.Accum Cert.KernelIdeal.PhaseDefs

open Cert.KernelIdeal.Waits Cert.KernelIdeal.AccSteps

/-! ## One more block of the opposite quarter done -/

theorem done_stepX (c : Dev nD) (j : Fin 4) (dz dy : ℕ) (r : ℕ) (h : doneRows c 16 16 16 (j.val + 1) dz dy r) :
    doneRows c 16 16 16 j.val dz dy r ∨ rows32 (rowD c (ev j)) r := by
  unfold doneRows at h ⊢
  rcases h with h | h | h | ⟨j', hj', hr⟩ | h | h
  · exact Or.inl (Or.inl h)
  · exact Or.inl (Or.inr (Or.inl h))
  · exact Or.inl (Or.inr (Or.inr (Or.inl h)))
  · rcases Nat.lt_succ_iff_lt_or_eq.mp hj' with hlt | heq
    · exact Or.inl (Or.inr (Or.inr (Or.inr (Or.inl ⟨j', hlt, hr⟩))))
    · have e : j' = j := Fin.ext heq
      subst e; exact Or.inr hr
  · exact Or.inl (Or.inr (Or.inr (Or.inr (Or.inr (Or.inl h)))))
  · exact Or.inl (Or.inr (Or.inr (Or.inr (Or.inr (Or.inr h)))))

theorem done_stepZ (c : Dev nD) (j : Fin 4) (dx dy : ℕ) (r : ℕ) (h : doneRows c 16 16 16 dx (j.val + 1) dy r) :
    doneRows c 16 16 16 dx j.val dy r ∨ rows32 (rowD c (od j)) r := by
  unfold doneRows at h ⊢
  rcases h with h | h | h | h | ⟨j', hj', hr⟩ | h
  · exact Or.inl (Or.inl h)
  · exact Or.inl (Or.inr (Or.inl h))
  · exact Or.inl (Or.inr (Or.inr (Or.inl h)))
  · exact Or.inl (Or.inr (Or.inr (Or.inr (Or.inl h))))
  · rcases Nat.lt_succ_iff_lt_or_eq.mp hj' with hlt | heq
    · exact Or.inl (Or.inr (Or.inr (Or.inr (Or.inr (Or.inl ⟨j', hlt, hr⟩)))))
    · have e : j' = j := Fin.ext heq
      subst e; exact Or.inr hr
  · exact Or.inl (Or.inr (Or.inr (Or.inr (Or.inr (Or.inr h)))))

theorem done_stepY (c : Dev nD) (j : Fin 8) (dx dz : ℕ) (r : ℕ) (h : doneRows c 16 16 16 dx dz (j.val + 1) r) :
    doneRows c 16 16 16 dx dz j.val r ∨ rows32 (rowD c (hi j)) r := by
  unfold doneRows at h ⊢
  rcases h with h | h | h | h | h | ⟨j', hj', hr⟩
  · exact Or.inl (Or.inl h)
  · exact Or.inl (Or.inr (Or.inl h))
  · exact Or.inl (Or.inr (Or.inr (Or.inl h)))
  · exact Or.inl (Or.inr (Or.inr (Or.inr (Or.inl h))))
  · exact Or.inl (Or.inr (Or.inr (Or.inr (Or.inr (Or.inl h)))))
  · rcases Nat.lt_succ_iff_lt_or_eq.mp hj' with hlt | heq
    · exact Or.inl (Or.inr (Or.inr (Or.inr (Or.inr (Or.inr ⟨j', hlt, hr⟩)))))
    · have e : j' = j := Fin.ext heq
      subst e; exact Or.inr hr

theorem hstep4X (K : GSem nD τ sig → ℕ) (c : Dev nD) (j : Fin 4) (Kt : PUnit → sProp 𝕄) :
    iprop(Sh4 m ρ K c j.val 0 0 ∗ recvKit (F := F) fXR c j ∗ ((Sh4 m ρ K c (j.val + 1) 0 0 ∗ B4X m ρ c j) -∗ Kt ⟨⟩))
      ⊢ wp frame (wpE (defs₀ (F := F)) 𝒱₀ (c : Thread nD τ) none) Set.univ (fin4X c j) Kt := by
  unfold fin4X Sh4 recvKit B4X
  simp only [wp_bind]
  iintro ⟨⟨#HP, HO, Hx, Hout⟩, ⟨Hc, Hat⟩, Hk⟩
  iapply (step_waitRXR m ρ K c j 0 (by intro g u h; exact absurd h (by simp)) _)
  isplitr; · iexact HP
  isplitl [HO]; · iexact HO
  isplitl [Hc]; · iexact Hc
  isplitl [Hat]; · iexact Hat
  iintro ⟨HO, Hat, Hp⟩
  iapply (step_accDX m ρ c j _ fullShare _)
  isplitl [Hx]; · iexact Hx
  isplitl [Hp]; · iexact Hp
  isplitl [Hout]; · iexact Hout
  iintro ⟨Hx, Hp, Hout⟩
  iapply Hk
  isplitl [HO Hx Hout]
  · isplitr; · iexact HP
    isplitl [HO]; · iexact HO
    isplitl [Hx]; · iexact Hx
    iapply (outInv_mono m ρ c (fun r => done_stepX c j 0 0 r)); iexact Hout
  isplitl [Hat]; · iexact Hat
  iexact Hp

theorem hstep4Z (K : GSem nD τ sig → ℕ) (c : Dev nD) (j : Fin 4) (Kt : PUnit → sProp 𝕄) :
    iprop(Sh4 m ρ K c 4 j.val 0 ∗ recvKit (F := F) fZR c j ∗ ((Sh4 m ρ K c 4 (j.val + 1) 0 ∗ B4Z m ρ c j) -∗ Kt ⟨⟩))
      ⊢ wp frame (wpE (defs₀ (F := F)) 𝒱₀ (c : Thread nD τ) none) Set.univ (fin4Z c j) Kt := by
  unfold fin4Z Sh4 recvKit B4Z
  simp only [wp_bind]
  iintro ⟨⟨#HP, HO, Hx, Hout⟩, ⟨Hc, Hat⟩, Hk⟩
  iapply (step_waitRZR m ρ K c j 0 (by intro g u h; exact absurd h (by simp)) _)
  isplitr; · iexact HP
  isplitl [HO]; · iexact HO
  isplitl [Hc]; · iexact Hc
  isplitl [Hat]; · iexact Hat
  iintro ⟨HO, Hat, Hp⟩
  iapply (step_accDZ m ρ c j _ fullShare _)
  isplitl [Hx]; · iexact Hx
  isplitl [Hp]; · iexact Hp
  isplitl [Hout]; · iexact Hout
  iintro ⟨Hx, Hp, Hout⟩
  iapply Hk
  isplitl [HO Hx Hout]
  · isplitr; · iexact HP
    isplitl [HO]; · iexact HO
    isplitl [Hx]; · iexact Hx
    iapply (outInv_mono m ρ c (fun r => done_stepZ c j 4 0 r)); iexact Hout
  isplitl [Hat]; · iexact Hat
  iexact Hp

theorem hstep4Y (K : GSem nD τ sig → ℕ) (c : Dev nD) (j : Fin 8) (Kt : PUnit → sProp 𝕄) :
    iprop(Sh4 m ρ K c 4 4 j.val ∗ recvKit (F := F) fYD c j ∗ ((Sh4 m ρ K c 4 4 (j.val + 1) ∗ B4Y m ρ c j) -∗ Kt ⟨⟩))
      ⊢ wp frame (wpE (defs₀ (F := F)) 𝒱₀ (c : Thread nD τ) none) Set.univ (fin8Y c j) Kt := by
  unfold fin8Y Sh4 recvKit B4Y
  simp only [wp_bind]
  iintro ⟨⟨#HP, HO, Hx, Hout⟩, ⟨Hc, Hat⟩, Hk⟩
  iapply (step_waitRYD m ρ K c j 0 (by intro g u h; exact absurd h (by simp)) _)
  isplitr; · iexact HP
  isplitl [HO]; · iexact HO
  isplitl [Hc]; · iexact Hc
  isplitl [Hat]; · iexact Hat
  iintro ⟨HO, Hat, Hp⟩
  iapply (step_accDY m ρ c j _ fullShare _)
  isplitl [Hx]; · iexact Hx
  isplitl [Hp]; · iexact Hp
  isplitl [Hout]; · iexact Hout
  iintro ⟨Hx, Hp, Hout⟩
  iapply Hk
  isplitl [HO Hx Hout]
  · isplitr; · iexact HP
    isplitl [HO]; · iexact HO
    isplitl [Hx]; · iexact Hx
    iapply (outInv_mono m ρ c (fun r => done_stepY c j 4 4 r)); iexact Hout
  isplitl [Hat]; · iexact Hat
  iexact Hp

theorem hstepW16 (K : GSem nD τ sig → ℕ) (c : Dev nD) (k : Fin 16) (Kt : PUnit → sProp 𝕄) :
    iprop(ShW m ρ K c k.val ∗ AW16 (F := F) c k ∗ ((ShW m ρ K c (k.val + 1) ∗ BW16 m ρ c k) -∗ Kt ⟨⟩))
      ⊢ wp frame (wpE (defs₀ (F := F)) 𝒱₀ (c : Thread nD τ) none) Set.univ (sw16 c k) Kt := by
  unfold sw16 ShW AW16 BW16 sentKit
  simp only [wp_bind]
  iintro ⟨⟨#HP, HO⟩, ⟨⟨Hc1, Ha1⟩, ⟨Hc2, Ha2⟩, Hc3, Ha3⟩, Hk⟩
  iapply (step_waitSY m ρ K c k _)
  isplitr; · iexact HP
  isplitl [HO]; · iexact HO
  isplitl [Hc1]; · iexact Hc1
  isplitl [Ha1]; · iexact Ha1
  iintro ⟨HO, Ha1, Hp1⟩
  iapply (step_waitSXD m ρ K c k _)
  isplitr; · iexact HP
  isplitl [HO]; · iexact HO
  isplitl [Hc2]; · iexact Hc2
  isplitl [Ha2]; · iexact Ha2
  iintro ⟨HO, Ha2, Hp2⟩
  iapply (step_waitSZD m ρ K c k _)
  isplitr; · iexact HP
  isplitl [HO]; · iexact HO
  isplitl [Hc3]; · iexact Hc3
  isplitl [Ha3]; · iexact Ha3
  iintro ⟨HO, Ha3, Hp3⟩
  iapply Hk
  isplitl [HO]
  · isplitr; · iexact HP
    iexact HO
  isplitl [Ha1]; · iexact Ha1
  isplitl [Ha2]; · iexact Ha2
  isplitl [Ha3]; · iexact Ha3
  isplitl [Hp1]; · iexact Hp1
  isplitl [Hp2]; · iexact Hp2
  iexact Hp3

theorem hstepWXR (K : GSem nD τ sig → ℕ) (c : Dev nD) (j : Fin 4) (Kt : PUnit → sProp 𝕄) :
    iprop(ShW m ρ K c j.val ∗ sentKit (F := F) fXR c j ∗ ((ShW m ρ K c (j.val + 1) ∗ BWXR m ρ c j) -∗ Kt ⟨⟩))
      ⊢ wp frame (wpE (defs₀ (F := F)) 𝒱₀ (c : Thread nD τ) none) Set.univ (waitXRs j) Kt := by
  unfold ShW sentKit BWXR
  iintro ⟨⟨#HP, HO⟩, ⟨Hc, Hat⟩, Hk⟩
  iapply (step_waitSXR m ρ K c j Kt)
  isplitr; · iexact HP
  isplitl [HO]; · iexact HO
  isplitl [Hc]; · iexact Hc
  isplitl [Hat]; · iexact Hat
  iintro ⟨HO, Hat, Hp⟩
  iapply Hk
  isplitl [HO]
  · isplitr; · iexact HP
    iexact HO
  isplitl [Hat]; · iexact Hat
  iexact Hp

theorem hstepWZR (K : GSem nD τ sig → ℕ) (c : Dev nD) (j : Fin 4) (Kt : PUnit → sProp 𝕄) :
    iprop(ShW m ρ K c j.val ∗ sentKit (F := F) fZR c j ∗ ((ShW m ρ K c (j.val + 1) ∗ BWZR m ρ c j) -∗ Kt ⟨⟩))
      ⊢ wp frame (wpE (defs₀ (F := F)) 𝒱₀ (c : Thread nD τ) none) Set.univ (waitZRs j) Kt := by
  unfold ShW sentKit BWZR
  iintro ⟨⟨#HP, HO⟩, ⟨Hc, Hat⟩, Hk⟩
  iapply (step_waitSZR m ρ K c j Kt)
  isplitr; · iexact HP
  isplitl [HO]; · iexact HO
  isplitl [Hc]; · iexact Hc
  isplitl [Hat]; · iexact Hat
  iintro ⟨HO, Hat, Hp⟩
  iapply Hk
  isplitl [HO]
  · isplitr; · iexact HP
    iexact HO
  isplitl [Hat]; · iexact Hat
  iexact Hp

theorem hstepWYD (K : GSem nD τ sig → ℕ) (c : Dev nD) (j : Fin 8) (Kt : PUnit → sProp 𝕄) :
    iprop(ShW m ρ K c j.val ∗ sentKit (F := F) fYD c j ∗ ((ShW m ρ K c (j.val + 1) ∗ BWYD m ρ c j) -∗ Kt ⟨⟩))
      ⊢ wp frame (wpE (defs₀ (F := F)) 𝒱₀ (c : Thread nD τ) none) Set.univ (waitYDs c j) Kt := by
  unfold ShW sentKit BWYD
  iintro ⟨⟨#HP, HO⟩, ⟨Hc, Hat⟩, Hk⟩
  iapply (step_waitSYD m ρ K c j Kt)
  isplitr; · iexact HP
  isplitl [HO]; · iexact HO
  isplitl [Hc]; · iexact Hc
  isplitl [Hat]; · iexact Hat
  iintro ⟨HO, Hat, Hp⟩
  iapply Hk
  isplitl [HO]
  · isplitr; · iexact HP
    iexact HO
  isplitl [Hat]; · iexact Hat
  iexact Hp

end Cert.KernelIdeal.StepsEnd

end
-- ==== Proof.PhasesA.lean ====
/-
  Phases of the body: each loop from the state before it to the state after it.
-/
import proofs.«901025_g7700000000001026_dist_rs_v7x_xyz2x2x2_y_m2048_n512_f32_1_alg».proof.Proof.States
import proofs.«901025_g7700000000001026_dist_rs_v7x_xyz2x2x2_y_m2048_n512_f32_1_alg».proof.Proof.Loops
import proofs.«901025_g7700000000001026_dist_rs_v7x_xyz2x2x2_y_m2048_n512_f32_1_alg».proof.Proof.StepsSend
import proofs.«901025_g7700000000001026_dist_rs_v7x_xyz2x2x2_y_m2048_n512_f32_1_alg».proof.Proof.StepsMid
import proofs.«901025_g7700000000001026_dist_rs_v7x_xyz2x2x2_y_m2048_n512_f32_1_alg».proof.Proof.StepsEnd

noncomputable section

namespace Cert.KernelIdeal.PhasesA

open Cert.KernelIdeal Cert.KernelIdeal.Gen Cert.KernelIdeal.Proto Cert.KernelIdeal.GenBody Cert.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.KernelIdeal.StepDefs Cert.KernelIdeal.XSplit Cert.KernelIdeal.Accum Cert.KernelIdeal.PhaseDefs Cert.KernelIdeal.States Cert.KernelIdeal.Loops
open Cert.KernelIdeal.StepsSend Cert.KernelIdeal.StepsMid Cert.KernelIdeal.StepsEnd

/-! ## The blocks still to go, at a loop's two ends -/

theorem from16_0 : from16 0 = Finset.univ := Finset.filter_true_of_mem fun k _ => Nat.zero_le _
theorem from8_0 : from8 0 = Finset.univ := Finset.filter_true_of_mem fun k _ => Nat.zero_le _
theorem from4_0 : from4 0 = Finset.univ := Finset.filter_true_of_mem fun k _ => Nat.zero_le _
theorem from16_16 : from16 16 = ∅ := Finset.filter_eq_empty_iff.mpr fun k _ h => absurd k.isLt (Nat.not_lt.mpr h)
theorem from8_8 : from8 8 = ∅ := Finset.filter_eq_empty_iff.mpr fun k _ h => absurd k.isLt (Nat.not_lt.mpr h)
theorem from4_4 : from4 4 = ∅ := Finset.filter_eq_empty_iff.mpr fun k _ h => absurd k.isLt (Nat.not_lt.mpr h)

theorem phaseY (K : GSem nD τ sig → ℕ) (c : Dev nD) (Kt : PUnit → sProp 𝕄) :
    iprop(T1 m ρ K c ∗ (T2 m ρ K c -∗ Kt ⟨⟩))
      ⊢ wp frame (wpE (defs₀ (F := F)) 𝒱₀ (c : Thread nD τ) none) Set.univ (seq16 (sendY c)) Kt := by
  unfold T1 T2 OW kits xsYs crs
  rw [show owedAt c ∅ (from8 0) Finset.univ Finset.univ Finset.univ Finset.univ ∅ = owedAt c (from16 16) Finset.univ Finset.univ Finset.univ Finset.univ Finset.univ ∅ from by
    rw [from16_16, from8_0] <;> rfl]
  iintro ⟨⟨HOW, HOUT, #HP, Hbar, HkY, HkYD, HkXD, HkZD, HkXR, HkZR, HxY, HxYD, HxK, HxR, HrY, HrYD, HaXD, HbXD, HaZD, HbZD, HrXR, HrZR, HpY, HpYD, HpXD, HpZD, HpXR, HpZR⟩, Hk⟩
  iapply (wp_seq16 c (ShY m ρ K c) (AY m ρ c) (BY (F := F) c) (sendY c) (hstepY m ρ K c) Kt)
  isplitl [HOW]
  · unfold ShY
    isplitr; · iexact HP
    iexact HOW
  isplitl [HkY HxY]
  · unfold AY
    iapply (Entails.of_eq (bigSep_sep' Finset.univ (fun k : Fin 16 => sendKit (F := F) fY (fun k => ch512 ybM k) c k)
      (fun k : Fin 16 => pts (xsY c k) c fullShare (xstg m ρ c))).symm)
    isplitl [HkY]; · iexact HkY
    iexact HxY
  iintro ⟨HSh, HB⟩
  unfold ShY BY
  icases HSh with ⟨-, HOW⟩
  iapply Hk
  isplitl [HOW]; · iexact HOW
  isplitl [HOUT]; · iexact HOUT
  isplitr; · iexact HP
  isplitl [Hbar]; · iexact Hbar
  isplitl [HkYD]; · iexact HkYD
  isplitl [HkXD]; · iexact HkXD
  isplitl [HkZD]; · iexact HkZD
  isplitl [HkXR]; · iexact HkXR
  isplitl [HkZR]; · iexact HkZR
  isplitl [HxYD]; · iexact HxYD
  isplitl [HxK]; · iexact HxK
  isplitl [HxR]; · iexact HxR
  isplitl [HrY]; · iexact HrY
  isplitl [HrYD]; · iexact HrYD
  isplitl [HaXD]; · iexact HaXD
  isplitl [HbXD]; · iexact HbXD
  isplitl [HaZD]; · iexact HaZD
  isplitl [HbZD]; · iexact HbZD
  isplitl [HrXR]; · iexact HrXR
  isplitl [HrZR]; · iexact HrZR
  isplitl [HpY]; · iexact HpY
  isplitl [HpYD]; · iexact HpYD
  isplitl [HpXD]; · iexact HpXD
  isplitl [HpZD]; · iexact HpZD
  isplitl [HpXR]; · iexact HpXR
  isplitl [HpZR]; · iexact HpZR
  iexact HB

theorem phaseYD (K : GSem nD τ sig → ℕ) (c : Dev nD) (Kt : PUnit → sProp 𝕄) :
    iprop(T2 m ρ K c ∗ (T3 m ρ K c -∗ Kt ⟨⟩))
      ⊢ wp frame (wpE (defs₀ (F := F)) 𝒱₀ (c : Thread nD τ) none) Set.univ (seq8 (sendYD c)) Kt := by
  unfold T2 T3 OW kits xsYDs crs
  rw [show owedAt c ∅ ∅ (from16 0) (from16 0) Finset.univ Finset.univ ∅ = owedAt c ∅ (from8 8) Finset.univ Finset.univ Finset.univ Finset.univ ∅ from by
    rw [from8_8, from16_0] <;> rfl]
  iintro ⟨⟨HOW, HOUT, #HP, Hbar, HkYD, HkXD, HkZD, HkXR, HkZR, HxYD, HxK, HxR, HrY, HrYD, HaXD, HbXD, HaZD, HbZD, HrXR, HrZR, HpY, HpYD, HpXD, HpZD, HpXR, HpZR, HcY⟩, Hk⟩
  iapply (wp_seq8 c (ShYD m ρ K c) (AYD m ρ c) (BYD (F := F) c) (sendYD c) (hstepYD m ρ K c) Kt)
  isplitl [HOW]
  · unfold ShYD
    isplitr; · iexact HP
    iexact HOW
  isplitl [HkYD HxYD]
  · unfold AYD
    iapply (Entails.of_eq (bigSep_sep' Finset.univ (fun k : Fin 8 => sendKit (F := F) fYD (fun k => ch256 ydM k) c k)
      (fun k : Fin 8 => pts (xsYD c k) c fullShare (xstg m ρ c))).symm)
    isplitl [HkYD]; · iexact HkYD
    iexact HxYD
  iintro ⟨HSh, HB⟩
  unfold ShYD BYD
  icases HSh with ⟨-, HOW⟩
  iapply Hk
  isplitl [HOW]; · iexact HOW
  isplitl [HOUT]; · iexact HOUT
  isplitr; · iexact HP
  isplitl [Hbar]; · iexact Hbar
  isplitl [HkXD]; · iexact HkXD
  isplitl [HkZD]; · iexact HkZD
  isplitl [HkXR]; · iexact HkXR
  isplitl [HkZR]; · iexact HkZR
  isplitl [HxK]; · iexact HxK
  isplitl [HxR]; · iexact HxR
  isplitl [HrY]; · iexact HrY
  isplitl [HrYD]; · iexact HrYD
  isplitl [HaXD]; · iexact HaXD
  isplitl [HbXD]; · iexact HbXD
  isplitl [HaZD]; · iexact HaZD
  isplitl [HbZD]; · iexact HbZD
  isplitl [HrXR]; · iexact HrXR
  isplitl [HrZR]; · iexact HrZR
  isplitl [HpY]; · iexact HpY
  isplitl [HpYD]; · iexact HpYD
  isplitl [HpXD]; · iexact HpXD
  isplitl [HpZD]; · iexact HpZD
  isplitl [HpXR]; · iexact HpXR
  isplitl [HpZR]; · iexact HpZR
  isplitl [HcY]; · iexact HcY
  iexact HB

theorem phase2 (K : GSem nD τ sig → ℕ) (c : Dev nD) (Kt : PUnit → sProp 𝕄) :
    iprop(T3 m ρ K c ∗ (T4 m ρ K c -∗ Kt ⟨⟩))
      ⊢ wp frame (wpE (defs₀ (F := F)) 𝒱₀ (c : Thread nD τ) none) Set.univ (seq16 (iter2 c)) Kt := by
  unfold T3 T4 OW OUT kits rks crs b2r
  rw [show owedAt c ∅ ∅ ∅ ∅ (from4 0) (from4 0) ∅ = owedAt c ∅ ∅ (from16 16) (from16 16) Finset.univ Finset.univ ∅ from by
    rw [from16_16, from4_0] <;> rfl]
  iintro ⟨⟨HOW, HOUT, #HP, Hbar, HkXD, HkZD, HkXR, HkZR, HxK, HxR, HrY, HrYD, HaXD, HbXD, HaZD, HbZD, HrXR, HrZR, HpY, HpYD, HpXD, HpZD, HpXR, HpZR, HcY, HcYD⟩, Hk⟩
  iapply (wp_seq16 c (Sh2 m ρ K c) (A2 (F := F) c) (B2 m ρ c) (iter2 c) (hstep2 m ρ K c) Kt)
  isplitl [HOW HxK HOUT]
  · unfold Sh2
    isplitr; · iexact HP
    isplitl [HOW]; · iexact HOW
    isplitl [HxK]; · iexact HxK
    iexact HOUT
  isplitl [HrY HkXD HkZD]
  · unfold A2
    iapply (Entails.of_eq (bigSep_sep' Finset.univ (fun k : Fin 16 => recvKit (F := F) fY c k) (fun k : Fin 16 => iprop(sendKit (F := F) fXD (fun k => ch512 xdM k) c k ∗ sendKit (F := F) fZD (fun k => ch512 zdM k) c k))).symm)
    isplitl [HrY]; · iexact HrY
    iapply (Entails.of_eq (bigSep_sep' Finset.univ (fun k : Fin 16 => sendKit (F := F) fXD (fun k => ch512 xdM k) c k) (fun k : Fin 16 => sendKit (F := F) fZD (fun k => ch512 zdM k) c k)).symm)
    isplitl [HkXD]; · iexact HkXD
    iexact HkZD
  iintro ⟨HSh, HB⟩
  unfold Sh2 B2
  icases HSh with ⟨-, HOW, HxK, HOUT⟩
  ihave HBt0 := (Entails.of_eq (bigSep_sep' Finset.univ (fun k : Fin 16 => (atPos ER (fY.rc c k) 1 ∅ 0 : sProp 𝕄)) (fun k : Fin 16 => iprop((cred (tallyAt (fXD.sc c k) () N) : sProp 𝕄) ∗ (cred (tallyAt (fZD.sc c k) () N) : sProp 𝕄) ∗ pts (ch512 ybM k) c fullShare.right.right (ybC m ρ c))))) $$ HB
  icases HBt0 with ⟨HB1, HBr0⟩
  ihave HBt1 := (Entails.of_eq (bigSep_sep' Finset.univ (fun k : Fin 16 => (cred (tallyAt (fXD.sc c k) () N) : sProp 𝕄)) (fun k : Fin 16 => iprop((cred (tallyAt (fZD.sc c k) () N) : sProp 𝕄) ∗ pts (ch512 ybM k) c fullShare.right.right (ybC m ρ c))))) $$ HBr0
  icases HBt1 with ⟨HB2, HBr1⟩
  ihave HBt2 := (Entails.of_eq (bigSep_sep' Finset.univ (fun k : Fin 16 => (cred (tallyAt (fZD.sc c k) () N) : sProp 𝕄)) (fun k : Fin 16 => pts (ch512 ybM k) c fullShare.right.right (ybC m ρ c)))) $$ HBr1
  icases HBt2 with ⟨HB3, HB4⟩
  iapply Hk
  isplitl [HOW]; · iexact HOW
  isplitl [HOUT]; · iexact HOUT
  isplitr; · iexact HP
  isplitl [Hbar]; · iexact Hbar
  isplitl [HkXR]; · iexact HkXR
  isplitl [HkZR]; · iexact HkZR
  isplitl [HxK]; · iexact HxK
  isplitl [HxR]; · iexact HxR
  isplitl [HrYD]; · iexact HrYD
  isplitl [HaXD]; · iexact HaXD
  isplitl [HbXD]; · iexact HbXD
  isplitl [HaZD]; · iexact HaZD
  isplitl [HbZD]; · iexact HbZD
  isplitl [HrXR]; · iexact HrXR
  isplitl [HrZR]; · iexact HrZR
  isplitl [HpY]; · iexact HpY
  isplitl [HpYD]; · iexact HpYD
  isplitl [HpXD]; · iexact HpXD
  isplitl [HpZD]; · iexact HpZD
  isplitl [HpXR]; · iexact HpXR
  isplitl [HpZR]; · iexact HpZR
  isplitl [HcY]; · iexact HcY
  isplitl [HcYD]; · iexact HcYD
  isplitl [HB2]; · iexact HB2
  isplitl [HB3]; · iexact HB3
  iapply (Entails.of_eq (bigSep_sep' Finset.univ (fun k : Fin 16 => (atPos ER (fY.rc c k) 1 ∅ 0 : sProp 𝕄)) (fun k : Fin 16 => pts (ch512 ybM k) c fullShare.right.right (ybC m ρ c))).symm)
  isplitl [HB1]; · iexact HB1
  iexact HB4

end Cert.KernelIdeal.PhasesA

end
-- ==== Proof.PhasesA3.lean ====
/-
  Phases of the body: each loop from the state before it to the state after it.
-/
import proofs.«901025_g7700000000001026_dist_rs_v7x_xyz2x2x2_y_m2048_n512_f32_1_alg».proof.Proof.States
import proofs.«901025_g7700000000001026_dist_rs_v7x_xyz2x2x2_y_m2048_n512_f32_1_alg».proof.Proof.Loops
import proofs.«901025_g7700000000001026_dist_rs_v7x_xyz2x2x2_y_m2048_n512_f32_1_alg».proof.Proof.StepsSend
import proofs.«901025_g7700000000001026_dist_rs_v7x_xyz2x2x2_y_m2048_n512_f32_1_alg».proof.Proof.StepsMid
import proofs.«901025_g7700000000001026_dist_rs_v7x_xyz2x2x2_y_m2048_n512_f32_1_alg».proof.Proof.StepsEnd

noncomputable section

namespace Cert.KernelIdeal.PhasesA3

open Cert.KernelIdeal Cert.KernelIdeal.Gen Cert.KernelIdeal.Proto Cert.KernelIdeal.GenBody Cert.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.KernelIdeal.StepDefs Cert.KernelIdeal.XSplit Cert.KernelIdeal.Accum Cert.KernelIdeal.PhaseDefs Cert.KernelIdeal.States Cert.KernelIdeal.Loops
open Cert.KernelIdeal.StepsSend Cert.KernelIdeal.StepsMid Cert.KernelIdeal.StepsEnd

/-- No pair of blocks of the first half is left after the fourth. -/
theorem from4_four : from4 4 = ∅ := by
  ext i
  have hi : i.val < 4 := i.isLt
  simp only [from4, Finset.mem_filter, Finset.mem_univ, true_and, Finset.notMem_empty, iff_false, not_le]
  exact hi

/-- A family with no block outstanding owes nothing. -/
theorem famOwed_none (f : Fam) (c : Dev nD) (S : Finset (Fin f.n)) (h : S = ∅) : famOwed f c S = 0 := by
  subst h; exact Finset.sum_empty

/-- With every family's blocks sent and every greeting made, nothing is owed. -/
theorem owed_done3a (c : Dev nD) : owedAt c ∅ ∅ ∅ ∅ (from4 4) (from4 4) ∅ = 0 := by
  unfold owedAt barOwed
  rw [famOwed_none fXR c (from4 4) from4_four, famOwed_none fZR c (from4 4) from4_four,
    famOwed_none fY c ∅ rfl, famOwed_none fYD c ∅ rfl, famOwed_none fXD c ∅ rfl, famOwed_none fZD c ∅ rfl, Finset.sum_empty]
  simp only [add_zero]

/-- Two families of resources over the same blocks, held side by side, are one family of pairs. -/
theorem bigSep_pair {I : Type} (s : Finset I) (Φ Ψ : I → sProp 𝕄) :
    iprop(bigSep s Φ ∗ bigSep s Ψ) ⊢ bigSep s (fun i => iprop(Φ i ∗ Ψ i)) :=
  Entails.of_eq (bigSep_sep' s Φ Ψ).symm

theorem phase3a (K : GSem nD τ sig → ℕ) (c : Dev nD) (Kt : PUnit → sProp 𝕄) :
    iprop(T4 m ρ K c ∗ (T5 m ρ K c -∗ Kt ⟨⟩))
      ⊢ wp frame (wpE (defs₀ (F := F)) 𝒱₀ (c : Thread nD τ) none) Set.univ (seq4 (iter3a c)) Kt := by
  refine .trans ?_ (wp_seq4 c (Sh3a m ρ K c) (fun j => A3a (F := F) c j) (fun j => B3a m ρ c j) (iter3a c) (hstep3a m ρ K c) Kt)
  unfold T4 T5 Sh3a A3a B3a rkA b3ar kits crs OW OUT
  rw [owed_done3a c]
  simp only [bigSep_sep']
  iintro ⟨⟨HO, HOUT, #HP, Hbar, HkXR, HkZR, HxK, HxR, HrYD, ⟨HXe, HXo⟩, HrBX, ⟨HZe, HZo⟩, HrBZ, HrXR, HrZR,
    HpY, HpYD, HpXD, HpZD, HpXR, HpZR, HcY, HcYD, HcXD, HcZD, Hb2⟩, Hk⟩
  -- the loop's state before its first step
  isplitl [HO HxK HOUT]
  · isplitr; · iexact HP
    isplitl [HO]; · iexact HO
    isplitl [HxK]; · iexact HxK
    iexact HOUT
  -- every step's own resources: the four receive kits of its pair of blocks and the two send kits
  isplitl [HZe HXe HZo HXo HkXR HkZR]
  · isplitl [HZe]; · iexact HZe
    isplitl [HXe]; · iexact HXe
    isplitl [HZo]; · iexact HZo
    isplitl [HXo]; · iexact HXo
    iapply (bigSep_pair Finset.univ (fun i : Fin 4 => sendKit (F := F) fXR (fun k => ch128 xrM k) c i)
      (fun i : Fin 4 => sendKit (F := F) fZR (fun k => ch128 zrM k) c i))
    isplitl [HkXR]; · iexact HkXR
    iexact HkZR
  -- after the last step: nothing owed, eight blocks of each neighbouring quarter added in
  iintro ⟨⟨-, HO, HxK, HOUT⟩, HaZe, HaXe, HaZo, HaXo, HcXR, HcZR, HpZe, HpXe, HpZo, HpXo⟩
  iapply Hk
  isplitl [HO]; · iexact HO
  isplitl [HOUT]; · iexact HOUT
  isplitr; · iexact HP
  isplitl [Hbar]; · iexact Hbar
  isplitl [HxK]; · iexact HxK
  isplitl [HxR]; · iexact HxR
  isplitl [HrYD]; · iexact HrYD
  isplitl [HrBX]; · iexact HrBX
  isplitl [HrBZ]; · iexact HrBZ
  isplitl [HrXR]; · iexact HrXR
  isplitl [HrZR]; · iexact HrZR
  isplitl [HpY]; · iexact HpY
  isplitl [HpYD]; · iexact HpYD
  isplitl [HpXD]; · iexact HpXD
  isplitl [HpZD]; · iexact HpZD
  isplitl [HpXR]; · iexact HpXR
  isplitl [HpZR]; · iexact HpZR
  isplitl [HcY]; · iexact HcY
  isplitl [HcYD]; · iexact HcYD
  isplitl [HcXD]; · iexact HcXD
  isplitl [HcZD]; · iexact HcZD
  isplitl [Hb2]; · iexact Hb2
  isplitl [HcXR]; · iexact HcXR
  isplitl [HcZR]; · iexact HcZR
  isplitl [HaZe]; · iexact HaZe
  isplitl [HaXe]; · iexact HaXe
  isplitl [HaZo]; · iexact HaZo
  isplitl [HaXo]; · iexact HaXo
  isplitl [HpZe]; · iexact HpZe
  isplitl [HpXe]; · iexact HpXe
  isplitl [HpZo]; · iexact HpZo
  iexact HpXo

end Cert.KernelIdeal.PhasesA3

end
-- ==== Proof.PhasesB.lean ====
/-
  Phases of the body: each loop from the state before it to the state after it.
-/
import proofs.«901025_g7700000000001026_dist_rs_v7x_xyz2x2x2_y_m2048_n512_f32_1_alg».proof.Proof.States
import proofs.«901025_g7700000000001026_dist_rs_v7x_xyz2x2x2_y_m2048_n512_f32_1_alg».proof.Proof.Loops
import proofs.«901025_g7700000000001026_dist_rs_v7x_xyz2x2x2_y_m2048_n512_f32_1_alg».proof.Proof.StepsSend
import proofs.«901025_g7700000000001026_dist_rs_v7x_xyz2x2x2_y_m2048_n512_f32_1_alg».proof.Proof.StepsMid
import proofs.«901025_g7700000000001026_dist_rs_v7x_xyz2x2x2_y_m2048_n512_f32_1_alg».proof.Proof.StepsEnd

noncomputable section

namespace Cert.KernelIdeal.PhasesB

open Cert.KernelIdeal Cert.KernelIdeal.Gen Cert.KernelIdeal.Proto Cert.KernelIdeal.GenBody Cert.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.KernelIdeal.StepDefs Cert.KernelIdeal.XSplit Cert.KernelIdeal.Accum Cert.KernelIdeal.PhaseDefs Cert.KernelIdeal.States Cert.KernelIdeal.Loops
open Cert.KernelIdeal.StepsSend Cert.KernelIdeal.StepsMid Cert.KernelIdeal.StepsEnd

theorem phase3b (K : GSem nD τ sig → ℕ) (c : Dev nD) (Kt : PUnit → sProp 𝕄) :
    iprop(T5 m ρ K c ∗ (T6 m ρ K c -∗ Kt ⟨⟩))
      ⊢ wp frame (wpE (defs₀ (F := F)) 𝒱₀ (c : Thread nD τ) none) Set.univ (seq8 (iter3b c)) Kt := by
  unfold T5 T6
  iintro ⟨⟨HO, HOUT, #HP, Hbar1, HxKeep, HxRest, HrksYD, HrkBXD, HrkBZD, HrksXR, HrksZR, HpossY, HpossYD, HpossXD, HpossZD, HpossXR, HpossZR, HcrsY, HcrsYD, HcrsXD, HcrsZD, Hb2r, HcrsXR, HcrsZR, Hb3ar⟩, Hk⟩
  iapply (wp_seq8 c (Sh3b m ρ K c) (A3b c) (B3b m ρ c) (iter3b c) (hstep3b m ρ K c) Kt)
  isplitl [HO HOUT HxKeep]
  · unfold Sh3b OW OUT
    isplitr; · iexact HP
    isplitl [HO]; · iexact HO
    isplitl [HxKeep]; · iexact HxKeep
    iexact HOUT
  isplitl [HrkBXD HrkBZD]
  · unfold A3b
    iapply (Entails.of_eq (bigSep_sep' Finset.univ (fun i : Fin 8 => recvKit (F := F) fZD c (hi i))
      (fun i : Fin 8 => recvKit (F := F) fXD c (hi i))).symm)
    unfold rkB
    isplitl [HrkBZD]; · iexact HrkBZD
    iexact HrkBXD
  iintro ⟨HSh, HB⟩
  unfold Sh3b
  icases HSh with ⟨-, HO, HxKeep, HOUT⟩
  iapply Hk
  unfold OW OUT b3bs
  iframe
  iexact HP

theorem phase4X (K : GSem nD τ sig → ℕ) (c : Dev nD) (Kt : PUnit → sProp 𝕄) :
    iprop(T6 m ρ K c ∗ (T7 m ρ K c -∗ Kt ⟨⟩))
      ⊢ wp frame (wpE (defs₀ (F := F)) 𝒱₀ (c : Thread nD τ) none) Set.univ (seq4 (fin4X c)) Kt := by
  unfold T6 T7
  iintro ⟨⟨HO, HOUT, #HP, Hbar1, HxKeep, HxRest, HrksYD, HrksXR, HrksZR, HpossY, HpossYD, HpossXD, HpossZD, HpossXR, HpossZR, HcrsY, HcrsYD, HcrsXD, HcrsZD, Hb2r, HcrsXR, HcrsZR, Hb3ar, Hb3bs⟩, Hk⟩
  iapply (wp_seq4 c (fun j => Sh4 m ρ K c j 0 0) (recvKit fXR c) (B4X m ρ c) (fin4X c) (hstep4X m ρ K c) Kt)
  isplitl [HO HOUT HxKeep]
  · unfold Sh4 OW OUT
    isplitr; · iexact HP
    isplitl [HO]; · iexact HO
    isplitl [HxKeep]; · iexact HxKeep
    iexact HOUT
  isplitl [HrksXR]
  · unfold rks; iexact HrksXR
  iintro ⟨HSh, HB⟩
  unfold Sh4
  icases HSh with ⟨-, HO, HxKeep, HOUT⟩
  iapply Hk
  unfold OW OUT b4xs
  iframe
  iexact HP

theorem phase4Z (K : GSem nD τ sig → ℕ) (c : Dev nD) (Kt : PUnit → sProp 𝕄) :
    iprop(T7 m ρ K c ∗ (T8 m ρ K c -∗ Kt ⟨⟩))
      ⊢ wp frame (wpE (defs₀ (F := F)) 𝒱₀ (c : Thread nD τ) none) Set.univ (seq4 (fin4Z c)) Kt := by
  unfold T7 T8
  iintro ⟨⟨HO, HOUT, #HP, Hbar1, HxKeep, HxRest, HrksYD, HrksZR, HpossY, HpossYD, HpossXD, HpossZD, HpossXR, HpossZR, HcrsY, HcrsYD, HcrsXD, HcrsZD, Hb2r, HcrsXR, HcrsZR, Hb3ar, Hb3bs, Hb4xs⟩, Hk⟩
  iapply (wp_seq4 c (fun j => Sh4 m ρ K c 4 j 0) (recvKit fZR c) (B4Z m ρ c) (fin4Z c) (hstep4Z m ρ K c) Kt)
  isplitl [HO HOUT HxKeep]
  · unfold Sh4 OW OUT
    isplitr; · iexact HP
    isplitl [HO]; · iexact HO
    isplitl [HxKeep]; · iexact HxKeep
    iexact HOUT
  isplitl [HrksZR]
  · unfold rks; iexact HrksZR
  iintro ⟨HSh, HB⟩
  unfold Sh4
  icases HSh with ⟨-, HO, HxKeep, HOUT⟩
  iapply Hk
  unfold OW OUT b4zs
  iframe
  iexact HP

theorem phase4Y (K : GSem nD τ sig → ℕ) (c : Dev nD) (Kt : PUnit → sProp 𝕄) :
    iprop(T8 m ρ K c ∗ (T9 m ρ K c -∗ Kt ⟨⟩))
      ⊢ wp frame (wpE (defs₀ (F := F)) 𝒱₀ (c : Thread nD τ) none) Set.univ (seq8 (fin8Y c)) Kt := by
  unfold T8 T9
  iintro ⟨⟨HO, HOUT, #HP, Hbar1, HxKeep, HxRest, HrksYD, HpossY, HpossYD, HpossXD, HpossZD, HpossXR, HpossZR, HcrsY, HcrsYD, HcrsXD, HcrsZD, Hb2r, HcrsXR, HcrsZR, Hb3ar, Hb3bs, Hb4xs, Hb4zs⟩, Hk⟩
  iapply (wp_seq8 c (fun j => Sh4 m ρ K c 4 4 j) (recvKit fYD c) (B4Y m ρ c) (fin8Y c) (hstep4Y m ρ K c) Kt)
  isplitl [HO HOUT HxKeep]
  · unfold Sh4 OW OUT
    isplitr; · iexact HP
    isplitl [HO]; · iexact HO
    isplitl [HxKeep]; · iexact HxKeep
    iexact HOUT
  isplitl [HrksYD]
  · unfold rks; iexact HrksYD
  iintro ⟨HSh, HB⟩
  unfold Sh4
  icases HSh with ⟨-, HO, HxKeep, HOUT⟩
  iapply Hk
  unfold OW OUT b4ys
  iframe
  iexact HP

end Cert.KernelIdeal.PhasesB

end
-- ==== Proof.PhasesC.lean ====
/-
  Phases of the body: each loop from the state before it to the state after it.
-/
import proofs.«901025_g7700000000001026_dist_rs_v7x_xyz2x2x2_y_m2048_n512_f32_1_alg».proof.Proof.States
import proofs.«901025_g7700000000001026_dist_rs_v7x_xyz2x2x2_y_m2048_n512_f32_1_alg».proof.Proof.Loops
import proofs.«901025_g7700000000001026_dist_rs_v7x_xyz2x2x2_y_m2048_n512_f32_1_alg».proof.Proof.StepsSend
import proofs.«901025_g7700000000001026_dist_rs_v7x_xyz2x2x2_y_m2048_n512_f32_1_alg».proof.Proof.StepsMid
import proofs.«901025_g7700000000001026_dist_rs_v7x_xyz2x2x2_y_m2048_n512_f32_1_alg».proof.Proof.StepsEnd

noncomputable section

namespace Cert.KernelIdeal.PhasesC

open Cert.KernelIdeal Cert.KernelIdeal.Gen Cert.KernelIdeal.Proto Cert.KernelIdeal.GenBody Cert.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.KernelIdeal.StepDefs Cert.KernelIdeal.XSplit Cert.KernelIdeal.Accum Cert.KernelIdeal.PhaseDefs Cert.KernelIdeal.States Cert.KernelIdeal.Loops
open Cert.KernelIdeal.StepsSend Cert.KernelIdeal.StepsMid Cert.KernelIdeal.StepsEnd

/-- The departure kits of a family are its send credits and its send cells' positions. -/
theorem sentKits_eq (f : Fam) (c : Dev nD) :
    bigSep Finset.univ (fun k : Fin f.n => sentKit (F := F) f c k) = iprop(crs (F := F) f c ∗ poss (F := F) f c) :=
  bigSep_sep' Finset.univ (fun k : Fin f.n => (cred (tallyAt (f.sc c k) () N) : sProp 𝕄)) (fun k : Fin f.n => (atPos ER (f.sc c k) 0 ∅ 0 : sProp 𝕄))

theorem phaseW16 (K : GSem nD τ sig → ℕ) (c : Dev nD) (Kt : PUnit → sProp 𝕄) :
    iprop(T9 m ρ K c ∗ (T10 m ρ K c -∗ Kt ⟨⟩))
      ⊢ wp frame (wpE (defs₀ (F := F)) 𝒱₀ (c : Thread nD τ) none) Set.univ (seq16 (sw16 c)) Kt := by
  unfold T9 T10
  iintro ⟨⟨HO, HOUT, #HP, Hbar, HxK, HxR, HpY, HpYD, HpXD, HpZD, HpXR, HpZR, HcY, HcYD, HcXD, HcZD, Hb2, HcXR, HcZR, Hb3a, Hb3b, H4x, H4z, H4y⟩, Hk⟩
  iapply (wp_seq16 c (ShW m ρ K c) (AW16 c) (BW16 m ρ c) (sw16 c) (hstepW16 m ρ K c) Kt)
  isplitl [HO]
  · unfold ShW OW; isplitr; · iexact HP
    iexact HO
  isplitl [HcY HpY HcXD HpXD HcZD HpZD]
  · unfold AW16
    iapply (Entails.of_eq (bigSep_sep' Finset.univ (fun k : Fin 16 => sentKit (F := F) fY c k)
      (fun k : Fin 16 => iprop(sentKit (F := F) fXD c k ∗ sentKit (F := F) fZD c k))).symm)
    isplitl [HcY HpY]
    · iapply (Entails.of_eq (sentKits_eq fY c).symm)
      isplitl [HcY]; · iexact HcY
      iexact HpY
    iapply (Entails.of_eq (bigSep_sep' Finset.univ (fun k : Fin 16 => sentKit (F := F) fXD c k)
      (fun k : Fin 16 => sentKit (F := F) fZD c k)).symm)
    isplitl [HcXD HpXD]
    · iapply (Entails.of_eq (sentKits_eq fXD c).symm)
      isplitl [HcXD]; · iexact HcXD
      iexact HpXD
    iapply (Entails.of_eq (sentKits_eq fZD c).symm)
    isplitl [HcZD]; · iexact HcZD
    iexact HpZD
  iintro ⟨HSh, HB⟩
  unfold ShW
  icases HSh with ⟨-, HO⟩
  iapply Hk
  unfold OW bw16s
  iframe
  iexact HP

theorem phaseWXR (K : GSem nD τ sig → ℕ) (c : Dev nD) (Kt : PUnit → sProp 𝕄) :
    iprop(T10 m ρ K c ∗ (T11 m ρ K c -∗ Kt ⟨⟩))
      ⊢ wp frame (wpE (defs₀ (F := F)) 𝒱₀ (c : Thread nD τ) none) Set.univ (seq4 waitXRs) Kt := by
  unfold T10 T11
  iintro ⟨⟨HO, HOUT, #HP, Hbar, HxK, HxR, HpYD, HpXR, HpZR, HcYD, Hb2, HcXR, HcZR, Hb3a, Hb3b, H4x, H4z, H4y, Hw16⟩, Hk⟩
  iapply (wp_seq4 c (ShW m ρ K c) (sentKit fXR c) (BWXR m ρ c) waitXRs (hstepWXR m ρ K c) Kt)
  isplitl [HO]
  · unfold ShW OW; isplitr; · iexact HP
    iexact HO
  isplitl [HcXR HpXR]
  · iapply (Entails.of_eq (sentKits_eq fXR c).symm)
    isplitl [HcXR]; · iexact HcXR
    iexact HpXR
  iintro ⟨HSh, HB⟩
  unfold ShW
  icases HSh with ⟨-, HO⟩
  iapply Hk
  unfold OW bwxrs
  iframe
  iexact HP

theorem phaseWZR (K : GSem nD τ sig → ℕ) (c : Dev nD) (Kt : PUnit → sProp 𝕄) :
    iprop(T11 m ρ K c ∗ (T12 m ρ K c -∗ Kt ⟨⟩))
      ⊢ wp frame (wpE (defs₀ (F := F)) 𝒱₀ (c : Thread nD τ) none) Set.univ (seq4 waitZRs) Kt := by
  unfold T11 T12
  iintro ⟨⟨HO, HOUT, #HP, Hbar, HxK, HxR, HpYD, HpZR, HcYD, Hb2, HcZR, Hb3a, Hb3b, H4x, H4z, H4y, Hw16, Hwxr⟩, Hk⟩
  iapply (wp_seq4 c (ShW m ρ K c) (sentKit fZR c) (BWZR m ρ c) waitZRs (hstepWZR m ρ K c) Kt)
  isplitl [HO]
  · unfold ShW OW; isplitr; · iexact HP
    iexact HO
  isplitl [HcZR HpZR]
  · iapply (Entails.of_eq (sentKits_eq fZR c).symm)
    isplitl [HcZR]; · iexact HcZR
    iexact HpZR
  iintro ⟨HSh, HB⟩
  unfold ShW
  icases HSh with ⟨-, HO⟩
  iapply Hk
  unfold OW bwzrs
  iframe
  iexact HP

theorem phaseWYD (K : GSem nD τ sig → ℕ) (c : Dev nD) (Kt : PUnit → sProp 𝕄) :
    iprop(T12 m ρ K c ∗ (T13 m ρ K c -∗ Kt ⟨⟩))
      ⊢ wp frame (wpE (defs₀ (F := F)) 𝒱₀ (c : Thread nD τ) none) Set.univ (seq8 (waitYDs c)) Kt := by
  unfold T12 T13
  iintro ⟨⟨HO, HOUT, #HP, Hbar, HxK, HxR, HpYD, HcYD, Hb2, Hb3a, Hb3b, H4x, H4z, H4y, Hw16, Hwxr, Hwzr⟩, Hk⟩
  iapply (wp_seq8 c (ShW m ρ K c) (sentKit fYD c) (BWYD m ρ c) (waitYDs c) (hstepWYD m ρ K c) Kt)
  isplitl [HO]
  · unfold ShW OW; isplitr; · iexact HP
    iexact HO
  isplitl [HcYD HpYD]
  · iapply (Entails.of_eq (sentKits_eq fYD c).symm)
    isplitl [HcYD]; · iexact HcYD
    iexact HpYD
  iintro ⟨HSh, HB⟩
  unfold ShW
  icases HSh with ⟨-, HO⟩
  iapply Hk
  unfold OW bwyds
  iframe
  iexact HP

end Cert.KernelIdeal.PhasesC

end
-- ==== Proof.Epilogue.lean ====
/-
  After the last wait: every cell closed, every buffer whole again, the result complete.
-/
import proofs.«901025_g7700000000001026_dist_rs_v7x_xyz2x2x2_y_m2048_n512_f32_1_alg».proof.Proof.BodyDefs
import proofs.«901025_g7700000000001026_dist_rs_v7x_xyz2x2x2_y_m2048_n512_f32_1_alg».proof.Proof.Waits
import proofs.«901025_g7700000000001026_dist_rs_v7x_xyz2x2x2_y_m2048_n512_f32_1_alg».proof.Proof.Chunks

noncomputable section

namespace Cert.KernelIdeal.Epilogue

open Cert.KernelIdeal Cert.KernelIdeal.Gen Cert.KernelIdeal.Proto Cert.KernelIdeal.GenBody Cert.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.KernelIdeal.StepDefs Cert.KernelIdeal.XSplit Cert.KernelIdeal.Accum Cert.KernelIdeal.PhaseDefs Cert.KernelIdeal.States Cert.KernelIdeal.BodyDefs
open Cert.KernelIdeal.Waits Cert.KernelIdeal.Chunks

/-- Every result row has been added in. -/
theorem all_done (c : Dev nD) (r : ℕ) (hr : r < 2048) : doneRows c 16 16 16 4 4 8 r := by
  have hc : c.val < 8 := c.isLt
  have hk : (r % 512) / 32 < 16 := by omega
  unfold doneRows rows32 rowA rowZ rowX rowD
  rcases (by omega : r / 512 = 2 * (c.val / 4) + c.val % 2 ∨ r / 512 = 2 * (c.val / 4) + (1 - c.val % 2)
      ∨ r / 512 = 2 * (1 - c.val / 4) + c.val % 2 ∨ r / 512 = 2 * (1 - c.val / 4) + (1 - c.val % 2)) with h | h | h | h
  · refine Or.inl ⟨⟨(r % 512) / 32, hk⟩, ?_, ?_, ?_⟩ <;> dsimp only <;> omega
  · refine Or.inr (Or.inl ⟨⟨(r % 512) / 32, hk⟩, ?_, ?_, ?_⟩) <;> dsimp only <;> omega
  · refine Or.inr (Or.inr (Or.inl ⟨⟨(r % 512) / 32, hk⟩, ?_, ?_, ?_⟩)) <;> dsimp only <;> omega
  · by_cases h8 : 8 ≤ (r % 512) / 32
    · refine Or.inr (Or.inr (Or.inr (Or.inr (Or.inr ⟨⟨(r % 512) / 32 - 8, by omega⟩, ?_, ?_, ?_⟩)))) <;> dsimp only [hi] <;> omega
    · by_cases h2 : (r % 512) / 32 % 2 = 0
      · refine Or.inr (Or.inr (Or.inr (Or.inl ⟨⟨(r % 512) / 32 / 2, by omega⟩, ?_, ?_, ?_⟩))) <;> dsimp only [ev] <;> omega
      · refine Or.inr (Or.inr (Or.inr (Or.inr (Or.inl ⟨⟨(r % 512) / 32 / 2, by omega⟩, ?_, ?_, ?_⟩)))) <;> dsimp only [od] <;> omega

/-! ## Sixteen blocks by pairs of the first half and the second half -/

local infixr:80 " ⋆ " => Idealize.SL.BI.sep

omit [FloatOps F] in
/-- A product over the 16 blocks is the product over the even and the odd blocks of the first half and the blocks
    of the second half. -/
theorem regroup16 (Φ : Fin 16 → sProp 𝕄) :
    bigSep Finset.univ Φ = iprop((bigSep Finset.univ fun j : Fin 4 => Φ (ev j)) ∗ (bigSep Finset.univ fun j : Fin 4 => Φ (od j))
      ∗ bigSep Finset.univ fun i : Fin 8 => Φ (hi i)) := by
  rw [bigSep_univ_eq_bigSepL [(0 : Fin 16), 1, 2, 3, 4, 5, 6, 7, 8, 9, 10, 11, 12, 13, 14, 15] (by decide) (by decide),
    bigSep_univ_eq_bigSepL [(0 : Fin 4), 1, 2, 3] (by decide) (by decide) (fun j : Fin 4 => Φ (ev j)),
    bigSep_univ_eq_bigSepL [(0 : Fin 4), 1, 2, 3] (by decide) (by decide) (fun j : Fin 4 => Φ (od j)),
    bigSep_univ_eq_bigSepL [(0 : Fin 8), 1, 2, 3, 4, 5, 6, 7] (by decide) (by decide)]
  show (Φ 0 ⋆ Φ 1 ⋆ Φ 2 ⋆ Φ 3 ⋆ Φ 4 ⋆ Φ 5 ⋆ Φ 6 ⋆ Φ 7 ⋆ Φ 8 ⋆ Φ 9 ⋆ Φ 10 ⋆ Φ 11 ⋆ Φ 12 ⋆ Φ 13 ⋆ Φ 14 ⋆ Φ 15 : sProp 𝕄)
    = ((Φ 0 ⋆ Φ 2 ⋆ Φ 4 ⋆ Φ 6) ⋆ (Φ 1 ⋆ Φ 3 ⋆ Φ 5 ⋆ Φ 7) ⋆ (Φ 8 ⋆ Φ 9 ⋆ Φ 10 ⋆ Φ 11 ⋆ Φ 12 ⋆ Φ 13 ⋆ Φ 14 ⋆ Φ 15) : sProp 𝕄)
  ac_rfl

/-! ## The cells closed -/

/-- Cells of the device, each with its one round consumed, all close: their counters, at zero, are the device's again. -/
theorem close_fam {n : ℕ} (K : GSem nD τ sig → ℕ) (c : Dev nD) (g : Fin n → DmaSem sig) (hg : ∀ k, 2 ≤ (g k).val) :
    iprop(Pz m ρ K ∗ bigSep Finset.univ fun k : Fin n => (atPos ER (dcell c (g k)) 1 ∅ 0 : sProp 𝕄))
      ⊢ (|={Set.univ}=> bigSep Finset.univ fun k : Fin n => (semVal (dcell c (g k)) 0 : sProp 𝕄) : sProp 𝕄) :=
  (bigSep_with_persistent (fun k _ => close_cell m ρ K c (g k) (hg k))).trans (bigSep_fupd _ _)

/-! ## Shares of the blocks joined, the buffers whole again -/

omit [FloatOps F] in
/-- Blocks each held at the two halves of a share are held at the share. -/
theorem join_shares {n : ℕ} (c : Dev nD) (M : Fin n → Memref sig .tc .vmem S32x512 .f32) (q : PosShare TreeShare)
    (f : (k : Fin n) → Buf (Elt F) ((M k).view.loc (c : Thread nD τ))) :
    iprop((bigSep Finset.univ fun k : Fin n => pts (M k) c q.left (f k)) ∗ (bigSep Finset.univ fun k : Fin n => pts (M k) c q.right (f k)))
      ⊢ (bigSep Finset.univ fun k : Fin n => pts (M k) c q (f k) : sProp 𝕄) :=
  (Entails.of_eq (bigSep_sep' Finset.univ (fun k : Fin n => pts (M k) c q.left (f k)) (fun k : Fin n => pts (M k) c q.right (f k))).symm).trans
    (bigSep_mono fun k _ => (pointsTo_share (PosShare.mem_left_op_right q)).2)

omit [FloatOps F] in
/-- The landing buffer across the middle axis: every block's three shares. -/
theorem yb_whole (c : Dev nD) :
    iprop((bigSep Finset.univ fun k : Fin 16 => pts (ch512 ybM k) c fullShare.left (ybC m ρ c))
      ∗ (bigSep Finset.univ fun k : Fin 16 => pts (ch512 ybM k) c fullShare.right.left (ybC m ρ c))
      ∗ (bigSep Finset.univ fun k : Fin 16 => pts (ch512 ybM k) c fullShare.right.right (ybC m ρ c)))
      ⊢ anyBuf (F := F) cc0_scratch0 c := by
  iintro ⟨H1, H2, H3⟩
  iexists (ybC m ρ c)
  iapply (chunks_yb c fullShare (ybC m ρ c)).2
  iapply (join_shares c (fun k : Fin 16 => ch512 ybM k) fullShare (fun _ => ybC m ρ c))
  isplitl [H1]; · iexact H1
  iapply (join_shares c (fun k : Fin 16 => ch512 ybM k) fullShare.right (fun _ => ybC m ρ c))
  isplitl [H2]; · iexact H2
  iexact H3

omit [FloatOps F] in
/-- The landing buffer across the inner axis: the even blocks of the first half by their two shares, the others whole. -/
theorem zd_whole (c : Dev nD) :
    iprop((bigSep Finset.univ fun j : Fin 4 => pts (ch512 zdM (ev j)) c fullShare.left (zdC m ρ c))
      ∗ (bigSep Finset.univ fun j : Fin 4 => pts (ch512 zdM (ev j)) c fullShare.right (zdC m ρ c))
      ∗ (bigSep Finset.univ fun j : Fin 4 => pts (ch512 zdM (od j)) c fullShare (zdC m ρ c))
      ∗ (bigSep Finset.univ fun i : Fin 8 => pts (ch512 zdM (hi i)) c fullShare (zdC m ρ c)))
      ⊢ anyBuf (F := F) cc0_scratch3 c := by
  iintro ⟨H1, H2, H3, H4⟩
  iexists (zdC m ρ c)
  iapply (chunks_zd c fullShare (zdC m ρ c)).2
  iapply (Entails.of_eq (regroup16 (fun k : Fin 16 => pts (ch512 zdM k) c fullShare (zdC m ρ c))).symm)
  isplitl [H1 H2]
  · iapply (join_shares c (fun j : Fin 4 => ch512 zdM (ev j)) fullShare (fun _ => zdC m ρ c))
    isplitl [H1]; · iexact H1
    iexact H2
  isplitl [H3]; · iexact H3
  iexact H4

omit [FloatOps F] in
/-- The landing buffer across the outer axis: the odd blocks of the first half by their two shares, the others whole. -/
theorem xd_whole (c : Dev nD) :
    iprop((bigSep Finset.univ fun j : Fin 4 => pts (ch512 xdM (ev j)) c fullShare (xdC m ρ c))
      ∗ (bigSep Finset.univ fun j : Fin 4 => pts (ch512 xdM (od j)) c fullShare.left (xdC m ρ c))
      ∗ (bigSep Finset.univ fun j : Fin 4 => pts (ch512 xdM (od j)) c fullShare.right (xdC m ρ c))
      ∗ (bigSep Finset.univ fun i : Fin 8 => pts (ch512 xdM (hi i)) c fullShare (xdC m ρ c)))
      ⊢ anyBuf (F := F) cc0_scratch2 c := by
  iintro ⟨H1, H2, H3, H4⟩
  iexists (xdC m ρ c)
  iapply (chunks_xd c fullShare (xdC m ρ c)).2
  iapply (Entails.of_eq (regroup16 (fun k : Fin 16 => pts (ch512 xdM k) c fullShare (xdC m ρ c))).symm)
  isplitl [H1]; · iexact H1
  isplitl [H2 H3]
  · iapply (join_shares c (fun j : Fin 4 => ch512 xdM (od j)) fullShare (fun _ => xdC m ρ c))
    isplitl [H2]; · iexact H2
    iexact H3
  iexact H4

/-- The staged result with every row done holds the result. -/
theorem out_whole (c : Dev nD) : outInv m ρ c (doneRows c 16 16 16 4 4 8) ⊢ stg c cc0_stg1_0 (outAt m ρ c) := by
  unfold outInv
  iintro ⟨%g, Hg, %hg⟩
  iexists g
  isplitr
  · ipureintro; funext i; exact hg i (all_done c _ (i 0).isLt)
  have e : (pts oM c fullShare g : sProp 𝕄) = (((c : Thread nD τ).loc cc0_stg1_0) ↦{fullShare} g) :=
    congrArg (fun S => (((c : Thread nD τ).loc cc0_stg1_0) ↦[S]{fullShare} g : sProp 𝕄)) (View.set_whole cc0_stg1_0)
  iapply (Entails.of_eq e); iexact Hg

omit [FloatOps F] in
/-- A family's send cells and receive cells at zero are the family handed back. -/
theorem famZero_intro (f : Fam) (c : Dev nD) :
    iprop((bigSep Finset.univ fun k : Fin f.n => (semVal (f.sc c k) 0 : sProp 𝕄)) ∗ (bigSep Finset.univ fun k : Fin f.n => (semVal (f.rc c k) 0 : sProp 𝕄)))
      ⊢ famZero (F := F) f c := by
  unfold famZero
  exact Entails.of_eq (bigSep_sep' Finset.univ (fun k : Fin f.n => (semVal (f.sc c k) 0 : sProp 𝕄)) (fun k : Fin f.n => (semVal (f.rc c k) 0 : sProp 𝕄))).symm

/-- The body's end. -/
theorem epilogue (K : GSem nD τ sig → ℕ) (c : Dev nD) (Kt : PUnit → sProp 𝕄) :
    iprop(T13 m ρ K c ∗ (bodyPost m ρ c -∗ Kt ⟨⟩))
      ⊢ wp frame (wpE (defs₀ (F := F)) 𝒱₀ (c : Thread nD τ) none) Set.univ (Prog.ret ⟨⟩) Kt := by
  rw [wp_ret]
  unfold T13 OW OUT bar1 b2r b3ar b3bs b4xs b4zs b4ys bw16s bwxrs bwzrs bwyds B3b B4X B4Z B4Y BW16 BWXR BWZR BWYD
  simp only [bigSep_sep']
  iintro ⟨⟨HO, Hout, #HP, -, Hkeep, Hrest,
      ⟨HaYr, HybRR⟩,
      ⟨HaZDre, HaXDre, HaZDro, HaXDro, HzdER, HxdE, HzdO, HxdOR⟩,
      ⟨HaZDrh, HaXDrh, HzdH, HxdH⟩,
      ⟨HaXRr, Hxr⟩, ⟨HaZRr, Hzr⟩, ⟨HaYDr, Hyd⟩,
      ⟨HaYs, HaXDs, HaZDs, HxsY, HybL, HybRL⟩,
      ⟨HaXRs, HzdEL⟩, ⟨HaZRs, HxdOL⟩, ⟨HaYDs, HxsYD⟩⟩, Hk⟩
  unfold owesE
  icases HO with ⟨%W, HO⟩
  imod (close_fam m ρ K c (n := 16) (fun k => fY.sS k) (fun k => fY.two_le_sS k)) $$ [HaYs] with HzYs
  · isplitr; · iexact HP
    iexact HaYs
  imod (close_fam m ρ K c (n := 16) (fun k => fY.rS k) (fun k => fY.two_le_rS k)) $$ [HaYr] with HzYr
  · isplitr; · iexact HP
    iexact HaYr
  imod (close_fam m ρ K c (n := 8) (fun k => fYD.sS k) (fun k => fYD.two_le_sS k)) $$ [HaYDs] with HzYDs
  · isplitr; · iexact HP
    iexact HaYDs
  imod (close_fam m ρ K c (n := 8) (fun k => fYD.rS k) (fun k => fYD.two_le_rS k)) $$ [HaYDr] with HzYDr
  · isplitr; · iexact HP
    iexact HaYDr
  imod (close_fam m ρ K c (n := 16) (fun k => fXD.sS k) (fun k => fXD.two_le_sS k)) $$ [HaXDs] with HzXDs
  · isplitr; · iexact HP
    iexact HaXDs
  imod (close_fam m ρ K c (n := 4) (fun k => fXD.rS (ev k)) (fun k => fXD.two_le_rS (ev k))) $$ [HaXDre] with HzXDre
  · isplitr; · iexact HP
    iexact HaXDre
  imod (close_fam m ρ K c (n := 4) (fun k => fXD.rS (od k)) (fun k => fXD.two_le_rS (od k))) $$ [HaXDro] with HzXDro
  · isplitr; · iexact HP
    iexact HaXDro
  imod (close_fam m ρ K c (n := 8) (fun k => fXD.rS (hi k)) (fun k => fXD.two_le_rS (hi k))) $$ [HaXDrh] with HzXDrh
  · isplitr; · iexact HP
    iexact HaXDrh
  imod (close_fam m ρ K c (n := 16) (fun k => fZD.sS k) (fun k => fZD.two_le_sS k)) $$ [HaZDs] with HzZDs
  · isplitr; · iexact HP
    iexact HaZDs
  imod (close_fam m ρ K c (n := 4) (fun k => fZD.rS (ev k)) (fun k => fZD.two_le_rS (ev k))) $$ [HaZDre] with HzZDre
  · isplitr; · iexact HP
    iexact HaZDre
  imod (close_fam m ρ K c (n := 4) (fun k => fZD.rS (od k)) (fun k => fZD.two_le_rS (od k))) $$ [HaZDro] with HzZDro
  · isplitr; · iexact HP
    iexact HaZDro
  imod (close_fam m ρ K c (n := 8) (fun k => fZD.rS (hi k)) (fun k => fZD.two_le_rS (hi k))) $$ [HaZDrh] with HzZDrh
  · isplitr; · iexact HP
    iexact HaZDrh
  imod (close_fam m ρ K c (n := 4) (fun k => fXR.sS k) (fun k => fXR.two_le_sS k)) $$ [HaXRs] with HzXRs
  · isplitr; · iexact HP
    iexact HaXRs
  imod (close_fam m ρ K c (n := 4) (fun k => fXR.rS k) (fun k => fXR.two_le_rS k)) $$ [HaXRr] with HzXRr
  · isplitr; · iexact HP
    iexact HaXRr
  imod (close_fam m ρ K c (n := 4) (fun k => fZR.sS k) (fun k => fZR.two_le_sS k)) $$ [HaZRs] with HzZRs
  · isplitr; · iexact HP
    iexact HaZRs
  imod (close_fam m ρ K c (n := 4) (fun k => fZR.rS k) (fun k => fZR.two_le_rS k)) $$ [HaZRr] with HzZRr
  · isplitr; · iexact HP
    iexact HaZRr
  imodintro
  iapply Hk
  unfold bodyPost Φ₁ scr
  isplitl [HybL HybRL HybRR Hyd HxdE HxdOL HxdOR HxdH HzdEL HzdER HzdO HzdH Hxr Hzr
    HzYs HzYr HzYDs HzYDr HzXDs HzXDre HzXDro HzXDrh HzZDs HzZDre HzZDro HzZDrh HzXRs HzXRr HzZRs HzZRr]
  · isplitl [HybL HybRL HybRR Hyd HxdE HxdOL HxdOR HxdH HzdEL HzdER HzdO HzdH Hxr Hzr]
    · -- the six landing buffers
      isplitl [HybL HybRL HybRR]
      · iapply (yb_whole m ρ c)
        isplitl [HybL]; · iexact HybL
        isplitl [HybRL]; · iexact HybRL
        iexact HybRR
      isplitl [Hyd]
      · iexists (ydC m ρ c); iapply (chunks_yd c fullShare (ydC m ρ c)).2; iexact Hyd
      isplitl [HxdE HxdOL HxdOR HxdH]
      · iapply (xd_whole m ρ c)
        isplitl [HxdE]; · iexact HxdE
        isplitl [HxdOL]; · iexact HxdOL
        isplitl [HxdOR]; · iexact HxdOR
        iexact HxdH
      isplitl [HzdEL HzdER HzdO HzdH]
      · iapply (zd_whole m ρ c)
        isplitl [HzdEL]; · iexact HzdEL
        isplitl [HzdER]; · iexact HzdER
        isplitl [HzdO]; · iexact HzdO
        iexact HzdH
      isplitl [Hxr]
      · iexists (xrC m ρ c); iapply (chunks_xr c fullShare (xrC m ρ c)).2; iexact Hxr
      iexists (zrC m ρ c); iapply (chunks_zr c fullShare (zrC m ρ c)).2; iexact Hzr
    -- the six families' cells at zero
    isplitl [HzYs HzYr]
    · iapply (famZero_intro fY c)
      isplitl [HzYs]; · iexact HzYs
      iexact HzYr
    isplitl [HzYDs HzYDr]
    · iapply (famZero_intro fYD c)
      isplitl [HzYDs]; · iexact HzYDs
      iexact HzYDr
    isplitl [HzXDs HzXDre HzXDro HzXDrh]
    · iapply (famZero_intro fXD c)
      isplitl [HzXDs]; · iexact HzXDs
      iapply (Entails.of_eq (regroup16 (fun k : Fin 16 => (semVal (fXD.rc c k) 0 : sProp 𝕄))).symm)
      isplitl [HzXDre]; · iexact HzXDre
      isplitl [HzXDro]; · iexact HzXDro
      iexact HzXDrh
    isplitl [HzZDs HzZDre HzZDro HzZDrh]
    · iapply (famZero_intro fZD c)
      isplitl [HzZDs]; · iexact HzZDs
      iapply (Entails.of_eq (regroup16 (fun k : Fin 16 => (semVal (fZD.rc c k) 0 : sProp 𝕄))).symm)
      isplitl [HzZDre]; · iexact HzZDre
      isplitl [HzZDro]; · iexact HzZDro
      iexact HzZDrh
    isplitl [HzXRs HzXRr]
    · iapply (famZero_intro fXR c)
      isplitl [HzXRs]; · iexact HzXRs
      iexact HzXRr
    iapply (famZero_intro fZR c)
    isplitl [HzZRs]; · iexact HzZRs
    iexact HzZRr
  isplitl [HO]
  · -- nothing owed; the recorded waits lie within the bound, which is everything
    iexists W
    isplitr
    · ipureintro; exact Set.subset_union_of_subset_left (Set.subset_univ _) _
    iexact HO
  isplitl [Hkeep HxsY HxsYD Hrest]
  · -- the slab from its pieces
    iexists (xstg m ρ c)
    isplitr; · (ipureintro; rfl)
    iapply (xsplit m ρ c).2
    isplitl [Hkeep]; · iexact Hkeep
    isplitl [HxsY]; · iexact HxsY
    isplitl [HxsYD]; · iexact HxsYD
    iexact Hrest
  iapply (out_whole m ρ c); iexact Hout

end Cert.KernelIdeal.Epilogue

end
-- ==== Proof.Body.lean ====
/-
  The body on one device: from what the pipeline hands it to what the pipeline expects back.
-/
import proofs.«901025_g7700000000001026_dist_rs_v7x_xyz2x2x2_y_m2048_n512_f32_1_alg».proof.Proof.GenBody
import proofs.«901025_g7700000000001026_dist_rs_v7x_xyz2x2x2_y_m2048_n512_f32_1_alg».proof.Proof.Setup
import proofs.«901025_g7700000000001026_dist_rs_v7x_xyz2x2x2_y_m2048_n512_f32_1_alg».proof.Proof.PhasesA
import proofs.«901025_g7700000000001026_dist_rs_v7x_xyz2x2x2_y_m2048_n512_f32_1_alg».proof.Proof.PhasesA3
import proofs.«901025_g7700000000001026_dist_rs_v7x_xyz2x2x2_y_m2048_n512_f32_1_alg».proof.Proof.PhasesB
import proofs.«901025_g7700000000001026_dist_rs_v7x_xyz2x2x2_y_m2048_n512_f32_1_alg».proof.Proof.PhasesC
import proofs.«901025_g7700000000001026_dist_rs_v7x_xyz2x2x2_y_m2048_n512_f32_1_alg».proof.Proof.Epilogue

noncomputable section

namespace Cert.KernelIdeal.Body

open Cert.KernelIdeal Cert.KernelIdeal.Gen Cert.KernelIdeal.Proto Cert.KernelIdeal.GenBody Cert.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.KernelIdeal.StepDefs Cert.KernelIdeal.XSplit Cert.KernelIdeal.Accum Cert.KernelIdeal.PhaseDefs Cert.KernelIdeal.States Cert.KernelIdeal.BodyDefs
open Cert.KernelIdeal.StepsSend Cert.KernelIdeal.Setup Cert.KernelIdeal.PhasesA Cert.KernelIdeal.PhasesA3 Cert.KernelIdeal.PhasesB Cert.KernelIdeal.PhasesC Cert.KernelIdeal.Epilogue

/-- The start, with the greeting's four statements in sequence. -/
theorem setup' (K : GSem nD τ sig → ℕ) (c : Dev nD) (Kt : PUnit → sProp 𝕄) :
    iprop(bodyPre m ρ K c ∗ (T1 m ρ K c -∗ Kt ⟨⟩))
      ⊢ wp frame (wpE (defs₀ (F := F)) 𝒱₀ (c : Thread nD τ) none) Set.univ (semSignalWord (⟨k0_dev1 c, k0_dev1_lt c⟩ : Dev nD) barA.sem 1#32 hamt_1)
          (fun _ => wp frame (wpE (defs₀ (F := F)) 𝒱₀ (c : Thread nD τ) none) Set.univ (semSignalWord (⟨k0_dev2 c, k0_dev2_lt c⟩ : Dev nD) barA.sem 1#32 hamt_1)
          (fun _ => wp frame (wpE (defs₀ (F := F)) 𝒱₀ (c : Thread nD τ) none) Set.univ (semSignalWord (⟨k0_dev3 c, k0_dev3_lt c⟩ : Dev nD) barA.sem 1#32 hamt_1)
          (fun _ => wp frame (wpE (defs₀ (F := F)) 𝒱₀ (c : Thread nD τ) none) Set.univ (semWaitWord barA.sem 3#32 hamt_3) Kt))) := by
  have h := setup m ρ K c Kt
  unfold prelude at h
  simpa only [wp_bind] using h

set_option maxHeartbeats 1000000 in
/-- The whole body, phase after phase. -/
theorem sound_body (K : GSem nD τ sig → ℕ) (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ (genBody (F := F)) Kt := by
  refine .trans ?_ (wp_fupd _ _ _ _ _)
  unfold genBody
  simp only [wp_bind]
  simp only [Prog.lift, wp_deviceId, wp_ret]
  iintro ⟨HT, Hk⟩
  imodintro
  iapply (setup' m ρ K c _)
  isplitl [HT]; · iexact HT
  iintro HT
  iapply (phaseY m ρ K c _)
  isplitl [HT]; · iexact HT
  iintro HT
  iapply (phaseYD m ρ K c _)
  isplitl [HT]; · iexact HT
  iintro HT
  iapply (phase2 m ρ K c _)
  isplitl [HT]; · iexact HT
  iintro HT
  iapply (phase3a m ρ K c _)
  isplitl [HT]; · iexact HT
  iintro HT
  iapply (phase3b m ρ K c _)
  isplitl [HT]; · iexact HT
  iintro HT
  iapply (phase4X m ρ K c _)
  isplitl [HT]; · iexact HT
  iintro HT
  iapply (phase4Z m ρ K c _)
  isplitl [HT]; · iexact HT
  iintro HT
  iapply (phase4Y m ρ K c _)
  isplitl [HT]; · iexact HT
  iintro HT
  iapply (phaseW16 m ρ K c _)
  isplitl [HT]; · iexact HT
  iintro HT
  iapply (phaseWXR m ρ K c _)
  isplitl [HT]; · iexact HT
  iintro HT
  iapply (phaseWZR m ρ K c _)
  isplitl [HT]; · iexact HT
  iintro HT
  iapply (phaseWYD m ρ K c _)
  isplitl [HT]; · iexact HT
  iintro HT
  have hE := epilogue m ρ K c Kt
  rw [wp_ret] at hE
  iapply hE
  isplitl [HT]; · iexact HT
  iexact Hk

end Cert.KernelIdeal.Body

end
-- ==== Proof.Oblig.lean ====
/-
  The body's specification, in the form in which the pipeline's launch rule asks for it: from the invariant before the
  one grid point, what the device owes there and the two staged buffers, the printed body runs to the invariant after
  it, what the device owes then, and the two staged buffers at the slab and at the result.
-/
import proofs.«901025_g7700000000001026_dist_rs_v7x_xyz2x2x2_y_m2048_n512_f32_1_alg».proof.Proof.Body
import proofs.«901025_g7700000000001026_dist_rs_v7x_xyz2x2x2_y_m2048_n512_f32_1_alg».proof.Proof.GenBody

noncomputable section

namespace Cert.KernelIdeal.Oblig

open Cert.KernelIdeal Cert.KernelIdeal.Gen Cert.KernelIdeal.Proto Cert.KernelIdeal.GenBody Cert.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.KernelIdeal.StepDefs Cert.KernelIdeal.XSplit Cert.KernelIdeal.Accum Cert.KernelIdeal.PhaseDefs Cert.KernelIdeal.States Cert.KernelIdeal.BodyDefs
open Cert.KernelIdeal.Body

omit [FloatOps F] in
/-- Over the two windows: the slab's and the result's. -/
theorem bigSep_W (Φ : Fin cfg0.W → sProp 𝕄) : bigSep Finset.univ Φ = iprop(Φ (0 : Fin 2) ∗ Φ (1 : Fin 2)) := bigSep_W0 Φ

omit [FloatOps F] in
/-- Holding a whole staged buffer at given contents is holding its points-to at those contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What the obligation hands the body at the one grid point. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 65536 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (F := F) xM (Memref.isWhole_whole _) oM (Memref.isWhole_whole _) ybM (Memref.isWhole_whole _) ydM (Memref.isWhole_whole _)
      xdM (Memref.isWhole_whole _) zdM (Memref.isWhole_whole _) xrM (Memref.isWhole_whole _) zrM (Memref.isWhole_whole _)
      cc0_scratch6 cc0_scratch7 cc0_scratch8 cc0_scratch9 cc0_scratch10 cc0_scratch11 cc0_scratch12 cc0_scratch13 cc0_scratch14 cc0_scratch15 cc0_scratch16 cc0_scratch17)
    (fun _ => bodyPost m ρ c)
  rw [body_eq]
  unfold bodyPre' Φ₀ start
  iintro ⟨⟨⟨⟨%K, Hg⟩, Hc, Hf, Hl⟩, Hscr⟩, Ho, Hx, Hout⟩
  iapply (sound_body m ρ K c fun _ => bodyPost m ρ c)
  unfold bodyPre
  isplitr []
  · isplitl [Hg Hc Hf Hl Hscr]
    · isplitl [Hg]; · iexact Hg
      isplitl [Hc]; · iexact Hc
      isplitl [Hf]; · iexact Hf
      isplitl [Hl]; · iexact Hl
      iexact Hscr
    isplitl [Ho]; · iexact Ho
    isplitl [Hx] <;> iassumption
  · iintro H; iexact H

end Cert.KernelIdeal.Oblig

end
-- ==== Proof.Launch.lean ====
/-
  The launch of the reduce-scatter over the 2 × 2 × 2 mesh.

  The protocol's ghost state is funded for all eight devices at once: every device's barrier cell and its 128
  block cells get their round state, their position and their duty tokens; the tokens are then dealt to the
  devices that pay the duties (a barrier duty to the neighbour that greets, a block's receive duty to the
  block's sender), the positions stay with the cells' owners, and the cells' invariants are allocated under one
  update.  What the devices owe at launch is matched by the credit the launch deals the cells' owners.
-/
import proofs.«901025_g7700000000001026_dist_rs_v7x_xyz2x2x2_y_m2048_n512_f32_1_alg».proof.Proof.Proto
import Idealize.ShloMosaic.Lib.Pipeline.Launch
import Idealize.ShloMosaic.Lib.Pipeline.Kit
import Idealize.ShloMosaic.Lib.Pipeline.Cells
import Idealize.ShloMosaic.Lib.Tactic

noncomputable section

namespace Cert.KernelIdeal.LaunchPf

open Cert.KernelIdeal Cert.KernelIdeal.Gen Cert.RS Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- Semaphore `2 + k` of a device's pool: the pool less the pipeline's two staging semaphores. -/
def dsem (k : Fin 128) : DmaSem sig := ⟨2 + k.val, by have := k.isLt; show 2 + k.val < 130; omega⟩
theorem dsem_val (k : Fin 128) : (dsem k).val = 2 + k.val := rfl
theorem two_le_dsem (k : Fin 128) : 2 ≤ (dsem k).val := by rw [dsem_val]; omega
theorem dsem_injective : Function.Injective dsem := fun a b h =>
  Fin.ext (by have := congrArg Fin.val h; rw [dsem_val, dsem_val] at this; omega)

/-- The kernel's own (scoped) semaphores, as the launch indexes them. -/
abbrev osem : Fin 128 → SemLoc sig := fun k => .dma (dsem k)

theorem stage_sem_lt (w : Fin cfg0.W) (s : Fin (cfg0.spec w).nbuf) : ((cfg0.spec w).sem s).val < 2 := by
  fin_cases w <;> fin_cases s <;> decide

theorem ownSemFacts : Pipeline.OwnSemFacts cfg0.spec osem where
  isScoped := by decide
  inj := fun a b h => dsem_injective (SemLoc.dma.inj h)
  disj := fun k w s h => by
    have h1 : dsem k = (cfg0.spec w).sem s := SemLoc.dma.inj h
    have h2 := congrArg Fin.val h1
    have h3 := stage_sem_lt w s
    rw [dsem_val] at h2; omega

theorem share_eq (c : Dev nD) (w : Fin cfg0.W) : (dats m ρ 0 c).share w = fullShare := by unfold Dat.share; split <;> rfl

/-! ## The protocol's cells, device by device -/

/-- The protocol's cells of one device: its barrier cell and its 128 block cells. -/
def pcell (c : Dev nD) : Unit ⊕ Fin 128 → GSem nD τ sig
  | .inl _ => bcell c
  | .inr k => dcell c (dsem k)

theorem pcell_injective : Function.Injective (fun co : Dev nD × (Unit ⊕ Fin 128) => pcell co.1 co.2) := by
  rintro ⟨c, o⟩ ⟨c', o'⟩ h
  have h1 : c = c' := by
    have := congrArg (fun g : GSem nD τ sig => g.1.1) h
    rcases o with _ | k <;> rcases o' with _ | k' <;> exact this
  subst h1
  have h2 : (pcell c o).2 = (pcell c o').2 := congrArg Prod.snd h
  rcases o with u | k <;> rcases o' with u' | k'
  · rfl
  · have h2' : (SemLoc.reg barS : SemLoc sig) = .dma (dsem k') := h2
    cases h2'
  · have h2' : (SemLoc.dma (dsem k) : SemLoc sig) = .reg barS := h2
    cases h2'
  · have h3 : k = k' := dsem_injective (SemLoc.dma.inj h2)
    subst h3; rfl

theorem protoCells_eq : protoCells = Finset.univ.map ⟨fun co : Dev nD × (Unit ⊕ Fin 128) => pcell co.1 co.2, pcell_injective⟩ := by
  ext g
  rw [Finset.mem_map]
  unfold protoCells; rw [Finset.mem_filter]
  constructor
  · rintro ⟨-, hp, h | ⟨i, hi, h2⟩⟩
    · obtain ⟨⟨d, p⟩, sm⟩ := g
      simp only at hp h; subst hp h
      exact ⟨(d, .inl ()), Finset.mem_univ _, rfl⟩
    · obtain ⟨⟨d, p⟩, sm⟩ := g
      simp only at hp hi; subst hp hi
      have hlt : i.val < 130 := i.isLt
      refine ⟨(d, .inr ⟨i.val - 2, by omega⟩), Finset.mem_univ _, ?_⟩
      show dcell d (dsem ⟨i.val - 2, _⟩) = dcell d i
      exact congrArg (dcell d) (Fin.ext (by rw [dsem_val]; show 2 + (i.val - 2) = i.val; omega))
  · rintro ⟨⟨c, o⟩, -, rfl⟩
    rcases o with u | k
    · exact ⟨Finset.mem_univ _, rfl, .inl rfl⟩
    · exact ⟨Finset.mem_univ _, rfl, .inr ⟨dsem k, rfl, two_le_dsem k⟩⟩

/-- A device's share of a family of assertions over the cells: the barrier cell's and the 128 block cells'. -/
def perDev (Φ : GSem nD τ sig → sProp 𝕄) (c : Dev nD) : sProp 𝕄 :=
  iprop(Φ (bcell c) ∗ bigSep Finset.univ fun k : Fin 128 => Φ (dcell c (dsem k)))

omit [FloatOps F] in
theorem bigSep_protoCells (Φ : GSem nD τ sig → sProp 𝕄) : bigSep protoCells Φ = bigSep Finset.univ (perDev Φ) := by
  rw [protoCells_eq, bigSep_map, bigSep_univ_prod]
  refine bigSep_congr fun c _ => ?_
  rw [bigSep_univ_sum, bigSep_univ_of_subsingleton ()]
  rfl

/-! ## The block cells, family by family -/

/-- A summand per semaphore number, none beyond the pool. -/
def extN (Ψ : DmaSem sig → sProp 𝕄) (i : ℕ) : sProp 𝕄 := if h : i < 130 then Ψ ⟨i, h⟩ else iprop(emp)
/-- The summands of the `n` semaphores from number `a` on. -/
def seg (Ψ : DmaSem sig → sProp 𝕄) (a n : ℕ) : sProp 𝕄 := bigSep Finset.univ fun k : Fin n => extN Ψ (a + k.val)

omit [FloatOps F] in
theorem bigSep_fin_add {p q : ℕ} (Φ : Fin (p + q) → sProp 𝕄) :
    bigSep Finset.univ Φ = iprop((bigSep Finset.univ fun k : Fin p => Φ (Fin.castAdd q k)) ∗ bigSep Finset.univ fun k : Fin q => Φ (Fin.natAdd p k)) := by
  rw [bigSep_univ_equiv finSumFinEquiv Φ, bigSep_univ_sum]; rfl

omit [FloatOps F] in
theorem seg_add (Ψ : DmaSem sig → sProp 𝕄) (a p q : ℕ) : seg Ψ a (p + q) = iprop(seg Ψ a p ∗ seg Ψ (a + p) q) := by
  unfold seg
  rw [bigSep_fin_add, bigSep_congr (s := Finset.univ) (fun (k : Fin q) _ =>
    show extN Ψ (a + (Fin.natAdd p k).val) = extN Ψ (a + p + k.val) from by rw [Fin.coe_natAdd, Nat.add_assoc])]
  rfl

omit [FloatOps F] in
theorem seg_split (Ψ : DmaSem sig → sProp 𝕄) (a p q n b : ℕ) (hn : n = p + q) (hb : b = a + p) :
    seg Ψ a n = iprop(seg Ψ a p ∗ seg Ψ b q) := by subst hn hb; exact seg_add Ψ a p q

omit [FloatOps F] in
theorem seg_sS (Ψ : DmaSem sig → sProp 𝕄) (f : Fam) : seg Ψ f.sB f.n = bigSep Finset.univ fun k : Fin f.n => Ψ (f.sS k) := by
  unfold seg
  exact bigSep_congr fun k _ => by
    have h : f.sB + k.val < 130 := by have := f.hs.2; have := k.isLt; omega
    unfold extN; rw [dif_pos h]; rfl
omit [FloatOps F] in
theorem seg_rS (Ψ : DmaSem sig → sProp 𝕄) (f : Fam) : seg Ψ f.rB f.n = bigSep Finset.univ fun k : Fin f.n => Ψ (f.rS k) := by
  unfold seg
  exact bigSep_congr fun k _ => by
    have h : f.rB + k.val < 130 := by have := f.hr.2; have := k.isLt; omega
    unfold extN; rw [dif_pos h]; rfl
omit [FloatOps F] in
theorem seg_all (Ψ : DmaSem sig → sProp 𝕄) : seg Ψ 2 128 = bigSep Finset.univ fun k : Fin 128 => Ψ (dsem k) := by
  unfold seg
  exact bigSep_congr fun k _ => by
    have h : 2 + k.val < 130 := by have := k.isLt; omega
    unfold extN; rw [dif_pos h]; rfl

/-- A family's summands: each block's send and receive semaphore. -/
def famB (f : Fam) (Ψ : DmaSem sig → sProp 𝕄) : sProp 𝕄 := bigSep Finset.univ fun k : Fin f.n => iprop(Ψ (f.sS k) ∗ Ψ (f.rS k))

omit [FloatOps F] in
theorem famB_eq (f : Fam) (Ψ : DmaSem sig → sProp 𝕄) : famB f Ψ = iprop(seg Ψ f.sB f.n ∗ seg Ψ f.rB f.n) := by
  unfold famB; rw [bigSep_sep', seg_sS, seg_rS]

omit [FloatOps F] in
/-- The 128 block semaphores are the six families' send and receive semaphores. -/
theorem fam_split (Ψ : DmaSem sig → sProp 𝕄) :
    (bigSep Finset.univ fun k : Fin 128 => Ψ (dsem k))
      = iprop(famB fY Ψ ∗ famB fYD Ψ ∗ famB fXD Ψ ∗ famB fZD Ψ ∗ famB fXR Ψ ∗ famB fZR Ψ) := by
  rw [← seg_all, famB_eq, famB_eq, famB_eq, famB_eq, famB_eq, famB_eq,
    seg_split Ψ 2 32 96 128 34 rfl rfl, seg_split Ψ 2 16 16 32 18 rfl rfl,
    seg_split Ψ 34 16 80 96 50 rfl rfl, seg_split Ψ 34 8 8 16 42 rfl rfl,
    seg_split Ψ 50 32 48 80 82 rfl rfl, seg_split Ψ 50 16 16 32 66 rfl rfl,
    seg_split Ψ 82 32 16 48 114 rfl rfl, seg_split Ψ 82 16 16 32 98 rfl rfl,
    seg_split Ψ 114 8 8 16 122 rfl rfl, seg_split Ψ 114 4 4 8 118 rfl rfl, seg_split Ψ 122 4 4 8 126 rfl rfl]
  rfl

/-! ## The launch element -/

/-- The duty tokens as minted: a device's barrier cell's three, and one per block cell. -/
abbrev tokOf (cj : Dev nD × (Fin 3 ⊕ Fin 128)) : GSem nD τ sig × ℕ × Fin 3 := match cj.2 with
  | .inl j => (bcell cj.1, 0, j)
  | .inr k => (dcell cj.1 (dsem k), 0, 0)

theorem tokOf_injective : Function.Injective (tokOf : Dev nD × (Fin 3 ⊕ Fin 128) → GSem nD τ sig × ℕ × Fin 3) := by
  rintro ⟨c, o⟩ ⟨c', o'⟩ h
  have h1 : c = c' := by
    have := congrArg (fun x : GSem nD τ sig × ℕ × Fin 3 => x.1.1.1) h
    rcases o with j | k <;> rcases o' with j' | k' <;> exact this
  subst h1
  rcases o with j | k <;> rcases o' with j' | k'
  · have h2 : j = j' := congrArg (fun x : GSem nD τ sig × ℕ × Fin 3 => x.2.2) h
    subst h2; rfl
  · have h2 : (SemLoc.reg barS : SemLoc sig) = .dma (dsem k') := congrArg (fun x : GSem nD τ sig × ℕ × Fin 3 => x.1.2) h
    cases h2
  · have h2 : (SemLoc.dma (dsem k) : SemLoc sig) = .reg barS := congrArg (fun x : GSem nD τ sig × ℕ × Fin 3 => x.1.2) h
    cases h2
  · have h2 : (SemLoc.dma (dsem k) : SemLoc sig) = .dma (dsem k') := congrArg (fun x : GSem nD τ sig × ℕ × Fin 3 => x.1.2) h
    have h3 : k = k' := dsem_injective (SemLoc.dma.inj h2)
    subst h3; rfl

def protoToks : Finset (GSem nD τ sig × ℕ × Fin 3) := Finset.univ.map ⟨tokOf, tokOf_injective⟩

def u₀ : UU := (initOf (Pipeline.cells cfgs cellOf_inj) (Pipeline.launchToks cfgs cellOf_inj), initOf protoCells protoToks)

/-- The duty tokens of device `c`'s own cells. -/
def toks (c : Dev nD) : sProp 𝕄 :=
  iprop((bigSep Finset.univ fun j : Fin 3 => dutyTok ER (bcell c) 0 j)
    ∗ bigSep Finset.univ fun k : Fin 128 => dutyTok ER (dcell c (dsem k)) 0 (0 : Fin 3))

/-- What the launch element deals device `c`: its cells' round states, that each is at its round 0, its positions,
    and its own cells' duty tokens. -/
def G (c : Dev nD) : sProp 𝕄 :=
  iprop(perDev (fun g => roundState ER (Rd m ρ) g 0) c ∗ perDev (fun g => reached ER g 0) c
    ∗ perDev (fun g => atPos ER g 0 ∅ 0) c ∗ toks c)

/-- What the global step makes of it. -/
def G' (c : Dev nD) : sProp 𝕄 := iprop(∃ K, ghost m ρ K c)

omit [FloatOps F] in
theorem fund_proto : BI.own (ER (initOf protoCells protoToks)) ⊢ (|==> bigSep Finset.univ (G m ρ) : sProp 𝕄) := by
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_univ_sum]; rfl
  iintro HX
  imod (Rounds.fund ER (Rd m ρ) protoCells protoToks) $$ HX with ⟨Hst, Hr, Hat, Htok⟩
  imodintro
  ihave Hst' := (Entails.of_eq (bigSep_protoCells fun g => roundState ER (Rd m ρ) g 0)) $$ Hst
  ihave Hat' := (Entails.of_eq (bigSep_protoCells (F := F) fun g => atPos ER g 0 ∅ 0)) $$ Hat
  ihave Hr' := (Entails.of_eq (bigSep_protoCells (F := F) fun g => reached ER g 0)) $$ Hr
  ihave Htok' := (Entails.of_eq hT) $$ Htok
  unfold G; simp only [bigSep_sep']
  isplitl [Hst']; · iexact Hst'
  isplitl [Hr']; · iexact Hr'
  isplitl [Hat']; · iexact Hat'
  iexact Htok'

/-! ## The global step: the cells' invariants allocated, the tokens dealt to their payers -/

omit [FloatOps F] in
/-- The barrier semaphore is the launch's one unscoped semaphore. -/
theorem unscopedSems0_eq (c : Dev nD) : (unscopedSems0 c : sProp 𝕄) = semVal (bcell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (perDev (fun g => semVal g 0) c : sProp 𝕄) := by
  rw [unscopedSems0_eq]; unfold perDev Pipeline.ownSems0
  iintro ⟨HS, HB⟩
  isplitl [HB]; · iexact HB
  iexact HS

omit [FloatOps F] in
theorem sems0_all :
    iprop((bigSep Finset.univ fun c : Dev nD => Pipeline.ownSems0 (Ix := Unit) (Name := ℕ) (U := UU) (Lvl := ℕ) (Val := Elt F) (τ := τ) osem c)
        ∗ bigSep Finset.univ fun c : Dev nD => unscopedSems0 c)
      ⊢ (bigSep protoCells fun g => semVal g 0 : sProp 𝕄) := by
  rw [← bigSep_sep', bigSep_protoCells]
  exact bigSep_mono fun c _ => sems0_eq c

omit [FloatOps F] in
theorem alloc_all :
    iprop((bigSep protoCells fun g => semVal g 0) ∗ bigSep protoCells fun g => roundState ER (Rd m ρ) g 0)
      ⊢ (|={Set.univ}=> bigSep protoCells fun g => iprop(∃ κ : ℕ, cellInv ER (Rd m ρ) κ g) : sProp 𝕄) := by
  rw [← bigSep_sep']
  exact (bigSep_mono fun g _ => (Rounds.body_intro ER (Rd m ρ) g).trans inv_alloc).trans (bigSep_fupd _ _)

/-- Neighbour `j` as a permutation of the devices. -/
def nbrE (j : Fin 3) : Dev nD ≃ Dev nD := ⟨nbr j, nbr j, nbr_nbr j, nbr_nbr j⟩

omit [FloatOps F] in
/-- A barrier cell's token for duty `j` goes to the cell's owner's neighbour `j`, who pays it. -/
theorem bar_toks_around :
    (bigSep Finset.univ fun c : Dev nD => bigSep Finset.univ fun j : Fin 3 => (dutyTok ER (bcell c) 0 j : sProp 𝕄))
      = bigSep Finset.univ fun c : Dev nD => bigSep Finset.univ fun j : Fin 3 => dutyTok ER (bcell (nbr j c)) 0 j := by
  rw [bigSep_univ_comm (fun (c : Dev nD) (j : Fin 3) => (dutyTok ER (bcell c) 0 j : sProp 𝕄)),
    bigSep_univ_comm (fun (c : Dev nD) (j : Fin 3) => (dutyTok ER (bcell (nbr j c)) 0 j : sProp 𝕄))]
  exact bigSep_congr fun j _ => bigSep_univ_equiv (nbrE j) fun c : Dev nD => (dutyTok ER (bcell c) 0 j : sProp 𝕄)

omit [FloatOps F] in
/-- A family's send tokens stay; its receive tokens go to the blocks' senders. -/
theorem fam_toks_around (f : Fam) :
    (bigSep Finset.univ fun c : Dev nD => famB f fun i => (dutyTok ER (dcell c i) 0 (0 : Fin 3) : sProp 𝕄))
      = bigSep Finset.univ fun c : Dev nD => famToks f c := by
  unfold famB famToks
  simp only [bigSep_sep']
  exact congrArg (fun X : sProp 𝕄 => iprop((bigSep Finset.univ fun c : Dev nD => bigSep Finset.univ fun k : Fin f.n => dutyTok ER (f.sc c k) 0 (0 : Fin 3)) ∗ X))
    (bigSep_univ_equiv (nbrE f.j) fun c : Dev nD => bigSep Finset.univ fun k : Fin f.n => (dutyTok ER (f.rc c k) 0 (0 : Fin 3) : sProp 𝕄))

/-- The tokens of the duties device `c` pays. -/
def payToks (c : Dev nD) : sProp 𝕄 :=
  iprop((bigSep Finset.univ fun j : Fin 3 => dutyTok ER (bcell (nbr j c)) 0 j)
    ∗ (famToks fY c ∗ famToks fYD c ∗ famToks fXD c ∗ famToks fZD c ∗ famToks fXR c ∗ famToks fZR c))
/-- Device `c`'s positions. -/
def posOf (c : Dev nD) : sProp 𝕄 :=
  iprop(atPos ER (bcell c) 0 ∅ 0 ∗ (famPos fY c ∗ famPos fYD c ∗ famPos fXD c ∗ famPos fZD c ∗ famPos fXR c ∗ famPos fZR c))

omit [FloatOps F] in
theorem pos_split (c : Dev nD) : (perDev (fun g => atPos ER g 0 ∅ 0) c : sProp 𝕄) = posOf c := by
  unfold perDev posOf; rw [fam_split fun i => (atPos ER (dcell c i) 0 ∅ 0 : sProp 𝕄)]; rfl

omit [FloatOps F] in
theorem toks_around : (bigSep Finset.univ fun c : Dev nD => (toks c : sProp 𝕄)) = bigSep Finset.univ fun c : Dev nD => payToks c := by
  unfold toks payToks
  rw [bigSep_sep', bigSep_sep', bar_toks_around,
    bigSep_congr (s := Finset.univ) (fun (c : Dev nD) _ => fam_split fun i => (dutyTok ER (dcell c i) 0 (0 : Fin 3) : sProp 𝕄))]
  simp only [bigSep_sep']
  rw [fam_toks_around fY, fam_toks_around fYD, fam_toks_around fXD, fam_toks_around fZD, fam_toks_around fXR, fam_toks_around fZR]

/-- What stays with device `c`: its positions and the tokens of the duties it pays. -/
def linear (c : Dev nD) : sProp 𝕄 := iprop(posOf c ∗ payToks c)

omit [FloatOps F] in
theorem ghost_intro (K : GSem nD τ sig → ℕ) (c : Dev nD) : iprop(records m ρ K ∗ linear c) ⊢ G' m ρ c := by
  unfold linear posOf payToks G' ghost
  iintro ⟨HR, ⟨Ha, HP⟩, ⟨HB, HT⟩⟩
  iexists K
  isplitl [HR]; · iexact HR
  isplitl [Ha]; · iexact Ha
  isplitl [HB]; · iexact HB
  isplitl [HP]; · iexact HP
  iexact HT

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) := by
  unfold G
  simp only [bigSep_sep']
  iintro ⟨Hos, Hus, Hst, Hr, Hat, Htok⟩
  ihave Hv := (sems0_all (F := F)) $$ [Hos Hus]
  · isplitl [Hos] <;> iassumption
  ihave Hst' := (Entails.of_eq (bigSep_protoCells fun g => roundState ER (Rd m ρ) g 0).symm) $$ Hst
  ihave Hr' := (Entails.of_eq (bigSep_protoCells (F := F) fun g => reached ER g 0).symm) $$ Hr
  imod (alloc_all m ρ) $$ [Hv Hst'] with HI
  · isplitl [Hv] <;> iassumption
  ihave HK := (BI.bigSep_exists_pi protoCells (fun (g : GSem nD τ sig) (κ : ℕ) => (cellInv ER (Rd m ρ) κ g : sProp 𝕄))) $$ HI
  icases HK with ⟨%K, #HI⟩
  icases Hr' with #HR
  ihave Hat' := (Entails.of_eq (bigSep_congr (s := Finset.univ) fun (c : Dev nD) _ => pos_split (F := F) c)) $$ Hat
  ihave Htk := (Entails.of_eq (toks_around (F := F))) $$ Htok
  imodintro
  iapply (bigSep_with_persistent (R := records m ρ K) fun c _ => ghost_intro m ρ K c)
  isplitr
  · unfold records; isplitl; · iexact HI
    iexact HR
  · unfold linear; rw [bigSep_sep']
    isplitl [Hat']; · iexact Hat'
    iexact Htk

/-! ## The launch credit -/

theorem O₀_eq : (O₀ : Dev nD → CellTallies nD τ sig Unit)
    = fun d => famOwed fY d Finset.univ + famOwed fYD d Finset.univ + famOwed fXD d Finset.univ + famOwed fZD d Finset.univ
        + famOwed fXR d Finset.univ + famOwed fZR d Finset.univ + barOwed d Finset.univ := rfl

omit [FloatOps F] in
/-- Each receive cell of a family is owed the block's credit by exactly one device: the block's sender. -/
theorem fam_cred (f : Fam) (c : Dev nD) : (Pipeline.launchCred (fun d => famOwed f d Finset.univ) c : sProp 𝕄) ⊢ famCreds f c := by
  unfold famOwed famCreds
  rw [Pipeline.launchCred_sum]
  exact bigSep_mono fun k _ => Pipeline.launchCred_tallyAt (.dma (f.rS k)) (nbr f.j) (nbr f.j) (nbr_nbr f.j) (nbr_nbr f.j) () N c

omit [FloatOps F] in
/-- The barrier cell is owed one unit by each of the three neighbours. -/
theorem bar_cred (c : Dev nD) : (Pipeline.launchCred (fun d => barOwed d Finset.univ) c : sProp 𝕄) ⊢ cred (tallyAt (bcell c) () 3) := by
  have e : (bigSep Finset.univ fun _ : Fin 3 => (cred (tallyAt (bcell c) () 1) : sProp 𝕄)) = cred (tallyAt (bcell c) () 3) := by
    rw [← Pipeline.cred_finsetSum, Fin.sum_univ_three, tallyAt_add, tallyAt_add]
  unfold barOwed
  rw [Pipeline.launchCred_sum, ← e]
  exact bigSep_mono fun j _ => Pipeline.launchCred_tallyAt (.reg barS) (nbr j) (nbr j) (nbr_nbr j) (nbr_nbr j) () 1 c

omit [FloatOps F] in
theorem creds (c : Dev nD) :
    (Pipeline.launchCred O₀ c : sProp 𝕄) ⊢ iprop(cred (tallyAt (bcell c) () 3)
      ∗ (famCreds fY c ∗ famCreds fYD c ∗ famCreds fXD c ∗ famCreds fZD c ∗ famCreds fXR c ∗ famCreds fZR c)) := by
  rw [O₀_eq, Pipeline.launchCred_add, Pipeline.launchCred_add, Pipeline.launchCred_add, Pipeline.launchCred_add,
    Pipeline.launchCred_add, Pipeline.launchCred_add]
  iintro ⟨⟨⟨⟨⟨⟨H1, H2⟩, H3⟩, H4⟩, H5⟩, H6⟩, HB⟩
  isplitl [HB]; · iapply (bar_cred (F := F) c); iexact HB
  isplitl [H1]; · iapply (fam_cred (F := F) fY c); iexact H1
  isplitl [H2]; · iapply (fam_cred (F := F) fYD c); iexact H2
  isplitl [H3]; · iapply (fam_cred (F := F) fXD c); iexact H3
  isplitl [H4]; · iapply (fam_cred (F := F) fZD c); iexact H4
  isplitl [H5]; · iapply (fam_cred (F := F) fXR c); iexact H5
  iapply (fam_cred (F := F) fZR c); iexact H6

/-! ## The levels: everything owed at launch lies above the staging cells -/

theorem lvD_pos (i : ℕ) (h : (18 ≤ i ∧ i < 34) ∨ (42 ≤ i ∧ i < 50) ∨ (66 ≤ i ∧ i < 82) ∨ (98 ≤ i ∧ i < 114) ∨ (118 ≤ i ∧ i < 122) ∨ 126 ≤ i) :
    0 < lvD i := by
  unfold lvD; split_ifs <;> omega

theorem fam_pos (f : Fam) (hf : ∀ k : Fin f.n, 0 < lvD (f.rB + k.val)) {c : Dev nD} {g : GSem nD τ sig} {u : Unit}
    (h : 0 < famOwed f c Finset.univ g u) : g.1.2 = .tc ∧ 0 < lv g u := by
  unfold famOwed at h
  obtain ⟨k, -, hk⟩ := Pipeline.sum_pos_exists h
  obtain ⟨rfl, -⟩ := Pipeline.tallyAt_pos hk
  exact ⟨rfl, hf k⟩

theorem bar_pos {c : Dev nD} {g : GSem nD τ sig} {u : Unit} (h : 0 < barOwed c Finset.univ g u) : g.1.2 = .tc ∧ 0 < lv g u := by
  unfold barOwed at h
  obtain ⟨j, -, hj⟩ := Pipeline.sum_pos_exists h
  obtain ⟨rfl, -⟩ := Pipeline.tallyAt_pos hj
  refine ⟨rfl, ?_⟩
  show 0 < (if barS = barS then 1 else 0)
  rw [if_pos rfl]; exact Nat.one_pos

theorem O₀_pos {c : Dev nD} {g : GSem nD τ sig} {u : Unit} (h : 0 < O₀ c g u) : g.1.2 = .tc ∧ 0 < lv g u := by
  unfold O₀ owedAt at h
  rcases Pipeline.add_pos_cases h with h | h
  · rcases Pipeline.add_pos_cases h with h | h
    · rcases Pipeline.add_pos_cases h with h | h
      · rcases Pipeline.add_pos_cases h with h | h
        · rcases Pipeline.add_pos_cases h with h | h
          · rcases Pipeline.add_pos_cases h with h | h
            · exact fam_pos fY (fun k => lvD_pos _ (by have : k.val < 16 := k.isLt; have e : fY.rB = 18 := rfl; omega)) h
            · exact fam_pos fYD (fun k => lvD_pos _ (by have : k.val < 8 := k.isLt; have e : fYD.rB = 42 := rfl; omega)) h
          · exact fam_pos fXD (fun k => lvD_pos _ (by have : k.val < 16 := k.isLt; have e : fXD.rB = 66 := rfl; omega)) h
        · exact fam_pos fZD (fun k => lvD_pos _ (by have : k.val < 16 := k.isLt; have e : fZD.rB = 98 := rfl; omega)) h
      · exact fam_pos fXR (fun k => lvD_pos _ (by have : k.val < 4 := k.isLt; have e : fXR.rB = 118 := rfl; omega)) h
    · exact fam_pos fZR (fun k => lvD_pos _ (by have : k.val < 4 := k.isLt; have e : fZR.rB = 126 := rfl; omega)) h
  · exact bar_pos h

omit [FloatOps F] in
/-- A staging cell sits at level 0, below everything owed. -/
theorem mayWait_stage (c : Dev nD) (q : DmaSem sig) (hq : lvD q.val = 0) (O : CellTallies nD τ sig Unit) (hO : O = O₀ c ∨ O = 0) :
    (levAts L lv : sProp 𝕄) ⊢ MayWait (c : Thread nD τ) (.dma q) () O := by
  rcases hO with rfl | rfl
  · exact mayWait_of c (.dma q) (O₀ c) 0 (Nat.le_of_eq hq) fun g u h => O₀_pos h
  · rw [MayWait_zero]; iintro -; iempintro

/-! ## The theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

omit [FloatOps F] in
/-- The kernel's own semaphores are the six families' send and receive semaphores. -/
theorem ownSems0_eq (c : Dev nD) :
    (Pipeline.ownSems0 (Ix := Unit) (Name := ℕ) (U := UU) (Lvl := ℕ) (Val := Elt F) (τ := τ) osem c : sProp 𝕄)
      = iprop(famZero fY c ∗ famZero fYD c ∗ famZero fXD c ∗ famZero fZD c ∗ famZero fXR c ∗ famZero fZR c) := by
  unfold Pipeline.ownSems0
  exact fam_split fun i => (semVal (dcell c i) 0 : sProp 𝕄)

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scr
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 16384 in
/-- At the compiled mesh of eight devices, for any float values, from any memory with zero counters: every weakly
    fair execution of @main — the eight kernels greeting their neighbours on the barrier semaphore, then passing the
    64 blocks around — terminates, and every final state has each device's arrays at the computed contents. -/
theorem run_main (hbody : ∀ c : Dev nD, BodyObligation (dats (F := F) m ρ 0 c) (defs₀ (F := F)) 𝒱₀ () Set.univ) :
    θ_run defs (onTc (τ := τ) (main (F := F))) (Proto.s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : (dats m ρ 0 c).arrAt (0 : Fin 2) cfg0.N = (Proto.s₀ m ρ).mem (win0_0.arr.view.loc (c : Thread nD τ)) :=
  (dats (F := F) m ρ 0 c).arrAt_in (0 : Fin 2) rfl _

/-- The output array after the run holds what the body left staged: its one block is the whole array, written back
    at the one point. -/
theorem finalA_out (c : Dev nD) : (dats m ρ 0 c).arrAt (1 : Fin 2) cfg0.N = outAt m ρ c := by
  have h := (dats (F := F) m ρ 0 c).arrAt_succ (1 : Fin 2) t₀
  rw [flush0_1 t₀, if_pos rfl] at h
  refine (show (dats m ρ 0 c).arrAt (1 : Fin 2) cfg0.N = (dats m ρ 0 c).arrAt (1 : Fin 2) (t₀.val + 1) from rfl).trans (h.trans ?_)
  exact Memref.write_access_unit_zero_univ (Elt F) main_v1 (funext fun a => Nat.zero_mul _) _ _ _

/-- info: 'Cert.KernelIdeal.LaunchPf.run_main' depends on axioms: [propext, Classical.choice, Quot.sound] -/
#guard_msgs in #print axioms run_main

end Cert.KernelIdeal.LaunchPf

end
-- ==== Proof.Run.lean ====
/-
  The kernel's run on the whole mesh: every device ends with its own slab plus its partners', and its input unchanged.
-/
import proofs.«901025_g7700000000001026_dist_rs_v7x_xyz2x2x2_y_m2048_n512_f32_1_alg».proof.Proof.Oblig
import proofs.«901025_g7700000000001026_dist_rs_v7x_xyz2x2x2_y_m2048_n512_f32_1_alg».proof.Proof.Launch

noncomputable section

namespace Cert.KernelIdeal.Run

open Cert.KernelIdeal Cert.KernelIdeal.Gen Cert.KernelIdeal.Proto Cert.KernelIdeal.GenBody Cert.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.KernelIdeal.StepDefs Cert.KernelIdeal.BodyDefs Cert.KernelIdeal.Oblig Cert.KernelIdeal.LaunchPf

omit [FloatOps F] in
/-- The staged slab is the device's input array: the one window is the whole array. -/
theorem xstg_eq (c : Dev nD) : xstg m ρ c = m ((c : Thread nD τ).loc main_arg0) := by
  unfold xstg
  exact Memref.read_access_unit_zero (Elt F) main_arg0 (funext fun a => Nat.zero_mul _) _ _

/-- From any memory with zero counters: every weakly fair execution on the eight devices terminates, each device's
    result is its own slab's column half plus its partners', entry by entry, and its input is unchanged. -/
theorem run_val : θ_run (defs (F := F)) (onTc (τ := τ) (main (F := F))) ⟨m, fun _ => 0, ρ⟩ (fun r => ∀ c : Dev nD,
      r.2.mem ((c.tc : Thread nD τ).loc main_v1) = outSpec (fun d : Dev nD => m ((d.tc : Thread nD τ).loc main_arg0)) c
      ∧ r.2.mem ((c.tc : Thread nD τ).loc main_arg0) = m ((c.tc : Thread nD τ).loc main_arg0)) := by
  refine (θ_run defs _ _).mono (fun r h c => ⟨?_, ?_⟩) (run_main m ρ (body_obligation m ρ))
  · refine ((h c (1 : Fin 2)).trans (finalA_out m ρ c)).trans ?_
    unfold outAt
    exact congrArg (fun X => outSpec X c) (funext fun d => xstg_eq m ρ d)
  · exact ((h c (0 : Fin 2)).trans (finalA_x m ρ c))

/-- info: 'Cert.KernelIdeal.Run.run_val' depends on axioms: [propext, Classical.choice, Quot.sound] -/
#guard_msgs in #print axioms run_val

end Cert.KernelIdeal.Run

end
-- ==== Proof.RefSide.lean ====
/-
  The reference: one device sums the two slabs of the whole input, entry by entry.
-/
import proofs.«901025_g7700000000001026_dist_rs_v7x_xyz2x2x2_y_m2048_n512_f32_1_alg».proof.Defs
import proofs.«901025_g7700000000001026_dist_rs_v7x_xyz2x2x2_y_m2048_n512_f32_1_alg».proof.Proof.Gen.ReferenceIdeal
import proofs.«901025_g7700000000001026_dist_rs_v7x_xyz2x2x2_y_m2048_n512_f32_1_alg».proof.Proof.Gen.ReferenceIdeal.Run
import proofs.«901025_g7700000000001026_dist_rs_v7x_xyz2x2x2_y_m2048_n512_f32_1_alg».proof.Proof.Gen.ReferenceIdeal.Read
import proofs.«901025_g7700000000001026_dist_rs_v7x_xyz2x2x2_y_m2048_n512_f32_1_alg».proof.Proof.Gen.Pre_finite_inputs_ReferenceIdeal
import proofs.«901025_g7700000000001026_dist_rs_v7x_xyz2x2x2_y_m2048_n512_f32_1_alg».proof.Proof.Gen.KernelIdeal
import proofs.«901025_g7700000000001026_dist_rs_v7x_xyz2x2x2_y_m2048_n512_f32_1_alg».proof.Proof.Gen.Pre_finite_inputs_Kernel
import proofs.«901025_g7700000000001026_dist_rs_v7x_xyz2x2x2_y_m2048_n512_f32_1_alg».proof.Proof.Spec
import Idealize.ShloMosaic.Lib.Layout
import Idealize.ShloMosaic.Lib.ValueIdx
import Idealize.ShloMosaic.PureOps.Ideal.Laws

noncomputable section

namespace Cert.RS.Ref

open Idealize.ShloMosaic Idealize.ShloMosaic.TcCoe Idealize.SL.Sem Idealize.ShloMosaic.ValueIdx

/-- The reference runs and leaves its argument as it found it. -/
theorem frame_ri : Cert.frame_ReferenceIdeal := fun m ρ _ =>
  (θ_run Cert.ReferenceIdeal.defs _ _).mono (fun _ h c => (h c).2) (Cert.ReferenceIdeal.Value.run (F := Ideal) m ρ)

/-- A device's block coordinate along an axis cut by the middle mesh axis is its middle coordinate. -/
theorem lin_mid (d : Fin 8) : Layout.meshLin [2, 2, 2] d.val [1] = Cert.RS.my d := by revert d; decide

/-- Where a device's slab entry lies in the whole input: device `d` holds slab `my d`, so its entry at row `i 0` and
    column `512 · my c + i 1` is the whole input's entry at slab `my d`, at the row and the column where block `c` of
    the reference's result has its entry `i`. -/
theorem idx_in (h : Layout.TilesN ⟨3, ![1, 2048, 1024]⟩ ⟨3, ![2, 2048, 1024]⟩ _)
    (h' : Layout.TilesN ⟨2, ![2048, 512]⟩ ⟨2, ![2048, 1024]⟩ _)
    (c d : Fin 8) (i : Cert.RS.SO.Idx) (k : Fin 2) (hk : Cert.RS.my d = k.val) (hc : 512 * Cert.RS.my c + (i 1).val < 1024) :
    h.idx (Layout.meshBlock [2, 2, 2] ![[1], [], []] d) (ix3 (0 : Fin 1) (i 0) ⟨512 * Cert.RS.my c + (i 1).val, hc⟩)
      = Cert.ReferenceIdeal.Read.idx_main_v0 (h'.idx (Layout.meshBlock [2, 2, 2] ![[], [1]] c) i) k := by
  funext a
  refine Fin.ext ?_
  match a with
  | ⟨0, _⟩ =>
    show Layout.meshLin [2, 2, 2] d.val [1] * 1 + 0 = k.val
    rw [lin_mid, hk]; omega
  | ⟨1, _⟩ => rfl
  | ⟨2, _⟩ =>
    show 0 * 1024 + (512 * Cert.RS.my c + (i 1).val) = Layout.meshLin [2, 2, 2] c.val [1] * 512 + (i 1).val
    rw [lin_mid]; omega

/-- Each device's result is its block of the reference's: the reference's entry is `0 + (W[0] + W[1])` at the row and
    at column `512 · my c + j`; the device adds its own slab's entry, `W[my c]`, to its partner's, `W[1 - my c]`;
    addition of extended reals commutes and `0` is its unit. -/
theorem join (W : Vec Ideal ⟨3, ![2, 2048, 1024]⟩ .f32) (X : Fin 8 → Vec Ideal Cert.RS.SX .f32)
    (hX : ∀ d : Fin 8, X d = Layout.blockN ⟨3, ![1, 2048, 1024]⟩ ⟨3, ![2, 2048, 1024]⟩ (Layout.meshBlock [2, 2, 2] ![[1], [], []] d) W) (c : Fin 8) :
    Cert.RS.outSpec X c = Layout.blockN ⟨2, ![2048, 512]⟩ ⟨2, ![2048, 1024]⟩ (Layout.meshBlock [2, 2, 2] ![[], [1]] c) (Cert.ReferenceIdeal.Read.val_main_v0 (F := Ideal) W) := by
  funext i
  rw [Layout.blockN_apply, Cert.ReferenceIdeal.Read.val_main_v0_apply, Fin.sum_univ_two, Cert.ReferenceIdeal.Read.val_main_cst_apply]
  simp only [Cert.RS.outSpec, hX, Layout.blockN_apply]
  have hm := Cert.RS.my_lt c
  have h' : Layout.TilesN ⟨2, ![2048, 512]⟩ ⟨2, ![2048, 1024]⟩ (fun b => Layout.cutSize [2, 2, 2] (![[], [1]] b)) := by decide
  have hs := Cert.RS.my_srcDev c (i 0).val
  rw [Ideal.addf_def, Ideal.ofBits_def, Ideal.ofBits_zero_f32]
  rcases (show Cert.RS.my c = 0 ∨ Cert.RS.my c = 1 by omega) with h0 | h1
  · rw [idx_in _ h' c c i 0 h0, idx_in _ h' c (Cert.RS.srcDev c (i 0).val) i 1 (by rw [hs, h0]; rfl)]
    exact (zero_add _).symm
  · rw [idx_in _ h' c c i 1 h1, idx_in _ h' c (Cert.RS.srcDev c (i 0).val) i 0 (by rw [hs, h1]; rfl)]
    exact (add_comm (G := EReal) _ _).trans (zero_add _).symm

/-- The claim, from a run of the kernel that ends with every device's result at `outSpec` of the devices' slabs and its
    slab unchanged: the reference's result is the sum of the two slabs of the whole input, every device's slab is its
    block of that input, so (`join`) every device's result is its block of the reference's. -/
theorem algebraic_of
    (hrun : ∀ (m : (ℓ : Loc Cert.KernelIdeal.nD Cert.KernelIdeal.τ Cert.KernelIdeal.sig) → Buf (Elt Ideal) ℓ) (g : Dev Cert.KernelIdeal.nD → PrngReg),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
        r.2.mem ((c.tc : Thread Cert.KernelIdeal.nD Cert.KernelIdeal.τ).loc Cert.KernelIdeal.main_v1) = Cert.RS.outSpec (fun d : Dev Cert.KernelIdeal.nD => m ((d.tc : Thread Cert.KernelIdeal.nD Cert.KernelIdeal.τ).loc Cert.KernelIdeal.main_arg0)) c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))) :
    Cert.algebraic_KernelIdeal_ReferenceIdeal (hKernelIdeal := Cert.KernelIdeal.Gen.facts) (hReferenceIdeal := Cert.ReferenceIdeal.Gen.facts) (hPre_finite_inputs_Kernel := Cert.Pre_finite_inputs_Kernel.Gen.facts) := by
  intro m g m' g' _ hagree
  refine ⟨Cert.ReferenceIdeal.Read.val_main_v0 (F := Ideal)
    (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono
      (fun _ h c => ⟨(h c).1.trans (join _ _ (fun d => hagree d) c), (h c).2⟩) (hrun m g)
  · exact (θ_run (Cert.ReferenceIdeal.defs (F := Ideal)) _ _).mono
      (fun _ h => ⟨(h 0).1.trans (Cert.ReferenceIdeal.Read.val_main_v0_eq _), (h 0).2⟩)
      (Cert.ReferenceIdeal.Value.run (F := Ideal) m' g')

/-- info: 'Cert.RS.Ref.algebraic_of' depends on axioms: [propext, Classical.choice, Quot.sound] -/
#guard_msgs in #print axioms algebraic_of

end Cert.RS.Ref

end
-- ==== Proof.lean ====
/-
  The claim: on the 2 × 2 × 2 mesh each device ends with the sum of the two slabs on its column half.

  Every device sends the other column half of its slab towards the devices that need it — directly across the middle
  mesh axis, and forwarded once or twice across the outer and the inner axis — and adds what it receives, block by
  block, to its own column half.  The protocol (who waits for whom, and what each arrival hands over) is laid out in
  Proof/Proto.lean; the body's steps and phases in the modules it is imported by; the launch in Proof/Launch.lean.
  The word-level program and the idealized one are the same text read at two instances, and so are their proofs.
  The reference sums the two slabs; addition on the extended reals is commutative, and nothing else is needed.
-/
import proofs.«901025_g7700000000001026_dist_rs_v7x_xyz2x2x2_y_m2048_n512_f32_1_alg».proof.Defs
import proofs.«901025_g7700000000001026_dist_rs_v7x_xyz2x2x2_y_m2048_n512_f32_1_alg».proof.Proof.Gen.Kernel
import proofs.«901025_g7700000000001026_dist_rs_v7x_xyz2x2x2_y_m2048_n512_f32_1_alg».proof.Proof.Gen.Kernel.Skeleton
import proofs.«901025_g7700000000001026_dist_rs_v7x_xyz2x2x2_y_m2048_n512_f32_1_alg».proof.Proof.Gen.Kernel.Launch
import proofs.«901025_g7700000000001026_dist_rs_v7x_xyz2x2x2_y_m2048_n512_f32_1_alg».proof.Proof.Gen.Kernel.Points
import proofs.«901025_g7700000000001026_dist_rs_v7x_xyz2x2x2_y_m2048_n512_f32_1_alg».proof.Proof.Gen.Kernel.Frame
import proofs.«901025_g7700000000001026_dist_rs_v7x_xyz2x2x2_y_m2048_n512_f32_1_alg».proof.Proof.Gen.KernelIdeal
import proofs.«901025_g7700000000001026_dist_rs_v7x_xyz2x2x2_y_m2048_n512_f32_1_alg».proof.Proof.Gen.KernelIdeal.Skeleton
import proofs.«901025_g7700000000001026_dist_rs_v7x_xyz2x2x2_y_m2048_n512_f32_1_alg».proof.Proof.Gen.KernelIdeal.Launch
import proofs.«901025_g7700000000001026_dist_rs_v7x_xyz2x2x2_y_m2048_n512_f32_1_alg».proof.Proof.Gen.KernelIdeal.Points
import proofs.«901025_g7700000000001026_dist_rs_v7x_xyz2x2x2_y_m2048_n512_f32_1_alg».proof.Proof.Gen.KernelIdeal.Frame
import proofs.«901025_g7700000000001026_dist_rs_v7x_xyz2x2x2_y_m2048_n512_f32_1_alg».proof.Proof.Gen.ReferenceIdeal
import proofs.«901025_g7700000000001026_dist_rs_v7x_xyz2x2x2_y_m2048_n512_f32_1_alg».proof.Proof.Gen.Pre_finite_inputs_Kernel
import proofs.«901025_g7700000000001026_dist_rs_v7x_xyz2x2x2_y_m2048_n512_f32_1_alg».proof.Proof.Gen.Pre_finite_inputs_ReferenceIdeal
import proofs.«901025_g7700000000001026_dist_rs_v7x_xyz2x2x2_y_m2048_n512_f32_1_alg».proof.Proof.Run
import proofs.«901025_g7700000000001026_dist_rs_v7x_xyz2x2x2_y_m2048_n512_f32_1_alg».proof.Proof.KRun
import proofs.«901025_g7700000000001026_dist_rs_v7x_xyz2x2x2_y_m2048_n512_f32_1_alg».proof.Proof.RefSide
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs_Kernel := Cert.Pre_finite_inputs_Kernel.Gen.facts) :=
  fun m g _ => (θ_run _ _ _).mono (fun _ h c => (h c).2) (Cert.Kernel.Run.run_val (F := Bits) m g)

theorem frame_ki : Cert.frame_KernelIdeal (hKernelIdeal := Cert.KernelIdeal.Gen.facts) (hPre_finite_inputs_Kernel := Cert.Pre_finite_inputs_Kernel.Gen.facts) :=
  fun m g _ => (θ_run _ _ _).mono (fun _ h c => (h c).2) (Cert.KernelIdeal.Run.run_val (F := Ideal) m g)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.RS.Ref.frame_ri, trivial,
  Cert.RS.Ref.algebraic_of (fun m g => Cert.KernelIdeal.Run.run_val (F := Ideal) m g)⟩

end Cert.Proof

end
